-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S200000x32 : Shape := ⟨2, ![200000, 32]⟩
abbrev S64x128 : Shape := ⟨2, ![64, 128]⟩
abbrev S128 : Shape := ⟨1, ![128]⟩
abbrev S128x128 : Shape := ⟨2, ![128, 128]⟩
abbrev S32x128 : Shape := ⟨2, ![32, 128]⟩
abbrev S256x1 : Shape := ⟨2, ![256, 1]⟩
abbrev S1 : Shape := ⟨1, ![1]⟩
abbrev S2x1600000 : Shape := ⟨2, ![2, 1600000]⟩
abbrev S200000 : Shape := ⟨1, ![200000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S200000x32 : S_.BroadcastsInDim S200000x32 (![] : Fin 0 → Fin S200000x32.rank)
  reducesTo_S200000x32_S_d0_1 : S200000x32.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S32x128 : S_.BroadcastsInDim S32x128 (![] : Fin 0 → Fin S32x128.rank)
  reducesTo_S32x128_S_d0_1 : S32x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S256x1 .f32) (main_arg15 : FVec F S1 .f32) (main_v63 : IVec S_ 1) (main_v67 : IVec S_ 1) : IVec S_ 1 :=
  let main_v68 : IVec S_ 1 := andi main_v63 main_v67
  let main_v69 : FVec F S256x1 .f32 := Host.absf main_arg14
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S128 .f32) (main_arg12 : FVec F S128 .f32) (main_arg13 : FVec F S128 .f32) (main_arg14 : FVec F S256x1 .f32) (main_arg15 : FVec F S1 .f32) (main_v48 : IVec S_ 1) (main_v49 : FVec F S32x128 .f32) (main_v50 : FVec F S32x128 .f32) : IVec S_ 1 :=
  let main_v51 : IVec S32x128 1 := cmpf .olt main_v49 main_v50
  let main_c_19 : IVec S_ 1 := constantI S_ 1 1#1
  let main_v52 : IVec S_ 1 := (fun x v => Host.reduce IntOp.andi x v reducesTo_S32x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128 .f32) (main_arg8 : FVec F S128 .f32) (main_arg9 : FVec F S128 .f32) (main_arg10 : FVec F S32x128 .f32) (main_arg11 : FVec F S128 .f32) (main_arg12 : FVec F S128 .f32) (main_arg13 : FVec F S128 .f32) (main_arg14 : FVec F S256x1 .f32) (main_arg15 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S32x128 .f32 := Host.absf main_arg10
  let main_cst_18 : FVec F S_ .f32 := constant S_ .f32 0x7F800000#32
  let main_v50 : FVec F S32x128 .f32 := broadcastInDim S32x128 ![] bcast_S_S32x128 main_cst_18
  fn_part3 (F := F) main_arg11 main_arg12 main_arg13 main_arg14 main_arg15 main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S32x128 .f32) (main_arg11 : FVec F S128 .f32) (main_arg12 : FVec F S128 .f32) (main_arg13 : FVec F S128 .f32) (main_arg14 : FVec F S256x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S200000x64 .f32) (main_arg1 : FVec F S200000x32 .f32) (main_arg2 : FVec F S64x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S32x128 .f32) (main_arg11 : FVec F S128 .f32) (main_arg12 : FVec F S128 .f32) (main_arg13 : FVec F S128 .f32) (main_arg14 : FVec F S256x1 .f32) (main_arg15 : FVec F S1 .f32) (main_arg16 : IVec S2x1600000 32) (main_arg17 : IVec S200000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S200000x32 .f32 := Host.absf main_arg1
  let main_cst_0 : FVec F S_ .f32 := constant S_ .f32 0x7F800000#32
  let main_v5 : FVec F S200000x32 .f32 := broadcastInDim S200000x32 ![] bcast_S_S200000x32 main_cst_0
  let main_v6 : IVec S200000x32 1 := cmpf .olt main_v4 main_v5
  let main_c_1 : IVec S_ 1 := constantI S_ 1 1#1
  let main_v7 : IVec S_ 1 := (fun x v => Host.reduce IntOp.andi x v reducesTo_S200000x32_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S200000x64 : Shape := ⟨2, ![200000, 64]⟩
abbrev S200000x32 : Shape := ⟨2, ![200000, 32]⟩
abbrev S64x128 : Shape := ⟨2, ![64, 128]⟩
abbrev S128 : Shape := ⟨1, ![128]⟩
abbrev S128x128 : Shape := ⟨2, ![128, 128]⟩
abbrev S32x128 : Shape := ⟨2, ![32, 128]⟩
abbrev S256x1 : Shape := ⟨2, ![256, 1]⟩
abbrev S1 : Shape := ⟨1, ![1]⟩
abbrev S2x1600000 : Shape := ⟨2, ![2, 1600000]⟩
abbrev S200000 : Shape := ⟨1, ![200000]⟩
abbrev S1x1600000 : Shape := ⟨2, ![1, 1600000]⟩
abbrev S1600000 : Shape := ⟨1, ![1600000]⟩
abbrev S1800000 : Shape := ⟨1, ![1800000]⟩
abbrev S_ : Shape := ⟨0, ![]⟩
abbrev S1800000x1 : Shape := ⟨2, ![1800000, 1]⟩
abbrev S200000x128 : Shape := ⟨2, ![200000, 128]⟩
abbrev S5000x64 : Shape := ⟨2, ![5000, 64]⟩
abbrev S5000x128 : Shape := ⟨2, ![5000, 128]⟩
abbrev S1800000x128 : Shape := ⟨2, ![1800000, 128]⟩
abbrev S1x128 : Shape := ⟨2, ![1, 128]⟩
abbrev S5000x32 : Shape := ⟨2, ![5000, 32]⟩
abbrev S200000x1 : Shape := ⟨2, ![200000, 1]⟩
abbrev S1000x256 : Shape := ⟨2, ![1000, 256]⟩
abbrev S5000x1 : Shape := ⟨2, ![5000, 1]⟩
abbrev S5000x1000 : Shape := ⟨2, ![5000, 1000]⟩
abbrev S5000x256 : Shape := ⟨2, ![5000, 256]⟩
abbrev S1000 : Shape := ⟨1, ![1000]⟩
abbrev S1000x1 : Shape := ⟨2, ![1000, 1]⟩
abbrev S1x1 : Shape := ⟨2, ![1, 1]⟩

abbrev nBuf : Space → Nat
  | .hbm => 145
  | .vmem => 64
  | .smem => 0
  | _ => 0

abbrev hbmTy0_0 (i : Nat) : BufTy := match i % 128 with
  | 0 => ⟨S200000x64, .f32⟩
  | 1 => ⟨S200000x32, .f32⟩
  | 2 => ⟨S64x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S32x128, .f32⟩
  | 11 => ⟨S128, .f32⟩
  | 12 => ⟨S128, .f32⟩
  | 13 => ⟨S128, .f32⟩
  | 14 => ⟨S256x1, .f32⟩
  | 15 => ⟨S1, .f32⟩
  | 16 => ⟨S2x1600000, .i32⟩
  | 17 => ⟨S200000, .i32⟩
  | 18 => ⟨S200000, .i32⟩
  | 19 => ⟨S1x1600000, .i32⟩
  | 20 => ⟨S1600000, .i32⟩
  | 21 => ⟨S1800000, .i32⟩
  | 22 => ⟨S1x1600000, .i32⟩
  | 23 => ⟨S1600000, .i32⟩
  | 24 => ⟨S1800000, .i32⟩
  | 25 => ⟨S_, .f32⟩
  | 26 => ⟨S1800000, .f32⟩
  | 27 => ⟨S_, .f32⟩
  | 28 => ⟨S200000, .f32⟩
  | 29 => ⟨S1800000x1, .i32⟩
  | 30 => ⟨S200000, .f32⟩
  | 31 => ⟨S200000, .f32⟩
  | 32 => ⟨S_, .i32⟩
  | 33 => ⟨S1800000, .i32⟩
  | 34 => ⟨S1800000, .i1⟩
  | 35 => ⟨S_, .i32⟩
  | 36 => ⟨S1800000, .i32⟩
  | 37 => ⟨S1800000, .i32⟩
  | 38 => ⟨S1800000, .i32⟩
  | 39 => ⟨S1800000x1, .i32⟩
  | 40 => ⟨S1800000, .f32⟩
  | 41 => ⟨S_, .i32⟩
  | 42 => ⟨S1800000, .i32⟩
  | 43 => ⟨S1800000, .i1⟩
  | 44 => ⟨S_, .i32⟩
  | 45 => ⟨S1800000, .i32⟩
  | 46 => ⟨S1800000, .i32⟩
  | 47 => ⟨S1800000, .i32⟩
  | 48 => ⟨S1800000x1, .i32⟩
  | 49 => ⟨S1800000, .f32⟩
  | 50 => ⟨S1800000, .f32⟩
  | 51 => ⟨S200000x128, .f32⟩
  | 52 => ⟨S_, .i32⟩
  | 53 => ⟨S1800000, .i32⟩
  | 54 => ⟨S1800000, .i1⟩
  | 55 => ⟨S_, .i32⟩
  | 56 => ⟨S1800000, .i32⟩
  | 57 => ⟨S1800000, .i32⟩
  | 58 => ⟨S1800000, .i32⟩
  | 59 => ⟨S1800000x1, .i32⟩
  | 60 => ⟨S1800000x128, .f32⟩
  | 61 => ⟨S1800000x1, .f32⟩
  | 62 => ⟨S1800000x128, .f32⟩
  | 63 => ⟨S1800000x128, .f32⟩
  | 64 => ⟨S_, .f32⟩
  | 65 => ⟨S200000x128, .f32⟩
  | 66 => ⟨S1800000x1, .i32⟩
  | 67 => ⟨S200000x128, .f32⟩
  | 68 => ⟨S1x128, .f32⟩
  | 69 => ⟨S200000x128, .f32⟩
  | 70 => ⟨S1x128, .f32⟩
  | 71 => ⟨S1x128, .f32⟩
  | 72 => ⟨S128, .f32⟩
  | 73 => ⟨S_, .f32⟩
  | 74 => ⟨S128, .f32⟩
  | 75 => ⟨S128, .f32⟩
  | 76 => ⟨S128, .f32⟩
  | 77 => ⟨S_, .f32⟩
  | 78 => ⟨S128, .f32⟩
  | 79 => ⟨S128, .f32⟩
  | 80 => ⟨S128, .f32⟩
  | 81 => ⟨S128, .f32⟩
  | 82 => ⟨S_, .f32⟩
  | 83 => ⟨S128, .f32⟩
  | 84 => ⟨S128, .f32⟩
  | 85 => ⟨S1x128, .f32⟩
  | 86 => ⟨S1x128, .f32⟩
  | 87 => ⟨S1x128, .f32⟩
  | 88 => ⟨S1x128, .f32⟩
  | 89 => ⟨S200000x128, .f32⟩
  | 90 => ⟨S1x128, .f32⟩
  | 91 => ⟨S200000x128, .f32⟩
  | 92 => ⟨S1x128, .f32⟩
  | 93 => ⟨S1x128, .f32⟩
  | 94 => ⟨S128, .f32⟩
  | 95 => ⟨S_, .f32⟩
  | 96 => ⟨S128, .f32⟩
  | 97 => ⟨S128, .f32⟩
  | 98 => ⟨S128, .f32⟩
  | 99 => ⟨S_, .f32⟩
  | 100 => ⟨S128, .f32⟩
  | 101 => ⟨S128, .f32⟩
  | 102 => ⟨S128, .f32⟩
  | 103 => ⟨S128, .f32⟩
  | 104 => ⟨S_, .f32⟩
  | 105 => ⟨S128, .f32⟩
  | 106 => ⟨S128, .f32⟩
  | 107 => ⟨S1x128, .f32⟩
  | 108 => ⟨S1x128, .f32⟩
  | 109 => ⟨S1x128, .f32⟩
  | 110 => ⟨S1x128, .f32⟩
  | 111 => ⟨S200000x128, .f32⟩
  | 112 => ⟨S1x128, .f32⟩
  | 113 => ⟨S200000x128, .f32⟩
  | 114 => ⟨S1x128, .f32⟩
  | 115 => ⟨S1x128, .f32⟩
  | 116 => ⟨S128, .f32⟩
  | 117 => ⟨S_, .f32⟩
  | 118 => ⟨S128, .f32⟩
  | 119 => ⟨S128, .f32⟩
  | 120 => ⟨S128, .f32⟩
  | 121 => ⟨S_, .f32⟩
  | 122 => ⟨S128, .f32⟩
  | 123 => ⟨S128, .f32⟩
  | 124 => ⟨S128, .f32⟩
  | 125 => ⟨S128, .f32⟩
  | 126 => ⟨S_, .f32⟩
  | 127 => ⟨S128, .f32⟩
  | _ => ⟨S200000x64, .f32⟩

abbrev hbmTy0_1 (i : Nat) : BufTy := match i % 128 with
  | 0 => ⟨S128, .f32⟩
  | 1 => ⟨S1x128, .f32⟩
  | 2 => ⟨S1x128, .f32⟩
  | 3 => ⟨S1x128, .f32⟩
  | 4 => ⟨S1x128, .f32⟩
  | 5 => ⟨S200000x128, .f32⟩
  | 6 => ⟨S200000x1, .i32⟩
  | 7 => ⟨S1000x256, .f32⟩
  | 8 => ⟨S_, .f32⟩
  | 9 => ⟨S200000, .f32⟩
  | 10 => ⟨S_, .f32⟩
  | 11 => ⟨S1000, .f32⟩
  | 12 => ⟨S200000x1, .i32⟩
  | 13 => ⟨S1000, .f32⟩
  | 14 => ⟨S1000x1, .f32⟩
  | 15 => ⟨S1x1, .f32⟩
  | 16 => ⟨S1000x1, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x32, .f32⟩
  | .local _ .vmem, ⟨37, _⟩ => ⟨S5000x32, .f32⟩
  | .local _ .vmem, ⟨38, _⟩ => ⟨S32x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x1, .i32⟩
  | .local _ .vmem, ⟨57, _⟩ => ⟨S5000x1, .i32⟩
  | .local _ .vmem, ⟨58, _⟩ => ⟨S1000x256, .f32⟩
  | .local _ .vmem, ⟨59, _⟩ => ⟨S1000x256, .f32⟩
  | .local _ .vmem, ⟨60, _⟩ => ⟨S1000x1, .f32⟩
  | .local _ .vmem, ⟨61, _⟩ => ⟨S256x1, .f32⟩
  | .local _ .vmem, ⟨62, _⟩ => ⟨S1x1, .f32⟩
  | .local _ .vmem, ⟨63, _⟩ => ⟨S1000x1, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42_0 : Ref sig .tc := ⟨.hbm, 69, rfl⟩
abbrev main_v42_1 : Ref sig .tc := ⟨.hbm, 70, rfl⟩
abbrev main_v42_2 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59_0 : Ref sig .tc := ⟨.hbm, 91, rfl⟩
abbrev main_v59_1 : Ref sig .tc := ⟨.hbm, 92, rfl⟩
abbrev main_v59_2 : Ref sig .tc := ⟨.hbm, 93, rfl⟩
abbrev main_v60 : Ref sig .tc := ⟨.hbm, 94, rfl⟩
abbrev main_cst_10 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_11 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_12 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76_0 : Ref sig .tc := ⟨.hbm, 113, rfl⟩
abbrev main_v76_1 : Ref sig .tc := ⟨.hbm, 114, rfl⟩
abbrev main_v76_2 : Ref sig .tc := ⟨.hbm, 115, rfl⟩
abbrev main_v77 : Ref sig .tc := ⟨.hbm, 116, rfl⟩
abbrev main_cst_13 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_14 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_15 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_16 : Ref sig .tc := ⟨.hbm, 136, rfl⟩
abbrev main_v94 : Ref sig .tc := ⟨.hbm, 137, rfl⟩
abbrev main_cst_17 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg5_0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc5_stg4_0 : Ref sig .tc := ⟨.vmem, 42, rfl⟩
abbrev cc5_stg5_0 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc6_stg5_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc7_stg3_0 : Ref sig .tc := ⟨.vmem, 58, rfl⟩
abbrev cc8_stg0_0 : Ref sig .tc := ⟨.vmem, 59, rfl⟩
abbrev cc8_stg1_0 : Ref sig .tc := ⟨.vmem, 60, rfl⟩
abbrev cc8_stg2_0 : Ref sig .tc := ⟨.vmem, 61, rfl⟩
abbrev cc8_stg3_0 : Ref sig .tc := ⟨.vmem, 62, rfl⟩
abbrev cc8_stg4_0 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem5_0 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc5_sem4_0 : DmaSem sig := 42
abbrev cc5_sem5_0 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem4_0 : DmaSem sig := 49
abbrev cc6_sem5_0 : DmaSem sig := 50
abbrev cc6_sem5_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc8_sem0_0 : DmaSem sig := 59
abbrev cc8_sem1_0 : DmaSem sig := 60
abbrev cc8_sem2_0 : DmaSem sig := 61
abbrev cc8_sem3_0 : DmaSem sig := 62
abbrev cc8_sem4_0 : DmaSem sig := 63

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .i32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1000x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S1000x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S1000x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S256x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1000x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S200000_S1800000_d0 : Shape.Concatenates [S1600000, S200000] S1800000 0
  slices_S2x1600000_S1x1600000_1_0 : S2x1600000.Slices ![1, 0] S1x1600000
  bcast_S_S1800000 : S_.BroadcastsInDim S1800000 (![] : Fin 0 → Fin S1800000.rank)
  bcast_S_S200000 : S_.BroadcastsInDim S200000 (![] : Fin 0 → Fin S200000.rank)
  bcast_S1800000_S1800000x1_0 : S1800000.BroadcastsInDim S1800000x1 (![0] : Fin 1 → Fin S1800000x1.rank)
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1800000x1_S1800000x128_0_1 : S1800000x1.BroadcastsInDim S1800000x128 (![0, 1] : Fin 2 → Fin S1800000x128.rank)
  bcast_S_S200000x128 : S_.BroadcastsInDim S200000x128 (![] : Fin 0 → Fin S200000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  inb_S128x128_S128x128_0_0 : ∀ a, (![0, 0] : Fin 2 → Nat) a + S128x128.size a ≤ S128x128.size a
  h_S128x128 : 0 < S128x128.numel
  inb_S5000x32_S5000x32_0_0 : ∀ a, (![0, 0] : Fin 2 → Nat) a + S5000x32.size a ≤ S5000x32.size a
  h_S5000x32 : 0 < S5000x32.numel
  inb_S32x128_S32x128_0_0 : ∀ a, (![0, 0] : Fin 2 → Nat) a + S32x128.size a ≤ S32x128.size a
  h_S32x128 : 0 < S32x128.numel
  shapeCasts_S200000_S200000x1 : S200000.ShapeCasts S200000x1
  inb_S1000x256_S1000x256_0_0 : ∀ a, (![0, 0] : Fin 2 → Nat) a + S1000x256.size a ≤ S1000x256.size a
  h_S1000x256 : 0 < S1000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x1000_d1_w32 : S5000x1000.Iotas .tc 32 [1]
  broadcasts_S5000x1_S5000x1000 : S5000x1.Broadcasts S5000x1000
  natLt_1_32 : 1 < 32
  bitsLt_bf16_f32 : FTy.bits .bf16 < FTy.bits .f32
  concatenates_S5000x128_S5000x128_S5000x256_d1 : Shape.Concatenates [S5000x128, S5000x128] S5000x256 1
  shapeCasts_S1000x256_S1000x256 : S1000x256.ShapeCasts S1000x256
  bcast_S_S1000 : S_.BroadcastsInDim S1000 (![] : Fin 0 → Fin S1000.rank)
  bcast_S200000_S200000x1_0 : S200000.BroadcastsInDim S200000x1 (![0] : Fin 1 → Fin S200000x1.rank)
  shapeCasts_S1000_S1000x1 : S1000.ShapeCasts S1000x1
  shapeCasts_S1_S1x1 : S1.ShapeCasts S1x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  scatter_S200000_S1800000x1_S1800000_n_0_0_1_wf : ScatterDims.WF S200000 S1800000x1 S1800000 [] [0] [0] 1
  gather_S200000_S1800000x1_S1800000_n_0_n_n_0_1_1_wf : GatherDims.WF S200000 S1800000x1 S1800000 [] [0] [] [0] [] 1 ![1]
  dot_S5000x64_S64x128_S5000x128_1_0_0_1_n_n_wf : DotDims.WF S5000x64 S64x128 S5000x128 [1] [0] [0] [1] [] []
  gather_S200000x128_S1800000x1_S1800000x128_1_0_n_n_0_1_1128_wf : GatherDims.WF S200000x128 S1800000x1 S1800000x128 [1] [0] [] [0] [] 1 ![1, 128]
  scatter_S200000x128_S1800000x1_S1800000x128_1_0_0_1_wf : ScatterDims.WF S200000x128 S1800000x1 S1800000x128 [1] [0] [0] 1
  dot_S5000x128_S128x128_S5000x128_1_0_0_1_n_n_wf : DotDims.WF S5000x128 S128x128 S5000x128 [1] [0] [0] [1] [] []
  dot_S5000x32_S32x128_S5000x128_1_0_0_1_n_n_wf : DotDims.WF S5000x32 S32x128 S5000x128 [1] [0] [0] [1] [] []
  dot_S5000x1000_S5000x256_S1000x256_0_0_1_1_n_n_wf : DotDims.WF S5000x1000 S5000x256 S1000x256 [0] [0] [1] [1] [] []
  scatter_S1000_S200000x1_S200000_n_0_0_1_wf : ScatterDims.WF S1000 S200000x1 S200000 [] [0] [0] 1
  dot_S1000x256_S256x1_S1000x1_1_0_0_1_n_n_wf : DotDims.WF S1000x256 S256x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S200000x64.size a
  hwx0_0 : ∀ i : grid0.Coords, EltTy.bits .f32 = 32 ∨ (Rect.block (s := S200000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S200000x128.size a
  hwx0_2 : ∀ i : grid0.Coords, EltTy.bits .f32 = 32 ∨ (Rect.block (s := S200000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .f32 = 32 ∨ (Rect.block (s := S200000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S200000x128.size a
  hwx1_2 : ∀ i : grid1.Coords, EltTy.bits .f32 = 32 ∨ (Rect.block (s := S200000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S200000x128.size a
  hwx2_5 : ∀ i : grid2.Coords, EltTy.bits .f32 = 32 ∨ (Rect.block (s := S200000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S200000x128.size a
  hwx3_0 : ∀ i : grid3.Coords, EltTy.bits .f32 = 32 ∨ (Rect.block (s := S200000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S200000x128.size a
  hwx3_3 : ∀ i : grid3.Coords, EltTy.bits .f32 = 32 ∨ (Rect.block (s := S200000x128) S5000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S200000x128.size a
  hwx4_0 : ∀ i : grid4.Coords, EltTy.bits .f32 = 32 ∨ (Rect.block (s := S200000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S200000x128.size a
  hwx4_5 : ∀ i : grid4.Coords, EltTy.bits .f32 = 32 ∨ (Rect.block (s := S200000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S200000x32.size a
  hwx5_0 : ∀ i : grid5.Coords, EltTy.bits .f32 = 32 ∨ (Rect.block (s := S200000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x128.size a ≤ S32x128.size a
  hwx5_1 : ∀ i : grid5.Coords, EltTy.bits .f32 = 32 ∨ (Rect.block (s := S32x128) S32x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S200000x128.size a
  hwx5_3 : ∀ i : grid5.Coords, EltTy.bits .f32 = 32 ∨ (Rect.block (s := S200000x128) S5000x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S200000x128.size a
  hwx6_0 : ∀ i : grid6.Coords, EltTy.bits .f32 = 32 ∨ (Rect.block (s := S200000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S200000x128.size a
  hwx6_5 : ∀ i : grid6.Coords, EltTy.bits .f32 = 32 ∨ (Rect.block (s := S200000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S200000x128.size a
  hwx7_0 : ∀ i : grid7.Coords, EltTy.bits .f32 = 32 ∨ (Rect.block (s := S200000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S200000x128.size a
  hwx7_1 : ∀ i : grid7.Coords, EltTy.bits .f32 = 32 ∨ (Rect.block (s := S200000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S200000x1.size a
  hwx7_2 : ∀ i : grid7.Coords, EltTy.bits .i32 = 32 ∨ (Rect.block (s := S200000x1) S5000x1.size (cc7_transform_2 i) (hinb7_2 i)).WholeWords (EltTy.packing .i32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1000x256.size a ≤ S1000x256.size a
  hwx7_3 : ∀ i : grid7.Coords, EltTy.bits .f32 = 32 ∨ (Rect.block (s := S1000x256) S1000x256.size (cc7_transform_3 i) (hinb7_3 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S1000x256.size a ≤ S1000x256.size a
  hwx8_0 : ∀ i : grid8.Coords, EltTy.bits .f32 = 32 ∨ (Rect.block (s := S1000x256) S1000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1000x1.size a ≤ S1000x1.size a
  hwx8_1 : ∀ i : grid8.Coords, EltTy.bits .f32 = 32 ∨ (Rect.block (s := S1000x1) S1000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x1.size a ≤ S256x1.size a
  hwx8_2 : ∀ i : grid8.Coords, EltTy.bits .f32 = 32 ∨ (Rect.block (s := S256x1) S256x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x1.size a ≤ S1x1.size a
  hwx8_3 : ∀ i : grid8.Coords, EltTy.bits .f32 = 32 ∨ (Rect.block (s := S1x1) S1x1.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1000x1.size a ≤ S1000x1.size a
  hwx8_4 : ∀ i : grid8.Coords, EltTy.bits .f32 = 32 ∨ (Rect.block (s := S1000x1) S1000x1.size (cc8_transform_4 i) (hinb8_4 i)).WholeWords (EltTy.packing .f32)

variable [Facts₀]

def scatter_S200000_S1800000x1_S1800000_n_0_0_1 : ScatterDims S200000 S1800000x1 S1800000 where
  updateWindowDims := []
  insertedWindowDims := [0]
  scatterDimsToOperandDims := [0]
  indexVectorDim := 1
  wf := scatter_S200000_S1800000x1_S1800000_n_0_0_1_wf
def gather_S200000_S1800000x1_S1800000_n_0_n_n_0_1_1 : GatherDims S200000 S1800000x1 S1800000 where
  offsetDims := []
  collapsedSliceDims := [0]
  operandBatchingDims := []
  startIndicesBatchingDims := []
  startIndexMap := [0]
  indexVectorDim := 1
  sliceSizes := ![1]
  wf := gather_S200000_S1800000x1_S1800000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S200000x128_S1800000x1_S1800000x128_1_0_n_n_0_1_1128 : GatherDims S200000x128 S1800000x1 S1800000x128 where
  offsetDims := [1]
  collapsedSliceDims := [0]
  operandBatchingDims := []
  startIndicesBatchingDims := []
  startIndexMap := [0]
  indexVectorDim := 1
  sliceSizes := ![1, 128]
  wf := gather_S200000x128_S1800000x1_S1800000x128_1_0_n_n_0_1_1128_wf
def scatter_S200000x128_S1800000x1_S1800000x128_1_0_0_1 : ScatterDims S200000x128 S1800000x1 S1800000x128 where
  updateWindowDims := [1]
  insertedWindowDims := [0]
  scatterDimsToOperandDims := [0]
  indexVectorDim := 1
  wf := scatter_S200000x128_S1800000x1_S1800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x1000_S5000x256_S1000x256_0_0_1_1_n_n : DotDims S5000x1000 S5000x256 S1000x256 where
  lhsContracting := [0]
  rhsContracting := [0]
  lhsNonContracting := [1]
  rhsNonContracting := [1]
  lhsBatch := []
  rhsBatch := []
  wf := dot_S5000x1000_S5000x256_S1000x256_0_0_1_1_n_n_wf
def scatter_S1000_S200000x1_S200000_n_0_0_1 : ScatterDims S1000 S200000x1 S200000 where
  updateWindowDims := []
  insertedWindowDims := [0]
  scatterDimsToOperandDims := [0]
  indexVectorDim := 1
  wf := scatter_S1000_S200000x1_S200000_n_0_0_1_wf
def dot_S1000x256_S256x1_S1000x1_1_0_0_1_n_n : DotDims S1000x256 S256x1 S1000x1 where
  lhsContracting := [1]
  rhsContracting := [0]
  lhsNonContracting := [0]
  rhsNonContracting := [1]
  lhsBatch := []
  rhsBatch := []
  wf := dot_S1000x256_S256x1_S1000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v59_1) S1x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59_2) S1x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v59_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v74) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_arg1) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S32x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76_0) S5000x128.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v76_1) S1x128.size cc5_transform_4 reads5_4 true true 1 stage5_4 sem5_4
    hrank5 hreads5_4 hinb5_4 nbuf5_4 (Memref.isWhole_whole _) hwx5_4 hstage5_4

abbrev win5_5 : Pipeline.Window sig grid5 :=
  Pipeline.Window.ofSpec (Memref.whole main_v76_2) S1x128.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v76_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v89) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v90) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v91) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v74) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v91) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v92) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v93) S1000x256.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v93) S1000x256.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v98) S1000x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg14) S256x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v99) S1x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v100) S1000x1.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S200000x64 : Shape := ⟨2, ![200000, 64]⟩
abbrev S200000x32 : Shape := ⟨2, ![200000, 32]⟩
abbrev S64x128 : Shape := ⟨2, ![64, 128]⟩
abbrev S128 : Shape := ⟨1, ![128]⟩
abbrev S128x128 : Shape := ⟨2, ![128, 128]⟩
abbrev S32x128 : Shape := ⟨2, ![32, 128]⟩
abbrev S256x1 : Shape := ⟨2, ![256, 1]⟩
abbrev S1 : Shape := ⟨1, ![1]⟩
abbrev S2x1600000 : Shape := ⟨2, ![2, 1600000]⟩
abbrev S200000 : Shape := ⟨1, ![200000]⟩
abbrev S1x1600000 : Shape := ⟨2, ![1, 1600000]⟩
abbrev S1600000 : Shape := ⟨1, ![1600000]⟩
abbrev S1800000 : Shape := ⟨1, ![1800000]⟩
abbrev S_ : Shape := ⟨0, ![]⟩
abbrev S1800000x1 : Shape := ⟨2, ![1800000, 1]⟩
abbrev S200000x128 : Shape := ⟨2, ![200000, 128]⟩
abbrev S1800000x128 : Shape := ⟨2, ![1800000, 128]⟩
abbrev S1x128 : Shape := ⟨2, ![1, 128]⟩
abbrev S200000x256 : Shape := ⟨2, ![200000, 256]⟩
abbrev S1000x256 : Shape := ⟨2, ![1000, 256]⟩
abbrev S200000x1 : Shape := ⟨2, ![200000, 1]⟩
abbrev S1000 : Shape := ⟨1, ![1000]⟩
abbrev S1000x1 : Shape := ⟨2, ![1000, 1]⟩
abbrev S1x1 : Shape := ⟨2, ![1, 1]⟩

abbrev nBuf : Space → Nat
  | .hbm => 241
  | .vmem => 0
  | .smem => 0
  | _ => 0

abbrev hbmTy0_0 (i : Nat) : BufTy := match i % 128 with
  | 0 => ⟨S200000x64, .f32⟩
  | 1 => ⟨S200000x32, .f32⟩
  | 2 => ⟨S64x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S32x128, .f32⟩
  | 11 => ⟨S128, .f32⟩
  | 12 => ⟨S128, .f32⟩
  | 13 => ⟨S128, .f32⟩
  | 14 => ⟨S256x1, .f32⟩
  | 15 => ⟨S1, .f32⟩
  | 16 => ⟨S2x1600000, .i32⟩
  | 17 => ⟨S200000, .i32⟩
  | 18 => ⟨S200000, .i32⟩
  | 19 => ⟨S1x1600000, .i32⟩
  | 20 => ⟨S1600000, .i32⟩
  | 21 => ⟨S1800000, .i32⟩
  | 22 => ⟨S1x1600000, .i32⟩
  | 23 => ⟨S1600000, .i32⟩
  | 24 => ⟨S1800000, .i32⟩
  | 25 => ⟨S_, .f32⟩
  | 26 => ⟨S1800000, .f32⟩
  | 27 => ⟨S_, .f32⟩
  | 28 => ⟨S200000, .f32⟩
  | 29 => ⟨S1800000x1, .i32⟩
  | 30 => ⟨S200000, .f32⟩
  | 31 => ⟨S200000, .f32⟩
  | 32 => ⟨S_, .i32⟩
  | 33 => ⟨S1800000, .i32⟩
  | 34 => ⟨S1800000, .i1⟩
  | 35 => ⟨S_, .i32⟩
  | 36 => ⟨S1800000, .i32⟩
  | 37 => ⟨S1800000, .i32⟩
  | 38 => ⟨S1800000, .i32⟩
  | 39 => ⟨S1800000x1, .i32⟩
  | 40 => ⟨S1800000, .f32⟩
  | 41 => ⟨S_, .i32⟩
  | 42 => ⟨S1800000, .i32⟩
  | 43 => ⟨S1800000, .i1⟩
  | 44 => ⟨S_, .i32⟩
  | 45 => ⟨S1800000, .i32⟩
  | 46 => ⟨S1800000, .i32⟩
  | 47 => ⟨S1800000, .i32⟩
  | 48 => ⟨S1800000x1, .i32⟩
  | 49 => ⟨S1800000, .f32⟩
  | 50 => ⟨S1800000, .f32⟩
  | 51 => ⟨S200000x128, .f32⟩
  | 52 => ⟨S_, .i32⟩
  | 53 => ⟨S1800000, .i32⟩
  | 54 => ⟨S1800000, .i1⟩
  | 55 => ⟨S_, .i32⟩
  | 56 => ⟨S1800000, .i32⟩
  | 57 => ⟨S1800000, .i32⟩
  | 58 => ⟨S1800000, .i32⟩
  | 59 => ⟨S1800000x1, .i32⟩
  | 60 => ⟨S1800000x128, .f32⟩
  | 61 => ⟨S1800000x1, .f32⟩
  | 62 => ⟨S1800000x128, .f32⟩
  | 63 => ⟨S1800000x128, .f32⟩
  | 64 => ⟨S_, .f32⟩
  | 65 => ⟨S200000x128, .f32⟩
  | 66 => ⟨S1800000x1, .i32⟩
  | 67 => ⟨S200000x128, .f32⟩
  | 68 => ⟨S1x128, .f32⟩
  | 69 => ⟨S200000x128, .f32⟩
  | 70 => ⟨S200000x128, .f32⟩
  | 71 => ⟨S_, .f32⟩
  | 72 => ⟨S200000x128, .f32⟩
  | 73 => ⟨S200000x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S200000x128, .f32⟩
  | 87 => ⟨S200000x128, .f32⟩
  | 88 => ⟨S200000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S200000x128, .f32⟩
  | 104 => ⟨S200000x128, .f32⟩
  | 105 => ⟨S_, .f32⟩
  | 106 => ⟨S128, .f32⟩
  | 107 => ⟨S128, .f32⟩
  | 108 => ⟨S128, .f32⟩
  | 109 => ⟨S1x128, .f32⟩
  | 110 => ⟨S200000x128, .f32⟩
  | 111 => ⟨S200000x128, .f32⟩
  | 112 => ⟨S1x128, .f32⟩
  | 113 => ⟨S200000x128, .f32⟩
  | 114 => ⟨S200000x128, .f32⟩
  | 115 => ⟨S1x128, .f32⟩
  | 116 => ⟨S200000x128, .f32⟩
  | 117 => ⟨S200000x128, .f32⟩
  | 118 => ⟨S200000x128, .f32⟩
  | 119 => ⟨S1x128, .f32⟩
  | 120 => ⟨S200000x128, .f32⟩
  | 121 => ⟨S200000x128, .f32⟩
  | 122 => ⟨S_, .f32⟩
  | 123 => ⟨S200000x128, .f32⟩
  | 124 => ⟨S200000x128, .f32⟩
  | 125 => ⟨S_, .f32⟩
  | 126 => ⟨S128, .f32⟩
  | 127 => ⟨S_, .f32⟩
  | _ => ⟨S200000x64, .f32⟩

abbrev hbmTy0_1 (i : Nat) : BufTy := match i % 128 with
  | 0 => ⟨S128, .f32⟩
  | 1 => ⟨S128, .f32⟩
  | 2 => ⟨S_, .i32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S200000x128, .f32⟩
  | 10 => ⟨S200000x128, .f32⟩
  | 11 => ⟨S200000x128, .f32⟩
  | 12 => ⟨S_, .f32⟩
  | 13 => ⟨S_, .f32⟩
  | 14 => ⟨S_, .f32⟩
  | 15 => ⟨S_, .f32⟩
  | 16 => ⟨S128, .f32⟩
  | 17 => ⟨S128, .f32⟩
  | 18 => ⟨S128, .f32⟩
  | 19 => ⟨S_, .f32⟩
  | 20 => ⟨S_, .i1⟩
  | 21 => ⟨S_, .f32⟩
  | 22 => ⟨S_, .f32⟩
  | 23 => ⟨S128, .f32⟩
  | 24 => ⟨S128, .f32⟩
  | 25 => ⟨S1x128, .f32⟩
  | 26 => ⟨S200000x128, .f32⟩
  | 27 => ⟨S200000x128, .f32⟩
  | 28 => ⟨S_, .f32⟩
  | 29 => ⟨S128, .f32⟩
  | 30 => ⟨S128, .f32⟩
  | 31 => ⟨S128, .f32⟩
  | 32 => ⟨S1x128, .f32⟩
  | 33 => ⟨S200000x128, .f32⟩
  | 34 => ⟨S200000x128, .f32⟩
  | 35 => ⟨S1x128, .f32⟩
  | 36 => ⟨S200000x128, .f32⟩
  | 37 => ⟨S200000x128, .f32⟩
  | 38 => ⟨S1x128, .f32⟩
  | 39 => ⟨S200000x128, .f32⟩
  | 40 => ⟨S200000x128, .f32⟩
  | 41 => ⟨S200000x128, .f32⟩
  | 42 => ⟨S1x128, .f32⟩
  | 43 => ⟨S200000x128, .f32⟩
  | 44 => ⟨S200000x128, .f32⟩
  | 45 => ⟨S_, .f32⟩
  | 46 => ⟨S200000x128, .f32⟩
  | 47 => ⟨S200000x128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S200000x128, .f32⟩
  | 61 => ⟨S200000x128, .f32⟩
  | 62 => ⟨S200000x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S200000x128, .f32⟩
  | 78 => ⟨S200000x128, .f32⟩
  | 79 => ⟨S_, .f32⟩
  | 80 => ⟨S128, .f32⟩
  | 81 => ⟨S128, .f32⟩
  | 82 => ⟨S128, .f32⟩
  | 83 => ⟨S1x128, .f32⟩
  | 84 => ⟨S200000x128, .f32⟩
  | 85 => ⟨S200000x128, .f32⟩
  | 86 => ⟨S1x128, .f32⟩
  | 87 => ⟨S200000x128, .f32⟩
  | 88 => ⟨S200000x128, .f32⟩
  | 89 => ⟨S1x128, .f32⟩
  | 90 => ⟨S200000x128, .f32⟩
  | 91 => ⟨S200000x128, .f32⟩
  | 92 => ⟨S200000x256, .f32⟩
  | 93 => ⟨S_, .f32⟩
  | 94 => ⟨S1000x256, .f32⟩
  | 95 => ⟨S200000x1, .i32⟩
  | 96 => ⟨S1000x256, .f32⟩
  | 97 => ⟨S_, .f32⟩
  | 98 => ⟨S200000, .f32⟩
  | 99 => ⟨S_, .f32⟩
  | 100 => ⟨S1000, .f32⟩
  | 101 => ⟨S200000x1, .i32⟩
  | 102 => ⟨S1000, .f32⟩
  | 103 => ⟨S_, .f32⟩
  | 104 => ⟨S1000, .f32⟩
  | 105 => ⟨S1000, .f32⟩
  | 106 => ⟨S1000x1, .f32⟩
  | 107 => ⟨S1000x256, .f32⟩
  | 108 => ⟨S1000x256, .f32⟩
  | 109 => ⟨S1000x1, .f32⟩
  | 110 => ⟨S1x1, .f32⟩
  | 111 => ⟨S1000x1, .f32⟩
  | 112 => ⟨S1000x1, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call0_cst : Ref sig .tc := ⟨.hbm, 71, rfl⟩
abbrev main_call0_v0 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_c_9 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_cst_3 : Ref sig .tc := ⟨.hbm, 96, rfl⟩
abbrev main_call1_v12 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst_10 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_call2_cst : Ref sig .tc := ⟨.hbm, 122, rfl⟩
abbrev main_call2_v0 : Ref sig .tc := ⟨.hbm, 123, rfl⟩
abbrev main_v68 : Ref sig .tc := ⟨.hbm, 124, rfl⟩
abbrev main_cst_11 : Ref sig .tc := ⟨.hbm, 125, rfl⟩
abbrev main_v69 : Ref sig .tc := ⟨.hbm, 126, rfl⟩
abbrev main_cst_12 : Ref sig .tc := ⟨.hbm, 127, rfl⟩
abbrev main_v70 : Ref sig .tc := ⟨.hbm, 128, rfl⟩
abbrev main_v71 : Ref sig .tc := ⟨.hbm, 129, rfl⟩
abbrev main_c_13 : Ref sig .tc := ⟨.hbm, 130, rfl⟩
abbrev main_call3_cst : Ref sig .tc := ⟨.hbm, 131, rfl⟩
abbrev main_call3_v0 : Ref sig .tc := ⟨.hbm, 132, rfl⟩
abbrev main_call3_v1 : Ref sig .tc := ⟨.hbm, 133, rfl⟩
abbrev main_call3_cst_0 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_v7 : Ref sig .tc := ⟨.hbm, 140, rfl⟩
abbrev main_call3_cst_1 : Ref sig .tc := ⟨.hbm, 141, rfl⟩
abbrev main_call3_v8 : Ref sig .tc := ⟨.hbm, 142, rfl⟩
abbrev main_call3_cst_2 : Ref sig .tc := ⟨.hbm, 143, rfl⟩
abbrev main_call3_v9 : Ref sig .tc := ⟨.hbm, 144, rfl⟩
abbrev main_call3_v10 : Ref sig .tc := ⟨.hbm, 145, rfl⟩
abbrev main_call3_v11 : Ref sig .tc := ⟨.hbm, 146, rfl⟩
abbrev main_call3_cst_3 : Ref sig .tc := ⟨.hbm, 147, rfl⟩
abbrev main_call3_v12 : Ref sig .tc := ⟨.hbm, 148, rfl⟩
abbrev main_call3_cst_4 : Ref sig .tc := ⟨.hbm, 149, rfl⟩
abbrev main_call3_call0_v0 : Ref sig .tc := ⟨.hbm, 150, rfl⟩
abbrev main_call3_call0_v1 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_cst_14 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_call4_cst : Ref sig .tc := ⟨.hbm, 173, rfl⟩
abbrev main_call4_v0 : Ref sig .tc := ⟨.hbm, 174, rfl⟩
abbrev main_v92 : Ref sig .tc := ⟨.hbm, 175, rfl⟩
abbrev main_cst_15 : Ref sig .tc := ⟨.hbm, 176, rfl⟩
abbrev main_v93 : Ref sig .tc := ⟨.hbm, 177, rfl⟩
abbrev main_cst_16 : Ref sig .tc := ⟨.hbm, 178, rfl⟩
abbrev main_v94 : Ref sig .tc := ⟨.hbm, 179, rfl⟩
abbrev main_v95 : Ref sig .tc := ⟨.hbm, 180, rfl⟩
abbrev main_c_17 : Ref sig .tc := ⟨.hbm, 181, rfl⟩
abbrev main_call5_cst : Ref sig .tc := ⟨.hbm, 182, rfl⟩
abbrev main_call5_v0 : Ref sig .tc := ⟨.hbm, 183, rfl⟩
abbrev main_call5_v1 : Ref sig .tc := ⟨.hbm, 184, rfl⟩
abbrev main_call5_cst_0 : Ref sig .tc := ⟨.hbm, 185, rfl⟩
abbrev main_call5_v2 : Ref sig .tc := ⟨.hbm, 186, rfl⟩
abbrev main_call5_v3 : Ref sig .tc := ⟨.hbm, 187, rfl⟩
abbrev main_call5_v4 : Ref sig .tc := ⟨.hbm, 188, rfl⟩
abbrev main_call5_v5 : Ref sig .tc := ⟨.hbm, 189, rfl⟩
abbrev main_call5_v6 : Ref sig .tc := ⟨.hbm, 190, rfl⟩
abbrev main_call5_v7 : Ref sig .tc := ⟨.hbm, 191, rfl⟩
abbrev main_call5_cst_1 : Ref sig .tc := ⟨.hbm, 192, rfl⟩
abbrev main_call5_v8 : Ref sig .tc := ⟨.hbm, 193, rfl⟩
abbrev main_call5_cst_2 : Ref sig .tc := ⟨.hbm, 194, rfl⟩
abbrev main_call5_v9 : Ref sig .tc := ⟨.hbm, 195, rfl⟩
abbrev main_call5_v10 : Ref sig .tc := ⟨.hbm, 196, rfl⟩
abbrev main_call5_v11 : Ref sig .tc := ⟨.hbm, 197, rfl⟩
abbrev main_call5_cst_3 : Ref sig .tc := ⟨.hbm, 198, rfl⟩
abbrev main_call5_v12 : Ref sig .tc := ⟨.hbm, 199, rfl⟩
abbrev main_call5_cst_4 : Ref sig .tc := ⟨.hbm, 200, rfl⟩
abbrev main_call5_call0_v0 : Ref sig .tc := ⟨.hbm, 201, rfl⟩
abbrev main_call5_call0_v1 : Ref sig .tc := ⟨.hbm, 202, rfl⟩
abbrev main_v96 : Ref sig .tc := ⟨.hbm, 203, rfl⟩
abbrev main_v97 : Ref sig .tc := ⟨.hbm, 204, rfl⟩
abbrev main_v98 : Ref sig .tc := ⟨.hbm, 205, rfl⟩
abbrev main_v99 : Ref sig .tc := ⟨.hbm, 206, rfl⟩
abbrev main_cst_18 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_cst_19 : Ref sig .tc := ⟨.hbm, 221, rfl⟩
abbrev main_v113 : Ref sig .tc := ⟨.hbm, 222, rfl⟩
abbrev main_v114 : Ref sig .tc := ⟨.hbm, 223, rfl⟩
abbrev main_v115 : Ref sig .tc := ⟨.hbm, 224, rfl⟩
abbrev main_cst_20 : Ref sig .tc := ⟨.hbm, 225, rfl⟩
abbrev main_v116 : Ref sig .tc := ⟨.hbm, 226, rfl⟩
abbrev main_cst_21 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_cst_22 : Ref sig .tc := ⟨.hbm, 231, rfl⟩
abbrev main_v120 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S200000_S1800000_d0 : Shape.Concatenates [S1600000, S200000] S1800000 0
  slices_S2x1600000_S1x1600000_1_0 : S2x1600000.Slices ![1, 0] S1x1600000
  bcast_S_S1800000 : S_.BroadcastsInDim S1800000 (![] : Fin 0 → Fin S1800000.rank)
  bcast_S_S200000 : S_.BroadcastsInDim S200000 (![] : Fin 0 → Fin S200000.rank)
  bcast_S1800000_S1800000x1_0 : S1800000.BroadcastsInDim S1800000x1 (![0] : Fin 1 → Fin S1800000x1.rank)
  bcast_S1800000x1_S1800000x128_0_1 : S1800000x1.BroadcastsInDim S1800000x128 (![0, 1] : Fin 2 → Fin S1800000x128.rank)
  bcast_S_S200000x128 : S_.BroadcastsInDim S200000x128 (![] : Fin 0 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  reducesTo_S200000x128_S128_d0 : S200000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  concatenates_S200000x128_S200000x128_S200000x256_d1 : Shape.Concatenates [S200000x128, S200000x128] S200000x256 1
  bcast_S_S1000x256 : S_.BroadcastsInDim S1000x256 (![] : Fin 0 → Fin S1000x256.rank)
  bcast_S200000_S200000x1_0 : S200000.BroadcastsInDim S200000x1 (![0] : Fin 1 → Fin S200000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  scatter_S200000_S1800000x1_S1800000_n_0_0_1_wf : ScatterDims.WF S200000 S1800000x1 S1800000 [] [0] [0] 1
  gather_S200000_S1800000x1_S1800000_n_0_n_n_0_1_1_wf : GatherDims.WF S200000 S1800000x1 S1800000 [] [0] [] [0] [] 1 ![1]
  dot_S200000x64_S64x128_S200000x128_1_0_0_1_n_n_wf : DotDims.WF S200000x64 S64x128 S200000x128 [1] [0] [0] [1] [] []
  gather_S200000x128_S1800000x1_S1800000x128_1_0_n_n_0_1_1128_wf : GatherDims.WF S200000x128 S1800000x1 S1800000x128 [1] [0] [] [0] [] 1 ![1, 128]
  scatter_S200000x128_S1800000x1_S1800000x128_1_0_0_1_wf : ScatterDims.WF S200000x128 S1800000x1 S1800000x128 [1] [0] [0] 1
  dot_S200000x128_S128x128_S200000x128_1_0_0_1_n_n_wf : DotDims.WF S200000x128 S128x128 S200000x128 [1] [0] [0] [1] [] []
  dot_S200000x32_S32x128_S200000x128_1_0_0_1_n_n_wf : DotDims.WF S200000x32 S32x128 S200000x128 [1] [0] [0] [1] [] []
  scatter_S1000x256_S200000x1_S200000x256_1_0_0_1_wf : ScatterDims.WF S1000x256 S200000x1 S200000x256 [1] [0] [0] 1
  scatter_S1000_S200000x1_S200000_n_0_0_1_wf : ScatterDims.WF S1000 S200000x1 S200000 [] [0] [0] 1
  dot_S1000x256_S256x1_S1000x1_1_0_0_1_n_n_wf : DotDims.WF S1000x256 S256x1 S1000x1 [1] [0] [0] [1] [] []

variable [Facts₀]

def scatter_S200000_S1800000x1_S1800000_n_0_0_1 : ScatterDims S200000 S1800000x1 S1800000 where
  updateWindowDims := []
  insertedWindowDims := [0]
  scatterDimsToOperandDims := [0]
  indexVectorDim := 1
  wf := scatter_S200000_S1800000x1_S1800000_n_0_0_1_wf
def gather_S200000_S1800000x1_S1800000_n_0_n_n_0_1_1 : GatherDims S200000 S1800000x1 S1800000 where
  offsetDims := []
  collapsedSliceDims := [0]
  operandBatchingDims := []
  startIndicesBatchingDims := []
  startIndexMap := [0]
  indexVectorDim := 1
  sliceSizes := ![1]
  wf := gather_S200000_S1800000x1_S1800000_n_0_n_n_0_1_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def gather_S200000x128_S1800000x1_S1800000x128_1_0_n_n_0_1_1128 : GatherDims S200000x128 S1800000x1 S1800000x128 where
  offsetDims := [1]
  collapsedSliceDims := [0]
  operandBatchingDims := []
  startIndicesBatchingDims := []
  startIndexMap := [0]
  indexVectorDim := 1
  sliceSizes := ![1, 128]
  wf := gather_S200000x128_S1800000x1_S1800000x128_1_0_n_n_0_1_1128_wf
def scatter_S200000x128_S1800000x1_S1800000x128_1_0_0_1 : ScatterDims S200000x128 S1800000x1 S1800000x128 where
  updateWindowDims := [1]
  insertedWindowDims := [0]
  scatterDimsToOperandDims := [0]
  indexVectorDim := 1
  wf := scatter_S200000x128_S1800000x1_S1800000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x32_S32x128_S200000x128_1_0_0_1_n_n : DotDims S200000x32 S32x128 S200000x128 where
  lhsContracting := [1]
  rhsContracting := [0]
  lhsNonContracting := [0]
  rhsNonContracting := [1]
  lhsBatch := []
  rhsBatch := []
  wf := dot_S200000x32_S32x128_S200000x128_1_0_0_1_n_n_wf
def scatter_S1000x256_S200000x1_S200000x256_1_0_0_1 : ScatterDims S1000x256 S200000x1 S200000x256 where
  updateWindowDims := [1]
  insertedWindowDims := [0]
  scatterDimsToOperandDims := [0]
  indexVectorDim := 1
  wf := scatter_S1000x256_S200000x1_S200000x256_1_0_0_1_wf
def scatter_S1000_S200000x1_S200000_n_0_0_1 : ScatterDims S1000 S200000x1 S200000 where
  updateWindowDims := []
  insertedWindowDims := [0]
  scatterDimsToOperandDims := [0]
  indexVectorDim := 1
  wf := scatter_S1000_S200000x1_S200000_n_0_0_1_wf
def dot_S1000x256_S256x1_S1000x1_1_0_0_1_n_n : DotDims S1000x256 S256x1 S1000x1 where
  lhsContracting := [1]
  rhsContracting := [0]
  lhsNonContracting := [0]
  rhsNonContracting := [1]
  lhsBatch := []
  rhsBatch := []
  wf := dot_S1000x256_S256x1_S1000x1_1_0_0_1_n_n_wf

class Facts : Prop extends Facts₀ where

variable [Facts]
-- ==== Proof.Stages.lean ====
/-
  The stage functions both programs are read against, at the ideal instance (every float an extended real).

  The network: a graph convolution (x·W aggregated over the edges with symmetric degree normalisation), three
  Linear → ReLU → BatchNorm stacks, a per-graph sum of the concatenated features, the division by the graph's
  node count and a last Linear layer.  The two programs compute it differently in four places:
    * a matrix product: row tiles on the matrix unit against one host contraction;
    * a column sum over the 200000 nodes: forty tile sums accumulated against one host sum;
    * the batch variance: E[y²] − E[y]² clamped at 0 against the mean of the squared deviations;
    * the per-graph sum: a one-hot matrix product against an accumulating scatter.
  Everything else (the edge gather and scatter, the counts, the final quotient) is the same host operation on
  both sides and is carried as one function, never opened, except for the finiteness of what it returns.
-/
import proofs.«426214_j50276887167257_1_alg».proof.ReferenceIdeal
import proofs.«426214_j50276887167257_1_alg».proof.Proof.Gen.ReferenceIdeal
import Idealize.ShloMosaic.Lib.ValueIdx

noncomputable section

namespace Cert.Stages

open Idealize.ShloMosaic Idealize.ShloMosaic.ValueIdx Cert.ReferenceIdeal Cert.ReferenceIdeal.Facts₀ Cert.ReferenceIdeal.Facts
open scoped BigOperators

/-- A float array at the ideal instance: a function from the shape's indices to the extended reals. -/
abbrev A (s : Shape) := FVec Ideal s .f32
/-- A 32-bit integer array. -/
abbrev J (s : Shape) := IVec s 32

/-! ## The kernel side's tile computations as whole-array functions, index by index -/

/-- Matrix product: entry (r, j) is the sum over l of a(r, l) · w(l, j). -/
def mm {n k h : Nat} (a : A ⟨2, ![n, k]⟩) (w : A ⟨2, ![k, h]⟩) : A ⟨2, ![n, h]⟩ :=
  fun i => ∑ l : Fin k, a (ix2 (i 0) l) * w (ix2 l (i 1))

/-- Bias (a 1×h row) added to every row, then the positive part. -/
def biasRelu {n h : Nat} (a : A ⟨2, ![n, h]⟩) (b : A ⟨2, ![1, h]⟩) : A ⟨2, ![n, h]⟩ :=
  fun i => max (a i + b (ix2 0 (i 1))) 0

/-- The column sums, as a 1×h row. -/
def colSum {n h : Nat} (y : A ⟨2, ![n, h]⟩) : A ⟨2, ![1, h]⟩ :=
  fun j => ∑ r : Fin n, y (ix2 r (j 1))

/-- The column sums of the squares, as a 1×h row. -/
def colSumSq {n h : Nat} (y : A ⟨2, ![n, h]⟩) : A ⟨2, ![1, h]⟩ :=
  fun j => ∑ r : Fin n, y (ix2 r (j 1)) * y (ix2 r (j 1))

/-- Batch normalisation applied with given per-column mean, variance, scale and shift (1×h rows):
    (y − mean) · (var + ε)^(−1/2) · g + be, ε the f32 nearest 1e-5. -/
def bnApply {n h : Nat} (y : A ⟨2, ![n, h]⟩) (mean var g be : A ⟨2, ![1, h]⟩) : A ⟨2, ![n, h]⟩ :=
  fun i => (y i - mean (ix2 0 (i 1))) * Ideal.rsqrt (var (ix2 0 (i 1)) + Ideal.ofBits .f32 0x3727C5AC#32)
             * g (ix2 0 (i 1)) + be (ix2 0 (i 1))

/-- The per-graph sums by a one-hot product: entry (b, f) is the sum over the nodes r whose graph id is the
    word b of the feature f of node r, the features being h1's 128 columns followed by h2's. -/
def pool (h1 h2 : A S200000x128) (ids : J S200000x1) : A S1000x256 :=
  fun i => ∑ r : Fin 200000,
    (if ids (ix2 r 0) = BitVec.ofNat 32 (i 0).val then (1 : EReal) else 0)
      * (if h : (i 1).val < 128 then h1 (ix2 r ⟨(i 1).val, h⟩)
         else h2 (ix2 r ⟨(i 1).val - 128, by have h1 : (i 1).val < 256 := idx2_lt1 i; omega⟩))

/-- The last layer on one tile: (sums / max(counts, 1)) · W3 + b3. -/
def final (sums : A S1000x256) (cnts : A S1000x1) (w3 : A S256x1) (b3 : A S1x1) : A S1000x1 :=
  fun i => (∑ l : Fin 256, Ideal.div (sums (ix2 (i 0) l)) (max (cnts (ix2 (i 0) 0)) (Ideal.ofBits .f32 0x3F800000#32))
              * w3 (ix2 l 0)) + b3 (ix2 0 0)

/-! ## The host operations both programs share -/

/-- A length-128 vector as a 1×128 row (the kernel side's reshapes of its parameters). -/
def row (v : A S128) : A S1x128 := shapeCast S1x128 v (by decide)
/-- A 1×128 row back as a vector. -/
def unrow (v : A S1x128) : A S128 := shapeCast S128 v (by decide)

/-- Edge sources with the self loops appended. -/
def srcOf (ei : J S2x1600000) : J S1800000 :=
  concatenate S1800000 0 [⟨S1600000, shapeCast S1600000 (extractStridedSlice S1x1600000 ![0, 0] ei slices_S2x1600000_S1x1600000_0_0) shapeCasts_S1x1600000_S1600000⟩,
    ⟨S200000, iotaInDim S200000 32 0⟩] concatenates_S1600000_S200000_S1800000_d0
/-- Edge destinations with the self loops appended. -/
def dstOf (ei : J S2x1600000) : J S1800000 :=
  concatenate S1800000 0 [⟨S1600000, shapeCast S1600000 (extractStridedSlice S1x1600000 ![1, 0] ei slices_S2x1600000_S1x1600000_1_0) shapeCasts_S1x1600000_S1600000⟩,
    ⟨S200000, iotaInDim S200000 32 0⟩] concatenates_S1600000_S200000_S1800000_d0
/-- jnp's index normalisation before a gather: a negative index has the axis length added. -/
def wrapIdx (ix : J S1800000) : J S1800000x1 :=
  broadcastInDim S1800000x1 ![0] bcast_S1800000_S1800000x1_0
    (select (cmpi .slt ix (broadcastInDim S1800000 ![] bcast_S_S1800000 (constantI S_ 32 0#32)))
      (addi ix (broadcastInDim S1800000 ![] bcast_S_S1800000 (constantI S_ 32 200000#32))) ix)
/-- The in-degree of every node, self loop included. -/
def degOf (ei : J S2x1600000) : A S200000 :=
  Host.scatterAdd scatter_S200000_S1800000x1_S1800000_n_0_0_1
    (broadcastInDim S200000 ![] bcast_S_S200000 (constant S_ .f32 0x00000000#32))
    (broadcastInDim S1800000x1 ![0] bcast_S1800000_S1800000x1_0 (dstOf ei))
    (broadcastInDim S1800000 ![] bcast_S_S1800000 (constant S_ .f32 0x3F800000#32))
/-- deg^(−1/2). -/
def dinvOf (ei : J S2x1600000) : A S200000 := Host.rsqrt (degOf ei)
/-- The edge weights dinv[src] · dinv[dst]. -/
def normOf (ei : J S2x1600000) : A S1800000 :=
  mulf (Host.gather gather_S200000_S1800000x1_S1800000_n_0_n_n_0_1_1 (dinvOf ei) (wrapIdx (srcOf ei)))
       (Host.gather gather_S200000_S1800000x1_S1800000_n_0_n_n_0_1_1 (dinvOf ei) (wrapIdx (dstOf ei)))
/-- The aggregation: the rows xw[src] scaled by the edge weight, summed into their destination rows. -/
def agg (xw : A S200000x128) (ei : J S2x1600000) : A S200000x128 :=
  Host.scatterAdd scatter_S200000x128_S1800000x1_S1800000x128_1_0_0_1
    (broadcastInDim S200000x128 ![] bcast_S_S200000x128 (constant S_ .f32 0x00000000#32))
    (broadcastInDim S1800000x1 ![0] bcast_S1800000_S1800000x1_0 (dstOf ei))
    (mulf (Host.gather gather_S200000x128_S1800000x1_S1800000x128_1_0_n_n_0_1_1128 xw (wrapIdx (srcOf ei)))
      (broadcastInDim S1800000x128 ![0, 1] bcast_S1800000x1_S1800000x128_0_1
        (broadcastInDim S1800000x1 ![0] bcast_S1800000_S1800000x1_0 (normOf ei))))
/-- The number of nodes of every graph. -/
def cntOf (bs : J S200000) : A S1000 :=
  Host.scatterAdd scatter_S1000_S200000x1_S200000_n_0_0_1
    (broadcastInDim S1000 ![] bcast_S_S1000 (constant S_ .f32 0x00000000#32))
    (broadcastInDim S200000x1 ![0] bcast_S200000_S200000x1_0 bs)
    (broadcastInDim S200000 ![] bcast_S_S200000 (constant S_ .f32 0x3F800000#32))

/-- A vector divided by 200000 (the batch mean of a column sum). -/
def divN (v : A S128) : A S128 :=
  Host.divf v (broadcastInDim S128 ![] bcast_S_S128 (constant S_ .f32 0x48435000#32))

/-! ## The kernel program's stages -/

/-- The kernel side's variance: max(sumsq/N − mean², 0). -/
def kvar (s q : A S1x128) : A S128 :=
  maximumf (subf (divN (unrow q)) (mulf (divN (unrow s)) (divN (unrow s))))
    (broadcastInDim S128 ![] bcast_S_S128 (constant S_ .f32 0x00000000#32))

/-- Linear → ReLU → BatchNorm on the kernel side from the pre-bias product. -/
def kbn (y : A S200000x128) (g be : A S128) : A S200000x128 :=
  bnApply y (row (divN (unrow (colSum y)))) (row (kvar (colSum y) (colSumSq y))) (row g) (row be)

def K_h0 (x : A S200000x64) (wg : A S64x128) (bg : A S128) (ei : J S2x1600000) : A S200000x128 :=
  biasRelu (agg (mm x wg) ei) (row bg)
def K_h0n (x : A S200000x64) (wg : A S64x128) (bg g0 be0 : A S128) (ei : J S2x1600000) : A S200000x128 :=
  kbn (K_h0 x wg bg ei) g0 be0
def K_h1 (h0n : A S200000x128) (w1 : A S128x128) (b1 : A S128) : A S200000x128 := biasRelu (mm h0n w1) (row b1)
def K_h2 (ac : A S200000x32) (w2 : A S32x128) (b2 : A S128) : A S200000x128 := biasRelu (mm ac w2) (row b2)
/-- The kernel program's result as a function of its eighteen arguments. -/
def K_out (x : A S200000x64) (ac : A S200000x32) (wg : A S64x128) (bg g0 be0 : A S128) (w1 : A S128x128) (b1 g1 be1 : A S128)
    (w2 : A S32x128) (b2 g2 be2 : A S128) (w3 : A S256x1) (b3 : A S1) (ei : J S2x1600000) (bs : J S200000) : A S1000x1 :=
  final (pool (kbn (K_h1 (K_h0n x wg bg g0 be0 ei) w1 b1) g1 be1) (kbn (K_h2 ac w2 b2) g2 be2)
          (shapeCast S200000x1 bs (by decide)))
    (shapeCast S1000x1 (cntOf bs) (by decide)) w3 (shapeCast S1x1 b3 (by decide))

/-! ## The reference program's stages -/

/-- A vector broadcast down the rows. -/
def bcRows (v : A S128) : A S200000x128 :=
  broadcastInDim S200000x128 ![0, 1] bcast_S1x128_S200000x128_0_1 (broadcastInDim S1x128 ![1] bcast_S128_S1x128_1 v)
/-- jax.nn.relu. -/
def relu (z : A S200000x128) : A S200000x128 :=
  maximumf z (broadcastInDim S200000x128 ![] bcast_S_S200000x128 (constant S_ .f32 0x00000000#32))
/-- jnp.mean over the node axis. -/
def rmean (y : A S200000x128) : A S128 :=
  Host.divf (Host.reduceAdd y (constant S_ .f32 0x00000000#32) reducesTo_S200000x128_S128_d0 h_S_)
    (broadcastInDim S128 ![] bcast_S_S128 (constant S_ .f32 0x48435000#32))
/-- jnp.var over the node axis (ddof = 0), with jnp's guard on the divisor. -/
def rvar (y : A S200000x128) : A S128 :=
  let mu : A S1x128 := Host.divf (broadcastInDim S1x128 ![1] bcast_S128_S1x128_1
      (Host.reduceAdd y (constant S_ .f32 0x00000000#32) reducesTo_S200000x128_S128_d0 h_S_))
    (broadcastInDim S1x128 ![] bcast_S_S1x128 (constant S_ .f32 0x48435000#32))
  let d : A S200000x128 := subf y (broadcastInDim S200000x128 ![0, 1] bcast_S1x128_S200000x128_0_1 mu)
  let dof : A S_ := subf (constant S_ .f32 0x48435000#32) (sitofp .f32 (constantI S_ 32 0#32))
  select (broadcastInDim S128 ![] bcast_S_S128 (cmpf .ogt dof (constant S_ .f32 0x00000000#32)))
    (Host.divf (Host.reduceAdd (mulf d d) (constant S_ .f32 0x00000000#32) reducesTo_S200000x128_S128_d0 h_S_)
      (broadcastInDim S128 ![] bcast_S_S128 dof))
    (broadcastInDim S128 ![] bcast_S_S128 (id (constant S_ .f32 0x7FC00000#32)))
/-- The reference's batch normalisation. -/
def rbn (y : A S200000x128) (g be : A S128) : A S200000x128 :=
  addf (mulf (mulf (subf y (bcRows (rmean y)))
      (bcRows (Host.rsqrt (addf (rvar y) (broadcastInDim S128 ![] bcast_S_S128 (constant S_ .f32 0x3727C5AC#32))))))
    (bcRows g)) (bcRows be)

def R_h0 (x : A S200000x64) (wg : A S64x128) (bg : A S128) (ei : J S2x1600000) : A S200000x128 :=
  relu (addf (agg (Host.dotGeneral dot_S200000x64_S64x128_S200000x128_1_0_0_1_n_n none x wg) ei) (bcRows bg))
def R_h1 (h0n : A S200000x128) (w1 : A S128x128) (b1 : A S128) : A S200000x128 :=
  relu (addf (Host.dotGeneral dot_S200000x128_S128x128_S200000x128_1_0_0_1_n_n none h0n w1) (bcRows b1))
def R_h2 (ac : A S200000x32) (w2 : A S32x128) (b2 : A S128) : A S200000x128 :=
  relu (addf (Host.dotGeneral dot_S200000x32_S32x128_S200000x128_1_0_0_1_n_n none ac w2) (bcRows b2))
/-- The reference program's result as a function of its eighteen arguments. -/
def R_out (x : A S200000x64) (ac : A S200000x32) (wg : A S64x128) (bg g0 be0 : A S128) (w1 : A S128x128) (b1 g1 be1 : A S128)
    (w2 : A S32x128) (b2 g2 be2 : A S128) (w3 : A S256x1) (b3 : A S1) (ei : J S2x1600000) (bs : J S200000) : A S1000x1 :=
  addf (Host.dotGeneral dot_S1000x256_S256x1_S1000x1_1_0_0_1_n_n none
      (Host.divf
        (Host.scatterAdd scatter_S1000x256_S200000x1_S200000x256_1_0_0_1
          (broadcastInDim S1000x256 ![] bcast_S_S1000x256 (constant S_ .f32 0x00000000#32))
          (broadcastInDim S200000x1 ![0] bcast_S200000_S200000x1_0 bs)
          (concatenate S200000x256 1 [⟨S200000x128, rbn (R_h1 (rbn (R_h0 x wg bg ei) g0 be0) w1 b1) g1 be1⟩,
            ⟨S200000x128, rbn (R_h2 ac w2 b2) g2 be2⟩] concatenates_S200000x128_S200000x128_S200000x256_d1))
        (broadcastInDim S1000x256 ![0, 1] bcast_S1000x1_S1000x256_0_1
          (broadcastInDim S1000x1 ![0] bcast_S1000_S1000x1_0
            (maximumf (cntOf bs) (broadcastInDim S1000 ![] bcast_S_S1000 (constant S_ .f32 0x3F800000#32))))))
      w3)
    (broadcastInDim S1000x1 ![0, 1] bcast_S1x1_S1000x1_0_1 (broadcastInDim S1x1 ![1] bcast_S1_S1x1_1 b3))

end Cert.Stages

end
-- ==== Proof.LibIdealFinite.lean ====
/-
  Finiteness of host computations over the extended reals.

  At the ideal reading of floats every value is an extended real, an element of [-∞, +∞]. This module
  is about arrays whose every entry is an honest REAL number (neither infinity), and about the two
  sharper properties "every entry is a real number ≥ 0" and "every entry is a real number > 0". It
  proves that the elementary array operations preserve these properties:

  • sums, differences, products and negations of real entries are real; the exponential of a real is a
    positive real; a lane-by-lane choice between two arrays of reals is an array of reals;
  • an operation that only RE-INDEXES its operand (a broadcast along new axes, a permutation of the
    axes, a gather of slices at integer positions) has each output entry equal to some input entry, so
    it preserves all three properties;
  • a contraction (a matrix product: a finite sum of products) and a sum along axes added to an initial
    value are finite sums of reals, hence real — the coercion ℝ → [-∞, +∞] commutes with finite sums;
    such a sum of entries ≥ 0 is ≥ 0;
  • a quotient whose divisor is a positive real is the real quotient; the square root of a real > 0
    (≥ 0) is a real > 0 (≥ 0); a square is ≥ 0; a sum of a real ≥ 0 and a real > 0 is > 0;
  • the binary32 bit patterns listed at the end denote the real numbers stated there (and the pattern
    0x7F800000 denotes +∞), so a constant array of one of them has the corresponding property;
  • an integer converted to a float, signed or unsigned, is that integer as a real number.
-/
import Idealize.ShloMosaic.PureOps.Ideal
import Idealize.ShloMosaic.PureOps.Ideal.Laws
import Mathlib.Data.EReal.Operations
import Mathlib.Data.EReal.Inv
import Mathlib.Analysis.SpecialFunctions.Exp
import Mathlib.Analysis.SpecialFunctions.Sqrt
import Mathlib.Algebra.BigOperators.Group.Finset.Basic

noncomputable section

namespace IdealFinite

open Idealize.ShloMosaic
open scoped BigOperators

/-! ### The three properties -/

/-- An extended real that is a real number. -/
def IsFin (x : EReal) : Prop := ∃ r : ℝ, x = (r : EReal)

/-- Every entry of the array is a real number. -/
def AllFin {S : Shape} (v : S.Idx → EReal) : Prop := ∀ i, IsFin (v i)

/-- Every entry of the array is a real number that is not negative. -/
def AllNonneg {S : Shape} (v : S.Idx → EReal) : Prop := ∀ i, ∃ r : ℝ, 0 ≤ r ∧ v i = (r : EReal)

/-- Every entry of the array is a positive real number. -/
def AllPos {S : Shape} (v : S.Idx → EReal) : Prop := ∀ i, ∃ r : ℝ, 0 < r ∧ v i = (r : EReal)

theorem AllPos.allNonneg {S : Shape} {v : S.Idx → EReal} (h : AllPos v) : AllNonneg v := fun i => by
  obtain ⟨r, hr, e⟩ := h i
  exact ⟨r, hr.le, e⟩

theorem AllNonneg.allFin {S : Shape} {v : S.Idx → EReal} (h : AllNonneg v) : AllFin v := fun i => by
  obtain ⟨r, _, e⟩ := h i
  exact ⟨r, e⟩

theorem AllPos.allFin {S : Shape} {v : S.Idx → EReal} (h : AllPos v) : AllFin v := h.allNonneg.allFin

/-! ### Finite sums of reals -/

/-- The coercion of the reals into the extended reals commutes with finite sums. -/
theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem isFin_sum {ι : Type} (s : Finset ι) (f : ι → EReal) (h : ∀ i ∈ s, IsFin (f i)) :
    IsFin (∑ i ∈ s, f i) := by
  classical
  induction s using Finset.induction_on with
  | empty => exact ⟨0, by simp⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

/-- A finite sum of real numbers that are not negative is a real number that is not negative. -/
theorem nonneg_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨r, hr0, hr⟩ := h a (Finset.mem_insert_self a s)
    obtain ⟨t, ht0, ht⟩ := ih fun i hi => h i (Finset.mem_insert_of_mem hi)
    exact ⟨r + t, add_nonneg hr0 ht0, by rw [Finset.sum_insert ha, hr, ht, EReal.coe_add]⟩

/-! ### Pointwise operations -/

theorem AllFin.addf {S : Shape} {φ : FTy} {x y : FVec Ideal S φ} (hx : AllFin x) (hy : AllFin y) :
    AllFin (Idealize.ShloMosaic.addf (F := Ideal) x y) := fun i => by
  obtain ⟨a, ha⟩ := hx i
  obtain ⟨b, hb⟩ := hy i
  exact ⟨a + b, by show x i + y i = _; rw [ha, hb, EReal.coe_add]⟩

theorem AllFin.subf {S : Shape} {φ : FTy} {x y : FVec Ideal S φ} (hx : AllFin x) (hy : AllFin y) :
    AllFin (Idealize.ShloMosaic.subf (F := Ideal) x y) := fun i => by
  obtain ⟨a, ha⟩ := hx i
  obtain ⟨b, hb⟩ := hy i
  exact ⟨a - b, by show x i - y i = _; rw [ha, hb, EReal.coe_sub]⟩

theorem AllFin.mulf {S : Shape} {φ : FTy} {x y : FVec Ideal S φ} (hx : AllFin x) (hy : AllFin y) :
    AllFin (Idealize.ShloMosaic.mulf (F := Ideal) x y) := fun i => by
  obtain ⟨a, ha⟩ := hx i
  obtain ⟨b, hb⟩ := hy i
  exact ⟨a * b, by show x i * y i = _; rw [ha, hb, EReal.coe_mul]⟩

theorem AllFin.negf {S : Shape} {φ : FTy} {x : FVec Ideal S φ} (hx : AllFin x) :
    AllFin (Idealize.ShloMosaic.Host.negf (F := Ideal) x) := fun i => by
  obtain ⟨a, ha⟩ := hx i
  exact ⟨-a, by show -(x i) = _; rw [ha, EReal.coe_neg]⟩

/-- The exponential of a real number is a positive real number. -/
theorem AllPos.exp {S : Shape} {φ : FTy} {x : FVec Ideal S φ} (hx : AllFin x) :
    AllPos (Idealize.ShloMosaic.Host.exp (F := Ideal) x) := fun i => by
  obtain ⟨a, ha⟩ := hx i
  exact ⟨Real.exp a, Real.exp_pos a, by show Ideal.exp (x i) = _; rw [ha, Ideal.exp_coe]⟩

theorem AllFin.exp {S : Shape} {φ : FTy} {x : FVec Ideal S φ} (hx : AllFin x) :
    AllFin (Idealize.ShloMosaic.Host.exp (F := Ideal) x) := (AllPos.exp hx).allFin

/-- A lane-by-lane choice between two arrays of reals, whatever the mask. -/
theorem AllFin.select {S : Shape} {p : IVec S 1} {a b : S.Idx → EReal} (ha : AllFin a) (hb : AllFin b) :
    AllFin (Idealize.ShloMosaic.select p a b) := fun i => by
  show IsFin (Scalar.select (p i) (a i) (b i))
  unfold Scalar.select
  split
  · exact ha i
  · exact hb i

theorem AllNonneg.select {S : Shape} {p : IVec S 1} {a b : S.Idx → EReal} (ha : AllNonneg a) (hb : AllNonneg b) :
    AllNonneg (Idealize.ShloMosaic.select p a b) := fun i => by
  show ∃ r : ℝ, 0 ≤ r ∧ Scalar.select (p i) (a i) (b i) = (r : EReal)
  unfold Scalar.select
  split
  · exact ha i
  · exact hb i

theorem AllPos.select {S : Shape} {p : IVec S 1} {a b : S.Idx → EReal} (ha : AllPos a) (hb : AllPos b) :
    AllPos (Idealize.ShloMosaic.select p a b) := fun i => by
  show ∃ r : ℝ, 0 < r ∧ Scalar.select (p i) (a i) (b i) = (r : EReal)
  unfold Scalar.select
  split
  · exact ha i
  · exact hb i

/-! ### Re-indexing operations: every output entry is an input entry -/

theorem AllFin.broadcastInDim {S T : Shape} {dims : Fin S.rank → Fin T.rank} {h : S.BroadcastsInDim T dims}
    {x : S.Idx → EReal} (hx : AllFin x) : AllFin (Idealize.ShloMosaic.broadcastInDim T dims h x) :=
  fun _ => hx _

theorem AllNonneg.broadcastInDim {S T : Shape} {dims : Fin S.rank → Fin T.rank} {h : S.BroadcastsInDim T dims}
    {x : S.Idx → EReal} (hx : AllNonneg x) : AllNonneg (Idealize.ShloMosaic.broadcastInDim T dims h x) :=
  fun _ => hx _

theorem AllPos.broadcastInDim {S T : Shape} {dims : Fin S.rank → Fin T.rank} {h : S.BroadcastsInDim T dims}
    {x : S.Idx → EReal} (hx : AllPos x) : AllPos (Idealize.ShloMosaic.broadcastInDim T dims h x) :=
  fun _ => hx _

theorem AllFin.transpose {S T : Shape} {perm : List (Fin S.rank)} {x : S.Idx → EReal} {h : S.Transposes perm T}
    (hx : AllFin x) : AllFin (Idealize.ShloMosaic.transpose T perm x h) :=
  fun _ => hx _

theorem AllNonneg.transpose {S T : Shape} {perm : List (Fin S.rank)} {x : S.Idx → EReal} {h : S.Transposes perm T}
    (hx : AllNonneg x) : AllNonneg (Idealize.ShloMosaic.transpose T perm x h) :=
  fun _ => hx _

theorem AllPos.transpose {S T : Shape} {perm : List (Fin S.rank)} {x : S.Idx → EReal} {h : S.Transposes perm T}
    (hx : AllPos x) : AllPos (Idealize.ShloMosaic.transpose T perm x h) :=
  fun _ => hx _

theorem AllFin.gather {S SI T : Shape} {w : Nat} {d : GatherDims S SI T} {x : S.Idx → EReal} {idx : IVec SI w}
    (hx : AllFin x) : AllFin (Idealize.ShloMosaic.Host.gather d x idx) :=
  fun _ => hx _

theorem AllNonneg.gather {S SI T : Shape} {w : Nat} {d : GatherDims S SI T} {x : S.Idx → EReal} {idx : IVec SI w}
    (hx : AllNonneg x) : AllNonneg (Idealize.ShloMosaic.Host.gather d x idx) :=
  fun _ => hx _

theorem AllPos.gather {S SI T : Shape} {w : Nat} {d : GatherDims S SI T} {x : S.Idx → EReal} {idx : IVec SI w}
    (hx : AllPos x) : AllPos (Idealize.ShloMosaic.Host.gather d x idx) :=
  fun _ => hx _

/-! ### Contractions and sums -/

/-- A matrix product of arrays of reals: each entry is a finite sum of products of reals. -/
theorem AllFin.dotGeneral {sl sr so : Shape} {φ₁ φ₂ : FTy} {d : DotDims sl sr so} {prec : Option ContractPrecision}
    {l : FVec Ideal sl φ₁} {r : FVec Ideal sr φ₂} (hl : AllFin l) (hr : AllFin r) :
    AllFin (Idealize.ShloMosaic.Host.dotGeneral (F := Ideal) d prec l r) := fun j => by
  show IsFin (FloatOps.dotGeneral d prec .single l r j)
  rw [Ideal.dotGeneral_apply]
  refine isFin_sum _ _ fun k _ => ?_
  obtain ⟨a, ha⟩ := hl (d.lhsIdx j k)
  obtain ⟨b, hb⟩ := hr (d.rhsIdx j k)
  exact ⟨a * b, by rw [ha, hb, EReal.coe_mul]⟩

/-- The sum of an array of reals along axes, added to a real initial value. -/
theorem AllFin.reduceAdd {S T U : Shape} {φ : FTy} {axes : List (Fin S.rank)} {x : FVec Ideal S φ}
    {v : U.Idx → Ideal φ} {red : S.ReducesTo axes T} {hu : 0 < U.numel} (hx : AllFin x) (hv : AllFin (S := U) v) :
    AllFin (Idealize.ShloMosaic.Host.reduceAdd (F := Ideal) x v red hu) := fun j => by
  show IsFin (Ideal.hostReduceAdd red x (v (Shape.Idx.first hu)) j)
  unfold Ideal.hostReduceAdd
  obtain ⟨a, ha⟩ := hv (Shape.Idx.first hu)
  obtain ⟨b, hb⟩ := isFin_sum (Finset.univ.filter fun i => red.drop i = j) x fun i _ => hx i
  exact ⟨a + b, by rw [ha, hb, EReal.coe_add]⟩

theorem AllNonneg.reduceAdd {S T U : Shape} {φ : FTy} {axes : List (Fin S.rank)} {x : FVec Ideal S φ}
    {v : U.Idx → Ideal φ} {red : S.ReducesTo axes T} {hu : 0 < U.numel} (hx : AllNonneg x)
    (hv : AllNonneg (S := U) v) :
    AllNonneg (Idealize.ShloMosaic.Host.reduceAdd (F := Ideal) x v red hu) := fun j => by
  show ∃ r : ℝ, 0 ≤ r ∧ Ideal.hostReduceAdd red x (v (Shape.Idx.first hu)) j = (r : EReal)
  unfold Ideal.hostReduceAdd
  obtain ⟨a, ha0, ha⟩ := hv (Shape.Idx.first hu)
  obtain ⟨b, hb0, hb⟩ := nonneg_sum (Finset.univ.filter fun i => red.drop i = j) x fun i _ => hx i
  exact ⟨a + b, add_nonneg ha0 hb0, by rw [ha, hb, EReal.coe_add]⟩

/-! ### Division by a positive real -/

/-- A real divided by a positive real, as extended reals, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem AllFin.divf {S : Shape} {φ : FTy} {x y : FVec Ideal S φ} (hx : AllFin x) (hy : AllPos y) :
    AllFin (Idealize.ShloMosaic.Host.divf (F := Ideal) x y) := fun i => by
  obtain ⟨a, ha⟩ := hx i
  obtain ⟨b, hb0, hb⟩ := hy i
  exact ⟨a / b, by show Ideal.div (x i) (y i) = _; rw [ha, hb, div_coe_coe a hb0.ne']⟩

theorem AllNonneg.divf {S : Shape} {φ : FTy} {x y : FVec Ideal S φ} (hx : AllNonneg x) (hy : AllPos y) :
    AllNonneg (Idealize.ShloMosaic.Host.divf (F := Ideal) x y) := fun i => by
  obtain ⟨a, ha0, ha⟩ := hx i
  obtain ⟨b, hb0, hb⟩ := hy i
  exact ⟨a / b, div_nonneg ha0 hb0.le, by show Ideal.div (x i) (y i) = _; rw [ha, hb, div_coe_coe a hb0.ne']⟩

theorem AllPos.divf {S : Shape} {φ : FTy} {x y : FVec Ideal S φ} (hx : AllPos x) (hy : AllPos y) :
    AllPos (Idealize.ShloMosaic.Host.divf (F := Ideal) x y) := fun i => by
  obtain ⟨a, ha0, ha⟩ := hx i
  obtain ⟨b, hb0, hb⟩ := hy i
  exact ⟨a / b, div_pos ha0 hb0, by show Ideal.div (x i) (y i) = _; rw [ha, hb, div_coe_coe a hb0.ne']⟩

/-! ### Square roots -/

/-- The square root of a positive real is a positive real. -/
theorem AllPos.sqrt {S : Shape} {φ : FTy} {x : FVec Ideal S φ} (hx : AllPos x) :
    AllPos (Idealize.ShloMosaic.Host.sqrt (F := Ideal) x) := fun i => by
  obtain ⟨a, ha0, ha⟩ := hx i
  exact ⟨Real.sqrt a, Real.sqrt_pos.mpr ha0, by
    show Ideal.sqrt (x i) = _
    rw [ha, Ideal.sqrt_coe, if_neg (not_lt.mpr ha0.le)]⟩

/-- The square root of a real that is not negative is a real that is not negative. -/
theorem AllNonneg.sqrt {S : Shape} {φ : FTy} {x : FVec Ideal S φ} (hx : AllNonneg x) :
    AllNonneg (Idealize.ShloMosaic.Host.sqrt (F := Ideal) x) := fun i => by
  obtain ⟨a, ha0, ha⟩ := hx i
  exact ⟨Real.sqrt a, Real.sqrt_nonneg a, by
    show Ideal.sqrt (x i) = _
    rw [ha, Ideal.sqrt_coe, if_neg (not_lt.mpr ha0)]⟩

/-! ### Signs of sums and products -/

/-- A square of a real is not negative. -/
theorem AllNonneg.mulf_self {S : Shape} {φ : FTy} {x : FVec Ideal S φ} (hx : AllFin x) :
    AllNonneg (Idealize.ShloMosaic.mulf (F := Ideal) x x) := fun i => by
  obtain ⟨a, ha⟩ := hx i
  exact ⟨a * a, mul_self_nonneg a, by show x i * x i = _; rw [ha, EReal.coe_mul]⟩

theorem AllNonneg.mulf {S : Shape} {φ : FTy} {x y : FVec Ideal S φ} (hx : AllNonneg x) (hy : AllNonneg y) :
    AllNonneg (Idealize.ShloMosaic.mulf (F := Ideal) x y) := fun i => by
  obtain ⟨a, ha0, ha⟩ := hx i
  obtain ⟨b, hb0, hb⟩ := hy i
  exact ⟨a * b, mul_nonneg ha0 hb0, by show x i * y i = _; rw [ha, hb, EReal.coe_mul]⟩

theorem AllPos.mulf {S : Shape} {φ : FTy} {x y : FVec Ideal S φ} (hx : AllPos x) (hy : AllPos y) :
    AllPos (Idealize.ShloMosaic.mulf (F := Ideal) x y) := fun i => by
  obtain ⟨a, ha0, ha⟩ := hx i
  obtain ⟨b, hb0, hb⟩ := hy i
  exact ⟨a * b, mul_pos ha0 hb0, by show x i * y i = _; rw [ha, hb, EReal.coe_mul]⟩

theorem AllNonneg.addf {S : Shape} {φ : FTy} {x y : FVec Ideal S φ} (hx : AllNonneg x) (hy : AllNonneg y) :
    AllNonneg (Idealize.ShloMosaic.addf (F := Ideal) x y) := fun i => by
  obtain ⟨a, ha0, ha⟩ := hx i
  obtain ⟨b, hb0, hb⟩ := hy i
  exact ⟨a + b, add_nonneg ha0 hb0, by show x i + y i = _; rw [ha, hb, EReal.coe_add]⟩

theorem AllPos.addf_nonneg_pos {S : Shape} {φ : FTy} {x y : FVec Ideal S φ} (hx : AllNonneg x) (hy : AllPos y) :
    AllPos (Idealize.ShloMosaic.addf (F := Ideal) x y) := fun i => by
  obtain ⟨a, ha0, ha⟩ := hx i
  obtain ⟨b, hb0, hb⟩ := hy i
  exact ⟨a + b, add_pos_of_nonneg_of_pos ha0 hb0, by show x i + y i = _; rw [ha, hb, EReal.coe_add]⟩

theorem AllPos.addf_pos_nonneg {S : Shape} {φ : FTy} {x y : FVec Ideal S φ} (hx : AllPos x) (hy : AllNonneg y) :
    AllPos (Idealize.ShloMosaic.addf (F := Ideal) x y) := fun i => by
  obtain ⟨a, ha0, ha⟩ := hx i
  obtain ⟨b, hb0, hb⟩ := hy i
  exact ⟨a + b, add_pos_of_pos_of_nonneg ha0 hb0, by show x i + y i = _; rw [ha, hb, EReal.coe_add]⟩

theorem AllPos.addf {S : Shape} {φ : FTy} {x y : FVec Ideal S φ} (hx : AllPos x) (hy : AllPos y) :
    AllPos (Idealize.ShloMosaic.addf (F := Ideal) x y) := AllPos.addf_pos_nonneg hx hy.allNonneg

/-! ### Constants: binary32 bit patterns as real numbers

Each pattern is read as sign, eight exponent bits and twenty-three fraction bits; a normal number is
(2^23 + fraction) · 2^(exponent − 150). -/

/-- The pattern of +0.0 denotes 0. -/
theorem ofBits_00000000 : Ideal.ofBits .f32 0x00000000#32 = ((0 : ℝ) : EReal) := by
  simp [Ideal.ofBits, Ideal.ieee]

/-- The pattern of 1.0 denotes 1. -/
theorem ofBits_3F800000 : Ideal.ofBits .f32 0x3F800000#32 = ((1 : ℝ) : EReal) := by
  simp [Ideal.ofBits, Ideal.ieee, -EReal.coe_mul]; norm_num

/-- The binary32 number nearest 0.01: 10737418 · 2^(-30). -/
theorem ofBits_3C23D70A : Ideal.ofBits .f32 0x3C23D70A#32 = ((10737418 / 1073741824 : ℝ) : EReal) := by
  simp [Ideal.ofBits, Ideal.ieee, -EReal.coe_mul]; norm_num

/-- The binary32 number nearest 1e-5: 10995116 · 2^(-40). -/
theorem ofBits_3727C5AC : Ideal.ofBits .f32 0x3727C5AC#32 = ((10995116 / 1099511627776 : ℝ) : EReal) := by
  simp [Ideal.ofBits, Ideal.ieee, -EReal.coe_mul]; norm_num

/-- The pattern of 16384.0 = 2^14. -/
theorem ofBits_46800000 : Ideal.ofBits .f32 0x46800000#32 = ((16384 : ℝ) : EReal) := by
  simp [Ideal.ofBits, Ideal.ieee, -EReal.coe_mul]; norm_num

/-- The pattern of 8192.0 = 2^13. -/
theorem ofBits_46000000 : Ideal.ofBits .f32 0x46000000#32 = ((8192 : ℝ) : EReal) := by
  simp [Ideal.ofBits, Ideal.ieee, -EReal.coe_mul]; norm_num

/-- The pattern of 2048.0 = 2^11. -/
theorem ofBits_45000000 : Ideal.ofBits .f32 0x45000000#32 = ((2048 : ℝ) : EReal) := by
  simp [Ideal.ofBits, Ideal.ieee, -EReal.coe_mul]; norm_num

/-- The pattern of 128.0 = 2^7. -/
theorem ofBits_43000000 : Ideal.ofBits .f32 0x43000000#32 = ((128 : ℝ) : EReal) := by
  simp [Ideal.ofBits, Ideal.ieee, -EReal.coe_mul]; norm_num

/-- The pattern of 2.0. -/
theorem ofBits_40000000 : Ideal.ofBits .f32 0x40000000#32 = ((2 : ℝ) : EReal) := by
  simp [Ideal.ofBits, Ideal.ieee, -EReal.coe_mul]; norm_num

/-- The pattern of 62.0 = 31 · 2. -/
theorem ofBits_42780000 : Ideal.ofBits .f32 0x42780000#32 = ((62 : ℝ) : EReal) := by
  simp [Ideal.ofBits, Ideal.ieee, -EReal.coe_mul]; norm_num

/-- The pattern with all exponent bits set and no fraction bit denotes +∞. -/
theorem ofBits_7F800000 : Ideal.ofBits .f32 0x7F800000#32 = ⊤ := by
  simp [Ideal.ofBits, Ideal.ieee]

/-- An extended real equal to a real is a real; equal to a real ≥ 0 (> 0), it is such a real. -/
theorem isFin_of_eq {x : EReal} {r : ℝ} (h : x = (r : EReal)) : IsFin x := ⟨r, h⟩
theorem nonneg_of_eq {x : EReal} {r : ℝ} (h : x = (r : EReal)) (hr : 0 ≤ r) : ∃ r : ℝ, 0 ≤ r ∧ x = (r : EReal) :=
  ⟨r, hr, h⟩
theorem pos_of_eq {x : EReal} {r : ℝ} (h : x = (r : EReal)) (hr : 0 < r) : ∃ r : ℝ, 0 < r ∧ x = (r : EReal) :=
  ⟨r, hr, h⟩

theorem ofBits_00000000_nonneg : ∃ r : ℝ, 0 ≤ r ∧ Ideal.ofBits .f32 0x00000000#32 = (r : EReal) :=
  nonneg_of_eq ofBits_00000000 (le_refl _)
theorem ofBits_3F800000_pos : ∃ r : ℝ, 0 < r ∧ Ideal.ofBits .f32 0x3F800000#32 = (r : EReal) :=
  pos_of_eq ofBits_3F800000 (by norm_num)
theorem ofBits_3C23D70A_pos : ∃ r : ℝ, 0 < r ∧ Ideal.ofBits .f32 0x3C23D70A#32 = (r : EReal) :=
  pos_of_eq ofBits_3C23D70A (by norm_num)
theorem ofBits_3727C5AC_pos : ∃ r : ℝ, 0 < r ∧ Ideal.ofBits .f32 0x3727C5AC#32 = (r : EReal) :=
  pos_of_eq ofBits_3727C5AC (by norm_num)
theorem ofBits_46800000_pos : ∃ r : ℝ, 0 < r ∧ Ideal.ofBits .f32 0x46800000#32 = (r : EReal) :=
  pos_of_eq ofBits_46800000 (by norm_num)
theorem ofBits_46000000_pos : ∃ r : ℝ, 0 < r ∧ Ideal.ofBits .f32 0x46000000#32 = (r : EReal) :=
  pos_of_eq ofBits_46000000 (by norm_num)
theorem ofBits_45000000_pos : ∃ r : ℝ, 0 < r ∧ Ideal.ofBits .f32 0x45000000#32 = (r : EReal) :=
  pos_of_eq ofBits_45000000 (by norm_num)
theorem ofBits_43000000_pos : ∃ r : ℝ, 0 < r ∧ Ideal.ofBits .f32 0x43000000#32 = (r : EReal) :=
  pos_of_eq ofBits_43000000 (by norm_num)
theorem ofBits_40000000_pos : ∃ r : ℝ, 0 < r ∧ Ideal.ofBits .f32 0x40000000#32 = (r : EReal) :=
  pos_of_eq ofBits_40000000 (by norm_num)
theorem ofBits_42780000_pos : ∃ r : ℝ, 0 < r ∧ Ideal.ofBits .f32 0x42780000#32 = (r : EReal) :=
  pos_of_eq ofBits_42780000 (by norm_num)

/-- A constant array has the property its one value has. -/
theorem AllFin.constant {S : Shape} {φ : FTy} {b : BitVec φ.bits} (h : IsFin (Ideal.ofBits φ b)) :
    AllFin (Idealize.ShloMosaic.constant (F := Ideal) S φ b) := fun _ => h

theorem AllNonneg.constant {S : Shape} {φ : FTy} {b : BitVec φ.bits}
    (h : ∃ r : ℝ, 0 ≤ r ∧ Ideal.ofBits φ b = (r : EReal)) :
    AllNonneg (Idealize.ShloMosaic.constant (F := Ideal) S φ b) := fun _ => h

theorem AllPos.constant {S : Shape} {φ : FTy} {b : BitVec φ.bits}
    (h : ∃ r : ℝ, 0 < r ∧ Ideal.ofBits φ b = (r : EReal)) :
    AllPos (Idealize.ShloMosaic.constant (F := Ideal) S φ b) := fun _ => h

/-! ### Integers converted to floats -/

/-- An unsigned integer as a float is that natural number, a real that is not negative. -/
theorem AllNonneg.uitofp {S : Shape} {w : Nat} {φ : FTy} {x : IVec S w} :
    AllNonneg (Idealize.ShloMosaic.uitofp (F := Ideal) φ x) :=
  fun i => ⟨((x i).toNat : ℝ), Nat.cast_nonneg _, rfl⟩

theorem AllFin.uitofp {S : Shape} {w : Nat} {φ : FTy} {x : IVec S w} :
    AllFin (Idealize.ShloMosaic.uitofp (F := Ideal) φ x) :=
  fun i => ⟨((x i).toNat : ℝ), rfl⟩

/-- A signed integer as a float is that integer, a real. -/
theorem AllFin.sitofp {S : Shape} {w : Nat} {φ : FTy} {x : IVec S w} :
    AllFin (Idealize.ShloMosaic.sitofp (F := Ideal) φ x) :=
  fun i => ⟨((x i).toInt : ℝ), rfl⟩

/-! ### Each closure lemma applies to the operation's own term, with nothing unfolded by hand -/

section Examples
variable {S T : Shape} (x y : FVec Ideal S .f32) (hx : AllFin x) (hy : AllFin y) (hp : AllPos y) (hn : AllNonneg x)

example : AllFin (addf (F := Ideal) x y) := AllFin.addf hx hy
example : AllFin (subf (F := Ideal) x y) := AllFin.subf hx hy
example : AllFin (mulf (F := Ideal) x y) := AllFin.mulf hx hy
example : AllFin (Host.negf (F := Ideal) x) := AllFin.negf hx
example : AllFin (Host.exp (F := Ideal) x) := AllFin.exp hx
example : AllPos (Host.exp (F := Ideal) x) := AllPos.exp hx
example : AllFin (Host.divf (F := Ideal) x y) := AllFin.divf hx hp
example : AllNonneg (Host.divf (F := Ideal) x y) := AllNonneg.divf hn hp
example : AllPos (Host.sqrt (F := Ideal) y) := AllPos.sqrt hp
example : AllNonneg (mulf (F := Ideal) x x) := AllNonneg.mulf_self hx
example : AllPos (addf (F := Ideal) x y) := AllPos.addf_nonneg_pos hn hp
example (p : IVec S 1) : AllFin (select p x y) := AllFin.select hx hy
example : AllFin (select (cmpf (F := Ideal) .oge x (constant S .f32 0x00000000#32)) x
    (mulf x (constant S .f32 0x3C23D70A#32))) :=
  AllFin.select hx (AllFin.mulf hx (AllFin.constant (isFin_of_eq ofBits_3C23D70A)))
example : AllPos (constant (F := Ideal) S .f32 0x3727C5AC#32) := AllPos.constant ofBits_3727C5AC_pos
example (dims : Fin S.rank → Fin T.rank) (h : S.BroadcastsInDim T dims) : AllFin (broadcastInDim T dims h x) :=
  AllFin.broadcastInDim hx
example (perm : List (Fin S.rank)) (h : S.Transposes perm T) : AllFin (transpose T perm x h) :=
  AllFin.transpose hx
example {SI : Shape} (d : GatherDims S SI T) (idx : IVec SI 32) : AllFin (Host.gather d x idx) :=
  AllFin.gather hx
example {sr so : Shape} (d : DotDims S sr so) (r : FVec Ideal sr .f32) (hr : AllFin r) :
    AllFin (Host.dotGeneral (F := Ideal) d none x r) := AllFin.dotGeneral hx hr
example {axes : List (Fin S.rank)} {U : Shape} (v : FVec Ideal U .f32) (hv : AllFin v) (red : S.ReducesTo axes T)
    (hu : 0 < U.numel) : AllFin (Host.reduceAdd (F := Ideal) x v red hu) := AllFin.reduceAdd hx hv
example {axes : List (Fin S.rank)} {U : Shape} (v : FVec Ideal U .f32) (hv : AllNonneg v) (red : S.ReducesTo axes T)
    (hu : 0 < U.numel) : AllNonneg (Host.reduceAdd (F := Ideal) x v red hu) := AllNonneg.reduceAdd hn hv
example (n : IVec S 32) : AllFin (uitofp (F := Ideal) .f32 n) := AllFin.uitofp
example (n : IVec S 32) : AllFin (sitofp (F := Ideal) .f32 n) := AllFin.sitofp
-- at a concrete shape: x / √(y + ε) is real when x is real, y > 0 and ε > 0
example (a : FVec Ideal ⟨2, ![8, 16]⟩ .f32) (b : FVec Ideal ⟨2, ![8, 16]⟩ .f32) (ha : AllFin a) (hb : AllPos b) :
    AllFin (Host.divf a (Host.sqrt (addf b (constant ⟨2, ![8, 16]⟩ .f32 0x3727C5AC#32)))) :=
  AllFin.divf ha (AllPos.sqrt (AllPos.addf hb (AllPos.constant ofBits_3727C5AC_pos)))

end Examples

end IdealFinite

end
-- ==== Proof.RefOpsList.lean ====
/-
  The reference program as a list of operations.

  The reference is one straight line of host operations: the edge list with self loops, the degree normalisation,
  x·W gathered along the edges and summed into the destination rows, then three times a linear layer with its
  positive part and a batch normalisation (the mean, the variance as the mean of the squared deviations, the
  division by the deviation, scale and shift), the per-graph sum of the two normalised branches, the division by
  the node counts and the last linear layer.  Its relu and its variance are functions of their own, entered at
  six places; entering one is running its operations in place over that call's own buffers, so the whole program
  is a list of 223 operations.

  The list is cut where one stage hands a whole array to the next.  With each piece go the facts about it that
  hold operation by operation: it acts on the TensorCore's buffers, it determines what it writes, and a buffer
  outside the ones it writes has the same contents after it as before.
-/
import proofs.«426214_j50276887167257_1_alg».proof.Proof.Gen.ReferenceIdeal
import Idealize.ShloMosaic.Lib.StableHlo.Run

noncomputable section

namespace Cert.ReferenceIdeal.HandRun

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F]

/-! ## The operations, piece by piece -/

/-- The edge list with the self loops appended: sources (`main_v3`) and destinations (`main_v6`). -/
def opsEdgeIds : List (HloOp τ sig (Elt F)) :=
  [ nullary main_v0 (iotaInDim S200000 32 0),
    unary main_arg16 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1800000 0 [⟨S1600000, a⟩, ⟨S200000, b⟩] concatenates_S1600000_S200000_S1800000_d0) : (⟨S1600000, .i32⟩ : BufTy).Contents (Elt F) → (⟨S200000, .i32⟩ : BufTy).Contents (Elt F) → (⟨S1800000, .i32⟩ : BufTy).Contents (Elt F)),
    unary main_arg16 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1800000 0 [⟨S1600000, a⟩, ⟨S200000, b⟩] concatenates_S1600000_S200000_S1800000_d0) : (⟨S1600000, .i32⟩ : BufTy).Contents (Elt F) → (⟨S200000, .i32⟩ : BufTy).Contents (Elt F) → (⟨S1800000, .i32⟩ : BufTy).Contents (Elt F)) ]

/-- The degrees (an accumulating scatter of ones along the destinations), their inverse square roots, and the edge weights: the product of the two ends' (`main_v26`). -/
def opsWeights : List (HloOp τ sig (Elt F)) :=
  [ nullary main_cst (constant S_ .f32 0x3F800000#32),
    unary main_cst main_v7 (broadcastInDim S1800000 ![] bcast_S_S1800000 : (⟨S_, .f32⟩ : BufTy).Contents (Elt F) → (⟨S1800000, .f32⟩ : BufTy).Contents (Elt F)),
    nullary main_cst_0 (constant S_ .f32 0x00000000#32),
    unary main_cst_0 main_v8 (broadcastInDim S200000 ![] bcast_S_S200000 : (⟨S_, .f32⟩ : BufTy).Contents (Elt F) → (⟨S200000, .f32⟩ : BufTy).Contents (Elt F)),
    unary main_v6 main_v9 (broadcastInDim S1800000x1 ![0] bcast_S1800000_S1800000x1_0 : (⟨S1800000, .i32⟩ : BufTy).Contents (Elt F) → (⟨S1800000x1, .i32⟩ : BufTy).Contents (Elt F)),
    ternary main_v8 main_v9 main_v7 main_v10 ((fun x i u => Host.scatterAdd scatter_S200000_S1800000x1_S1800000_n_0_0_1 x i u) : (⟨S200000, .f32⟩ : BufTy).Contents (Elt F) → (⟨S1800000x1, .i32⟩ : BufTy).Contents (Elt F) → (⟨S1800000, .f32⟩ : BufTy).Contents (Elt F) → (⟨S200000, .f32⟩ : BufTy).Contents (Elt F)),
    unary main_v10 main_v11 (Host.rsqrt : (⟨S200000, .f32⟩ : BufTy).Contents (Elt F) → (⟨S200000, .f32⟩ : BufTy).Contents (Elt F)),
    nullary main_c (constantI S_ 32 0#32),
    unary main_c main_v12 (broadcastInDim S1800000 ![] bcast_S_S1800000 : (⟨S_, .i32⟩ : BufTy).Contents (Elt F) → (⟨S1800000, .i32⟩ : BufTy).Contents (Elt F)),
    binary main_v3 main_v12 main_v13 (cmpi .slt : (⟨S1800000, .i32⟩ : BufTy).Contents (Elt F) → (⟨S1800000, .i32⟩ : BufTy).Contents (Elt F) → (⟨S1800000, .i1⟩ : BufTy).Contents (Elt F)),
    nullary main_c_1 (constantI S_ 32 200000#32),
    unary main_c_1 main_v14 (broadcastInDim S1800000 ![] bcast_S_S1800000 : (⟨S_, .i32⟩ : BufTy).Contents (Elt F) → (⟨S1800000, .i32⟩ : BufTy).Contents (Elt F)),
    binary main_v3 main_v14 main_v15 (addi : (⟨S1800000, .i32⟩ : BufTy).Contents (Elt F) → (⟨S1800000, .i32⟩ : BufTy).Contents (Elt F) → (⟨S1800000, .i32⟩ : BufTy).Contents (Elt F)),
    ternary main_v13 main_v15 main_v3 main_v16 (select : (⟨S1800000, .i1⟩ : BufTy).Contents (Elt F) → (⟨S1800000, .i32⟩ : BufTy).Contents (Elt F) → (⟨S1800000, .i32⟩ : BufTy).Contents (Elt F) → (⟨S1800000, .i32⟩ : BufTy).Contents (Elt F)),
    unary main_v16 main_v17 (broadcastInDim S1800000x1 ![0] bcast_S1800000_S1800000x1_0 : (⟨S1800000, .i32⟩ : BufTy).Contents (Elt F) → (⟨S1800000x1, .i32⟩ : BufTy).Contents (Elt F)),
    binary main_v11 main_v17 main_v18 ((fun x i => Host.gather gather_S200000_S1800000x1_S1800000_n_0_n_n_0_1_1 x i) : (⟨S200000, .f32⟩ : BufTy).Contents (Elt F) → (⟨S1800000x1, .i32⟩ : BufTy).Contents (Elt F) → (⟨S1800000, .f32⟩ : BufTy).Contents (Elt F)),
    nullary main_c_2 (constantI S_ 32 0#32),
    unary main_c_2 main_v19 (broadcastInDim S1800000 ![] bcast_S_S1800000 : (⟨S_, .i32⟩ : BufTy).Contents (Elt F) → (⟨S1800000, .i32⟩ : BufTy).Contents (Elt F)),
    binary main_v6 main_v19 main_v20 (cmpi .slt : (⟨S1800000, .i32⟩ : BufTy).Contents (Elt F) → (⟨S1800000, .i32⟩ : BufTy).Contents (Elt F) → (⟨S1800000, .i1⟩ : BufTy).Contents (Elt F)),
    nullary main_c_3 (constantI S_ 32 200000#32),
    unary main_c_3 main_v21 (broadcastInDim S1800000 ![] bcast_S_S1800000 : (⟨S_, .i32⟩ : BufTy).Contents (Elt F) → (⟨S1800000, .i32⟩ : BufTy).Contents (Elt F)),
    binary main_v6 main_v21 main_v22 (addi : (⟨S1800000, .i32⟩ : BufTy).Contents (Elt F) → (⟨S1800000, .i32⟩ : BufTy).Contents (Elt F) → (⟨S1800000, .i32⟩ : BufTy).Contents (Elt F)),
    ternary main_v20 main_v22 main_v6 main_v23 (select : (⟨S1800000, .i1⟩ : BufTy).Contents (Elt F) → (⟨S1800000, .i32⟩ : BufTy).Contents (Elt F) → (⟨S1800000, .i32⟩ : BufTy).Contents (Elt F) → (⟨S1800000, .i32⟩ : BufTy).Contents (Elt F)),
    unary main_v23 main_v24 (broadcastInDim S1800000x1 ![0] bcast_S1800000_S1800000x1_0 : (⟨S1800000, .i32⟩ : BufTy).Contents (Elt F) → (⟨S1800000x1, .i32⟩ : BufTy).Contents (Elt F)),
    binary main_v11 main_v24 main_v25 ((fun x i => Host.gather gather_S200000_S1800000x1_S1800000_n_0_n_n_0_1_1 x i) : (⟨S200000, .f32⟩ : BufTy).Contents (Elt F) → (⟨S1800000x1, .i32⟩ : BufTy).Contents (Elt F) → (⟨S1800000, .f32⟩ : BufTy).Contents (Elt F)),
    binary main_v18 main_v25 main_v26 (mulf : (⟨S1800000, .f32⟩ : BufTy).Contents (Elt F) → (⟨S1800000, .f32⟩ : BufTy).Contents (Elt F) → (⟨S1800000, .f32⟩ : BufTy).Contents (Elt F)) ]

/-- x·W, its rows gathered along the sources, scaled by the edge weights and summed into the destination rows (`main_v40`). -/
def opsAgg : List (HloOp τ sig (Elt F)) :=
  [ binary main_arg0 main_arg2 main_v27 ((fun l r => Host.dotGeneral dot_S200000x64_S64x128_S200000x128_1_0_0_1_n_n none l r) : (⟨S200000x64, .f32⟩ : BufTy).Contents (Elt F) → (⟨S64x128, .f32⟩ : BufTy).Contents (Elt F) → (⟨S200000x128, .f32⟩ : BufTy).Contents (Elt F)),
    nullary main_c_4 (constantI S_ 32 0#32),
    unary main_c_4 main_v28 (broadcastInDim S1800000 ![] bcast_S_S1800000 : (⟨S_, .i32⟩ : BufTy).Contents (Elt F) → (⟨S1800000, .i32⟩ : BufTy).Contents (Elt F)),
    binary main_v3 main_v28 main_v29 (cmpi .slt : (⟨S1800000, .i32⟩ : BufTy).Contents (Elt F) → (⟨S1800000, .i32⟩ : BufTy).Contents (Elt F) → (⟨S1800000, .i1⟩ : BufTy).Contents (Elt F)),
    nullary main_c_5 (constantI S_ 32 200000#32),
    unary main_c_5 main_v30 (broadcastInDim S1800000 ![] bcast_S_S1800000 : (⟨S_, .i32⟩ : BufTy).Contents (Elt F) → (⟨S1800000, .i32⟩ : BufTy).Contents (Elt F)),
    binary main_v3 main_v30 main_v31 (addi : (⟨S1800000, .i32⟩ : BufTy).Contents (Elt F) → (⟨S1800000, .i32⟩ : BufTy).Contents (Elt F) → (⟨S1800000, .i32⟩ : BufTy).Contents (Elt F)),
    ternary main_v29 main_v31 main_v3 main_v32 (select : (⟨S1800000, .i1⟩ : BufTy).Contents (Elt F) → (⟨S1800000, .i32⟩ : BufTy).Contents (Elt F) → (⟨S1800000, .i32⟩ : BufTy).Contents (Elt F) → (⟨S1800000, .i32⟩ : BufTy).Contents (Elt F)),
    unary main_v32 main_v33 (broadcastInDim S1800000x1 ![0] bcast_S1800000_S1800000x1_0 : (⟨S1800000, .i32⟩ : BufTy).Contents (Elt F) → (⟨S1800000x1, .i32⟩ : BufTy).Contents (Elt F)),
    binary main_v27 main_v33 main_v34 ((fun x i => Host.gather gather_S200000x128_S1800000x1_S1800000x128_1_0_n_n_0_1_1128 x i) : (⟨S200000x128, .f32⟩ : BufTy).Contents (Elt F) → (⟨S1800000x1, .i32⟩ : BufTy).Contents (Elt F) → (⟨S1800000x128, .f32⟩ : BufTy).Contents (Elt F)),
    unary main_v26 main_v35 (broadcastInDim S1800000x1 ![0] bcast_S1800000_S1800000x1_0 : (⟨S1800000, .f32⟩ : BufTy).Contents (Elt F) → (⟨S1800000x1, .f32⟩ : BufTy).Contents (Elt F)),
    unary main_v35 main_v36 (broadcastInDim S1800000x128 ![0, 1] bcast_S1800000x1_S1800000x128_0_1 : (⟨S1800000x1, .f32⟩ : BufTy).Contents (Elt F) → (⟨S1800000x128, .f32⟩ : BufTy).Contents (Elt F)),
    binary main_v34 main_v36 main_v37 (mulf : (⟨S1800000x128, .f32⟩ : BufTy).Contents (Elt F) → (⟨S1800000x128, .f32⟩ : BufTy).Contents (Elt F) → (⟨S1800000x128, .f32⟩ : BufTy).Contents (Elt F)),
    nullary main_cst_6 (constant S_ .f32 0x00000000#32),
    unary main_cst_6 main_v38 (broadcastInDim S200000x128 ![] bcast_S_S200000x128 : (⟨S_, .f32⟩ : BufTy).Contents (Elt F) → (⟨S200000x128, .f32⟩ : BufTy).Contents (Elt F)),
    unary main_v6 main_v39 (broadcastInDim S1800000x1 ![0] bcast_S1800000_S1800000x1_0 : (⟨S1800000, .i32⟩ : BufTy).Contents (Elt F) → (⟨S1800000x1, .i32⟩ : BufTy).Contents (Elt F)),
    ternary main_v38 main_v39 main_v37 main_v40 ((fun x i u => Host.scatterAdd scatter_S200000x128_S1800000x1_S1800000x128_1_0_0_1 x i u) : (⟨S200000x128, .f32⟩ : BufTy).Contents (Elt F) → (⟨S1800000x1, .i32⟩ : BufTy).Contents (Elt F) → (⟨S1800000x128, .f32⟩ : BufTy).Contents (Elt F) → (⟨S200000x128, .f32⟩ : BufTy).Contents (Elt F)) ]

/-- The bias added to every row and the positive part: the first hidden layer (`main_v44`). -/
def opsLin0 : List (HloOp τ sig (Elt F)) :=
  [ unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S200000x128 ![0, 1] bcast_S1x128_S200000x128_0_1 : (⟨S1x128, .f32⟩ : BufTy).Contents (Elt F) → (⟨S200000x128, .f32⟩ : BufTy).Contents (Elt F)),
    binary main_v40 main_v42 main_v43 (addf : (⟨S200000x128, .f32⟩ : BufTy).Contents (Elt F) → (⟨S200000x128, .f32⟩ : BufTy).Contents (Elt F) → (⟨S200000x128, .f32⟩ : BufTy).Contents (Elt F)),
    TRef.nullary main_call0.cst (constant S_ .f32 0x00000000#32),
    TRef.unary main_call0.cst main_call0.v0 (broadcastInDim S200000x128 ![] bcast_S_S200000x128),
    TRef.binary (.of main_v43 : TRef sig ⟨S200000x128, .f32⟩) main_call0.v0 main_call0.v1 maximumf ]

/-- The column means of the first hidden layer (`main_v47`) and the variance's zero offset. -/
def opsMean0 : List (HloOp τ sig (Elt F)) :=
  [ nullary main_cst_7 (constant S_ .f32 0x00000000#32),
    binary main_v44 main_cst_7 main_v45 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    nullary main_cst_8 (constant S_ .f32 0x48435000#32),
    unary main_cst_8 main_v46 (broadcastInDim S128 ![] bcast_S_S128 : (⟨S_, .f32⟩ : BufTy).Contents (Elt F) → (⟨S128, .f32⟩ : BufTy).Contents (Elt F)),
    binary main_v45 main_v46 main_v47 (Host.divf : (⟨S128, .f32⟩ : BufTy).Contents (Elt F) → (⟨S128, .f32⟩ : BufTy).Contents (Elt F) → (⟨S128, .f32⟩ : BufTy).Contents (Elt F)),
    nullary main_c_9 (constantI S_ 32 0#32) ]

/-- The column variances of the first hidden layer (`main_v48`), then its normalisation, scale and shift (`main_v63`). -/
def opsNorm0 : List (HloOp τ sig (Elt F)) :=
  [ TRef.nullary main_call1.cst (constant S_ .f32 0x00000000#32),
    TRef.binary (.of main_v44 : TRef sig ⟨S200000x128, .f32⟩) main_call1.cst main_call1.v0 (fun x v => Host.reduceAdd x v reducesTo_S200000x128_S128_d0 h_S_),
    TRef.unary main_call1.v0 main_call1.v1 (broadcastInDim S1x128 ![1] bcast_S128_S1x128_1),
    TRef.nullary main_call1.cst_0 (constant S_ .f32 0x48435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S200000x128 ![0, 1] bcast_S1x128_S200000x128_0_1),
    TRef.binary (.of main_v44 : TRef sig ⟨S200000x128, .f32⟩) main_call1.v4 main_call1.v5 subf,
    TRef.binary main_call1.v5 main_call1.v5 main_call1.v6 mulf,
    TRef.unary (.of main_c_9 : TRef sig ⟨S_, .i32⟩) main_call1.v7 (sitofp .f32),
    TRef.nullary main_call1.cst_1 (constant S_ .f32 0x48435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S200000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v47 main_v49 (broadcastInDim S1x128 ![1] bcast_S128_S1x128_1 : (⟨S128, .f32⟩ : BufTy).Contents (Elt F) → (⟨S1x128, .f32⟩ : BufTy).Contents (Elt F)),
    unary main_v49 main_v50 (broadcastInDim S200000x128 ![0, 1] bcast_S1x128_S200000x128_0_1 : (⟨S1x128, .f32⟩ : BufTy).Contents (Elt F) → (⟨S200000x128, .f32⟩ : BufTy).Contents (Elt F)),
    binary main_v44 main_v50 main_v51 (subf : (⟨S200000x128, .f32⟩ : BufTy).Contents (Elt F) → (⟨S200000x128, .f32⟩ : BufTy).Contents (Elt F) → (⟨S200000x128, .f32⟩ : BufTy).Contents (Elt F)),
    nullary main_cst_10 (constant S_ .f32 0x3727C5AC#32),
    unary main_cst_10 main_v52 (broadcastInDim S128 ![] bcast_S_S128 : (⟨S_, .f32⟩ : BufTy).Contents (Elt F) → (⟨S128, .f32⟩ : BufTy).Contents (Elt F)),
    binary main_v48 main_v52 main_v53 (addf : (⟨S128, .f32⟩ : BufTy).Contents (Elt F) → (⟨S128, .f32⟩ : BufTy).Contents (Elt F) → (⟨S128, .f32⟩ : BufTy).Contents (Elt F)),
    unary main_v53 main_v54 (Host.rsqrt : (⟨S128, .f32⟩ : BufTy).Contents (Elt F) → (⟨S128, .f32⟩ : BufTy).Contents (Elt F)),
    unary main_v54 main_v55 (broadcastInDim S1x128 ![1] bcast_S128_S1x128_1 : (⟨S128, .f32⟩ : BufTy).Contents (Elt F) → (⟨S1x128, .f32⟩ : BufTy).Contents (Elt F)),
    unary main_v55 main_v56 (broadcastInDim S200000x128 ![0, 1] bcast_S1x128_S200000x128_0_1 : (⟨S1x128, .f32⟩ : BufTy).Contents (Elt F) → (⟨S200000x128, .f32⟩ : BufTy).Contents (Elt F)),
    binary main_v51 main_v56 main_v57 (mulf : (⟨S200000x128, .f32⟩ : BufTy).Contents (Elt F) → (⟨S200000x128, .f32⟩ : BufTy).Contents (Elt F) → (⟨S200000x128, .f32⟩ : BufTy).Contents (Elt F)),
    unary main_arg4 main_v58 (broadcastInDim S1x128 ![1] bcast_S128_S1x128_1 : (⟨S128, .f32⟩ : BufTy).Contents (Elt F) → (⟨S1x128, .f32⟩ : BufTy).Contents (Elt F)),
    unary main_v58 main_v59 (broadcastInDim S200000x128 ![0, 1] bcast_S1x128_S200000x128_0_1 : (⟨S1x128, .f32⟩ : BufTy).Contents (Elt F) → (⟨S200000x128, .f32⟩ : BufTy).Contents (Elt F)),
    binary main_v57 main_v59 main_v60 (mulf : (⟨S200000x128, .f32⟩ : BufTy).Contents (Elt F) → (⟨S200000x128, .f32⟩ : BufTy).Contents (Elt F) → (⟨S200000x128, .f32⟩ : BufTy).Contents (Elt F)),
    unary main_arg5 main_v61 (broadcastInDim S1x128 ![1] bcast_S128_S1x128_1 : (⟨S128, .f32⟩ : BufTy).Contents (Elt F) → (⟨S1x128, .f32⟩ : BufTy).Contents (Elt F)),
    unary main_v61 main_v62 (broadcastInDim S200000x128 ![0, 1] bcast_S1x128_S200000x128_0_1 : (⟨S1x128, .f32⟩ : BufTy).Contents (Elt F) → (⟨S200000x128, .f32⟩ : BufTy).Contents (Elt F)),
    binary main_v60 main_v62 main_v63 (addf : (⟨S200000x128, .f32⟩ : BufTy).Contents (Elt F) → (⟨S200000x128, .f32⟩ : BufTy).Contents (Elt F) → (⟨S200000x128, .f32⟩ : BufTy).Contents (Elt F)) ]

/-- The second layer: product with W1, bias, positive part (`main_v68`). -/
def opsLin1 : List (HloOp τ sig (Elt F)) :=
  [ binary main_v63 main_arg6 main_v64 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg7 main_v65 (broadcastInDim S1x128 ![1] bcast_S128_S1x128_1 : (⟨S128, .f32⟩ : BufTy).Contents (Elt F) → (⟨S1x128, .f32⟩ : BufTy).Contents (Elt F)),
    unary main_v65 main_v66 (broadcastInDim S200000x128 ![0, 1] bcast_S1x128_S200000x128_0_1 : (⟨S1x128, .f32⟩ : BufTy).Contents (Elt F) → (⟨S200000x128, .f32⟩ : BufTy).Contents (Elt F)),
    binary main_v64 main_v66 main_v67 (addf : (⟨S200000x128, .f32⟩ : BufTy).Contents (Elt F) → (⟨S200000x128, .f32⟩ : BufTy).Contents (Elt F) → (⟨S200000x128, .f32⟩ : BufTy).Contents (Elt F)),
    TRef.nullary main_call2.cst (constant S_ .f32 0x00000000#32),
    TRef.unary main_call2.cst main_call2.v0 (broadcastInDim S200000x128 ![] bcast_S_S200000x128),
    TRef.binary (.of main_v67 : TRef sig ⟨S200000x128, .f32⟩) main_call2.v0 main_call2.v1 maximumf ]

/-- Means, variances and normalisation of the second layer (`main_v87`). -/
def opsNorm1 : List (HloOp τ sig (Elt F)) :=
  [ nullary main_cst_11 (constant S_ .f32 0x00000000#32),
    binary main_v68 main_cst_11 main_v69 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    nullary main_cst_12 (constant S_ .f32 0x48435000#32),
    unary main_cst_12 main_v70 (broadcastInDim S128 ![] bcast_S_S128 : (⟨S_, .f32⟩ : BufTy).Contents (Elt F) → (⟨S128, .f32⟩ : BufTy).Contents (Elt F)),
    binary main_v69 main_v70 main_v71 (Host.divf : (⟨S128, .f32⟩ : BufTy).Contents (Elt F) → (⟨S128, .f32⟩ : BufTy).Contents (Elt F) → (⟨S128, .f32⟩ : BufTy).Contents (Elt F)),
    nullary main_c_13 (constantI S_ 32 0#32),
    TRef.nullary main_call3.cst (constant S_ .f32 0x00000000#32),
    TRef.binary (.of main_v68 : TRef sig ⟨S200000x128, .f32⟩) main_call3.cst main_call3.v0 (fun x v => Host.reduceAdd x v reducesTo_S200000x128_S128_d0 h_S_),
    TRef.unary main_call3.v0 main_call3.v1 (broadcastInDim S1x128 ![1] bcast_S128_S1x128_1),
    TRef.nullary main_call3.cst_0 (constant S_ .f32 0x48435000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S200000x128 ![0, 1] bcast_S1x128_S200000x128_0_1),
    TRef.binary (.of main_v68 : TRef sig ⟨S200000x128, .f32⟩) main_call3.v4 main_call3.v5 subf,
    TRef.binary main_call3.v5 main_call3.v5 main_call3.v6 mulf,
    TRef.unary (.of main_c_13 : TRef sig ⟨S_, .i32⟩) main_call3.v7 (sitofp .f32),
    TRef.nullary main_call3.cst_1 (constant S_ .f32 0x48435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S200000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_v71 main_v73 (broadcastInDim S1x128 ![1] bcast_S128_S1x128_1 : (⟨S128, .f32⟩ : BufTy).Contents (Elt F) → (⟨S1x128, .f32⟩ : BufTy).Contents (Elt F)),
    unary main_v73 main_v74 (broadcastInDim S200000x128 ![0, 1] bcast_S1x128_S200000x128_0_1 : (⟨S1x128, .f32⟩ : BufTy).Contents (Elt F) → (⟨S200000x128, .f32⟩ : BufTy).Contents (Elt F)),
    binary main_v68 main_v74 main_v75 (subf : (⟨S200000x128, .f32⟩ : BufTy).Contents (Elt F) → (⟨S200000x128, .f32⟩ : BufTy).Contents (Elt F) → (⟨S200000x128, .f32⟩ : BufTy).Contents (Elt F)),
    nullary main_cst_14 (constant S_ .f32 0x3727C5AC#32),
    unary main_cst_14 main_v76 (broadcastInDim S128 ![] bcast_S_S128 : (⟨S_, .f32⟩ : BufTy).Contents (Elt F) → (⟨S128, .f32⟩ : BufTy).Contents (Elt F)),
    binary main_v72 main_v76 main_v77 (addf : (⟨S128, .f32⟩ : BufTy).Contents (Elt F) → (⟨S128, .f32⟩ : BufTy).Contents (Elt F) → (⟨S128, .f32⟩ : BufTy).Contents (Elt F)),
    unary main_v77 main_v78 (Host.rsqrt : (⟨S128, .f32⟩ : BufTy).Contents (Elt F) → (⟨S128, .f32⟩ : BufTy).Contents (Elt F)),
    unary main_v78 main_v79 (broadcastInDim S1x128 ![1] bcast_S128_S1x128_1 : (⟨S128, .f32⟩ : BufTy).Contents (Elt F) → (⟨S1x128, .f32⟩ : BufTy).Contents (Elt F)),
    unary main_v79 main_v80 (broadcastInDim S200000x128 ![0, 1] bcast_S1x128_S200000x128_0_1 : (⟨S1x128, .f32⟩ : BufTy).Contents (Elt F) → (⟨S200000x128, .f32⟩ : BufTy).Contents (Elt F)),
    binary main_v75 main_v80 main_v81 (mulf : (⟨S200000x128, .f32⟩ : BufTy).Contents (Elt F) → (⟨S200000x128, .f32⟩ : BufTy).Contents (Elt F) → (⟨S200000x128, .f32⟩ : BufTy).Contents (Elt F)),
    unary main_arg8 main_v82 (broadcastInDim S1x128 ![1] bcast_S128_S1x128_1 : (⟨S128, .f32⟩ : BufTy).Contents (Elt F) → (⟨S1x128, .f32⟩ : BufTy).Contents (Elt F)),
    unary main_v82 main_v83 (broadcastInDim S200000x128 ![0, 1] bcast_S1x128_S200000x128_0_1 : (⟨S1x128, .f32⟩ : BufTy).Contents (Elt F) → (⟨S200000x128, .f32⟩ : BufTy).Contents (Elt F)),
    binary main_v81 main_v83 main_v84 (mulf : (⟨S200000x128, .f32⟩ : BufTy).Contents (Elt F) → (⟨S200000x128, .f32⟩ : BufTy).Contents (Elt F) → (⟨S200000x128, .f32⟩ : BufTy).Contents (Elt F)),
    unary main_arg9 main_v85 (broadcastInDim S1x128 ![1] bcast_S128_S1x128_1 : (⟨S128, .f32⟩ : BufTy).Contents (Elt F) → (⟨S1x128, .f32⟩ : BufTy).Contents (Elt F)),
    unary main_v85 main_v86 (broadcastInDim S200000x128 ![0, 1] bcast_S1x128_S200000x128_0_1 : (⟨S1x128, .f32⟩ : BufTy).Contents (Elt F) → (⟨S200000x128, .f32⟩ : BufTy).Contents (Elt F)),
    binary main_v84 main_v86 main_v87 (addf : (⟨S200000x128, .f32⟩ : BufTy).Contents (Elt F) → (⟨S200000x128, .f32⟩ : BufTy).Contents (Elt F) → (⟨S200000x128, .f32⟩ : BufTy).Contents (Elt F)) ]

/-- The action branch: product with W2, bias, positive part (`main_v92`). -/
def opsLin2 : List (HloOp τ sig (Elt F)) :=
  [ binary main_arg1 main_arg10 main_v88 ((fun l r => Host.dotGeneral dot_S200000x32_S32x128_S200000x128_1_0_0_1_n_n none l r) : (⟨S200000x32, .f32⟩ : BufTy).Contents (Elt F) → (⟨S32x128, .f32⟩ : BufTy).Contents (Elt F) → (⟨S200000x128, .f32⟩ : BufTy).Contents (Elt F)),
    unary main_arg11 main_v89 (broadcastInDim S1x128 ![1] bcast_S128_S1x128_1 : (⟨S128, .f32⟩ : BufTy).Contents (Elt F) → (⟨S1x128, .f32⟩ : BufTy).Contents (Elt F)),
    unary main_v89 main_v90 (broadcastInDim S200000x128 ![0, 1] bcast_S1x128_S200000x128_0_1 : (⟨S1x128, .f32⟩ : BufTy).Contents (Elt F) → (⟨S200000x128, .f32⟩ : BufTy).Contents (Elt F)),
    binary main_v88 main_v90 main_v91 (addf : (⟨S200000x128, .f32⟩ : BufTy).Contents (Elt F) → (⟨S200000x128, .f32⟩ : BufTy).Contents (Elt F) → (⟨S200000x128, .f32⟩ : BufTy).Contents (Elt F)),
    TRef.nullary main_call4.cst (constant S_ .f32 0x00000000#32),
    TRef.unary main_call4.cst main_call4.v0 (broadcastInDim S200000x128 ![] bcast_S_S200000x128),
    TRef.binary (.of main_v91 : TRef sig ⟨S200000x128, .f32⟩) main_call4.v0 main_call4.v1 maximumf ]

/-- Means and variances of the action branch and its centring (`main_v99`). -/
def opsNorm2a : List (HloOp τ sig (Elt F)) :=
  [ nullary main_cst_15 (constant S_ .f32 0x00000000#32),
    binary main_v92 main_cst_15 main_v93 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    nullary main_cst_16 (constant S_ .f32 0x48435000#32),
    unary main_cst_16 main_v94 (broadcastInDim S128 ![] bcast_S_S128 : (⟨S_, .f32⟩ : BufTy).Contents (Elt F) → (⟨S128, .f32⟩ : BufTy).Contents (Elt F)),
    binary main_v93 main_v94 main_v95 (Host.divf : (⟨S128, .f32⟩ : BufTy).Contents (Elt F) → (⟨S128, .f32⟩ : BufTy).Contents (Elt F) → (⟨S128, .f32⟩ : BufTy).Contents (Elt F)),
    nullary main_c_17 (constantI S_ 32 0#32),
    TRef.nullary main_call5.cst (constant S_ .f32 0x00000000#32),
    TRef.binary (.of main_v92 : TRef sig ⟨S200000x128, .f32⟩) main_call5.cst main_call5.v0 (fun x v => Host.reduceAdd x v reducesTo_S200000x128_S128_d0 h_S_),
    TRef.unary main_call5.v0 main_call5.v1 (broadcastInDim S1x128 ![1] bcast_S128_S1x128_1),
    TRef.nullary main_call5.cst_0 (constant S_ .f32 0x48435000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S200000x128 ![0, 1] bcast_S1x128_S200000x128_0_1),
    TRef.binary (.of main_v92 : TRef sig ⟨S200000x128, .f32⟩) main_call5.v4 main_call5.v5 subf,
    TRef.binary main_call5.v5 main_call5.v5 main_call5.v6 mulf,
    TRef.unary (.of main_c_17 : TRef sig ⟨S_, .i32⟩) main_call5.v7 (sitofp .f32),
    TRef.nullary main_call5.cst_1 (constant S_ .f32 0x48435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S200000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b),
    unary main_v95 main_v97 (broadcastInDim S1x128 ![1] bcast_S128_S1x128_1 : (⟨S128, .f32⟩ : BufTy).Contents (Elt F) → (⟨S1x128, .f32⟩ : BufTy).Contents (Elt F)),
    unary main_v97 main_v98 (broadcastInDim S200000x128 ![0, 1] bcast_S1x128_S200000x128_0_1 : (⟨S1x128, .f32⟩ : BufTy).Contents (Elt F) → (⟨S200000x128, .f32⟩ : BufTy).Contents (Elt F)),
    binary main_v92 main_v98 main_v99 (subf : (⟨S200000x128, .f32⟩ : BufTy).Contents (Elt F) → (⟨S200000x128, .f32⟩ : BufTy).Contents (Elt F) → (⟨S200000x128, .f32⟩ : BufTy).Contents (Elt F)) ]

/-- The action branch's scaling by the inverse deviation, scale and shift (`main_v111`). -/
def opsNorm2b : List (HloOp τ sig (Elt F)) :=
  [ nullary main_cst_18 (constant S_ .f32 0x3727C5AC#32),
    unary main_cst_18 main_v100 (broadcastInDim S128 ![] bcast_S_S128 : (⟨S_, .f32⟩ : BufTy).Contents (Elt F) → (⟨S128, .f32⟩ : BufTy).Contents (Elt F)),
    binary main_v96 main_v100 main_v101 (addf : (⟨S128, .f32⟩ : BufTy).Contents (Elt F) → (⟨S128, .f32⟩ : BufTy).Contents (Elt F) → (⟨S128, .f32⟩ : BufTy).Contents (Elt F)),
    unary main_v101 main_v102 (Host.rsqrt : (⟨S128, .f32⟩ : BufTy).Contents (Elt F) → (⟨S128, .f32⟩ : BufTy).Contents (Elt F)),
    unary main_v102 main_v103 (broadcastInDim S1x128 ![1] bcast_S128_S1x128_1 : (⟨S128, .f32⟩ : BufTy).Contents (Elt F) → (⟨S1x128, .f32⟩ : BufTy).Contents (Elt F)),
    unary main_v103 main_v104 (broadcastInDim S200000x128 ![0, 1] bcast_S1x128_S200000x128_0_1 : (⟨S1x128, .f32⟩ : BufTy).Contents (Elt F) → (⟨S200000x128, .f32⟩ : BufTy).Contents (Elt F)),
    binary main_v99 main_v104 main_v105 (mulf : (⟨S200000x128, .f32⟩ : BufTy).Contents (Elt F) → (⟨S200000x128, .f32⟩ : BufTy).Contents (Elt F) → (⟨S200000x128, .f32⟩ : BufTy).Contents (Elt F)),
    unary main_arg12 main_v106 (broadcastInDim S1x128 ![1] bcast_S128_S1x128_1 : (⟨S128, .f32⟩ : BufTy).Contents (Elt F) → (⟨S1x128, .f32⟩ : BufTy).Contents (Elt F)),
    unary main_v106 main_v107 (broadcastInDim S200000x128 ![0, 1] bcast_S1x128_S200000x128_0_1 : (⟨S1x128, .f32⟩ : BufTy).Contents (Elt F) → (⟨S200000x128, .f32⟩ : BufTy).Contents (Elt F)),
    binary main_v105 main_v107 main_v108 (mulf : (⟨S200000x128, .f32⟩ : BufTy).Contents (Elt F) → (⟨S200000x128, .f32⟩ : BufTy).Contents (Elt F) → (⟨S200000x128, .f32⟩ : BufTy).Contents (Elt F)),
    unary main_arg13 main_v109 (broadcastInDim S1x128 ![1] bcast_S128_S1x128_1 : (⟨S128, .f32⟩ : BufTy).Contents (Elt F) → (⟨S1x128, .f32⟩ : BufTy).Contents (Elt F)),
    unary main_v109 main_v110 (broadcastInDim S200000x128 ![0, 1] bcast_S1x128_S200000x128_0_1 : (⟨S1x128, .f32⟩ : BufTy).Contents (Elt F) → (⟨S200000x128, .f32⟩ : BufTy).Contents (Elt F)),
    binary main_v108 main_v110 main_v111 (addf : (⟨S200000x128, .f32⟩ : BufTy).Contents (Elt F) → (⟨S200000x128, .f32⟩ : BufTy).Contents (Elt F) → (⟨S200000x128, .f32⟩ : BufTy).Contents (Elt F)) ]

/-- The two branches side by side, summed per graph, divided by the graph's node count, and the last layer (`main_v128`). -/
def opsOut : List (HloOp τ sig (Elt F)) :=
  [ binary main_v87 main_v111 main_v112 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    nullary main_cst_19 (constant S_ .f32 0x00000000#32),
    unary main_cst_19 main_v113 (broadcastInDim S1000x256 ![] bcast_S_S1000x256 : (⟨S_, .f32⟩ : BufTy).Contents (Elt F) → (⟨S1000x256, .f32⟩ : BufTy).Contents (Elt F)),
    unary main_arg17 main_v114 (broadcastInDim S200000x1 ![0] bcast_S200000_S200000x1_0 : (⟨S200000, .i32⟩ : BufTy).Contents (Elt F) → (⟨S200000x1, .i32⟩ : BufTy).Contents (Elt F)),
    ternary main_v113 main_v114 main_v112 main_v115 ((fun x i u => Host.scatterAdd scatter_S1000x256_S200000x1_S200000x256_1_0_0_1 x i u) : (⟨S1000x256, .f32⟩ : BufTy).Contents (Elt F) → (⟨S200000x1, .i32⟩ : BufTy).Contents (Elt F) → (⟨S200000x256, .f32⟩ : BufTy).Contents (Elt F) → (⟨S1000x256, .f32⟩ : BufTy).Contents (Elt F)),
    nullary main_cst_20 (constant S_ .f32 0x3F800000#32),
    unary main_cst_20 main_v116 (broadcastInDim S200000 ![] bcast_S_S200000 : (⟨S_, .f32⟩ : BufTy).Contents (Elt F) → (⟨S200000, .f32⟩ : BufTy).Contents (Elt F)),
    nullary main_cst_21 (constant S_ .f32 0x00000000#32),
    unary main_cst_21 main_v117 (broadcastInDim S1000 ![] bcast_S_S1000 : (⟨S_, .f32⟩ : BufTy).Contents (Elt F) → (⟨S1000, .f32⟩ : BufTy).Contents (Elt F)),
    unary main_arg17 main_v118 (broadcastInDim S200000x1 ![0] bcast_S200000_S200000x1_0 : (⟨S200000, .i32⟩ : BufTy).Contents (Elt F) → (⟨S200000x1, .i32⟩ : BufTy).Contents (Elt F)),
    ternary main_v117 main_v118 main_v116 main_v119 ((fun x i u => Host.scatterAdd scatter_S1000_S200000x1_S200000_n_0_0_1 x i u) : (⟨S1000, .f32⟩ : BufTy).Contents (Elt F) → (⟨S200000x1, .i32⟩ : BufTy).Contents (Elt F) → (⟨S200000, .f32⟩ : BufTy).Contents (Elt F) → (⟨S1000, .f32⟩ : BufTy).Contents (Elt F)),
    nullary main_cst_22 (constant S_ .f32 0x3F800000#32),
    unary main_cst_22 main_v120 (broadcastInDim S1000 ![] bcast_S_S1000 : (⟨S_, .f32⟩ : BufTy).Contents (Elt F) → (⟨S1000, .f32⟩ : BufTy).Contents (Elt F)),
    binary main_v119 main_v120 main_v121 (maximumf : (⟨S1000, .f32⟩ : BufTy).Contents (Elt F) → (⟨S1000, .f32⟩ : BufTy).Contents (Elt F) → (⟨S1000, .f32⟩ : BufTy).Contents (Elt F)),
    unary main_v121 main_v122 (broadcastInDim S1000x1 ![0] bcast_S1000_S1000x1_0 : (⟨S1000, .f32⟩ : BufTy).Contents (Elt F) → (⟨S1000x1, .f32⟩ : BufTy).Contents (Elt F)),
    unary main_v122 main_v123 (broadcastInDim S1000x256 ![0, 1] bcast_S1000x1_S1000x256_0_1 : (⟨S1000x1, .f32⟩ : BufTy).Contents (Elt F) → (⟨S1000x256, .f32⟩ : BufTy).Contents (Elt F)),
    binary main_v115 main_v123 main_v124 (Host.divf : (⟨S1000x256, .f32⟩ : BufTy).Contents (Elt F) → (⟨S1000x256, .f32⟩ : BufTy).Contents (Elt F) → (⟨S1000x256, .f32⟩ : BufTy).Contents (Elt F)),
    binary main_v124 main_arg14 main_v125 ((fun l r => Host.dotGeneral dot_S1000x256_S256x1_S1000x1_1_0_0_1_n_n none l r) : (⟨S1000x256, .f32⟩ : BufTy).Contents (Elt F) → (⟨S256x1, .f32⟩ : BufTy).Contents (Elt F) → (⟨S1000x1, .f32⟩ : BufTy).Contents (Elt F)),
    unary main_arg15 main_v126 (broadcastInDim S1x1 ![1] bcast_S1_S1x1_1 : (⟨S1, .f32⟩ : BufTy).Contents (Elt F) → (⟨S1x1, .f32⟩ : BufTy).Contents (Elt F)),
    unary main_v126 main_v127 (broadcastInDim S1000x1 ![0, 1] bcast_S1x1_S1000x1_0_1 : (⟨S1x1, .f32⟩ : BufTy).Contents (Elt F) → (⟨S1000x1, .f32⟩ : BufTy).Contents (Elt F)),
    binary main_v125 main_v127 main_v128 (addf : (⟨S1000x1, .f32⟩ : BufTy).Contents (Elt F) → (⟨S1000x1, .f32⟩ : BufTy).Contents (Elt F) → (⟨S1000x1, .f32⟩ : BufTy).Contents (Elt F)) ]

/-- The operations of the three stretches the program is printed in, and of the whole program. -/
def opsPart0 : List (HloOp τ sig (Elt F)) := opsEdgeIds ++ opsWeights ++ opsAgg ++ opsLin0 ++ opsMean0
@[inherit_doc opsPart0]
def opsPart1 : List (HloOp τ sig (Elt F)) := opsNorm0 ++ opsLin1 ++ opsNorm1 ++ opsLin2 ++ opsNorm2a
@[inherit_doc opsPart0]
def opsPart2 : List (HloOp τ sig (Elt F)) := opsNorm2b ++ opsOut
@[inherit_doc opsPart0]
def ops : List (HloOp τ sig (Elt F)) := opsPart0 ++ opsPart1 ++ opsPart2

/-! ## Operation by operation: on the TensorCore's buffers, and determining what it writes -/

theorem edgeIds_sub : (opsEdgeIds : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩
theorem edgeIds_fresh : (opsEdgeIds : List (HloOp τ sig (Elt F))).Forall fun op => op.fresh = ∅ :=
  ⟨rfl, rfl, rfl, rfl, rfl, rfl, rfl⟩

theorem weights_sub : (opsWeights : List (HloOp τ sig (Elt F))).Forall fun op => op.bufs ⊆ tcRefs τ sig :=
  ⟨nullary_bufs_sub .., unary_bufs_sub .., nullary_bufs_sub .., unary_bufs_sub .., unary_bufs_sub .., ternary_bufs_sub .., unary_bufs_sub ..,
    nullary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub ..⟩
theorem weights_fresh : (opsWeights : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

theorem agg_sub : (opsAgg : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub .., nullary_bufs_sub ..,
    unary_bufs_sub .., unary_bufs_sub .., ternary_bufs_sub ..⟩
theorem agg_fresh : (opsAgg : List (HloOp τ sig (Elt F))).Forall fun op => op.fresh = ∅ :=
  ⟨rfl, rfl, rfl, rfl, rfl, rfl, rfl, rfl, rfl, rfl, rfl, rfl, rfl, rfl, rfl, rfl, rfl⟩

theorem lin0_sub : (opsLin0 : List (HloOp τ sig (Elt F))).Forall fun op => op.bufs ⊆ tcRefs τ sig :=
  ⟨unary_bufs_sub .., unary_bufs_sub .., binary_bufs_sub .., nullary_bufs_sub .., unary_bufs_sub .., binary_bufs_sub ..⟩
theorem lin0_fresh : (opsLin0 : List (HloOp τ sig (Elt F))).Forall fun op => op.fresh = ∅ :=
  ⟨rfl, rfl, rfl, rfl, rfl, rfl⟩

theorem mean0_sub : (opsMean0 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem mean0_fresh : (opsMean0 : List (HloOp τ sig (Elt F))).Forall fun op => op.fresh = ∅ :=
  ⟨rfl, rfl, rfl, rfl, rfl, rfl⟩

theorem norm0_sub : (opsNorm0 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub .., binary_bufs_sub ..,
    unary_bufs_sub .., unary_bufs_sub .., binary_bufs_sub ..⟩
theorem norm0_fresh : (opsNorm0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

theorem lin1_sub : (opsLin1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
theorem lin1_fresh : (opsLin1 : List (HloOp τ sig (Elt F))).Forall fun op => op.fresh = ∅ :=
  ⟨rfl, rfl, rfl, rfl, rfl, rfl, rfl⟩

theorem norm1_sub : (opsNorm1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub .., unary_bufs_sub ..,
    unary_bufs_sub .., binary_bufs_sub ..⟩
theorem norm1_fresh : (opsNorm1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

theorem lin2_sub : (opsLin2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
theorem lin2_fresh : (opsLin2 : List (HloOp τ sig (Elt F))).Forall fun op => op.fresh = ∅ :=
  ⟨rfl, rfl, rfl, rfl, rfl, rfl, rfl⟩

theorem norm2a_sub : (opsNorm2a : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub .., ternary_bufs_sub ..,
    unary_bufs_sub .., unary_bufs_sub .., binary_bufs_sub ..⟩
theorem norm2a_fresh : (opsNorm2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl⟩

theorem norm2b_sub : (opsNorm2b : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..⟩
theorem norm2b_fresh : (opsNorm2b : List (HloOp τ sig (Elt F))).Forall fun op => op.fresh = ∅ :=
  ⟨rfl, rfl, rfl, rfl, rfl, rfl, rfl, rfl, rfl, rfl, rfl, rfl, rfl⟩

theorem out_sub : (opsOut : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub .., binary_bufs_sub ..,
    unary_bufs_sub .., unary_bufs_sub .., binary_bufs_sub .., binary_bufs_sub .., unary_bufs_sub .., unary_bufs_sub .., binary_bufs_sub ..⟩
theorem out_fresh : (opsOut : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-! ## What a piece does not write, it keeps

For each piece the list of the buffers its operations write; a buffer outside the list has the same contents
after the piece as before. -/

/-- One operation's written buffer is in the list. -/
local macro "written" : term =>
  `(by (simp only [nullary_writes, unary_writes, binary_writes, ternary_writes, reshape_writes,
          Finset.singleton_subset_iff, List.mem_toFinset]; exact List.mem_map_of_mem (by decide)))

/-- The buffers the operations of `opsEdgeIds` write. -/
abbrev edgeIdsW : List (Ref sig .tc) :=
  [main_v0, main_v1, main_v2, main_v3, main_v4, main_v5, main_v6]
theorem edgeIds_writes : (opsEdgeIds : List (HloOp τ sig (Elt F))).Forall fun op =>
    op.writes ⊆ (edgeIdsW.map (Proc.devRef (τ := τ) .tc)).toFinset := by
  simp only [opsEdgeIds, List.Forall]
  exact ⟨written, written, written, written, written, written, written⟩
theorem edgeIds_keep (V : Valuation τ sig (Elt F)) {r : Ref sig .tc} (h : r ∉ edgeIdsW) :
    after opsEdgeIds V (no_index (Proc.devRef .tc r)) = V (Proc.devRef .tc r) :=
  after_of_writes_sub opsEdgeIds V edgeIds_writes h

/-- The buffers the operations of `opsWeights` write. -/
abbrev weightsW : List (Ref sig .tc) :=
  [main_cst, main_v7, main_cst_0, main_v8, main_v9, main_v10, main_v11, main_c, main_v12, main_v13, main_c_1, main_v14, main_v15, main_v16, main_v17,
    main_v18, main_c_2, main_v19, main_v20, main_c_3, main_v21, main_v22, main_v23, main_v24, main_v25, main_v26]
theorem weights_writes : (opsWeights : List (HloOp τ sig (Elt F))).Forall fun op =>
    op.writes ⊆ (weightsW.map (Proc.devRef (τ := τ) .tc)).toFinset := by
  simp only [opsWeights, List.Forall]
  exact ⟨written, written, written, written, written, written, written, written, written, written, written, written, written, written, written, written,
    written, written, written, written, written, written, written, written, written, written⟩
theorem weights_keep (V : Valuation τ sig (Elt F)) {r : Ref sig .tc} (h : r ∉ weightsW) :
    after opsWeights V (no_index (Proc.devRef .tc r)) = V (Proc.devRef .tc r) :=
  after_of_writes_sub opsWeights V weights_writes h

/-- The buffers the operations of `opsAgg` write. -/
abbrev aggW : List (Ref sig .tc) :=
  [main_v27, main_c_4, main_v28, main_v29, main_c_5, main_v30, main_v31, main_v32, main_v33, main_v34, main_v35, main_v36, main_v37, main_cst_6, main_v38,
    main_v39, main_v40]
theorem agg_writes : (opsAgg : List (HloOp τ sig (Elt F))).Forall fun op =>
    op.writes ⊆ (aggW.map (Proc.devRef (τ := τ) .tc)).toFinset := by
  simp only [opsAgg, List.Forall]
  exact ⟨written, written, written, written, written, written, written, written, written, written, written, written, written, written, written, written,
    written⟩
theorem agg_keep (V : Valuation τ sig (Elt F)) {r : Ref sig .tc} (h : r ∉ aggW) :
    after opsAgg V (no_index (Proc.devRef .tc r)) = V (Proc.devRef .tc r) :=
  after_of_writes_sub opsAgg V agg_writes h

/-- The buffers the operations of `opsLin0` write. -/
abbrev lin0W : List (Ref sig .tc) :=
  [main_v41, main_v42, main_v43, main_call0.cst.ref, main_call0.v0.ref, main_call0.v1.ref]
theorem lin0_writes : (opsLin0 : List (HloOp τ sig (Elt F))).Forall fun op =>
    op.writes ⊆ (lin0W.map (Proc.devRef (τ := τ) .tc)).toFinset := by
  simp only [opsLin0, List.Forall]
  exact ⟨written, written, written, written, written, written⟩
theorem lin0_keep (V : Valuation τ sig (Elt F)) {r : Ref sig .tc} (h : r ∉ lin0W) :
    after opsLin0 V (no_index (Proc.devRef .tc r)) = V (Proc.devRef .tc r) :=
  after_of_writes_sub opsLin0 V lin0_writes h

/-- The buffers the operations of `opsMean0` write. -/
abbrev mean0W : List (Ref sig .tc) :=
  [main_cst_7, main_v45, main_cst_8, main_v46, main_v47, main_c_9]
theorem mean0_writes : (opsMean0 : List (HloOp τ sig (Elt F))).Forall fun op =>
    op.writes ⊆ (mean0W.map (Proc.devRef (τ := τ) .tc)).toFinset := by
  simp only [opsMean0, List.Forall]
  exact ⟨written, written, written, written, written, written⟩
theorem mean0_keep (V : Valuation τ sig (Elt F)) {r : Ref sig .tc} (h : r ∉ mean0W) :
    after opsMean0 V (no_index (Proc.devRef .tc r)) = V (Proc.devRef .tc r) :=
  after_of_writes_sub opsMean0 V mean0_writes h

/-- The buffers the operations of `opsNorm0` write. -/
abbrev norm0W : List (Ref sig .tc) :=
  [main_call1.cst.ref, main_call1.v0.ref, main_call1.v1.ref, main_call1.cst_0.ref, main_call1.v2.ref, main_call1.v3.ref, main_call1.v4.ref,
    main_call1.v5.ref, main_call1.v6.ref, main_call1.v7.ref, main_call1.cst_1.ref, main_call1.v8.ref, main_call1.cst_2.ref, main_call1.v9.ref,
    main_call1.v10.ref, main_call1.v11.ref, main_call1.cst_3.ref, main_call1.v12.ref, main_call1.cst_4.ref, main_call1.call0.v0.ref,
    main_call1.call0.v1.ref, main_call1.call0.v2.ref, main_v49, main_v50, main_v51, main_cst_10, main_v52, main_v53, main_v54, main_v55, main_v56,
    main_v57, main_v58, main_v59, main_v60, main_v61, main_v62, main_v63]
theorem norm0_writes : (opsNorm0 : List (HloOp τ sig (Elt F))).Forall fun op =>
    op.writes ⊆ (norm0W.map (Proc.devRef (τ := τ) .tc)).toFinset := by
  simp only [opsNorm0, List.Forall]
  exact ⟨written, written, written, written, written, written, written, written, written, written, written, written, written, written, written, written,
    written, written, written, written, written, written, written, written, written, written, written, written, written, written, written, written,
    written, written, written, written, written, written⟩
theorem norm0_keep (V : Valuation τ sig (Elt F)) {r : Ref sig .tc} (h : r ∉ norm0W) :
    after opsNorm0 V (no_index (Proc.devRef .tc r)) = V (Proc.devRef .tc r) :=
  after_of_writes_sub opsNorm0 V norm0_writes h

/-- The buffers the operations of `opsLin1` write. -/
abbrev lin1W : List (Ref sig .tc) :=
  [main_v64, main_v65, main_v66, main_v67, main_call2.cst.ref, main_call2.v0.ref, main_call2.v1.ref]
theorem lin1_writes : (opsLin1 : List (HloOp τ sig (Elt F))).Forall fun op =>
    op.writes ⊆ (lin1W.map (Proc.devRef (τ := τ) .tc)).toFinset := by
  simp only [opsLin1, List.Forall]
  exact ⟨written, written, written, written, written, written, written⟩
theorem lin1_keep (V : Valuation τ sig (Elt F)) {r : Ref sig .tc} (h : r ∉ lin1W) :
    after opsLin1 V (no_index (Proc.devRef .tc r)) = V (Proc.devRef .tc r) :=
  after_of_writes_sub opsLin1 V lin1_writes h

/-- The buffers the operations of `opsNorm1` write. -/
abbrev norm1W : List (Ref sig .tc) :=
  [main_cst_11, main_v69, main_cst_12, main_v70, main_v71, main_c_13, main_call3.cst.ref, main_call3.v0.ref, main_call3.v1.ref, main_call3.cst_0.ref,
    main_call3.v2.ref, main_call3.v3.ref, main_call3.v4.ref, main_call3.v5.ref, main_call3.v6.ref, main_call3.v7.ref, main_call3.cst_1.ref,
    main_call3.v8.ref, main_call3.cst_2.ref, main_call3.v9.ref, main_call3.v10.ref, main_call3.v11.ref, main_call3.cst_3.ref, main_call3.v12.ref,
    main_call3.cst_4.ref, main_call3.call0.v0.ref, main_call3.call0.v1.ref, main_call3.call0.v2.ref, main_v73, main_v74, main_v75, main_cst_14, main_v76,
    main_v77, main_v78, main_v79, main_v80, main_v81, main_v82, main_v83, main_v84, main_v85, main_v86, main_v87]
theorem norm1_writes : (opsNorm1 : List (HloOp τ sig (Elt F))).Forall fun op =>
    op.writes ⊆ (norm1W.map (Proc.devRef (τ := τ) .tc)).toFinset := by
  simp only [opsNorm1, List.Forall]
  exact ⟨written, written, written, written, written, written, written, written, written, written, written, written, written, written, written, written,
    written, written, written, written, written, written, written, written, written, written, written, written, written, written, written, written,
    written, written, written, written, written, written, written, written, written, written, written, written⟩
theorem norm1_keep (V : Valuation τ sig (Elt F)) {r : Ref sig .tc} (h : r ∉ norm1W) :
    after opsNorm1 V (no_index (Proc.devRef .tc r)) = V (Proc.devRef .tc r) :=
  after_of_writes_sub opsNorm1 V norm1_writes h

/-- The buffers the operations of `opsLin2` write. -/
abbrev lin2W : List (Ref sig .tc) :=
  [main_v88, main_v89, main_v90, main_v91, main_call4.cst.ref, main_call4.v0.ref, main_call4.v1.ref]
theorem lin2_writes : (opsLin2 : List (HloOp τ sig (Elt F))).Forall fun op =>
    op.writes ⊆ (lin2W.map (Proc.devRef (τ := τ) .tc)).toFinset := by
  simp only [opsLin2, List.Forall]
  exact ⟨written, written, written, written, written, written, written⟩
theorem lin2_keep (V : Valuation τ sig (Elt F)) {r : Ref sig .tc} (h : r ∉ lin2W) :
    after opsLin2 V (no_index (Proc.devRef .tc r)) = V (Proc.devRef .tc r) :=
  after_of_writes_sub opsLin2 V lin2_writes h

/-- The buffers the operations of `opsNorm2a` write. -/
abbrev norm2aW : List (Ref sig .tc) :=
  [main_cst_15, main_v93, main_cst_16, main_v94, main_v95, main_c_17, main_call5.cst.ref, main_call5.v0.ref, main_call5.v1.ref, main_call5.cst_0.ref,
    main_call5.v2.ref, main_call5.v3.ref, main_call5.v4.ref, main_call5.v5.ref, main_call5.v6.ref, main_call5.v7.ref, main_call5.cst_1.ref,
    main_call5.v8.ref, main_call5.cst_2.ref, main_call5.v9.ref, main_call5.v10.ref, main_call5.v11.ref, main_call5.cst_3.ref, main_call5.v12.ref,
    main_call5.cst_4.ref, main_call5.call0.v0.ref, main_call5.call0.v1.ref, main_call5.call0.v2.ref, main_v97, main_v98, main_v99]
theorem norm2a_writes : (opsNorm2a : List (HloOp τ sig (Elt F))).Forall fun op =>
    op.writes ⊆ (norm2aW.map (Proc.devRef (τ := τ) .tc)).toFinset := by
  simp only [opsNorm2a, List.Forall]
  exact ⟨written, written, written, written, written, written, written, written, written, written, written, written, written, written, written, written,
    written, written, written, written, written, written, written, written, written, written, written, written, written, written, written⟩
theorem norm2a_keep (V : Valuation τ sig (Elt F)) {r : Ref sig .tc} (h : r ∉ norm2aW) :
    after opsNorm2a V (no_index (Proc.devRef .tc r)) = V (Proc.devRef .tc r) :=
  after_of_writes_sub opsNorm2a V norm2a_writes h

/-- The buffers the operations of `opsNorm2b` write. -/
abbrev norm2bW : List (Ref sig .tc) :=
  [main_cst_18, main_v100, main_v101, main_v102, main_v103, main_v104, main_v105, main_v106, main_v107, main_v108, main_v109, main_v110, main_v111]
theorem norm2b_writes : (opsNorm2b : List (HloOp τ sig (Elt F))).Forall fun op =>
    op.writes ⊆ (norm2bW.map (Proc.devRef (τ := τ) .tc)).toFinset := by
  simp only [opsNorm2b, List.Forall]
  exact ⟨written, written, written, written, written, written, written, written, written, written, written, written, written⟩
theorem norm2b_keep (V : Valuation τ sig (Elt F)) {r : Ref sig .tc} (h : r ∉ norm2bW) :
    after opsNorm2b V (no_index (Proc.devRef .tc r)) = V (Proc.devRef .tc r) :=
  after_of_writes_sub opsNorm2b V norm2b_writes h

/-- The buffers the operations of `opsOut` write. -/
abbrev outW : List (Ref sig .tc) :=
  [main_v112, main_cst_19, main_v113, main_v114, main_v115, main_cst_20, main_v116, main_cst_21, main_v117, main_v118, main_v119, main_cst_22, main_v120,
    main_v121, main_v122, main_v123, main_v124, main_v125, main_v126, main_v127, main_v128]
theorem out_writes : (opsOut : List (HloOp τ sig (Elt F))).Forall fun op =>
    op.writes ⊆ (outW.map (Proc.devRef (τ := τ) .tc)).toFinset := by
  simp only [opsOut, List.Forall]
  exact ⟨written, written, written, written, written, written, written, written, written, written, written, written, written, written, written, written,
    written, written, written, written, written⟩
theorem out_keep (V : Valuation τ sig (Elt F)) {r : Ref sig .tc} (h : r ∉ outW) :
    after opsOut V (no_index (Proc.devRef .tc r)) = V (Proc.devRef .tc r) :=
  after_of_writes_sub opsOut V out_writes h

end Cert.ReferenceIdeal.HandRun

end
-- ==== Proof.RefRunOps.lean ====
/-
  The reference program is its list of operations, run in order.

  The three stretches the program is printed in are chains of single operations and of entries into relu and the
  variance; with those two (and the select the variance enters in turn) replaced by their bodies and the sequencing
  reassociated, each chain is its part of the list.  The side conditions of the run hold piece by piece, so they
  hold for the whole list, and the run leaves every buffer at the fold of the operations over the launch contents.
-/
import proofs.«426214_j50276887167257_1_alg».proof.Proof.RefOpsList
import proofs.«426214_j50276887167257_1_alg».proof.Proof.Stages

noncomputable section

namespace Cert.ReferenceIdeal.HandRun

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F]

/-! ## The program is that list

Each stretch is a chain of single operations and of entries into relu and the variance; with those two (and the
select the variance enters in turn) replaced by their bodies and the sequencing reassociated, the chain is the list
run in order. -/

theorem part0_eq (d : Dev nD) : main_part0 (F := F) d = seq opsPart0 := by
  simp only [main_part0, fn_relu.body, bind_assoc, pure_bind]
  rfl

theorem part1_eq (d : Dev nD) : main_part1 (F := F) d = seq opsPart1 := by
  simp only [main_part1, fn_relu.body, fn_var.body, fn_where.body, bind_assoc, pure_bind]
  rfl

theorem part2_eq (d : Dev nD) : main_part2 (F := F) d = seq opsPart2 := by
  simp only [main_part2, bind_assoc, pure_bind]
  rfl

theorem main_eq (d : Dev nD) : main (F := F) d = seq ops := by
  rw [show (ops : List (HloOp τ sig (Elt F))) = opsPart0 ++ opsPart1 ++ opsPart2 from rfl,
    seq_append (opsPart0 ++ opsPart1) opsPart2, seq_append opsPart0 opsPart1, bind_assoc,
    ← part0_eq d, ← part1_eq d, ← part2_eq d]
  rfl

/-! ## The side conditions of the run, for the whole list -/

theorem ops_sub : (ops : List (HloOp τ sig (Elt F))).Forall fun op => op.bufs ⊆ tcRefs τ sig := by
  simp only [ops, opsPart0, opsPart1, opsPart2, List.forall_append, and_assoc]
  exact ⟨edgeIds_sub, weights_sub, agg_sub, lin0_sub, mean0_sub, norm0_sub, lin1_sub, norm1_sub, lin2_sub, norm2a_sub, norm2b_sub, out_sub⟩

theorem ops_fresh : ∀ op ∈ (ops : List (HloOp τ sig (Elt F))), op.fresh = ∅ := by
  refine List.forall_iff_forall_mem.mp ?_
  simp only [ops, opsPart0, opsPart1, opsPart2, List.forall_append, and_assoc]
  exact ⟨edgeIds_fresh, weights_fresh, agg_fresh, lin0_fresh, mean0_fresh, norm0_fresh, lin1_fresh, norm1_fresh, lin2_fresh, norm2a_fresh, norm2b_fresh, out_fresh⟩

theorem scopedRefs_eq : (Finset.univ.filter fun b : Ref sig .tc => b.isScoped) = ∅ := by decide
theorem scopedSems_eq : (Finset.univ.filter fun sm : SemLoc sig => sm.isScoped .tc) = ∅ := by decide

/-- On every device, from any memory with zero counters: every weakly fair execution of the program terminates, and
    each buffer then holds what the list of operations, folded over the launch contents, leaves in it. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.HandRun

end
-- ==== Proof.RefRun.lean ====
/-
  The reference program's run, read back.

  The program is the list of operations of RefRunOps, cut where one stage hands a whole array to the next.  Here
  each piece's result buffer is read as the stage function of Stages applied to the buffers the piece started from,
  and the pieces are chained from the eighteen arguments to the result, the buffers in between kept by the pieces
  that do not write them.
-/
import proofs.«426214_j50276887167257_1_alg».proof.Proof.RefRunOps

noncomputable section

namespace Cert.ReferenceIdeal.HandRun

open Cert.ReferenceIdeal Cert.ReferenceIdeal.Facts₀ Cert.ReferenceIdeal.Facts Idealize.ShloMosaic Idealize.ShloMosaic.TcCoe
  Idealize.SL.Sem Idealize.ShloMosaic.StableHlo

variable {F : FTy → Type} [FloatOps F]

/-! ## Each piece's result as a stage function

At the ideal instance.  The big host operations (sums over an axis, gathers, accumulating scatters, contractions,
concatenations) are never opened: a piece's result and the stage function apply them to the same operands. -/

section Values

open Cert.Stages

attribute [local irreducible] Host.reduceAdd Host.gather Host.scatterAdd Ideal.matmul concatenate

variable (V : Valuation τ sig (Elt Ideal))

/-- The edge sources with the self loops appended. -/
theorem edgeIds_src : after (opsEdgeIds (F := Ideal)) V (no_index (main_v3 : DevRef τ sig)) = srcOf (V (main_arg16 : DevRef τ sig)) := by
  simp only [opsEdgeIds]
  after_results
  rfl

/-- The edge destinations with the self loops appended. -/
theorem edgeIds_dst : after (opsEdgeIds (F := Ideal)) V (no_index (main_v6 : DevRef τ sig)) = dstOf (V (main_arg16 : DevRef τ sig)) := by
  simp only [opsEdgeIds]
  after_results
  rfl

/-- From the two index lists of an edge table `ei`: the edge weights, the product of the inverse square roots of
    the degrees at an edge's two ends. -/
theorem weights_of_ids (ei : J S2x1600000) (hs : (V (main_v3 : DevRef τ sig)) = srcOf ei) (hd : (V (main_v6 : DevRef τ sig)) = dstOf ei) :
    after (opsWeights (F := Ideal)) V (main_v26 : DevRef τ sig) = normOf ei := by
  simp only [opsWeights]
  after_results_simp
  rw [hs, hd]
  rfl

/-- From the index lists and the weights: the aggregation of x·W over the edges. -/
theorem agg_of_ids (ei : J S2x1600000) (hs : (V (main_v3 : DevRef τ sig)) = srcOf ei) (hd : (V (main_v6 : DevRef τ sig)) = dstOf ei)
    (hn : (V (main_v26 : DevRef τ sig)) = normOf ei) :
    after (opsAgg (F := Ideal)) V (main_v40 : DevRef τ sig) = agg (Host.dotGeneral (φ₁ := .f32) (φ₂ := .f32) dot_S200000x64_S64x128_S200000x128_1_0_0_1_n_n none (V (main_arg0 : DevRef τ sig)) (V (main_arg2 : DevRef τ sig))) ei := by
  simp only [opsAgg]
  after_results_simp
  rw [hs, hd, hn]
  rfl

/-- The bias added to every row of the aggregate, and the positive part. -/
theorem lin0_result : after (opsLin0 (F := Ideal)) V (no_index (main_v44 : DevRef τ sig))
    = relu (addf (V (main_v40 : DevRef τ sig)) (bcRows (V (main_arg3 : DevRef τ sig)))) := by
  simp only [opsLin0]
  after_results_simp
  rfl

/-- The first hidden layer from the arguments: the four pieces in a row, the index lists and the weights handed on
    through the pieces that do not write them. -/
theorem conv_result :
    after (opsLin0 (F := Ideal)) (after opsAgg (after opsWeights (after opsEdgeIds V))) (no_index (main_v44 : DevRef τ sig))
      = R_h0 (V (main_arg0 : DevRef τ sig)) (V (main_arg2 : DevRef τ sig)) (V (main_arg3 : DevRef τ sig)) (V (main_arg16 : DevRef τ sig)) := by
  have hs := edgeIds_src V
  have hd := edgeIds_dst V
  have hn := weights_of_ids (after opsEdgeIds V) (V (main_arg16 : DevRef τ sig)) hs hd
  have hs' : after (opsWeights (F := Ideal)) (after opsEdgeIds V) (main_v3 : DevRef τ sig) = srcOf (V (main_arg16 : DevRef τ sig)) :=
    (weights_keep _ (r := main_v3) (by decide)).trans hs
  have hd' : after (opsWeights (F := Ideal)) (after opsEdgeIds V) (main_v6 : DevRef τ sig) = dstOf (V (main_arg16 : DevRef τ sig)) :=
    (weights_keep _ (r := main_v6) (by decide)).trans hd
  rw [lin0_result, agg_of_ids _ (V (main_arg16 : DevRef τ sig)) hs' hd' hn,
    agg_keep _ (r := main_arg3) (by decide), weights_keep _ (r := main_arg3) (by decide),
    edgeIds_keep _ (r := main_arg3) (by decide),
    weights_keep _ (r := main_arg0) (by decide), edgeIds_keep _ (r := main_arg0) (by decide),
    weights_keep _ (r := main_arg2) (by decide), edgeIds_keep _ (r := main_arg2) (by decide)]
  rfl

/-- The first batch normalisation: of the layer in `main_v44`, with scale `main_arg4` and shift `main_arg5`. -/
theorem norm0_result : after (opsNorm0 (F := Ideal)) (after opsMean0 V) (no_index (main_v63 : DevRef τ sig))
    = rbn (V (main_v44 : DevRef τ sig)) (V (main_arg4 : DevRef τ sig)) (V (main_arg5 : DevRef τ sig)) := by
  simp only [opsNorm0, opsMean0]
  after_results_simp
  rfl

/-- The second layer. -/
theorem lin1_result : after (opsLin1 (F := Ideal)) V (no_index (main_v68 : DevRef τ sig))
    = R_h1 (V (main_v63 : DevRef τ sig)) (V (main_arg6 : DevRef τ sig)) (V (main_arg7 : DevRef τ sig)) := by
  simp only [opsLin1]
  after_results_simp
  rfl

/-- The second batch normalisation. -/
theorem norm1_result : after (opsNorm1 (F := Ideal)) V (no_index (main_v87 : DevRef τ sig))
    = rbn (V (main_v68 : DevRef τ sig)) (V (main_arg8 : DevRef τ sig)) (V (main_arg9 : DevRef τ sig)) := by
  simp only [opsNorm1]
  after_results_simp
  rfl

/-- The action branch's layer. -/
theorem lin2_result : after (opsLin2 (F := Ideal)) V (no_index (main_v92 : DevRef τ sig))
    = R_h2 (V (main_arg1 : DevRef τ sig)) (V (main_arg10 : DevRef τ sig)) (V (main_arg11 : DevRef τ sig)) := by
  simp only [opsLin2]
  after_results_simp
  rfl

/-- The action branch's batch normalisation. -/
theorem norm2_result : after (opsNorm2b (F := Ideal)) (after opsNorm2a V) (no_index (main_v111 : DevRef τ sig))
    = rbn (V (main_v92 : DevRef τ sig)) (V (main_arg12 : DevRef τ sig)) (V (main_arg13 : DevRef τ sig)) := by
  simp only [opsNorm2b, opsNorm2a]
  after_results_simp
  rfl

/-- The last stage on the two normalised branches `p`, `q`: side by side, summed per graph, divided by the graph's
    node count (at least one), times W3, plus the bias. -/
def outOf (p q : A S200000x128) (w3 : A S256x1) (b3 : A S1) (bs : J S200000) : A S1000x1 :=
  addf (Host.dotGeneral dot_S1000x256_S256x1_S1000x1_1_0_0_1_n_n none
      (Host.divf
        (Host.scatterAdd scatter_S1000x256_S200000x1_S200000x256_1_0_0_1
          (broadcastInDim S1000x256 ![] bcast_S_S1000x256 (constant S_ .f32 0x00000000#32))
          (broadcastInDim S200000x1 ![0] bcast_S200000_S200000x1_0 bs)
          (concatenate S200000x256 1 [⟨S200000x128, p⟩, ⟨S200000x128, q⟩] concatenates_S200000x128_S200000x128_S200000x256_d1))
        (broadcastInDim S1000x256 ![0, 1] bcast_S1000x1_S1000x256_0_1
          (broadcastInDim S1000x1 ![0] bcast_S1000_S1000x1_0
            (maximumf (cntOf bs) (broadcastInDim S1000 ![] bcast_S_S1000 (constant S_ .f32 0x3F800000#32))))))
      w3)
    (broadcastInDim S1000x1 ![0, 1] bcast_S1x1_S1000x1_0_1 (broadcastInDim S1x1 ![1] bcast_S1_S1x1_1 b3))

/-- The reference's result is that last stage on its two normalised branches. -/
theorem R_out_eq (x : A S200000x64) (ac : A S200000x32) (wg : A S64x128) (bg g0 be0 : A S128) (w1 : A S128x128)
    (b1 g1 be1 : A S128) (w2 : A S32x128) (b2 g2 be2 : A S128) (w3 : A S256x1) (b3 : A S1) (ei : J S2x1600000)
    (bs : J S200000) :
    R_out x ac wg bg g0 be0 w1 b1 g1 be1 w2 b2 g2 be2 w3 b3 ei bs
      = outOf (rbn (R_h1 (rbn (R_h0 x wg bg ei) g0 be0) w1 b1) g1 be1) (rbn (R_h2 ac w2 b2) g2 be2) w3 b3 bs := rfl

/-- The last stage. -/
theorem out_result : after (opsOut (F := Ideal)) V (no_index (main_v128 : DevRef τ sig))
    = outOf (V (main_v87 : DevRef τ sig)) (V (main_v111 : DevRef τ sig)) (V (main_arg14 : DevRef τ sig)) (V (main_arg15 : DevRef τ sig)) (V (main_arg17 : DevRef τ sig)) := by
  simp only [opsOut]
  after_results_simp
  rfl

end Values

/-! ## The pieces chained -/

/-- Two lists run one after the other, read at a buffer: the second from what the first leaves. -/
theorem after_append_apply : ∀ (l₁ l₂ : List (HloOp τ sig (Elt F))) (V : Valuation τ sig (Elt F)) (b : DevRef τ sig),
    after (l₁ ++ l₂) V b = after l₂ (after l₁ V) b
  | [], _, _, _ => rfl
  | op :: l₁, l₂, V, b => by rw [List.cons_append, after_cons, after_cons, after_append_apply l₁ l₂]

/-- The same as an equation between the two contents. -/
theorem after_append_fun (l₁ l₂ : List (HloOp τ sig (Elt F))) (V : Valuation τ sig (Elt F)) :
    after (l₁ ++ l₂) V = after l₂ (after l₁ V) :=
  funext (after_append_apply l₁ l₂ V)

/-- A buffer that no operation of the program writes has the same contents after all of them. -/
theorem after_untouched (V : Valuation τ sig (Elt F)) {r : Ref sig .tc}
    (h : r ∉ edgeIdsW ++ weightsW ++ aggW ++ lin0W ++ mean0W ++ norm0W ++ lin1W ++ norm1W ++ lin2W ++ norm2aW ++ norm2bW ++ outW) :
    after (ops (F := F)) V (Proc.devRef .tc r) = V (Proc.devRef .tc r) := by
  simp only [List.mem_append, not_or] at h
  obtain ⟨⟨⟨⟨⟨⟨⟨⟨⟨⟨⟨h0, h1⟩, h2⟩, h3⟩, h4⟩, h5⟩, h6⟩, h7⟩, h8⟩, h9⟩, h10⟩, h11⟩ := h
  simp only [ops, opsPart0, opsPart1, opsPart2, after_append_fun, after_append_apply]
  rw [out_keep _ h11, norm2b_keep _ h10, norm2a_keep _ h9, lin2_keep _ h8, norm1_keep _ h7, lin1_keep _ h6,
    norm0_keep _ h5, mean0_keep _ h4, lin0_keep _ h3, agg_keep _ h2, weights_keep _ h1, edgeIds_keep _ h0]

open Cert.Stages in
/-- The result buffer after the whole program, from any contents: the reference's result function of the eighteen
    arguments' contents.  Read from the last piece backwards: each stage buffer is its piece's stage function of
    buffers that the pieces in between leave alone. -/
theorem after_result (V : Valuation τ sig (Elt Ideal)) :
    after (ops (F := Ideal)) V (main_v128 : DevRef τ sig)
      = R_out (V (main_arg0 : DevRef τ sig))
          (V (main_arg1 : DevRef τ sig))
          (V (main_arg2 : DevRef τ sig))
          (V (main_arg3 : DevRef τ sig))
          (V (main_arg4 : DevRef τ sig))
          (V (main_arg5 : DevRef τ sig))
          (V (main_arg6 : DevRef τ sig))
          (V (main_arg7 : DevRef τ sig))
          (V (main_arg8 : DevRef τ sig))
          (V (main_arg9 : DevRef τ sig))
          (V (main_arg10 : DevRef τ sig))
          (V (main_arg11 : DevRef τ sig))
          (V (main_arg12 : DevRef τ sig))
          (V (main_arg13 : DevRef τ sig))
          (V (main_arg14 : DevRef τ sig))
          (V (main_arg15 : DevRef τ sig))
          (V (main_arg16 : DevRef τ sig))
          (V (main_arg17 : DevRef τ sig)) := by
  rw [R_out_eq]
  simp only [ops, opsPart0, opsPart1, opsPart2, after_append_fun, after_append_apply]
  simp (disch := decide) only [out_result, norm2_result, lin2_result, norm1_result, lin1_result, norm0_result, conv_result,
    out_keep, norm2b_keep, norm2a_keep, lin2_keep, norm1_keep, lin1_keep, norm0_keep, mean0_keep, lin0_keep, agg_keep, weights_keep, edgeIds_keep]

/-! ## The run -/

/-- On every device, from any memory with zero counters: every weakly fair execution of the reference terminates
    with its result buffer at the reference's result function of the arguments' launch contents, and the eighteen
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v128)
        = Cert.Stages.R_out (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v128).trans (after_result _),
      (h c main_arg0).trans (after_untouched _ (by decide)),
      (h c main_arg1).trans (after_untouched _ (by decide)),
      (h c main_arg2).trans (after_untouched _ (by decide)),
      (h c main_arg3).trans (after_untouched _ (by decide)),
      (h c main_arg4).trans (after_untouched _ (by decide)),
      (h c main_arg5).trans (after_untouched _ (by decide)),
      (h c main_arg6).trans (after_untouched _ (by decide)),
      (h c main_arg7).trans (after_untouched _ (by decide)),
      (h c main_arg8).trans (after_untouched _ (by decide)),
      (h c main_arg9).trans (after_untouched _ (by decide)),
      (h c main_arg10).trans (after_untouched _ (by decide)),
      (h c main_arg11).trans (after_untouched _ (by decide)),
      (h c main_arg12).trans (after_untouched _ (by decide)),
      (h c main_arg13).trans (after_untouched _ (by decide)),
      (h c main_arg14).trans (after_untouched _ (by decide)),
      (h c main_arg15).trans (after_untouched _ (by decide)),
      (h c main_arg16).trans (after_untouched _ (by decide)),
      (h c main_arg17).trans (after_untouched _ (by decide))⟩)
    (run_ops m ρ)

end Cert.ReferenceIdeal.HandRun

end
-- ==== Proof.Reg0.lean ====
/-
  The first matrix product, x · W_gcn, computed in forty row tiles of 5000 rows on the matrix unit.

  Tile t of the result depends on rows 5000·t … 5000·t + 4999 of x and on the whole 64×128 weight: entry (p, q) of the
  tile is the sum over the 64 contracted columns l of x(5000·t + p, l) · W(l, q).  That is entry (5000·t + p, q) of the
  whole-array product, so each tile written back is the matching block of one function of the two arrays, and the forty
  blocks cover all 200000 rows (row r lies in tile r / 5000).  No algebraic law is needed beyond reading the matrix
  unit's contraction, into a zero accumulator, as a finite sum.
-/
import proofs.«426214_j50276887167257_1_alg».proof.Proof.Gen.KernelIdeal.Frame
import proofs.«426214_j50276887167257_1_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.ShloMosaic.ValueIdx Idealize.SL.Sem
open Idealize.ShloMosaic.Pipeline (Dat Cfg Window)

/-- Both offsets of a whole-tile access are zero. -/
theorem hz : (![0, 0] : Fin 2 → Nat) = fun _ => 0 := funext fun a => by fin_cases a <;> rfl

/-! ## The contraction's operand indices: (p, q) and l give (p, l) on the left and (l, q) on the right -/

theorem lhs_row (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_col (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_row (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_col (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- One tile of the product: entry (p, q) of the body's result is the sum over l of x0(p, l) · x1(l, q)
    (the accumulator the matrix unit adds into is zero). -/
theorem tile_apply (x0 : Vec Ideal S5000x64 .f32) (x1 : Vec Ideal S64x128 .f32) (p : Fin 5000) (q : Fin 128) :
    k0_pay1 (F := Ideal) x0 x1 (ix2 p q) = ∑ l : Fin 64, x0 (ix2 p l) * x1 (ix2 l q) := by
  unfold k0_pay1
  refine (Ideal.matmul_constant_zero_apply dot_S5000x64_S64x128_S5000x128_1_0_0_1_n_n none x0 x1 (ix2 p q)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## Where the tiles sit -/

/-- At grid point t the x tile and the result tile are block t along the rows (and the only block along the columns);
    the weight is always its one block. -/
theorem tile_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- There are forty tiles. -/
theorem point_lt (t : Fin cfg0.N) : t.val < 40 := lt_of_lt_of_eq t.isLt N_0

variable (V : (c : Dev nD) → (b : Ref sig .tc) → Buf (Elt Ideal) ((c : Thread nD τ).loc b))

/-- The node features x, a 200000×64 array of extended reals, as the region finds it. -/
abbrev xarr (c : Dev nD) : Cert.Stages.A S200000x64 := V c main_arg0
/-- The weight W, 64×128, as the region finds it. -/
abbrev warr (c : Dev nD) : Cert.Stages.A S64x128 := V c main_arg2

/-- Row p of x's tile t is row 5000·t + p of x. -/
theorem x_tile (c : Dev nD) (t : Fin cfg0.N) (p : Fin 5000) (l : Fin 64) (r : Fin 200000) (hr : r.val = t.val * 5000 + p.val) :
    (iblk0 (F := Ideal) V c 0 t : Vec Ideal S5000x64 .f32) (ix2 p l) = xarr V c (ix2 r l) := by
  obtain ⟨e0, e1, -, -, -, -⟩ := tile_index t
  show V c main_arg0 (((cfg0.win 0).blk t).view.emb (ix2 p l)) = V c main_arg0 (ix2 r l)
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 64 + 1 * l.val = l.val; rw [e1]; omega

/-- The weight's one block is the weight. -/
theorem w_tile (c : Dev nD) (t : Fin cfg0.N) (l : Fin 64) (q : Fin 128) :
    (iblk0 (F := Ideal) V c 1 t : Vec Ideal S64x128 .f32) (ix2 l q) = warr V c (ix2 l q) := by
  obtain ⟨-, -, e2, e3, -, -⟩ := tile_index t
  show V c main_arg2 (((cfg0.win 1).blk t).view.emb (ix2 l q)) = V c main_arg2 (ix2 l q)
  refine congrArg (V c main_arg2) (funext fun a => Fin.ext ?_)
  match a with
  | ⟨0, _⟩ => show win0_1.index t (0 : Fin 2) * 64 + 1 * l.val = l.val; rw [e2]; omega
  | ⟨1, _⟩ => show win0_1.index t (1 : Fin 2) * 128 + 1 * q.val = q.val; rw [e3]; omega

/-- What grid point t writes back is block t of the whole-array product. -/
theorem flushed_eq (c : Dev nD) (t : Fin cfg0.N) :
    (dat0 (F := Ideal) V c).flushed 2 t
      = ((cfg0.win 2).blk t).view.read (Elt Ideal) (Cert.Stages.mm (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x64) hz, View.ld_unit_zero (S := S64x128) hz]
  funext j
  obtain ⟨p, q, rfl⟩ : ∃ (p : Fin 5000) (q : Fin 128), j = ix2 p q := ⟨j 0, j 1, eq_ix2 j⟩
  obtain ⟨-, -, -, -, e4, e5⟩ := tile_index t
  have ht : t.val < 40 := point_lt t
  have hr : t.val * 5000 + p.val < 200000 := by have := p.isLt; omega
  have hemb : ((cfg0.win 2).blk t).view.emb (ix2 p q) = (ix2 (⟨t.val * 5000 + p.val, hr⟩ : Fin 200000) q : S200000x128.Idx) :=
    funext fun a => Fin.ext (by
      match a with
      | ⟨0, _⟩ => show win0_2.index t (0 : Fin 2) * 5000 + 1 * p.val = t.val * 5000 + p.val; rw [e4]; omega
      | ⟨1, _⟩ => show win0_2.index t (1 : Fin 2) * 128 + 1 * q.val = q.val; rw [e5]; omega)
  show k0_pay1 (F := Ideal) (iblk0 V c 0 t) (iblk0 V c 1 t) (ix2 p q)
    = Cert.Stages.mm (V c main_arg0) (V c main_arg2) (((cfg0.win 2).blk t).view.emb (ix2 p q))
  rw [hemb]
  refine (tile_apply (iblk0 V c 0 t) (iblk0 V c 1 t) p q).trans ?_
  show _ = ∑ l : Fin 64, xarr V c (ix2 (⟨t.val * 5000 + p.val, hr⟩ : Fin 200000) l) * warr V c (ix2 l q)
  refine Finset.sum_congr rfl fun l _ => ?_
  rw [x_tile V c t p l ⟨t.val * 5000 + p.val, hr⟩ rfl, w_tile V c t l q]

/-- An index of the result lies in tile t iff each coordinate lies in the tile's range on its axis. -/
theorem mem_tile (t : Fin cfg0.N) (i : S200000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Row r of the result is written by tile r / 5000. -/
theorem covered (i : S200000x128.Idx) : ∃ t : Fin cfg0.N, (cfg0.win 2).flush t = true ∧ i ∈ ((cfg0.win 2).blk t).view.set := by
  have hi0 : (i 0).val < 200000 := (i 0).isLt
  have hi1 : (i 1).val < 128 := (i 1).isLt
  have hN : grid0.N = 40 := N_0
  let t : Fin cfg0.N := ⟨(i 0).val / 5000, by show (i 0).val / 5000 < grid0.N; omega⟩
  have ht : t.val = (i 0).val / 5000 := rfl
  obtain ⟨-, -, -, -, e4, e5⟩ := tile_index t
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- After the forty tiles the result array holds x · W. -/
theorem out (c : Dev nD) : (dat0 (F := Ideal) V c).arrAt 2 cfg0.N = Cert.Stages.mm (V c main_arg0) (V c main_arg2) :=
  (dat0 (F := Ideal) V c).arrAt_eq_of_cover 2 (Cert.Stages.mm (V c main_arg0) (V c main_arg2)) (fun t _ => flushed_eq V c t) covered

end Cert.KernelIdeal.Reg0

end
-- ==== Proof.Reg1.lean ====
import proofs.«426214_j50276887167257_1_alg».proof.Proof.Gen.KernelIdeal.Frame
import proofs.«426214_j50276887167257_1_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## What one run of the body leaves in each output buffer

At the first point the two accumulator rows are reset to zero and then updated; at every other point they are
updated from what the point before left.  At every point the tile of `y` is stored whole. -/

section Pieces
variable {F : FTy → Type} [FloatOps F]

theorem hz : (![0, 0] : Fin 2 → Nat) = fun _ => 0 :=
  funext fun a => match a with | ⟨0, _⟩ => rfl | ⟨1, _⟩ => rfl

/-- First point, the `y` tile: the one store's value of the two input blocks. -/
theorem outA_y (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : cond1_0 i) (x0 : Vec F S5000x128 .f32) (x1 : Vec F S1x128 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  sl_unfold_words
  rw [View.canon_unit_zero hz]
  simp only [View.readAt_eq_ld, h1.read_unread, h2.read_unread, View.ld_unit_zero (S := S5000x128) hz, View.ld_unit_zero (S := S1x128) hz]

/-- First point, the sum row: the update applied to the zero row just stored. -/
theorem outA_s (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : cond1_0 i) (x0 : Vec F S5000x128 .f32) (x1 : Vec F S1x128 .f32) :
    out1_A_3 c i a1 h1 a2 h2 a3 h3 a4 h4 a5 h5 hc x0 x1 = k1_pay4 x0 x1 k1_pay1 := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz, View.ld_unit_zero (S := S1x128) hz]

/-- First point, the sum-of-squares row: the update applied to the zero row just stored. -/
theorem outA_q (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : cond1_0 i) (x0 : Vec F S5000x128 .f32) (x1 : Vec F S1x128 .f32) :
    out1_A_4 c i a1 h1 a2 h2 a3 h3 a4 h4 a5 h5 hc x0 x1 = k1_pay5 x0 x1 k1_pay2 := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz, View.ld_unit_zero (S := S1x128) hz]

/-- A later point, the `y` tile. -/
theorem outB_y (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : ¬cond1_0 i) (x0 : Vec F S5000x128 .f32) (x1 xo3 xo4 : Vec F S1x128 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  sl_unfold_words
  rw [View.canon_unit_zero hz]
  simp only [View.readAt_eq_ld, h1.read_unread, h2.read_unread, View.ld_unit_zero (S := S5000x128) hz, View.ld_unit_zero (S := S1x128) hz]

/-- A later point, the sum row: the update applied to the row the point before left. -/
theorem outB_s (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : ¬cond1_0 i) (x0 : Vec F S5000x128 .f32) (x1 xo3 xo4 : Vec F S1x128 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  sl_unfold_words
  rw [View.canon_unit_zero hz]
  simp only [View.readAt_eq_ld, h1.read_unread, h2.read_unread, h4.read_unread, View.ld_unit_zero (S := S5000x128) hz, View.ld_unit_zero (S := S1x128) hz]

/-- A later point, the sum-of-squares row. -/
theorem outB_q (c : Dev nD) (i : grid1.Coords) (a1 : Memref sig .tc .vmem S5000x128 .f32) (h1 : a1.IsWhole) (a2 : Memref sig .tc .vmem S1x128 .f32) (h2 : a2.IsWhole) (a3 : Memref sig .tc .vmem S5000x128 .f32) (h3 : a3.IsWhole) (a4 : Memref sig .tc .vmem S1x128 .f32) (h4 : a4.IsWhole) (a5 : Memref sig .tc .vmem S1x128 .f32) (h5 : a5.IsWhole) (hc : ¬cond1_0 i) (x0 : Vec F S5000x128 .f32) (x1 xo3 xo4 : Vec F S1x128 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  sl_unfold_words
  rw [View.canon_unit_zero hz]
  simp only [View.readAt_eq_ld, h1.read_unread, h2.read_unread, h5.read_unread, View.ld_unit_zero (S := S5000x128) hz, View.ld_unit_zero (S := S1x128) hz]

end Pieces

/-! ## The body's arithmetic at the extended reals, index by index -/

/-- The tile value: each row plus the bias row, then the positive part. -/
theorem pay3_eq (x : Vec Ideal S5000x128 .f32) (b : Vec Ideal S1x128 .f32) :
    k1_pay3 (F := Ideal) x b = Cert.Stages.biasRelu x b := by
  funext i
  obtain ⟨r, j, rfl⟩ : ∃ (r : Fin 5000) (j : Fin 128), i = ix2 r j := ⟨i 0, i 1, eq_ix2 i⟩
  unfold k1_pay3
  show max (shapeCast S5000x128 x _ (ix2 r j) + broadcastTo S5000x128 (shapeCast S1x128 b _) _ (ix2 r j))
      (Ideal.ofBits .f32 0x00000000#32) = max (x (ix2 r j) + b (ix2 0 j)) 0
  rw [shapeCast_self, shapeCast_self, broadcastTo_1b_ab_apply, Ideal.ofBits_zero_f32]

/-- The reduced axis put back: row `k` of column `j`. -/
theorem lift_col (h : S5000x128.Reduces [0] S128) (j : Fin 128) (k : Fin 5000) : h.lift (ix1 j) k = ix2 k j :=
  funext fun a => match a with
    | ⟨0, _⟩ => Fin.ext rfl
    | ⟨1, _⟩ => Fin.ext rfl

/-- The column sums of a tile, as a 1×128 row. -/
theorem colsum_eq (y : Vec Ideal S5000x128 .f32) (h : S5000x128.Reduces [0] S128) (h' : S128.ShapeCasts S1x128)
    (u : Fin 1) (j : Fin 128) :
    shapeCast S1x128 (multiReduction (F := Ideal) .add [0] S128 y 0x00000000#32 h (.inl rfl) rfl) h' (ix2 u j)
      = ∑ r : Fin 5000, y (ix2 r j) := by
  rw [shapeCast_a_1a_apply]
  refine (Ideal.multiReduction_add_single y 0x00000000#32 h (.inl rfl) rfl (ix1 j)).trans ?_
  exact Finset.sum_congr rfl fun r _ => congrArg y (lift_col h j r)

/-- The sum row's update: the old row plus the tile's column sums. -/
theorem pay4_eq (x : Vec Ideal S5000x128 .f32) (b acc : Vec Ideal S1x128 .f32) :
    k1_pay4 (F := Ideal) x b acc = fun i => acc i + ∑ r : Fin 5000, Cert.Stages.biasRelu x b (ix2 r (i 1)) := by
  funext i
  obtain ⟨u, j, rfl⟩ : ∃ (u : Fin 1) (j : Fin 128), i = ix2 u j := ⟨i 0, i 1, eq_ix2 i⟩
  unfold k1_pay4
  show shapeCast S1x128 acc _ (ix2 u j)
      + shapeCast S1x128 (multiReduction (F := Ideal) .add [0] S128 (k1_pay3 (F := Ideal) x b) 0x00000000#32 _ (.inl rfl) rfl) _ (ix2 u j)
      = acc (ix2 u j) + ∑ r : Fin 5000, Cert.Stages.biasRelu x b (ix2 r j)
  rw [shapeCast_self, colsum_eq, pay3_eq]

/-- The sum-of-squares row's update: the old row plus the column sums of the tile's squares. -/
theorem pay5_eq (x : Vec Ideal S5000x128 .f32) (b acc : Vec Ideal S1x128 .f32) :
    k1_pay5 (F := Ideal) x b acc
      = fun i => acc i + ∑ r : Fin 5000, Cert.Stages.biasRelu x b (ix2 r (i 1)) * Cert.Stages.biasRelu x b (ix2 r (i 1)) := by
  funext i
  obtain ⟨u, j, rfl⟩ : ∃ (u : Fin 1) (j : Fin 128), i = ix2 u j := ⟨i 0, i 1, eq_ix2 i⟩
  unfold k1_pay5
  show shapeCast S1x128 acc _ (ix2 u j)
      + shapeCast S1x128 (multiReduction (F := Ideal) .add [0] S128
          (mulf (k1_pay3 (F := Ideal) x b) (k1_pay3 (F := Ideal) x b)) 0x00000000#32 _ (.inl rfl) rfl) _ (ix2 u j)
      = acc (ix2 u j) + ∑ r : Fin 5000, Cert.Stages.biasRelu x b (ix2 r j) * Cert.Stages.biasRelu x b (ix2 r j)
  rw [shapeCast_self, colsum_eq, pay3_eq]
  rfl

/-- The reset rows are zero. -/
theorem pay1_eq : k1_pay1 (F := Ideal) = fun _ => 0 := by
  funext i
  unfold k1_pay1
  show Ideal.ofBits .f32 0x00000000#32 = 0
  exact Ideal.ofBits_zero_f32
theorem pay2_eq : k1_pay2 (F := Ideal) = fun _ => 0 := by
  funext i
  unfold k1_pay2
  show Ideal.ofBits .f32 0x00000000#32 = 0
  exact Ideal.ofBits_zero_f32

/-! ## The blocks a point reads: rows 5000·t … 5000·t + 4999 of `a`, and the whole bias row -/

/-- The block index maps over the grid: the row-tiled windows move with the point along the rows, the 1×128 rows
    never move. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The pre-activation array `a` (200000×128) and the bias row `b` (1×128) as the region finds them. -/
abbrev aIn (c : Dev nD) : Cert.Stages.A S200000x128 := V c main_v40
abbrev bIn (c : Dev nD) : Cert.Stages.A S1x128 := V c main_v41
/-- The region's first result: `y = max(a + b, 0)`. -/
abbrev Y (c : Dev nD) : Cert.Stages.A S200000x128 := Cert.Stages.biasRelu (aIn V c) (bIn V c)
/-- The two input blocks at point `t`. -/
abbrev xblk (c : Dev nD) (t : Fin cfg1.N) : Vec Ideal S5000x128 .f32 := iblk1 V c 0 t
abbrev bblk (c : Dev nD) (t : Fin cfg1.N) : Vec Ideal S1x128 .f32 := iblk1 V c 1 t

/-- Entry (r, l) of the tile at point `t` is entry (5000·t + r, l) of `a`. -/
theorem xblk_apply (c : Dev nD) (t : Fin cfg1.N) (x : S5000x128.Idx) (k : S200000x128.Idx)
    (hk0 : (k 0).val = 5000 * t.val + (x 0).val) (hk1 : (k 1).val = (x 1).val) :
    xblk V c t x = aIn V c k := by
  obtain ⟨e0, e1, -⟩ := idx_facts t
  unfold xblk iblk1
  rw [View.read_apply]
  show V c main_v40 _ = V c main_v40 _
  refine congrArg (V c main_v40) (funext fun a => Fin.ext ?_)
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The bias block is the bias row at every point. -/
theorem bblk_apply (c : Dev nD) (t : Fin cfg1.N) (x : S1x128.Idx) : bblk V c t x = bIn V c x := by
  obtain ⟨-, -, e0, e1, -⟩ := idx_facts t
  unfold bblk iblk1
  rw [View.read_apply]
  show V c main_v41 _ = V c main_v41 _
  refine congrArg (V c main_v41) (funext fun a => Fin.ext ?_)
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- So the tile's value at (r, l) is `y` at (5000·t + r, l). -/
theorem tile_y (c : Dev nD) (t : Fin cfg1.N) (x : S5000x128.Idx) (k : S200000x128.Idx)
    (hk0 : (k 0).val = 5000 * t.val + (x 0).val) (hk1 : (k 1).val = (x 1).val) :
    Cert.Stages.biasRelu (xblk V c t) (bblk V c t) x = Y V c k := by
  have e1 : xblk V c t x = aIn V c k := xblk_apply V c t x k hk0 hk1
  have e2 : bblk V c t (ix2 0 (x 1)) = bIn V c (ix2 0 (k 1)) :=
    (bblk_apply V c t _).trans (congrArg (bIn V c) (funext fun a => match a with
      | ⟨0, _⟩ => rfl
      | ⟨1, _⟩ => Fin.ext hk1.symm))
  show max (xblk V c t x + bblk V c t (ix2 0 (x 1))) 0 = max (aIn V c k + bIn V c (ix2 0 (k 1))) 0
  rw [e1, e2]

/-! ## What the three output buffers hold after each point -/

/-- At the first point: the tile, and the two rows updated from zero. -/
theorem outs_A (c : Dev nD) (t : Fin cfg1.N) (h0 : t.val % 40 = 0) :
    outsAt1 V c t.val t.isLt = (k1_pay3 (xblk V c t) (bblk V c t),
      k1_pay4 (xblk V c t) (bblk V c t) (k1_pay1 (F := Ideal)), k1_pay5 (xblk V c t) (bblk V c t) (k1_pay2 (F := Ideal))) := by
  rw [outsAt1_A V c t h0,
    outA_y c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t),
    outA_s c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t),
    outA_q c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)]

/-- At a later point: the tile, and the two rows updated from what the point before left. -/
theorem outs_B (c : Dev nD) (t : Fin cfg1.N) (h0 : ¬t.val % 40 = 0) :
    outsAt1 V c t.val t.isLt = (k1_pay3 (xblk V c t) (bblk V c t),
      k1_pay4 (xblk V c t) (bblk V c t) (outsAt1 V c (t.val - 1) (Nat.lt_of_le_of_lt (Nat.sub_le _ _) t.isLt)).2.1,
      k1_pay5 (xblk V c t) (bblk V c t) (outsAt1 V c (t.val - 1) (Nat.lt_of_le_of_lt (Nat.sub_le _ _) t.isLt)).2.2) := by
  rw [outsAt1_B V c t h0,
    outB_y c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) _ _,
    outB_s c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) _ _,
    outB_q c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) _ _]

/-- The `y` buffer after any point holds that point's tile of `y`. -/
theorem outs_y (c : Dev nD) (t : Fin cfg1.N) :
    (outsAt1 V c t.val t.isLt).1 = Cert.Stages.biasRelu (xblk V c t) (bblk V c t) := by
  by_cases h0 : t.val % 40 = 0
  · rw [outs_A V c t h0]; dsimp only; exact pay3_eq _ _
  · rw [outs_B V c t h0]; dsimp only; exact pay3_eq _ _

/-! ## The 200000 rows as forty tiles of 5000 -/

/-- A sum over the 200000 rows is the sum over the forty tiles of the sums over each tile's 5000 rows. -/
theorem sum_tiles {M : Type*} [AddCommMonoid M] (g : Fin 200000 → M) :
    ∑ x : Fin 200000, g x
      = ∑ k : Fin 40, ∑ r : Fin 5000, g ⟨5000 * k.val + r.val, by have := k.isLt; have := r.isLt; omega⟩ := by
  have e := (Equiv.sum_comp (finProdFinEquiv (m := 40) (n := 5000)) (g : Fin (40 * 5000) → M)).symm
  rw [Fintype.sum_prod_type] at e
  refine e.trans (Finset.sum_congr rfl fun k _ => Finset.sum_congr rfl fun r _ => congrArg g (Fin.ext ?_))
  show r.val + 5000 * k.val = 5000 * k.val + r.val
  omega

/-- So forty per-tile terms, each the sum over its tile's rows, add up to the sum over all rows. -/
theorem sum_range_tiles {M : Type*} [AddCommMonoid M] (T : ℕ → M) (g : Fin 200000 → M)
    (hT : ∀ (k : ℕ) (h : k < 40), T k = ∑ r : Fin 5000, g ⟨5000 * k + r.val, by have := r.isLt; omega⟩) :
    ∑ k ∈ Finset.range 40, T k = ∑ x : Fin 200000, g x := by
  rw [sum_tiles, Finset.sum_range]
  exact Finset.sum_congr rfl fun k _ => hT k.val k.isLt

/-- Column `j`'s sum over tile `k` of a 200000×128 array (zero past the fortieth tile). -/
def tileSum (y : Cert.Stages.A S200000x128) (k : ℕ) (j : Fin 128) : EReal :=
  if h : k < 40 then ∑ r : Fin 5000, y (ix2 (⟨5000 * k + r.val, by have := r.isLt; omega⟩ : Fin 200000) j) else 0
/-- Column `j`'s sum of squares over tile `k`. -/
def tileSumSq (y : Cert.Stages.A S200000x128) (k : ℕ) (j : Fin 128) : EReal :=
  if h : k < 40 then ∑ r : Fin 5000, y (ix2 (⟨5000 * k + r.val, by have := r.isLt; omega⟩ : Fin 200000) j)
      * y (ix2 (⟨5000 * k + r.val, by have := r.isLt; omega⟩ : Fin 200000) j) else 0

/-- What point `t` adds to the sum row is tile `t`'s column sum of `y`. -/
theorem tile_sum (c : Dev nD) (t : Fin cfg1.N) (j : Fin 128) :
    ∑ r : Fin 5000, Cert.Stages.biasRelu (xblk V c t) (bblk V c t) (ix2 r j) = tileSum (Y V c) t.val j := by
  have ht : t.val < 40 := lt_of_lt_of_eq t.isLt (show cfg1.N = 40 from N_1)
  unfold tileSum
  rw [dif_pos ht]
  exact Finset.sum_congr rfl fun r _ => tile_y V c t (ix2 r j) (ix2 ⟨5000 * t.val + r.val, _⟩ j) rfl rfl

/-- What point `t` adds to the sum-of-squares row is tile `t`'s column sum of `y²`. -/
theorem tile_sumsq (c : Dev nD) (t : Fin cfg1.N) (j : Fin 128) :
    ∑ r : Fin 5000, Cert.Stages.biasRelu (xblk V c t) (bblk V c t) (ix2 r j) * Cert.Stages.biasRelu (xblk V c t) (bblk V c t) (ix2 r j)
      = tileSumSq (Y V c) t.val j := by
  have ht : t.val < 40 := lt_of_lt_of_eq t.isLt (show cfg1.N = 40 from N_1)
  unfold tileSumSq
  rw [dif_pos ht]
  exact Finset.sum_congr rfl fun r _ => by
    rw [tile_y V c t (ix2 r j) (ix2 ⟨5000 * t.val + r.val, _⟩ j) rfl rfl]

/-- THE ACCUMULATION: after point `n` the sum row holds the column sums of `y` over tiles 0 … n, the other row those of
    `y²` — by induction on the point: the first point starts from zero, every later one adds its tile's sum to what
    the point before left. -/
theorem acc_eq (c : Dev nD) : ∀ (n : ℕ) (h : n < cfg1.N),
    (outsAt1 V c n h).2.1 = (fun i => ∑ k ∈ Finset.range (n + 1), tileSum (Y V c) k (i 1))
    ∧ (outsAt1 V c n h).2.2 = (fun i => ∑ k ∈ Finset.range (n + 1), tileSumSq (Y V c) k (i 1))
  | 0, h => by
    rw [show outsAt1 V c 0 h = _ from outs_A V c ⟨0, h⟩ rfl]
    dsimp only
    rw [pay4_eq, pay5_eq, pay1_eq, pay2_eq]
    constructor
    · funext i
      rw [Finset.sum_range_succ, Finset.sum_range_zero, tile_sum V c ⟨0, h⟩ (i 1)]
    · funext i
      rw [Finset.sum_range_succ, Finset.sum_range_zero, tile_sumsq V c ⟨0, h⟩ (i 1)]
  | n + 1, h => by
    have hN : cfg1.N = 40 := N_1
    have hB : ¬(⟨n + 1, h⟩ : Fin cfg1.N).val % 40 = 0 := by dsimp only; omega
    obtain ⟨ihs, ihq⟩ := acc_eq c n (Nat.lt_of_succ_lt h)
    rw [show outsAt1 V c (n + 1) h = _ from outs_B V c ⟨n + 1, h⟩ hB]
    dsimp only
    rw [pay4_eq, pay5_eq]
    constructor
    · funext i
      show (outsAt1 V c n _).2.1 i + _ = _
      rw [ihs, tile_sum V c ⟨n + 1, h⟩ (i 1), Finset.sum_range_succ (fun k => tileSum (Y V c) k (i 1)) (n + 1)]
    · funext i
      show (outsAt1 V c n _).2.2 i + _ = _
      rw [ihq, tile_sumsq V c ⟨n + 1, h⟩ (i 1), Finset.sum_range_succ (fun k => tileSumSq (Y V c) k (i 1)) (n + 1)]

/-! ## From the blocks written back to the three result arrays -/

/-- WHAT POINT `t` WRITES BACK into the `y` array is block `t` of `y = max(a + b, 0)`. -/
theorem flushed_y (c : Dev nD) (t : Fin cfg1.N) :
    (dat1 (F := Ideal) V c).flushed 2 t = ((cfg1.win 2).blk t).view.read (Elt Ideal) (Y V c) := by
  obtain ⟨-, -, -, -, e0, e1, -⟩ := idx_facts t
  show (cfg1.win 2).cut (grid1.coords t) ((dat1 V c).after 2 t) = _
  rw [after1_2, outs_y V c t]
  funext y
  rw [View.read_apply]
  refine tile_y V c t y _ ?_ ?_
  · show win1_2.index t 0 * 5000 + 1 * (y 0).val = 5000 * t.val + (y 0).val
    rw [e0]; omega
  · show win1_2.index t 1 * 128 + 1 * (y 1).val = (y 1).val
    rw [e1]; omega

/-- An index of the `y` array is in point `t`'s block iff each coordinate is in the block's range on its axis. -/
theorem mem_blk_y (t : Fin cfg1.N) (i : S200000x128.Idx) :
    i ∈ ((cfg1.win 2).blk t).view.set
      ↔ ∀ a : Fin 2, win1_2.index t a * S5000x128.size a ≤ (i a).val ∧ (i a).val < win1_2.index t a * S5000x128.size a + S5000x128.size a := by
  show i ∈ ((View.whole main_v42_0).slice (win1_2.rect t)).set ↔ _
  rw [View.set_slice_whole, Rect.mem_set_unit]
  exact Iff.rfl

/-- Row `r` of the `y` array is written back by point `r / 5000`. -/
theorem cover_y (i : S200000x128.Idx) :
    ∃ t : Fin cfg1.N, (cfg1.win 2).flush t = true ∧ i ∈ ((cfg1.win 2).blk t).view.set := by
  have hN : cfg1.N = 40 := N_1
  have hi0 : (i 0).val < 200000 := (i 0).isLt
  have hi1 : (i 1).val < 128 := (i 1).isLt
  obtain ⟨-, -, -, -, e0, e1, -⟩ := idx_facts ⟨(i 0).val / 5000, by omega⟩
  refine ⟨⟨(i 0).val / 5000, by omega⟩, flush1_2 _, ?_⟩
  rw [mem_blk_y]
  intro a
  match a with
  | ⟨0, _⟩ =>
    show win1_2.index ⟨(i 0).val / 5000, _⟩ 0 * 5000 ≤ (i 0).val ∧ (i 0).val < win1_2.index ⟨(i 0).val / 5000, _⟩ 0 * 5000 + 5000
    rw [e0]; dsimp only; omega
  | ⟨1, _⟩ =>
    show win1_2.index ⟨(i 0).val / 5000, _⟩ 1 * 128 ≤ (i 1).val ∧ (i 1).val < win1_2.index ⟨(i 0).val / 5000, _⟩ 1 * 128 + 128
    rw [e1]; omega

theorem out_y (c : Dev nD) : (dat1 (F := Ideal) V c).arrAt 2 cfg1.N = Cert.Stages.biasRelu (V c main_v40) (V c main_v41) :=
  (dat1 (F := Ideal) V c).arrAt_eq_of_cover 2 (Y V c) (fun t _ => flushed_y V c t) cover_y

/-- After the last point the sum row's accumulated tile sums are the column sums of `y` over all 200000 rows. -/
theorem colsum_total (c : Dev nD) (n : ℕ) (hn : n = 39) (j : Fin 128) (i : S1x128.Idx) (hi : (i 1).val = j.val) :
    ∑ k ∈ Finset.range (n + 1), tileSum (Y V c) k j = Cert.Stages.colSum (Y V c) i := by
  subst hn
  obtain rfl : i 1 = j := Fin.ext hi
  show _ = ∑ r : Fin 200000, Y V c (ix2 r (i 1))
  exact sum_range_tiles _ (fun r => Y V c (ix2 r (i 1))) fun k hk => by unfold tileSum; rw [dif_pos hk]

/-- The same for the squares. -/
theorem colsumsq_total (c : Dev nD) (n : ℕ) (hn : n = 39) (j : Fin 128) (i : S1x128.Idx) (hi : (i 1).val = j.val) :
    ∑ k ∈ Finset.range (n + 1), tileSumSq (Y V c) k j = Cert.Stages.colSumSq (Y V c) i := by
  subst hn
  obtain rfl : i 1 = j := Fin.ext hi
  show _ = ∑ r : Fin 200000, Y V c (ix2 r (i 1)) * Y V c (ix2 r (i 1))
  exact sum_range_tiles _ (fun r => Y V c (ix2 r (i 1)) * Y V c (ix2 r (i 1))) fun k hk => by unfold tileSumSq; rw [dif_pos hk]

/-- THE ONE WRITE-BACK of the sum row, after the last point, writes the column sums of `y` over all forty tiles: the
    sums over all 200000 rows. -/
theorem flushed_s (c : Dev nD) (t : Fin cfg1.N) (hf : (cfg1.win 3).flush t = true) :
    (dat1 (F := Ideal) V c).flushed 3 t = ((cfg1.win 3).blk t).view.read (Elt Ideal) (Cert.Stages.colSum (Y V c)) := by
  have hN : cfg1.N = 40 := N_1
  have h39 : t.val = 39 := by have := (flush1_3 t).mp hf; have := t.isLt; omega
  obtain ⟨-, -, -, -, -, -, e0, e1, -⟩ := idx_facts t
  show (cfg1.win 3).cut (grid1.coords t) ((dat1 V c).after 3 t) = _
  rw [after1_3, (acc_eq V c t.val t.isLt).1]
  funext y
  rw [View.read_apply, cast_eq]
  have hy1 : (y 1).val < 128 := (y 1).isLt
  show ∑ k ∈ Finset.range (t.val + 1), tileSum (Y V c) k ⟨(y 1).val, hy1⟩ = _
  refine colsum_total V c t.val h39 ⟨(y 1).val, hy1⟩ _ ?_
  show win1_3.index t 1 * 128 + 1 * (y 1).val = (y 1).val
  rw [e1]; omega

/-- The same for the sum-of-squares row. -/
theorem flushed_q (c : Dev nD) (t : Fin cfg1.N) (hf : (cfg1.win 4).flush t = true) :
    (dat1 (F := Ideal) V c).flushed 4 t = ((cfg1.win 4).blk t).view.read (Elt Ideal) (Cert.Stages.colSumSq (Y V c)) := by
  have hN : cfg1.N = 40 := N_1
  have h39 : t.val = 39 := by have := (flush1_4 t).mp hf; have := t.isLt; omega
  obtain ⟨-, -, -, -, -, -, -, -, e0, e1⟩ := idx_facts t
  show (cfg1.win 4).cut (grid1.coords t) ((dat1 V c).after 4 t) = _
  rw [after1_4, (acc_eq V c t.val t.isLt).2]
  funext y
  rw [View.read_apply, cast_eq]
  have hy1 : (y 1).val < 128 := (y 1).isLt
  show ∑ k ∈ Finset.range (t.val + 1), tileSumSq (Y V c) k ⟨(y 1).val, hy1⟩ = _
  refine colsumsq_total V c t.val h39 ⟨(y 1).val, hy1⟩ _ ?_
  show win1_4.index t 1 * 128 + 1 * (y 1).val = (y 1).val
  rw [e1]; omega

/-- An index of a 1×128 result row is in the last point's block of its window: the block is the whole row. -/
theorem mem_blk_s (t : Fin cfg1.N) (i : S1x128.Idx) :
    i ∈ ((cfg1.win 3).blk t).view.set
      ↔ ∀ a : Fin 2, win1_3.index t a * S1x128.size a ≤ (i a).val ∧ (i a).val < win1_3.index t a * S1x128.size a + S1x128.size a := by
  show i ∈ ((View.whole main_v42_1).slice (win1_3.rect t)).set ↔ _
  rw [View.set_slice_whole, Rect.mem_set_unit]
  exact Iff.rfl
theorem mem_blk_q (t : Fin cfg1.N) (i : S1x128.Idx) :
    i ∈ ((cfg1.win 4).blk t).view.set
      ↔ ∀ a : Fin 2, win1_4.index t a * S1x128.size a ≤ (i a).val ∧ (i a).val < win1_4.index t a * S1x128.size a + S1x128.size a := by
  show i ∈ ((View.whole main_v42_2).slice (win1_4.rect t)).set ↔ _
  rw [View.set_slice_whole, Rect.mem_set_unit]
  exact Iff.rfl

theorem cover_s (i : S1x128.Idx) :
    ∃ t : Fin cfg1.N, (cfg1.win 3).flush t = true ∧ i ∈ ((cfg1.win 3).blk t).view.set := by
  have hN : cfg1.N = 40 := N_1
  have hi0 : (i 0).val < 1 := (i 0).isLt
  have hi1 : (i 1).val < 128 := (i 1).isLt
  obtain ⟨-, -, -, -, -, -, e0, e1, -⟩ := idx_facts ⟨39, by omega⟩
  refine ⟨⟨39, by omega⟩, (flush1_3 _).mpr rfl, ?_⟩
  rw [mem_blk_s]
  intro a
  match a with
  | ⟨0, _⟩ =>
    show win1_3.index ⟨39, _⟩ 0 * 1 ≤ (i 0).val ∧ (i 0).val < win1_3.index ⟨39, _⟩ 0 * 1 + 1
    rw [e0]; omega
  | ⟨1, _⟩ =>
    show win1_3.index ⟨39, _⟩ 1 * 128 ≤ (i 1).val ∧ (i 1).val < win1_3.index ⟨39, _⟩ 1 * 128 + 128
    rw [e1]; omega

theorem cover_q (i : S1x128.Idx) :
    ∃ t : Fin cfg1.N, (cfg1.win 4).flush t = true ∧ i ∈ ((cfg1.win 4).blk t).view.set := by
  have hN : cfg1.N = 40 := N_1
  have hi0 : (i 0).val < 1 := (i 0).isLt
  have hi1 : (i 1).val < 128 := (i 1).isLt
  obtain ⟨-, -, -, -, -, -, -, -, e0, e1⟩ := idx_facts ⟨39, by omega⟩
  refine ⟨⟨39, by omega⟩, (flush1_4 _).mpr rfl, ?_⟩
  rw [mem_blk_q]
  intro a
  match a with
  | ⟨0, _⟩ =>
    show win1_4.index ⟨39, _⟩ 0 * 1 ≤ (i 0).val ∧ (i 0).val < win1_4.index ⟨39, _⟩ 0 * 1 + 1
    rw [e0]; omega
  | ⟨1, _⟩ =>
    show win1_4.index ⟨39, _⟩ 1 * 128 ≤ (i 1).val ∧ (i 1).val < win1_4.index ⟨39, _⟩ 1 * 128 + 128
    rw [e1]; omega

theorem out_s (c : Dev nD) : (dat1 (F := Ideal) V c).arrAt 3 cfg1.N = Cert.Stages.colSum (Cert.Stages.biasRelu (V c main_v40) (V c main_v41)) :=
  (dat1 (F := Ideal) V c).arrAt_eq_of_cover 3 (Cert.Stages.colSum (Y V c)) (flushed_s V c) cover_s

theorem out_q (c : Dev nD) : (dat1 (F := Ideal) V c).arrAt 4 cfg1.N = Cert.Stages.colSumSq (Cert.Stages.biasRelu (V c main_v40) (V c main_v41)) :=
  (dat1 (F := Ideal) V c).arrAt_eq_of_cover 4 (Cert.Stages.colSumSq (Y V c)) (flushed_q V c) cover_q

end Cert.KernelIdeal.Reg1

end
-- ==== Proof.Reg2.lean ====
/-
  Region 2: one of the three batch normalisations, applied tile by tile.

  The launch walks the 200000 rows in forty tiles of 5000 rows.  At a tile the body reads the tile of y and the four
  1×128 rows (mean, variance, scale, shift) whole, and stores, entry by entry,
      (y − mean) · (variance + ε)^(−1/2) · scale + shift,
  every row read at the entry's column.  The block written at point t is rows 5000·t … 5000·t + 4999 of the output,
  so the forty blocks tile the array and the array ends holding that one function of the five operands at every index.
-/
import proofs.«426214_j50276887167257_1_alg».proof.Proof.Gen.KernelIdeal.Frame
import proofs.«426214_j50276887167257_1_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offsets of a whole-buffer access are zero on both axes. -/
theorem zero_off : (![0, 0] : Fin 2 → Nat) = fun _ => 0 :=
  funext fun a => match a with | ⟨0, _⟩ => rfl | ⟨1, _⟩ => rfl

/-- One entry of the tile the body stores: the entry of y less the mean of its column, times the inverse square root of
    that column's variance plus ε, times the column's scale, plus the column's shift. -/
theorem tile_entry (vr : Vec Ideal S1x128 .f32) (y : Vec Ideal S5000x128 .f32) (mu g be : Vec Ideal S1x128 .f32)
    (p : Fin 5000) (q : Fin 128) :
    k2_pay1 (F := Ideal) vr y mu g be (ix2 p q)
      = (y (ix2 p q) - mu (ix2 0 q)) * Ideal.rsqrt (vr (ix2 0 q) + Ideal.ofBits .f32 0x3727C5AC#32) * g (ix2 0 q)
          + be (ix2 0 q) := by
  unfold k2_pay1
  simp only [shapeCast_self, addf_apply, mulf_apply, subf_apply, broadcastTo_1b_ab_apply]
  rfl

/-- The same entry once each block is known to be a piece of its array: it is the batch normalisation of the arrays at
    the row the entry sits on. -/
theorem entry_of_reads (Y : Cert.Stages.A S200000x128) (M Vr G B : Cert.Stages.A S1x128)
    (y : Vec Ideal S5000x128 .f32) (mu vr g be : Vec Ideal S1x128 .f32) (p : Fin 5000) (q : Fin 128) (r : Fin 200000)
    (hy : y (ix2 p q) = Y (ix2 r q)) (hmu : mu (ix2 0 q) = M (ix2 0 q)) (hvr : vr (ix2 0 q) = Vr (ix2 0 q))
    (hg : g (ix2 0 q) = G (ix2 0 q)) (hbe : be (ix2 0 q) = B (ix2 0 q)) :
    k2_pay1 (F := Ideal) vr y mu g be (ix2 p q) = Cert.Stages.bnApply Y M Vr G B (ix2 r q) := by
  rw [tile_entry, hy, hmu, hvr, hg, hbe]
  rfl

/-- The block indices over the grid: the tile of y and the output tile sit at block row t, the four rows at block (0, 0). -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The tile of y at point t is rows 5000·t … 5000·t + 4999 of y. -/
theorem ytile (c : Dev nD) (t : Fin cfg2.N) (x : S5000x128.Idx) (k : S200000x128.Idx)
    (hk0 : (k 0).val = t.val * 5000 + (x 0).val) (hk1 : (k 1).val = (x 1).val) :
    (iblk2 (F := Ideal) V c 0 t : Vec Ideal S5000x128 .f32) x = (V c main_v42_0 : S200000x128.Idx → Elt Ideal .f32) k := by
  obtain ⟨e0, e1, -⟩ := block_index t
  show V c main_v42_0 (((cfg2.win 0).blk t).view.emb x) = V c main_v42_0 k
  refine congrArg _ (funext fun a => Fin.ext ?_)
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- The mean row's block at any point is the whole row. -/
theorem mean_row (c : Dev nD) (t : Fin cfg2.N) (x : S1x128.Idx) :
    (iblk2 (F := Ideal) V c 1 t : Vec Ideal S1x128 .f32) x = (V c main_v53 : S1x128.Idx → Elt Ideal .f32) x := by
  obtain ⟨-, -, e0, e1, -⟩ := block_index t
  show V c main_v53 (((cfg2.win 1).blk t).view.emb x) = V c main_v53 x
  refine congrArg _ (funext fun a => Fin.ext ?_)
  match a with
  | ⟨0, _⟩ => show win2_1.index t (0 : Fin 2) * 1 + 1 * (x 0).val = (x 0).val; rw [e0]; omega
  | ⟨1, _⟩ => show win2_1.index t (1 : Fin 2) * 128 + 1 * (x 1).val = (x 1).val; rw [e1]; omega

/-- The variance row's block at any point is the whole row. -/
theorem var_row (c : Dev nD) (t : Fin cfg2.N) (x : S1x128.Idx) :
    (iblk2 (F := Ideal) V c 2 t : Vec Ideal S1x128 .f32) x = (V c main_v54 : S1x128.Idx → Elt Ideal .f32) x := by
  obtain ⟨-, -, -, -, e0, e1, -⟩ := block_index t
  show V c main_v54 (((cfg2.win 2).blk t).view.emb x) = V c main_v54 x
  refine congrArg _ (funext fun a => Fin.ext ?_)
  match a with
  | ⟨0, _⟩ => show win2_2.index t (0 : Fin 2) * 1 + 1 * (x 0).val = (x 0).val; rw [e0]; omega
  | ⟨1, _⟩ => show win2_2.index t (1 : Fin 2) * 128 + 1 * (x 1).val = (x 1).val; rw [e1]; omega

/-- The scale row's block at any point is the whole row. -/
theorem scale_row (c : Dev nD) (t : Fin cfg2.N) (x : S1x128.Idx) :
    (iblk2 (F := Ideal) V c 3 t : Vec Ideal S1x128 .f32) x = (V c main_v55 : S1x128.Idx → Elt Ideal .f32) x := by
  obtain ⟨-, -, -, -, -, -, e0, e1, -⟩ := block_index t
  show V c main_v55 (((cfg2.win 3).blk t).view.emb x) = V c main_v55 x
  refine congrArg _ (funext fun a => Fin.ext ?_)
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-- The shift row's block at any point is the whole row. -/
theorem shift_row (c : Dev nD) (t : Fin cfg2.N) (x : S1x128.Idx) :
    (iblk2 (F := Ideal) V c 4 t : Vec Ideal S1x128 .f32) x = (V c main_v56 : S1x128.Idx → Elt Ideal .f32) x := by
  obtain ⟨-, -, -, -, -, -, -, -, e0, e1, -⟩ := block_index t
  show V c main_v56 (((cfg2.win 4).blk t).view.emb x) = V c main_v56 x
  refine congrArg _ (funext fun a => Fin.ext ?_)
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-- What point t writes back is block t of the batch normalisation of the five arrays as the region finds them. -/
theorem written_back (c : Dev nD) (t : Fin cfg2.N) :
    (dat2 (F := Ideal) V c).flushed 5 t
      = ((cfg2.win 5).blk t).view.read (Elt Ideal)
          (Cert.Stages.bnApply (V c main_v42_0) (V c main_v53) (V c main_v54) (V c main_v55) (V c main_v56)) := by
  show (cfg2.win 5).cut (grid2.coords t) ((dat2 (F := Ideal) V c).after 5 t) = _
  rw [after2_5]
  unfold out2_5
  rw [View.canon_unit_zero zero_off]
  simp only [View.ld_unit_zero (S := S5000x128) zero_off, View.ld_unit_zero (S := S1x128) zero_off]
  obtain ⟨-, -, -, -, -, -, -, -, -, -, e0, e1⟩ := block_index t
  have ht : t.val < 40 := lt_of_lt_of_eq t.isLt N_2
  refine funext fun (j : S5000x128.Idx) => ?_
  obtain ⟨p, q, rfl⟩ : ∃ (p : Fin 5000) (q : Fin 128), j = ix2 p q := ⟨j 0, j 1, eq_ix2 j⟩
  have hp : p.val < 5000 := p.isLt
  show k2_pay1 (F := Ideal) (iblk2 V c 2 t) (iblk2 V c 0 t) (iblk2 V c 1 t) (iblk2 V c 3 t) (iblk2 V c 4 t) (ix2 p q)
      = Cert.Stages.bnApply (V c main_v42_0) (V c main_v53) (V c main_v54) (V c main_v55) (V c main_v56)
          (((cfg2.win 5).blk t).view.emb (ix2 p q))
  have hrow : ((cfg2.win 5).blk t).view.emb (ix2 p q)
      = (ix2 (⟨t.val * 5000 + p.val, by omega⟩ : Fin 200000) q : S200000x128.Idx) := by
    refine funext fun a => Fin.ext ?_
    match a with
    | ⟨0, _⟩ => show win2_5.index t (0 : Fin 2) * 5000 + 1 * p.val = t.val * 5000 + p.val; rw [e0]; omega
    | ⟨1, _⟩ => show win2_5.index t (1 : Fin 2) * 128 + 1 * q.val = q.val; rw [e1]; omega
  rw [hrow]
  exact entry_of_reads (V c main_v42_0) (V c main_v53) (V c main_v54) (V c main_v55) (V c main_v56)
    (iblk2 V c 0 t) (iblk2 V c 1 t) (iblk2 V c 2 t) (iblk2 V c 3 t) (iblk2 V c 4 t) p q ⟨t.val * 5000 + p.val, by omega⟩
    (ytile V c t (ix2 p q) (ix2 ⟨t.val * 5000 + p.val, by omega⟩ q) rfl rfl)
    (mean_row V c t (ix2 0 q)) (var_row V c t (ix2 0 q)) (scale_row V c t (ix2 0 q)) (shift_row V c t (ix2 0 q))

/-- An index of the output array is in point t's block iff each coordinate is in the block's range on its axis. -/
theorem in_block (t : Fin cfg2.N) (i : S200000x128.Idx) :
    i ∈ ((cfg2.win 5).blk t).view.set
      ↔ ∀ a : Fin 2, win2_5.index t a * S5000x128.size a ≤ (i a).val
          ∧ (i a).val < win2_5.index t a * S5000x128.size a + S5000x128.size a := by
  show i ∈ ((View.whole main_v57).slice (win2_5.rect t)).set ↔ _
  rw [View.set_slice_whole, Rect.mem_set_unit]
  exact Iff.rfl

/-- Row r of the output is written back by point r / 5000: the forty blocks tile the array. -/
theorem tiles_cover (i : S200000x128.Idx) :
    ∃ t : Fin cfg2.N, (cfg2.win 5).flush t = true ∧ i ∈ ((cfg2.win 5).blk t).view.set := by
  have hi0 : (i 0).val < 200000 := (i 0).isLt
  have hi1 : (i 1).val < 128 := (i 1).isLt
  have hlt : (i 0).val / 5000 < cfg2.N := lt_of_lt_of_eq (by omega : (i 0).val / 5000 < 40) N_2.symm
  obtain ⟨-, -, -, -, -, -, -, -, -, -, e0, e1⟩ := block_index ⟨(i 0).val / 5000, hlt⟩
  have e0' : win2_5.index ⟨(i 0).val / 5000, hlt⟩ (0 : Fin 2) = (i 0).val / 5000 := e0
  refine ⟨⟨(i 0).val / 5000, hlt⟩, flush2_5 _, ?_⟩
  rw [in_block]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    rw [e0']; omega
  | ⟨1, _⟩ =>
    show win2_5.index ⟨(i 0).val / 5000, hlt⟩ (1 : Fin 2) * 128 ≤ (i 1).val
      ∧ (i 1).val < win2_5.index ⟨(i 0).val / 5000, hlt⟩ (1 : Fin 2) * 128 + 128
    rw [e1]; omega

/-- The output array after the region: the batch normalisation of y with the four rows, at every index. -/
theorem out (c : Dev nD) : (dat2 (F := Ideal) V c).arrAt 5 cfg2.N = Cert.Stages.bnApply (V c main_v42_0) (V c main_v53) (V c main_v54) (V c main_v55) (V c main_v56) :=
  (dat2 (F := Ideal) V c).arrAt_eq_of_cover 5 _ (fun t _ => written_back V c t) (tiles_cover)

end Cert.KernelIdeal.Reg2

end
-- ==== Proof.Reg4.lean ====
/-
  Region 4: one of the three batch normalisations, applied tile by tile.

  The launch walks the 200000 rows in forty tiles of 5000 rows.  At a tile the body reads the tile of y and the four
  1×128 rows (mean, variance, scale, shift) whole, and stores, entry by entry,
      (y − mean) · (variance + ε)^(−1/2) · scale + shift,
  every row read at the entry's column.  The block written at point t is rows 5000·t … 5000·t + 4999 of the output,
  so the forty blocks tile the array and the array ends holding that one function of the five operands at every index.
-/
import proofs.«426214_j50276887167257_1_alg».proof.Proof.Gen.KernelIdeal.Frame
import proofs.«426214_j50276887167257_1_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Reg4

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offsets of a whole-buffer access are zero on both axes. -/
theorem zero_off : (![0, 0] : Fin 2 → Nat) = fun _ => 0 :=
  funext fun a => match a with | ⟨0, _⟩ => rfl | ⟨1, _⟩ => rfl

/-- One entry of the tile the body stores: the entry of y less the mean of its column, times the inverse square root of
    that column's variance plus ε, times the column's scale, plus the column's shift. -/
theorem tile_entry (vr : Vec Ideal S1x128 .f32) (y : Vec Ideal S5000x128 .f32) (mu g be : Vec Ideal S1x128 .f32)
    (p : Fin 5000) (q : Fin 128) :
    k4_pay1 (F := Ideal) vr y mu g be (ix2 p q)
      = (y (ix2 p q) - mu (ix2 0 q)) * Ideal.rsqrt (vr (ix2 0 q) + Ideal.ofBits .f32 0x3727C5AC#32) * g (ix2 0 q)
          + be (ix2 0 q) := by
  unfold k4_pay1
  simp only [shapeCast_self, addf_apply, mulf_apply, subf_apply, broadcastTo_1b_ab_apply]
  rfl

/-- The same entry once each block is known to be a piece of its array: it is the batch normalisation of the arrays at
    the row the entry sits on. -/
theorem entry_of_reads (Y : Cert.Stages.A S200000x128) (M Vr G B : Cert.Stages.A S1x128)
    (y : Vec Ideal S5000x128 .f32) (mu vr g be : Vec Ideal S1x128 .f32) (p : Fin 5000) (q : Fin 128) (r : Fin 200000)
    (hy : y (ix2 p q) = Y (ix2 r q)) (hmu : mu (ix2 0 q) = M (ix2 0 q)) (hvr : vr (ix2 0 q) = Vr (ix2 0 q))
    (hg : g (ix2 0 q) = G (ix2 0 q)) (hbe : be (ix2 0 q) = B (ix2 0 q)) :
    k4_pay1 (F := Ideal) vr y mu g be (ix2 p q) = Cert.Stages.bnApply Y M Vr G B (ix2 r q) := by
  rw [tile_entry, hy, hmu, hvr, hg, hbe]
  rfl

/-- The block indices over the grid: the tile of y and the output tile sit at block row t, the four rows at block (0, 0). -/
theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The tile of y at point t is rows 5000·t … 5000·t + 4999 of y. -/
theorem ytile (c : Dev nD) (t : Fin cfg4.N) (x : S5000x128.Idx) (k : S200000x128.Idx)
    (hk0 : (k 0).val = t.val * 5000 + (x 0).val) (hk1 : (k 1).val = (x 1).val) :
    (iblk4 (F := Ideal) V c 0 t : Vec Ideal S5000x128 .f32) x = (V c main_v59_0 : S200000x128.Idx → Elt Ideal .f32) k := by
  obtain ⟨e0, e1, -⟩ := block_index t
  show V c main_v59_0 (((cfg4.win 0).blk t).view.emb x) = V c main_v59_0 k
  refine congrArg _ (funext fun a => Fin.ext ?_)
  match a with
  | ⟨0, _⟩ => show win4_0.index t (0 : Fin 2) * 5000 + 1 * (x 0).val = (k 0).val; rw [e0, hk0]; omega
  | ⟨1, _⟩ => show win4_0.index t (1 : Fin 2) * 128 + 1 * (x 1).val = (k 1).val; rw [e1, hk1]; omega

/-- The mean row's block at any point is the whole row. -/
theorem mean_row (c : Dev nD) (t : Fin cfg4.N) (x : S1x128.Idx) :
    (iblk4 (F := Ideal) V c 1 t : Vec Ideal S1x128 .f32) x = (V c main_v70 : S1x128.Idx → Elt Ideal .f32) x := by
  obtain ⟨-, -, e0, e1, -⟩ := block_index t
  show V c main_v70 (((cfg4.win 1).blk t).view.emb x) = V c main_v70 x
  refine congrArg _ (funext fun a => Fin.ext ?_)
  match a with
  | ⟨0, _⟩ => show win4_1.index t (0 : Fin 2) * 1 + 1 * (x 0).val = (x 0).val; rw [e0]; omega
  | ⟨1, _⟩ => show win4_1.index t (1 : Fin 2) * 128 + 1 * (x 1).val = (x 1).val; rw [e1]; omega

/-- The variance row's block at any point is the whole row. -/
theorem var_row (c : Dev nD) (t : Fin cfg4.N) (x : S1x128.Idx) :
    (iblk4 (F := Ideal) V c 2 t : Vec Ideal S1x128 .f32) x = (V c main_v71 : S1x128.Idx → Elt Ideal .f32) x := by
  obtain ⟨-, -, -, -, e0, e1, -⟩ := block_index t
  show V c main_v71 (((cfg4.win 2).blk t).view.emb x) = V c main_v71 x
  refine congrArg _ (funext fun a => Fin.ext ?_)
  match a with
  | ⟨0, _⟩ => show win4_2.index t (0 : Fin 2) * 1 + 1 * (x 0).val = (x 0).val; rw [e0]; omega
  | ⟨1, _⟩ => show win4_2.index t (1 : Fin 2) * 128 + 1 * (x 1).val = (x 1).val; rw [e1]; omega

/-- The scale row's block at any point is the whole row. -/
theorem scale_row (c : Dev nD) (t : Fin cfg4.N) (x : S1x128.Idx) :
    (iblk4 (F := Ideal) V c 3 t : Vec Ideal S1x128 .f32) x = (V c main_v72 : S1x128.Idx → Elt Ideal .f32) x := by
  obtain ⟨-, -, -, -, -, -, e0, e1, -⟩ := block_index t
  show V c main_v72 (((cfg4.win 3).blk t).view.emb x) = V c main_v72 x
  refine congrArg _ (funext fun a => Fin.ext ?_)
  match a with
  | ⟨0, _⟩ => show win4_3.index t (0 : Fin 2) * 1 + 1 * (x 0).val = (x 0).val; rw [e0]; omega
  | ⟨1, _⟩ => show win4_3.index t (1 : Fin 2) * 128 + 1 * (x 1).val = (x 1).val; rw [e1]; omega

/-- The shift row's block at any point is the whole row. -/
theorem shift_row (c : Dev nD) (t : Fin cfg4.N) (x : S1x128.Idx) :
    (iblk4 (F := Ideal) V c 4 t : Vec Ideal S1x128 .f32) x = (V c main_v73 : S1x128.Idx → Elt Ideal .f32) x := by
  obtain ⟨-, -, -, -, -, -, -, -, e0, e1, -⟩ := block_index t
  show V c main_v73 (((cfg4.win 4).blk t).view.emb x) = V c main_v73 x
  refine congrArg _ (funext fun a => Fin.ext ?_)
  match a with
  | ⟨0, _⟩ => show win4_4.index t (0 : Fin 2) * 1 + 1 * (x 0).val = (x 0).val; rw [e0]; omega
  | ⟨1, _⟩ => show win4_4.index t (1 : Fin 2) * 128 + 1 * (x 1).val = (x 1).val; rw [e1]; omega

/-- What point t writes back is block t of the batch normalisation of the five arrays as the region finds them. -/
theorem written_back (c : Dev nD) (t : Fin cfg4.N) :
    (dat4 (F := Ideal) V c).flushed 5 t
      = ((cfg4.win 5).blk t).view.read (Elt Ideal)
          (Cert.Stages.bnApply (V c main_v59_0) (V c main_v70) (V c main_v71) (V c main_v72) (V c main_v73)) := by
  show (cfg4.win 5).cut (grid4.coords t) ((dat4 (F := Ideal) V c).after 5 t) = _
  rw [after4_5]
  unfold out4_5
  rw [View.canon_unit_zero zero_off]
  simp only [View.ld_unit_zero (S := S5000x128) zero_off, View.ld_unit_zero (S := S1x128) zero_off]
  obtain ⟨-, -, -, -, -, -, -, -, -, -, e0, e1⟩ := block_index t
  have ht : t.val < 40 := lt_of_lt_of_eq t.isLt N_4
  refine funext fun (j : S5000x128.Idx) => ?_
  obtain ⟨p, q, rfl⟩ : ∃ (p : Fin 5000) (q : Fin 128), j = ix2 p q := ⟨j 0, j 1, eq_ix2 j⟩
  have hp : p.val < 5000 := p.isLt
  show k4_pay1 (F := Ideal) (iblk4 V c 2 t) (iblk4 V c 0 t) (iblk4 V c 1 t) (iblk4 V c 3 t) (iblk4 V c 4 t) (ix2 p q)
      = Cert.Stages.bnApply (V c main_v59_0) (V c main_v70) (V c main_v71) (V c main_v72) (V c main_v73)
          (((cfg4.win 5).blk t).view.emb (ix2 p q))
  have hrow : ((cfg4.win 5).blk t).view.emb (ix2 p q)
      = (ix2 (⟨t.val * 5000 + p.val, by omega⟩ : Fin 200000) q : S200000x128.Idx) := by
    refine funext fun a => Fin.ext ?_
    match a with
    | ⟨0, _⟩ => show win4_5.index t (0 : Fin 2) * 5000 + 1 * p.val = t.val * 5000 + p.val; rw [e0]; omega
    | ⟨1, _⟩ => show win4_5.index t (1 : Fin 2) * 128 + 1 * q.val = q.val; rw [e1]; omega
  rw [hrow]
  exact entry_of_reads (V c main_v59_0) (V c main_v70) (V c main_v71) (V c main_v72) (V c main_v73)
    (iblk4 V c 0 t) (iblk4 V c 1 t) (iblk4 V c 2 t) (iblk4 V c 3 t) (iblk4 V c 4 t) p q ⟨t.val * 5000 + p.val, by omega⟩
    (ytile V c t (ix2 p q) (ix2 ⟨t.val * 5000 + p.val, by omega⟩ q) rfl rfl)
    (mean_row V c t (ix2 0 q)) (var_row V c t (ix2 0 q)) (scale_row V c t (ix2 0 q)) (shift_row V c t (ix2 0 q))

/-- An index of the output array is in point t's block iff each coordinate is in the block's range on its axis. -/
theorem in_block (t : Fin cfg4.N) (i : S200000x128.Idx) :
    i ∈ ((cfg4.win 5).blk t).view.set
      ↔ ∀ a : Fin 2, win4_5.index t a * S5000x128.size a ≤ (i a).val
          ∧ (i a).val < win4_5.index t a * S5000x128.size a + S5000x128.size a := by
  show i ∈ ((View.whole main_v74).slice (win4_5.rect t)).set ↔ _
  rw [View.set_slice_whole, Rect.mem_set_unit]
  exact Iff.rfl

/-- Row r of the output is written back by point r / 5000: the forty blocks tile the array. -/
theorem tiles_cover (i : S200000x128.Idx) :
    ∃ t : Fin cfg4.N, (cfg4.win 5).flush t = true ∧ i ∈ ((cfg4.win 5).blk t).view.set := by
  have hi0 : (i 0).val < 200000 := (i 0).isLt
  have hi1 : (i 1).val < 128 := (i 1).isLt
  have hlt : (i 0).val / 5000 < cfg4.N := lt_of_lt_of_eq (by omega : (i 0).val / 5000 < 40) N_4.symm
  obtain ⟨-, -, -, -, -, -, -, -, -, -, e0, e1⟩ := block_index ⟨(i 0).val / 5000, hlt⟩
  have e0' : win4_5.index ⟨(i 0).val / 5000, hlt⟩ (0 : Fin 2) = (i 0).val / 5000 := e0
  refine ⟨⟨(i 0).val / 5000, hlt⟩, flush4_5 _, ?_⟩
  rw [in_block]
  intro a
  match a with
  | ⟨0, _⟩ =>
    show win4_5.index ⟨(i 0).val / 5000, hlt⟩ (0 : Fin 2) * 5000 ≤ (i 0).val
      ∧ (i 0).val < win4_5.index ⟨(i 0).val / 5000, hlt⟩ (0 : Fin 2) * 5000 + 5000
    rw [e0']; omega
  | ⟨1, _⟩ =>
    show win4_5.index ⟨(i 0).val / 5000, hlt⟩ (1 : Fin 2) * 128 ≤ (i 1).val
      ∧ (i 1).val < win4_5.index ⟨(i 0).val / 5000, hlt⟩ (1 : Fin 2) * 128 + 128
    rw [e1]; omega

/-- The output array after the region: the batch normalisation of y with the four rows, at every index. -/
theorem out (c : Dev nD) : (dat4 (F := Ideal) V c).arrAt 5 cfg4.N = Cert.Stages.bnApply (V c main_v59_0) (V c main_v70) (V c main_v71) (V c main_v72) (V c main_v73) :=
  (dat4 (F := Ideal) V c).arrAt_eq_of_cover 5 _ (fun t _ => written_back V c t) (tiles_cover)

end Cert.KernelIdeal.Reg4

end
-- ==== Proof.Reg6.lean ====
/-
  Region 6: one of the three batch normalisations, applied tile by tile.

  The launch walks the 200000 rows in forty tiles of 5000 rows.  At a tile the body reads the tile of y and the four
  1×128 rows (mean, variance, scale, shift) whole, and stores, entry by entry,
      (y − mean) · (variance + ε)^(−1/2) · scale + shift,
  every row read at the entry's column.  The block written at point t is rows 5000·t … 5000·t + 4999 of the output,
  so the forty blocks tile the array and the array ends holding that one function of the five operands at every index.
-/
import proofs.«426214_j50276887167257_1_alg».proof.Proof.Gen.KernelIdeal.Frame
import proofs.«426214_j50276887167257_1_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Reg6

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offsets of a whole-buffer access are zero on both axes. -/
theorem zero_off : (![0, 0] : Fin 2 → Nat) = fun _ => 0 :=
  funext fun a => match a with | ⟨0, _⟩ => rfl | ⟨1, _⟩ => rfl

/-- One entry of the tile the body stores: the entry of y less the mean of its column, times the inverse square root of
    that column's variance plus ε, times the column's scale, plus the column's shift. -/
theorem tile_entry (vr : Vec Ideal S1x128 .f32) (y : Vec Ideal S5000x128 .f32) (mu g be : Vec Ideal S1x128 .f32)
    (p : Fin 5000) (q : Fin 128) :
    k6_pay1 (F := Ideal) vr y mu g be (ix2 p q)
      = (y (ix2 p q) - mu (ix2 0 q)) * Ideal.rsqrt (vr (ix2 0 q) + Ideal.ofBits .f32 0x3727C5AC#32) * g (ix2 0 q)
          + be (ix2 0 q) := by
  unfold k6_pay1
  simp only [shapeCast_self, addf_apply, mulf_apply, subf_apply, broadcastTo_1b_ab_apply]
  rfl

/-- The same entry once each block is known to be a piece of its array: it is the batch normalisation of the arrays at
    the row the entry sits on. -/
theorem entry_of_reads (Y : Cert.Stages.A S200000x128) (M Vr G B : Cert.Stages.A S1x128)
    (y : Vec Ideal S5000x128 .f32) (mu vr g be : Vec Ideal S1x128 .f32) (p : Fin 5000) (q : Fin 128) (r : Fin 200000)
    (hy : y (ix2 p q) = Y (ix2 r q)) (hmu : mu (ix2 0 q) = M (ix2 0 q)) (hvr : vr (ix2 0 q) = Vr (ix2 0 q))
    (hg : g (ix2 0 q) = G (ix2 0 q)) (hbe : be (ix2 0 q) = B (ix2 0 q)) :
    k6_pay1 (F := Ideal) vr y mu g be (ix2 p q) = Cert.Stages.bnApply Y M Vr G B (ix2 r q) := by
  rw [tile_entry, hy, hmu, hvr, hg, hbe]
  rfl

/-- The block indices over the grid: the tile of y and the output tile sit at block row t, the four rows at block (0, 0). -/
theorem block_index : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The tile of y at point t is rows 5000·t … 5000·t + 4999 of y. -/
theorem ytile (c : Dev nD) (t : Fin cfg6.N) (x : S5000x128.Idx) (k : S200000x128.Idx)
    (hk0 : (k 0).val = t.val * 5000 + (x 0).val) (hk1 : (k 1).val = (x 1).val) :
    (iblk6 (F := Ideal) V c 0 t : Vec Ideal S5000x128 .f32) x = (V c main_v76_0 : S200000x128.Idx → Elt Ideal .f32) k := by
  obtain ⟨e0, e1, -⟩ := block_index t
  show V c main_v76_0 (((cfg6.win 0).blk t).view.emb x) = V c main_v76_0 k
  refine congrArg _ (funext fun a => Fin.ext ?_)
  match a with
  | ⟨0, _⟩ => show win6_0.index t (0 : Fin 2) * 5000 + 1 * (x 0).val = (k 0).val; rw [e0, hk0]; omega
  | ⟨1, _⟩ => show win6_0.index t (1 : Fin 2) * 128 + 1 * (x 1).val = (k 1).val; rw [e1, hk1]; omega

/-- The mean row's block at any point is the whole row. -/
theorem mean_row (c : Dev nD) (t : Fin cfg6.N) (x : S1x128.Idx) :
    (iblk6 (F := Ideal) V c 1 t : Vec Ideal S1x128 .f32) x = (V c main_v87 : S1x128.Idx → Elt Ideal .f32) x := by
  obtain ⟨-, -, e0, e1, -⟩ := block_index t
  show V c main_v87 (((cfg6.win 1).blk t).view.emb x) = V c main_v87 x
  refine congrArg _ (funext fun a => Fin.ext ?_)
  match a with
  | ⟨0, _⟩ => show win6_1.index t (0 : Fin 2) * 1 + 1 * (x 0).val = (x 0).val; rw [e0]; omega
  | ⟨1, _⟩ => show win6_1.index t (1 : Fin 2) * 128 + 1 * (x 1).val = (x 1).val; rw [e1]; omega

/-- The variance row's block at any point is the whole row. -/
theorem var_row (c : Dev nD) (t : Fin cfg6.N) (x : S1x128.Idx) :
    (iblk6 (F := Ideal) V c 2 t : Vec Ideal S1x128 .f32) x = (V c main_v88 : S1x128.Idx → Elt Ideal .f32) x := by
  obtain ⟨-, -, -, -, e0, e1, -⟩ := block_index t
  show V c main_v88 (((cfg6.win 2).blk t).view.emb x) = V c main_v88 x
  refine congrArg _ (funext fun a => Fin.ext ?_)
  match a with
  | ⟨0, _⟩ => show win6_2.index t (0 : Fin 2) * 1 + 1 * (x 0).val = (x 0).val; rw [e0]; omega
  | ⟨1, _⟩ => show win6_2.index t (1 : Fin 2) * 128 + 1 * (x 1).val = (x 1).val; rw [e1]; omega

/-- The scale row's block at any point is the whole row. -/
theorem scale_row (c : Dev nD) (t : Fin cfg6.N) (x : S1x128.Idx) :
    (iblk6 (F := Ideal) V c 3 t : Vec Ideal S1x128 .f32) x = (V c main_v89 : S1x128.Idx → Elt Ideal .f32) x := by
  obtain ⟨-, -, -, -, -, -, e0, e1, -⟩ := block_index t
  show V c main_v89 (((cfg6.win 3).blk t).view.emb x) = V c main_v89 x
  refine congrArg _ (funext fun a => Fin.ext ?_)
  match a with
  | ⟨0, _⟩ => show win6_3.index t (0 : Fin 2) * 1 + 1 * (x 0).val = (x 0).val; rw [e0]; omega
  | ⟨1, _⟩ => show win6_3.index t (1 : Fin 2) * 128 + 1 * (x 1).val = (x 1).val; rw [e1]; omega

/-- The shift row's block at any point is the whole row. -/
theorem shift_row (c : Dev nD) (t : Fin cfg6.N) (x : S1x128.Idx) :
    (iblk6 (F := Ideal) V c 4 t : Vec Ideal S1x128 .f32) x = (V c main_v90 : S1x128.Idx → Elt Ideal .f32) x := by
  obtain ⟨-, -, -, -, -, -, -, -, e0, e1, -⟩ := block_index t
  show V c main_v90 (((cfg6.win 4).blk t).view.emb x) = V c main_v90 x
  refine congrArg _ (funext fun a => Fin.ext ?_)
  match a with
  | ⟨0, _⟩ => show win6_4.index t (0 : Fin 2) * 1 + 1 * (x 0).val = (x 0).val; rw [e0]; omega
  | ⟨1, _⟩ => show win6_4.index t (1 : Fin 2) * 128 + 1 * (x 1).val = (x 1).val; rw [e1]; omega

/-- What point t writes back is block t of the batch normalisation of the five arrays as the region finds them. -/
theorem written_back (c : Dev nD) (t : Fin cfg6.N) :
    (dat6 (F := Ideal) V c).flushed 5 t
      = ((cfg6.win 5).blk t).view.read (Elt Ideal)
          (Cert.Stages.bnApply (V c main_v76_0) (V c main_v87) (V c main_v88) (V c main_v89) (V c main_v90)) := by
  show (cfg6.win 5).cut (grid6.coords t) ((dat6 (F := Ideal) V c).after 5 t) = _
  rw [after6_5]
  unfold out6_5
  rw [View.canon_unit_zero zero_off]
  simp only [View.ld_unit_zero (S := S5000x128) zero_off, View.ld_unit_zero (S := S1x128) zero_off]
  obtain ⟨-, -, -, -, -, -, -, -, -, -, e0, e1⟩ := block_index t
  have ht : t.val < 40 := lt_of_lt_of_eq t.isLt N_6
  refine funext fun (j : S5000x128.Idx) => ?_
  obtain ⟨p, q, rfl⟩ : ∃ (p : Fin 5000) (q : Fin 128), j = ix2 p q := ⟨j 0, j 1, eq_ix2 j⟩
  have hp : p.val < 5000 := p.isLt
  show k6_pay1 (F := Ideal) (iblk6 V c 2 t) (iblk6 V c 0 t) (iblk6 V c 1 t) (iblk6 V c 3 t) (iblk6 V c 4 t) (ix2 p q)
      = Cert.Stages.bnApply (V c main_v76_0) (V c main_v87) (V c main_v88) (V c main_v89) (V c main_v90)
          (((cfg6.win 5).blk t).view.emb (ix2 p q))
  have hrow : ((cfg6.win 5).blk t).view.emb (ix2 p q)
      = (ix2 (⟨t.val * 5000 + p.val, by omega⟩ : Fin 200000) q : S200000x128.Idx) := by
    refine funext fun a => Fin.ext ?_
    match a with
    | ⟨0, _⟩ => show win6_5.index t (0 : Fin 2) * 5000 + 1 * p.val = t.val * 5000 + p.val; rw [e0]; omega
    | ⟨1, _⟩ => show win6_5.index t (1 : Fin 2) * 128 + 1 * q.val = q.val; rw [e1]; omega
  rw [hrow]
  exact entry_of_reads (V c main_v76_0) (V c main_v87) (V c main_v88) (V c main_v89) (V c main_v90)
    (iblk6 V c 0 t) (iblk6 V c 1 t) (iblk6 V c 2 t) (iblk6 V c 3 t) (iblk6 V c 4 t) p q ⟨t.val * 5000 + p.val, by omega⟩
    (ytile V c t (ix2 p q) (ix2 ⟨t.val * 5000 + p.val, by omega⟩ q) rfl rfl)
    (mean_row V c t (ix2 0 q)) (var_row V c t (ix2 0 q)) (scale_row V c t (ix2 0 q)) (shift_row V c t (ix2 0 q))

/-- An index of the output array is in point t's block iff each coordinate is in the block's range on its axis. -/
theorem in_block (t : Fin cfg6.N) (i : S200000x128.Idx) :
    i ∈ ((cfg6.win 5).blk t).view.set
      ↔ ∀ a : Fin 2, win6_5.index t a * S5000x128.size a ≤ (i a).val
          ∧ (i a).val < win6_5.index t a * S5000x128.size a + S5000x128.size a := by
  show i ∈ ((View.whole main_v91).slice (win6_5.rect t)).set ↔ _
  rw [View.set_slice_whole, Rect.mem_set_unit]
  exact Iff.rfl

/-- Row r of the output is written back by point r / 5000: the forty blocks tile the array. -/
theorem tiles_cover (i : S200000x128.Idx) :
    ∃ t : Fin cfg6.N, (cfg6.win 5).flush t = true ∧ i ∈ ((cfg6.win 5).blk t).view.set := by
  have hi0 : (i 0).val < 200000 := (i 0).isLt
  have hi1 : (i 1).val < 128 := (i 1).isLt
  have hlt : (i 0).val / 5000 < cfg6.N := lt_of_lt_of_eq (by omega : (i 0).val / 5000 < 40) N_6.symm
  obtain ⟨-, -, -, -, -, -, -, -, -, -, e0, e1⟩ := block_index ⟨(i 0).val / 5000, hlt⟩
  have e0' : win6_5.index ⟨(i 0).val / 5000, hlt⟩ (0 : Fin 2) = (i 0).val / 5000 := e0
  refine ⟨⟨(i 0).val / 5000, hlt⟩, flush6_5 _, ?_⟩
  rw [in_block]
  intro a
  match a with
  | ⟨0, _⟩ =>
    show win6_5.index ⟨(i 0).val / 5000, hlt⟩ (0 : Fin 2) * 5000 ≤ (i 0).val
      ∧ (i 0).val < win6_5.index ⟨(i 0).val / 5000, hlt⟩ (0 : Fin 2) * 5000 + 5000
    rw [e0']; omega
  | ⟨1, _⟩ =>
    show win6_5.index ⟨(i 0).val / 5000, hlt⟩ (1 : Fin 2) * 128 ≤ (i 1).val
      ∧ (i 1).val < win6_5.index ⟨(i 0).val / 5000, hlt⟩ (1 : Fin 2) * 128 + 128
    rw [e1]; omega

/-- The output array after the region: the batch normalisation of y with the four rows, at every index. -/
theorem out (c : Dev nD) : (dat6 (F := Ideal) V c).arrAt 5 cfg6.N = Cert.Stages.bnApply (V c main_v76_0) (V c main_v87) (V c main_v88) (V c main_v89) (V c main_v90) :=
  (dat6 (F := Ideal) V c).arrAt_eq_of_cover 5 _ (fun t _ => written_back V c t) (tiles_cover)

end Cert.KernelIdeal.Reg6

end
-- ==== Proof.Reg246.lean ====
/-
  Regions 2, 4 and 6: the batch normalisation applied tile by tile.

  Each of the three launches walks the 200000 rows in forty tiles of 5000 rows.  At a tile the body reads the tile of y
  and the four 1×128 rows (mean, variance, scale, shift) whole, and stores, entry by entry,
      (y − mean) · (variance + ε)^(−1/2) · scale + shift,
  every row read at the entry's column.  The block written at point t is rows 5000·t … 5000·t + 4999 of the output,
  so the forty blocks tile the array and the array ends holding that one function of the five operands at every index.
  The three launches are treated one by one; here their results stand side by side.
-/
import proofs.«426214_j50276887167257_1_alg».proof.Proof.Reg2
import proofs.«426214_j50276887167257_1_alg».proof.Proof.Reg4
import proofs.«426214_j50276887167257_1_alg».proof.Proof.Reg6

set_option maxRecDepth 16384

noncomputable section

namespace Cert.KernelIdeal.Reg246

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The first stack's normalised output. -/
theorem out2 (c : Dev nD) : (dat2 (F := Ideal) V c).arrAt 5 cfg2.N = Cert.Stages.bnApply (V c main_v42_0) (V c main_v53) (V c main_v54) (V c main_v55) (V c main_v56) :=
  Reg2.out V c
/-- The second stack's normalised output. -/
theorem out4 (c : Dev nD) : (dat4 (F := Ideal) V c).arrAt 5 cfg4.N = Cert.Stages.bnApply (V c main_v59_0) (V c main_v70) (V c main_v71) (V c main_v72) (V c main_v73) :=
  Reg4.out V c
/-- The third stack's normalised output. -/
theorem out6 (c : Dev nD) : (dat6 (F := Ideal) V c).arrAt 5 cfg6.N = Cert.Stages.bnApply (V c main_v76_0) (V c main_v87) (V c main_v88) (V c main_v89) (V c main_v90) :=
  Reg6.out V c

end Cert.KernelIdeal.Reg246

end
-- ==== Proof.Reg3.lean ====
/-
  The fourth stage's arrays after its forty row tiles: the matrix product of a 5000×128 tile with the 128×128
  weights, the bias row added and the positive part taken, stored tile by tile; and two 1×128 rows accumulated over
  the tiles, the column sums of that result and of its squares.

  Tile t holds rows 5000·t … 5000·t + 4999, so the stored tiles are the rows of the whole-array result, and a
  column's sum over the 200000 rows is the sum of the forty tiles' column sums: after point t the accumulator holds
  the sum over the rows below 5000·(t + 1), by induction on the point, starting from the zeroed row; the last
  point's write-back is the full sum.
-/
import proofs.«426214_j50276887167257_1_alg».proof.Proof.Gen.KernelIdeal.Frame
import proofs.«426214_j50276887167257_1_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Reg3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## A sum over the 200000 rows, cut into forty tiles of 5000 rows -/

/-- Row `r'` of tile `n` as a row of the whole array: row 5000·n + r'. -/
def tileRow (n : ℕ) (hn : n < 40) (r' : Fin 5000) : Fin 200000 :=
  ⟨5000 * n + r'.val, by have := r'.isLt; omega⟩

/-- The sum of `g` over the rows below 5000·n (the first `n` tiles). -/
def below {M : Type} [AddCommMonoid M] (g : Fin 200000 → M) (n : ℕ) : M :=
  ∑ r : Fin 200000, if r.val < 5000 * n then g r else 0

theorem below_zero {M : Type} [AddCommMonoid M] (g : Fin 200000 → M) : below g 0 = 0 :=
  Finset.sum_eq_zero fun r _ => if_neg (by omega)

theorem below_all {M : Type} [AddCommMonoid M] (g : Fin 200000 → M) : below g 40 = ∑ r : Fin 200000, g r :=
  Finset.sum_congr rfl fun r _ => if_pos (by have := r.isLt; omega)

/-- One more tile: the rows below 5000·(n+1) are the rows below 5000·n and the 5000 rows of tile `n`. -/
theorem below_succ {M : Type} [AddCommMonoid M] (g : Fin 200000 → M) (n : ℕ) (hn : n < 40) :
    below g n + ∑ r' : Fin 5000, g (tileRow n hn r') = below g (n + 1) := by
  have hsplit : ∀ r : Fin 200000, (if r.val < 5000 * (n + 1) then g r else 0)
      = (if r.val < 5000 * n then g r else 0)
        + (if 5000 * n ≤ r.val ∧ r.val < 5000 * (n + 1) then g r else 0) := by
    intro r
    by_cases h1 : r.val < 5000 * n
    · rw [if_pos h1, if_pos (by omega), if_neg (by omega), add_zero]
    · by_cases h2 : r.val < 5000 * (n + 1)
      · rw [if_neg h1, if_pos h2, if_pos ⟨by omega, h2⟩, zero_add]
      · rw [if_neg h1, if_neg h2, if_neg (fun h => h2 h.2), add_zero]
  have hmap : (Finset.univ.filter fun r : Fin 200000 => 5000 * n ≤ r.val ∧ r.val < 5000 * (n + 1))
      = Finset.univ.map ⟨tileRow n hn, fun a b h => Fin.ext (by
          have := congrArg Fin.val h; simp only [tileRow] at this; omega)⟩ := by
    ext r
    simp only [Finset.mem_filter, Finset.mem_univ, true_and, Finset.mem_map, Function.Embedding.coeFn_mk]
    constructor
    · intro h
      exact ⟨⟨r.val - 5000 * n, by omega⟩, Fin.ext (by show 5000 * n + (r.val - 5000 * n) = r.val; omega)⟩
    · rintro ⟨r', rfl⟩
      have := r'.isLt
      show 5000 * n ≤ 5000 * n + r'.val ∧ 5000 * n + r'.val < 5000 * (n + 1)
      omega
  unfold below
  rw [Finset.sum_congr rfl fun r _ => hsplit r, Finset.sum_add_distrib]
  refine congrArg (_ + ·) ?_
  rw [← Finset.sum_filter, hmap, Finset.sum_map]
  rfl

/-! ## The tile computation, index by index, over any three loaded blocks -/

section Tile

/-! The product's two operand indices at output entry (r, j) and contracted coordinate l, axis by axis: the left
operand is read at (r, l), the right at (l, j). -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit on a tile, into a zero accumulator: entry (r, j) is the sum over the 128 contracted entries. -/
theorem matmul_tile (x0 : FVec Ideal S5000x128 .f32) (x1 : FVec Ideal S128x128 .f32) (r : Fin 5000) (j : Fin 128) :
    matmul (F := Ideal) dot_S5000x128_S128x128_S5000x128_1_0_0_1_n_n none x0 x1 (constant S5000x128 .f32 0x00000000#32) (ix2 r j)
      = ∑ l : Fin 128, x0 (ix2 r l) * x1 (ix2 l j) := by
  refine (Ideal.matmul_constant_zero_apply dot_S5000x128_S128x128_S5000x128_1_0_0_1_n_n none x0 x1 (ix2 r j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-- The stored tile: the product plus the bias row, then the positive part. -/
theorem pay3_apply (x0 : FVec Ideal S5000x128 .f32) (x1 : FVec Ideal S128x128 .f32) (x2 : FVec Ideal S1x128 .f32)
    (r : Fin 5000) (j : Fin 128) :
    k3_pay3 (F := Ideal) x0 x1 x2 (ix2 r j) = max ((∑ l : Fin 128, x0 (ix2 r l) * x1 (ix2 l j)) + x2 (ix2 0 j)) 0 := by
  unfold k3_pay3
  simp only [shapeCast_self]
  show max (matmul (F := Ideal) dot_S5000x128_S128x128_S5000x128_1_0_0_1_n_n none x0 x1 (constant S5000x128 .f32 0x00000000#32) (ix2 r j)
      + broadcastTo S5000x128 x2 broadcasts_S1x128_S5000x128 (ix2 r j)) (Ideal.ofBits .f32 0x00000000#32) = _
  rw [matmul_tile, broadcastTo_1b_ab_apply, Ideal.ofBits_zero_f32]

/-- A row reduction of a tile read at column j: the sum over the tile's 5000 rows. -/
theorem colsum_tile (y : FVec Ideal S5000x128 .f32) (j : Fin 128) :
    multiReduction (F := Ideal) .add [0] S128 y 0x00000000#32 reduces_S5000x128_S128 (.inl rfl) rfl (ix1 j)
      = ∑ r : Fin 5000, y (ix2 r j) := by
  refine (Ideal.multiReduction_add_single y 0x00000000#32 reduces_S5000x128_S128 (.inl rfl) rfl (ix1 j)).trans ?_
  refine Finset.sum_congr rfl fun k _ => congrArg y ?_
  funext a
  apply Fin.ext
  match a with
  | ⟨0, _⟩ => rfl
  | ⟨1, _⟩ => rfl

/-- The updated sum row: the old row plus the tile's column sums. -/
theorem pay4_apply (x0 : FVec Ideal S5000x128 .f32) (x1 : FVec Ideal S128x128 .f32) (x2 : FVec Ideal S1x128 .f32)
    (acc : FVec Ideal S1x128 .f32) (j : Fin 128) :
    k3_pay4 (F := Ideal) x0 x1 x2 acc (ix2 0 j) = acc (ix2 0 j) + ∑ r : Fin 5000, k3_pay3 (F := Ideal) x0 x1 x2 (ix2 r j) := by
  unfold k3_pay4
  simp only [shapeCast_self]
  show acc (ix2 0 j) + shapeCast S1x128 (multiReduction (F := Ideal) .add [0] S128 (k3_pay3 (F := Ideal) x0 x1 x2) 0x00000000#32 reduces_S5000x128_S128 (.inl rfl) rfl) shapeCasts_S128_S1x128 (ix2 0 j) = _
  rw [shapeCast_a_1a_apply, colsum_tile]

/-- The updated sum-of-squares row: the old row plus the column sums of the tile's squares. -/
theorem pay5_apply (x0 : FVec Ideal S5000x128 .f32) (x1 : FVec Ideal S128x128 .f32) (x2 : FVec Ideal S1x128 .f32)
    (acc : FVec Ideal S1x128 .f32) (j : Fin 128) :
    k3_pay5 (F := Ideal) x0 x1 x2 acc (ix2 0 j)
      = acc (ix2 0 j) + ∑ r : Fin 5000, k3_pay3 (F := Ideal) x0 x1 x2 (ix2 r j) * k3_pay3 (F := Ideal) x0 x1 x2 (ix2 r j) := by
  unfold k3_pay5
  simp only [shapeCast_self]
  show acc (ix2 0 j) + shapeCast S1x128 (multiReduction (F := Ideal) .add [0] S128 (mulf (k3_pay3 (F := Ideal) x0 x1 x2) (k3_pay3 (F := Ideal) x0 x1 x2)) 0x00000000#32 reduces_S5000x128_S128 (.inl rfl) rfl) shapeCasts_S128_S1x128 (ix2 0 j) = _
  rw [shapeCast_a_1a_apply, colsum_tile]
  rfl

end Tile

/-! ## What each control case leaves in the three outputs' staging buffers

At the first point the two accumulator rows are zeroed and read back before the update; at every later point the
update reads what the point before left. -/

section Pieces
variable {F : FTy → Type} [FloatOps F]

theorem hz : (![0, 0] : Fin 2 → Nat) = fun _ => 0 := funext fun a => by fin_cases a <;> rfl

theorem piece_A_3 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond3_0 i) (x0 : Vec F S5000x128 .f32) (x1 : Vec F S128x128 .f32) (x2 : Vec F S1x128 .f32) :
    out3_A_3 c i a1 h1 a2 h2 a3 h3 a4 h4 a5 h5 a6 h6 hc x0 x1 x2 = k3_pay3 x0 x1 x2 := by
  unfold out3_A_3
  rw [View.read_writes_eq_canon _ _ _ (cover3_A_3 c i a1 h1 a2 h2 a3 h3 a4 h4 a5 h5 a6 h6 hc x0 x1 x2)]
  unfold kernelRun3_A
  dsimp only
  sl_unfold_words
  rw [View.canon_unit_zero hz]
  simp only [View.readAt_eq_ld, h1.read_unread, h2.read_unread, h3.read_unread, View.ld_unit_zero (S := S5000x128) hz, View.ld_unit_zero (S := S128x128) hz, View.ld_unit_zero (S := S1x128) hz]

theorem piece_A_4 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond3_0 i) (x0 : Vec F S5000x128 .f32) (x1 : Vec F S128x128 .f32) (x2 : Vec F S1x128 .f32) :
    out3_A_4 c i a1 h1 a2 h2 a3 h3 a4 h4 a5 h5 a6 h6 hc x0 x1 x2 = k3_pay4 x0 x1 x2 (k3_pay1 (F := F)) := by
  unfold out3_A_4
  rw [View.read_writes_eq_canon _ _ _ (cover3_A_4 c i a1 h1 a2 h2 a3 h3 a4 h4 a5 h5 a6 h6 hc x0 x1 x2)]
  unfold kernelRun3_A
  dsimp only
  sl_unfold_words
  rw [View.canon_cons_unit_zero (S := S1x128) hz]
  simp only [View.readAt_eq_ld, h1.read_unread, h2.read_unread, h3.read_unread, View.ld_unit_zero (S := S5000x128) hz, View.ld_unit_zero (S := S128x128) hz, View.ld_unit_zero (S := S1x128) hz, View.readCov_unit_zero (S := S1x128) _ hz]

theorem piece_A_5 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond3_0 i) (x0 : Vec F S5000x128 .f32) (x1 : Vec F S128x128 .f32) (x2 : Vec F S1x128 .f32) :
    out3_A_5 c i a1 h1 a2 h2 a3 h3 a4 h4 a5 h5 a6 h6 hc x0 x1 x2 = k3_pay5 x0 x1 x2 (k3_pay2 (F := F)) := by
  unfold out3_A_5
  rw [View.read_writes_eq_canon _ _ _ (cover3_A_5 c i a1 h1 a2 h2 a3 h3 a4 h4 a5 h5 a6 h6 hc x0 x1 x2)]
  unfold kernelRun3_A
  dsimp only
  sl_unfold_words
  rw [View.canon_cons_unit_zero (S := S1x128) hz]
  simp only [View.readAt_eq_ld, h1.read_unread, h2.read_unread, h3.read_unread, View.ld_unit_zero (S := S5000x128) hz, View.ld_unit_zero (S := S128x128) hz, View.ld_unit_zero (S := S1x128) hz, View.readCov_unit_zero (S := S1x128) _ hz]

theorem piece_B_3 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond3_0 i) (x0 : Vec F S5000x128 .f32) (x1 : Vec F S128x128 .f32) (x2 : Vec F S1x128 .f32) (xo4 xo5 : Vec F S1x128 .f32) :
    out3_B_3 c i a1 h1 a2 h2 a3 h3 a4 h4 a5 h5 a6 h6 hc x0 x1 x2 xo4 xo5 = k3_pay3 x0 x1 x2 := by
  unfold out3_B_3
  rw [View.read_writes_eq_canon _ _ _ (cover3_B_3 c i a1 h1 a2 h2 a3 h3 a4 h4 a5 h5 a6 h6 hc x0 x1 x2 xo4 xo5)]
  unfold kernelRun3_B
  dsimp only
  sl_unfold_words
  rw [View.canon_unit_zero hz]
  simp only [View.readAt_eq_ld, h1.read_unread, h2.read_unread, h3.read_unread, View.ld_unit_zero (S := S5000x128) hz, View.ld_unit_zero (S := S128x128) hz, View.ld_unit_zero (S := S1x128) hz]

theorem piece_B_4 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond3_0 i) (x0 : Vec F S5000x128 .f32) (x1 : Vec F S128x128 .f32) (x2 : Vec F S1x128 .f32) (xo4 xo5 : Vec F S1x128 .f32) :
    out3_B_4 c i a1 h1 a2 h2 a3 h3 a4 h4 a5 h5 a6 h6 hc x0 x1 x2 xo4 xo5 = k3_pay4 x0 x1 x2 xo4 := by
  unfold out3_B_4
  rw [View.read_writes_eq_canon _ _ _ (cover3_B_4 c i a1 h1 a2 h2 a3 h3 a4 h4 a5 h5 a6 h6 hc x0 x1 x2 xo4 xo5)]
  unfold kernelRun3_B
  dsimp only
  sl_unfold_words
  rw [View.canon_unit_zero hz]
  simp only [View.readAt_eq_ld, h1.read_unread, h2.read_unread, h3.read_unread, View.ld_unit_zero (S := S5000x128) hz, View.ld_unit_zero (S := S128x128) hz, View.ld_unit_zero (S := S1x128) hz, h5.read_unread]

theorem piece_B_5 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond3_0 i) (x0 : Vec F S5000x128 .f32) (x1 : Vec F S128x128 .f32) (x2 : Vec F S1x128 .f32) (xo4 xo5 : Vec F S1x128 .f32) :
    out3_B_5 c i a1 h1 a2 h2 a3 h3 a4 h4 a5 h5 a6 h6 hc x0 x1 x2 xo4 xo5 = k3_pay5 x0 x1 x2 xo5 := by
  unfold out3_B_5
  rw [View.read_writes_eq_canon _ _ _ (cover3_B_5 c i a1 h1 a2 h2 a3 h3 a4 h4 a5 h5 a6 h6 hc x0 x1 x2 xo4 xo5)]
  unfold kernelRun3_B
  dsimp only
  sl_unfold_words
  rw [View.canon_unit_zero hz]
  simp only [View.readAt_eq_ld, h1.read_unread, h2.read_unread, h3.read_unread, View.ld_unit_zero (S := S5000x128) hz, View.ld_unit_zero (S := S128x128) hz, View.ld_unit_zero (S := S1x128) hz, h6.read_unread]

end Pieces

/-! ## The arrays and the blocks, by their literal types -/

/-- The region's first operand, 200000 rows of 128 features. -/
abbrev aArr (c : Dev nD) : Cert.Stages.A S200000x128 := V c main_v57
/-- The 128×128 weight matrix. -/
abbrev wArr (c : Dev nD) : Cert.Stages.A S128x128 := V c main_arg6
/-- The bias row. -/
abbrev bArr (c : Dev nD) : Cert.Stages.A S1x128 := V c main_v58
/-- What the region computes: the product plus the bias, then the positive part. -/
abbrev Yarr (c : Dev nD) : Cert.Stages.A S200000x128 :=
  Cert.Stages.biasRelu (Cert.Stages.mm (aArr V c) (wArr V c)) (bArr V c)

/-- The tile of rows the first window stages at point `t`. -/
abbrev xblk (c : Dev nD) (t : Fin cfg3.N) : FVec Ideal S5000x128 .f32 := iblk3 V c 0 t
/-- The weight window's block (the whole matrix at every point). -/
abbrev wblk (c : Dev nD) (t : Fin cfg3.N) : FVec Ideal S128x128 .f32 := iblk3 V c 1 t
/-- The bias window's block (the whole row at every point). -/
abbrev bblk (c : Dev nD) (t : Fin cfg3.N) : FVec Ideal S1x128 .f32 := iblk3 V c 2 t

/-- The six windows' block indices at a point: the two row-tiled windows sit at block `t` along the rows, every other
    window and axis at block 0 — decided over the forty points. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem hN : cfg3.N = 40 := N_3

/-- Entry (r, l) of the tile staged at point `t` is entry (5000·t + r, l) of the operand. -/
theorem xblk_apply (c : Dev nD) (t : Fin cfg3.N) (r : Fin 5000) (l : Fin 128) :
    xblk V c t (ix2 r l) = aArr V c (ix2 (tileRow t.val (lt_of_lt_of_eq t.isLt hN) r) l) := by
  obtain ⟨e0, e1, -⟩ := idx_facts t
  unfold xblk iblk3
  rw [View.read_apply]
  show V c main_v57 _ = V c main_v57 _
  refine congrArg (V c main_v57) (funext fun a => Fin.ext ?_)
  match a with
  | ⟨0, _⟩ => show win3_0.index t (0 : Fin 2) * 5000 + 1 * r.val = 5000 * t.val + r.val; rw [e0]; omega
  | ⟨1, _⟩ => show win3_0.index t (1 : Fin 2) * 128 + 1 * l.val = l.val; rw [e1]; omega

/-- The weight block is the weight matrix. -/
theorem wblk_apply (c : Dev nD) (t : Fin cfg3.N) (l : Fin 128) (j : Fin 128) :
    wblk V c t (ix2 l j) = wArr V c (ix2 l j) := by
  obtain ⟨-, -, e0, e1, -⟩ := idx_facts t
  unfold wblk iblk3
  rw [View.read_apply]
  show V c main_arg6 _ = V c main_arg6 _
  refine congrArg (V c main_arg6) (funext fun a => Fin.ext ?_)
  match a with
  | ⟨0, _⟩ => show win3_1.index t (0 : Fin 2) * 128 + 1 * l.val = l.val; rw [e0]; omega
  | ⟨1, _⟩ => show win3_1.index t (1 : Fin 2) * 128 + 1 * j.val = j.val; rw [e1]; omega

/-- The bias block is the bias row. -/
theorem bblk_apply (c : Dev nD) (t : Fin cfg3.N) (u : Fin 1) (j : Fin 128) :
    bblk V c t (ix2 u j) = bArr V c (ix2 u j) := by
  obtain ⟨-, -, -, -, e0, e1, -⟩ := idx_facts t
  unfold bblk iblk3
  rw [View.read_apply]
  show V c main_v58 _ = V c main_v58 _
  refine congrArg (V c main_v58) (funext fun a => Fin.ext ?_)
  match a with
  | ⟨0, _⟩ => show win3_2.index t (0 : Fin 2) * 1 + 1 * u.val = u.val; rw [e0]; omega
  | ⟨1, _⟩ => show win3_2.index t (1 : Fin 2) * 128 + 1 * j.val = j.val; rw [e1]; omega

/-- THE TILE: what point `t` stores at (r, j) is the whole result at row 5000·t + r. -/
theorem tile_apply (c : Dev nD) (t : Fin cfg3.N) (r : Fin 5000) (j : Fin 128) :
    k3_pay3 (F := Ideal) (xblk V c t) (wblk V c t) (bblk V c t) (ix2 r j)
      = Yarr V c (ix2 (tileRow t.val (lt_of_lt_of_eq t.isLt hN) r) j) := by
  refine (pay3_apply (xblk V c t) (wblk V c t) (bblk V c t) r j).trans ?_
  rw [bblk_apply, Finset.sum_congr rfl fun l _ => by rw [xblk_apply, wblk_apply]]
  rfl

/-! ## The two accumulator rows after each point -/

/-- The column sums of the result over the first `n` tiles, as a 1×128 row. -/
def sumRow (c : Dev nD) (n : ℕ) : FVec Ideal S1x128 .f32 :=
  fun j => below (fun r => Yarr V c (ix2 r (j 1))) n
/-- The column sums of the squares over the first `n` tiles. -/
def sqRow (c : Dev nD) (n : ℕ) : FVec Ideal S1x128 .f32 :=
  fun j => below (fun r => Yarr V c (ix2 r (j 1)) * Yarr V c (ix2 r (j 1))) n

/-- Every index of a 1×128 row is (0, its column). -/
theorem row_idx (j : S1x128.Idx) : j = ix2 (0 : Fin 1) (j 1) := by
  funext a
  match a with
  | ⟨0, _⟩ => exact Fin.ext (by have h : (j 0 : Nat) < 1 := (j 0).isLt; show (j 0 : Nat) = 0; omega)
  | ⟨1, _⟩ => rfl

/-- The zeroed rows are the sums over no tile. -/
theorem zero_sumRow (c : Dev nD) : k3_pay1 (F := Ideal) = sumRow V c 0 := by
  funext j
  show Ideal.ofBits .f32 0x00000000#32 = below _ 0
  rw [below_zero, Ideal.ofBits_zero_f32]
theorem zero_sqRow (c : Dev nD) : k3_pay2 (F := Ideal) = sqRow V c 0 := by
  funext j
  show Ideal.ofBits .f32 0x00000000#32 = below _ 0
  rw [below_zero, Ideal.ofBits_zero_f32]

/-- One point's update of the sum row: the sums over `t` tiles become the sums over `t + 1`. -/
theorem step_sumRow (c : Dev nD) (t : Fin cfg3.N) :
    k3_pay4 (F := Ideal) (xblk V c t) (wblk V c t) (bblk V c t) (sumRow V c t.val) = sumRow V c (t.val + 1) := by
  funext j
  rw [row_idx j]
  refine (pay4_apply (xblk V c t) (wblk V c t) (bblk V c t) (sumRow V c t.val) (j 1)).trans ?_
  rw [Finset.sum_congr rfl fun r _ => tile_apply V c t r (j 1)]
  exact below_succ (fun r => Yarr V c (ix2 r (j 1))) t.val (lt_of_lt_of_eq t.isLt hN)
theorem step_sqRow (c : Dev nD) (t : Fin cfg3.N) :
    k3_pay5 (F := Ideal) (xblk V c t) (wblk V c t) (bblk V c t) (sqRow V c t.val) = sqRow V c (t.val + 1) := by
  funext j
  rw [row_idx j]
  refine (pay5_apply (xblk V c t) (wblk V c t) (bblk V c t) (sqRow V c t.val) (j 1)).trans ?_
  rw [Finset.sum_congr rfl fun r _ => by rw [tile_apply V c t r (j 1)]]
  exact below_succ (fun r => Yarr V c (ix2 r (j 1)) * Yarr V c (ix2 r (j 1))) t.val (lt_of_lt_of_eq t.isLt hN)

/-- After every point the first output's staging buffer holds that point's tile. -/
theorem outs_y (c : Dev nD) (t : Fin cfg3.N) :
    (outsAt3 V c t.val t.isLt).1 = k3_pay3 (F := Ideal) (xblk V c t) (wblk V c t) (bblk V c t) := by
  by_cases h0 : t.val % 40 = 0
  · rw [outsAt3_A V c t h0]
    dsimp only
    exact piece_A_3 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t)
  · rw [outsAt3_B V c t h0]
    dsimp only
    exact piece_B_3 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) _ _

/-- After point `n` the second output's staging buffer holds the column sums over the first `n + 1` tiles: by
    induction on the point, the first point starting from the zeroed row. -/
theorem outs_s (c : Dev nD) : ∀ (n : ℕ) (h : n < cfg3.N), (outsAt3 V c n h).2.1 = sumRow V c (n + 1)
  | 0, h => by
    rw [outsAt3_A V c ⟨0, h⟩ rfl]
    dsimp only
    refine (piece_A_4 (F := Ideal) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) ((hcond3_0 ⟨0, h⟩).mpr rfl) (iblk3 V c 0 ⟨0, h⟩) (iblk3 V c 1 ⟨0, h⟩) (iblk3 V c 2 ⟨0, h⟩)).trans ?_
    rw [zero_sumRow V c]
    exact step_sumRow V c ⟨0, h⟩
  | n + 1, h => by
    have hB : ¬(⟨n + 1, h⟩ : Fin cfg3.N).val % 40 = 0 := by have := lt_of_lt_of_eq h hN; dsimp only; omega
    rw [outsAt3_B V c ⟨n + 1, h⟩ hB]
    dsimp only
    refine (piece_B_4 (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (fun hc => hB ((hcond3_0 ⟨n + 1, h⟩).mp hc)) (iblk3 V c 0 ⟨n + 1, h⟩) (iblk3 V c 1 ⟨n + 1, h⟩) (iblk3 V c 2 ⟨n + 1, h⟩) _ _).trans ?_
    show k3_pay4 (F := Ideal) _ _ _ (outsAt3 V c n _).2.1 = _
    rw [outs_s c n]
    exact step_sumRow V c ⟨n + 1, h⟩

/-- And the third the column sums of the squares. -/
theorem outs_q (c : Dev nD) : ∀ (n : ℕ) (h : n < cfg3.N), (outsAt3 V c n h).2.2 = sqRow V c (n + 1)
  | 0, h => by
    rw [outsAt3_A V c ⟨0, h⟩ rfl]
    dsimp only
    refine (piece_A_5 (F := Ideal) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) ((hcond3_0 ⟨0, h⟩).mpr rfl) (iblk3 V c 0 ⟨0, h⟩) (iblk3 V c 1 ⟨0, h⟩) (iblk3 V c 2 ⟨0, h⟩)).trans ?_
    rw [zero_sqRow V c]
    exact step_sqRow V c ⟨0, h⟩
  | n + 1, h => by
    have hB : ¬(⟨n + 1, h⟩ : Fin cfg3.N).val % 40 = 0 := by have := lt_of_lt_of_eq h hN; dsimp only; omega
    rw [outsAt3_B V c ⟨n + 1, h⟩ hB]
    dsimp only
    refine (piece_B_5 (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (fun hc => hB ((hcond3_0 ⟨n + 1, h⟩).mp hc)) (iblk3 V c 0 ⟨n + 1, h⟩) (iblk3 V c 1 ⟨n + 1, h⟩) (iblk3 V c 2 ⟨n + 1, h⟩) _ _).trans ?_
    show k3_pay5 (F := Ideal) _ _ _ (outsAt3 V c n _).2.2 = _
    rw [outs_q c n]
    exact step_sqRow V c ⟨n + 1, h⟩

/-! ## The write-backs, and the three arrays after the region -/

/-- The tile at any block index `y`, against any index `k` of the whole array at row 5000·t + y₀ and column y₁. -/
theorem tile_at (c : Dev nD) (t : Fin cfg3.N) (y : S5000x128.Idx) (k : S200000x128.Idx)
    (hk0 : (k 0).val = 5000 * t.val + (y 0).val) (hk1 : (k 1).val = (y 1).val) :
    k3_pay3 (F := Ideal) (xblk V c t) (wblk V c t) (bblk V c t) y = Yarr V c k := by
  obtain ⟨r, j, rfl⟩ : ∃ (r : Fin 5000) (j : Fin 128), y = ix2 r j := ⟨y 0, y 1, eq_ix2 y⟩
  have hk : k = ix2 (tileRow t.val (lt_of_lt_of_eq t.isLt hN) r) j := funext fun a => Fin.ext (by
    match a with
    | ⟨0, _⟩ => exact hk0
    | ⟨1, _⟩ => exact hk1)
  rw [hk]
  exact tile_apply V c t r j

/-- After all forty tiles the sum row is the column sums of the whole result, read at any index of the same column. -/
theorem sumRow_full (c : Dev nD) (n : ℕ) (hn : n = 40) (y k : S1x128.Idx) (hk : (k 1).val = (y 1).val) :
    sumRow V c n y = Cert.Stages.colSum (Yarr V c) k := by
  subst hn
  have e : k 1 = y 1 := Fin.ext hk
  show below (fun r => Yarr V c (ix2 r (y 1))) 40 = ∑ r : Fin 200000, Yarr V c (ix2 r (k 1))
  rw [below_all, e]
theorem sqRow_full (c : Dev nD) (n : ℕ) (hn : n = 40) (y k : S1x128.Idx) (hk : (k 1).val = (y 1).val) :
    sqRow V c n y = Cert.Stages.colSumSq (Yarr V c) k := by
  subst hn
  have e : k 1 = y 1 := Fin.ext hk
  show below (fun r => Yarr V c (ix2 r (y 1)) * Yarr V c (ix2 r (y 1))) 40
    = ∑ r : Fin 200000, Yarr V c (ix2 r (k 1)) * Yarr V c (ix2 r (k 1))
  rw [below_all, e]

/-- Every point writes its tile back: block `t` of the result. -/
theorem flushed_y (c : Dev nD) (t : Fin cfg3.N) (hf : (cfg3.win 3).flush t = true) :
    (dat3 (F := Ideal) V c).flushed 3 t = ((cfg3.win 3).blk t).view.read (Elt Ideal) (Yarr V c) := by
  obtain ⟨-, -, -, -, -, -, e0, e1, -⟩ := idx_facts t
  show (cfg3.win 3).cut (grid3.coords t) ((dat3 (F := Ideal) V c).after 3 t) = _
  rw [after3_3, outs_y V c t]
  funext y
  rw [View.read_apply]
  show k3_pay3 (F := Ideal) (xblk V c t) (wblk V c t) (bblk V c t) y = Yarr V c (((cfg3.win 3).blk t).view.emb y)
  refine tile_at V c t y _ ?_ ?_
  · show win3_3.index t (0 : Fin 2) * 5000 + 1 * (y 0).val = 5000 * t.val + (y 0).val
    rw [e0]; omega
  · show win3_3.index t (1 : Fin 2) * 128 + 1 * (y 1).val = (y 1).val
    rw [e1]; omega

/-- Writing a 1×128 row `R` back through window 4's one block gives the array `G` as soon as the two agree column by column. -/
theorem row_writeback4 (t : Fin cfg3.N) (R G : FVec Ideal S1x128 .f32)
    (h : ∀ y k : S1x128.Idx, (k 1).val = (y 1).val → R y = G k) :
    (cfg3.win 4).cut (grid3.coords t) R = ((cfg3.win 4).blk t).view.read (Elt Ideal) G := by
  obtain ⟨-, -, -, -, -, -, -, -, e0, e1, -⟩ := idx_facts t
  funext y
  rw [View.read_apply]
  refine h _ _ ?_
  show win3_4.index t (1 : Fin 2) * 128 + 1 * (y 1).val = (y 1).val
  rw [e1]; omega
/-- Writing a 1×128 row `R` back through window 5's one block gives the array `G` as soon as the two agree column by column. -/
theorem row_writeback5 (t : Fin cfg3.N) (R G : FVec Ideal S1x128 .f32)
    (h : ∀ y k : S1x128.Idx, (k 1).val = (y 1).val → R y = G k) :
    (cfg3.win 5).cut (grid3.coords t) R = ((cfg3.win 5).blk t).view.read (Elt Ideal) G := by
  obtain ⟨-, -, -, -, -, -, -, -, -, -, e0, e1⟩ := idx_facts t
  funext y
  rw [View.read_apply]
  refine h _ _ ?_
  show win3_5.index t (1 : Fin 2) * 128 + 1 * (y 1).val = (y 1).val
  rw [e1]; omega

/-- Only the last point writes the sum row back, and by then it holds the sums over all forty tiles. -/
theorem flushed_s (c : Dev nD) (t : Fin cfg3.N) (hf : (cfg3.win 4).flush t = true) :
    (dat3 (F := Ideal) V c).flushed 4 t
      = ((cfg3.win 4).blk t).view.read (Elt Ideal) (Cert.Stages.colSum (Yarr V c)) := by
  have h39 : t.val = 39 := by have := (flush3_4 t).mp hf; have := lt_of_lt_of_eq t.isLt hN; omega
  show (cfg3.win 4).cut (grid3.coords t) ((dat3 (F := Ideal) V c).after 4 t) = _
  rw [after3_4, outs_s V c t.val t.isLt]
  exact row_writeback4 t (sumRow V c (t.val + 1)) (Cert.Stages.colSum (Yarr V c))
    (fun y k hk => sumRow_full V c (t.val + 1) (by omega) y k hk)

/-- The same for the sum-of-squares row. -/
theorem flushed_q (c : Dev nD) (t : Fin cfg3.N) (hf : (cfg3.win 5).flush t = true) :
    (dat3 (F := Ideal) V c).flushed 5 t
      = ((cfg3.win 5).blk t).view.read (Elt Ideal) (Cert.Stages.colSumSq (Yarr V c)) := by
  have h39 : t.val = 39 := by have := (flush3_5 t).mp hf; have := lt_of_lt_of_eq t.isLt hN; omega
  show (cfg3.win 5).cut (grid3.coords t) ((dat3 (F := Ideal) V c).after 5 t) = _
  rw [after3_5, outs_q V c t.val t.isLt]
  exact row_writeback5 t (sqRow V c (t.val + 1)) (Cert.Stages.colSumSq (Yarr V c))
    (fun y k hk => sqRow_full V c (t.val + 1) (by omega) y k hk)

/-- The result array: row r is written back by point r / 5000, so the forty tiles cover it. -/
theorem out_y (c : Dev nD) : (dat3 (F := Ideal) V c).arrAt 3 cfg3.N = Cert.Stages.biasRelu (Cert.Stages.mm (V c main_v57) (V c main_arg6)) (V c main_v58) :=
  (dat3 (F := Ideal) V c).arrAt_eq_of_cover 3 (Yarr V c) (flushed_y V c) fun i => by
    have hi0 : (i 0 : Nat) < 200000 := (i 0).isLt
    have hi1 : (i 1 : Nat) < 128 := (i 1).isLt
    obtain ⟨t, ht⟩ : ∃ t : Fin cfg3.N, t.val = (i 0 : Nat) / 5000 := ⟨⟨(i 0 : Nat) / 5000, by rw [hN]; omega⟩, rfl⟩
    obtain ⟨-, -, -, -, -, -, e0, e1, -⟩ := idx_facts t
    refine ⟨t, flush3_3 t, ?_⟩
    show i ∈ ((View.whole main_v59_0).slice (win3_3.rect t)).set
    rw [View.set_slice_whole, Rect.mem_set_unit]
    intro a
    match a with
    | ⟨0, _⟩ =>
      show win3_3.index t (0 : Fin 2) * 5000 ≤ (i 0 : Nat) ∧ (i 0 : Nat) < win3_3.index t (0 : Fin 2) * 5000 + 5000
      rw [e0, ht]; omega
    | ⟨1, _⟩ =>
      show win3_3.index t (1 : Fin 2) * 128 ≤ (i 1 : Nat) ∧ (i 1 : Nat) < win3_3.index t (1 : Fin 2) * 128 + 128
      rw [e1]; omega

/-- The sum row's array is its one block, written back by the last point. -/
theorem out_s (c : Dev nD) : (dat3 (F := Ideal) V c).arrAt 4 cfg3.N = Cert.Stages.colSum (Cert.Stages.biasRelu (Cert.Stages.mm (V c main_v57) (V c main_arg6)) (V c main_v58)) :=
  (dat3 (F := Ideal) V c).arrAt_eq_of_cover 4 (Cert.Stages.colSum (Yarr V c)) (flushed_s V c) fun i => by
    have hi0 : (i 0 : Nat) < 1 := (i 0).isLt
    have hi1 : (i 1 : Nat) < 128 := (i 1).isLt
    obtain ⟨t, ht⟩ : ∃ t : Fin cfg3.N, t.val = 39 := ⟨⟨39, by rw [hN]; decide⟩, rfl⟩
    obtain ⟨-, -, -, -, -, -, -, -, e0, e1, -⟩ := idx_facts t
    refine ⟨t, (flush3_4 t).mpr (by omega), ?_⟩
    show i ∈ ((View.whole main_v59_1).slice (win3_4.rect t)).set
    rw [View.set_slice_whole, Rect.mem_set_unit]
    intro a
    match a with
    | ⟨0, _⟩ =>
      show win3_4.index t (0 : Fin 2) * 1 ≤ (i 0 : Nat) ∧ (i 0 : Nat) < win3_4.index t (0 : Fin 2) * 1 + 1
      rw [e0]; omega
    | ⟨1, _⟩ =>
      show win3_4.index t (1 : Fin 2) * 128 ≤ (i 1 : Nat) ∧ (i 1 : Nat) < win3_4.index t (1 : Fin 2) * 128 + 128
      rw [e1]; omega

/-- And the sum-of-squares row's. -/
theorem out_q (c : Dev nD) : (dat3 (F := Ideal) V c).arrAt 5 cfg3.N = Cert.Stages.colSumSq (Cert.Stages.biasRelu (Cert.Stages.mm (V c main_v57) (V c main_arg6)) (V c main_v58)) :=
  (dat3 (F := Ideal) V c).arrAt_eq_of_cover 5 (Cert.Stages.colSumSq (Yarr V c)) (flushed_q V c) fun i => by
    have hi0 : (i 0 : Nat) < 1 := (i 0).isLt
    have hi1 : (i 1 : Nat) < 128 := (i 1).isLt
    obtain ⟨t, ht⟩ : ∃ t : Fin cfg3.N, t.val = 39 := ⟨⟨39, by rw [hN]; decide⟩, rfl⟩
    obtain ⟨-, -, -, -, -, -, -, -, -, -, e0, e1⟩ := idx_facts t
    refine ⟨t, (flush3_5 t).mpr (by omega), ?_⟩
    show i ∈ ((View.whole main_v59_2).slice (win3_5.rect t)).set
    rw [View.set_slice_whole, Rect.mem_set_unit]
    intro a
    match a with
    | ⟨0, _⟩ =>
      show win3_5.index t (0 : Fin 2) * 1 ≤ (i 0 : Nat) ∧ (i 0 : Nat) < win3_5.index t (0 : Fin 2) * 1 + 1
      rw [e0]; omega
    | ⟨1, _⟩ =>
      show win3_5.index t (1 : Fin 2) * 128 ≤ (i 1 : Nat) ∧ (i 1 : Nat) < win3_5.index t (1 : Fin 2) * 128 + 128
      rw [e1]; omega

end Cert.KernelIdeal.Reg3

end
-- ==== Proof.Reg5.lean ====
/-
  Region 5: the third Linear → ReLU stack's first half, on 40 row tiles of 5000 rows.

  With a the 200000×32 input, w the 32×128 weights and b the 1×128 bias row, the layer's output is
  y(r, j) = max(∑ₗ a(r, l)·w(l, j) + b(0, j), 0).  Grid point t multiplies rows 5000·t … 5000·t + 4999 of a by w,
  adds the bias row, takes the positive part and stores that tile; it also adds the tile's column sums, and the
  column sums of its squares, into two 1×128 rows that the first point resets to zero.  So after point t the two
  rows hold the sums over the first 5000·(t + 1) rows of y and of y², by induction on the point (addition of
  extended reals is associative and commutative: a sum over 5000·(t + 1) rows is the sum over 5000·t rows plus
  the sum over the next 5000).  The tile array is written back block by block, row r by point r / 5000; the two
  rows are written back once, after the last point, when they hold the sums over all 200000 rows.
-/
import proofs.«426214_j50276887167257_1_alg».proof.Proof.Gen.KernelIdeal.Frame
import proofs.«426214_j50276887167257_1_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Reg5

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole-buffer load or store, as a constant function. -/
theorem hz : (![0, 0] : Fin 2 → Nat) = fun _ => 0 := funext fun a => by fin_cases a <;> rfl

/-! ## The matrix unit's contraction on a tile -/

/-- The operands' indices at output entry (r, j) and contracted position k, axis by axis: (r, k) on the left,
    (k, j) on the right. -/
theorem lhs_mm_0 (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide),
    dif_pos (show (0 : Fin S5000x32.rank) ∈ dot_S5000x32_S32x128_S5000x128_1_0_0_1_n_n.lhsNonContracting by decide)]
  rfl
theorem lhs_mm_1 (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q
theorem rhs_mm_0 (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q
theorem rhs_mm_1 (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide),
    dif_pos (show (1 : Fin S32x128.rank) ∈ dot_S5000x32_S32x128_S5000x128_1_0_0_1_n_n.rhsNonContracting by decide)]
  rfl

/-- Entry (r, j) of the tile product into a zero accumulator: the sum over the 32 contracted entries. -/
theorem mm_apply (x0 : FVec Ideal S5000x32 .f32) (x1 : FVec Ideal S32x128 .f32) (r : Fin 5000) (j : Fin 128) :
    matmul dot_S5000x32_S32x128_S5000x128_1_0_0_1_n_n none x0 x1 (constant S5000x128 .f32 0x00000000#32) (ix2 r j)
      = ∑ l : Fin 32, x0 (ix2 r l) * x1 (ix2 l j) := by
  simp only [matmul]
  rw [Ideal.matmul_constant_zero_apply, ← Equiv.sum_comp (contrEquiv1 dot_S5000x32_S32x128_S5000x128_1_0_0_1_n_n 32 rfl rfl).symm]
  refine Finset.sum_congr rfl fun k _ => ?_
  have hk := contrEquiv1_symm_val dot_S5000x32_S32x128_S5000x128_1_0_0_1_n_n 32 rfl rfl k
  have el : dot_S5000x32_S32x128_S5000x128_1_0_0_1_n_n.lhsIdx (ix2 r j) ((contrEquiv1 dot_S5000x32_S32x128_S5000x128_1_0_0_1_n_n 32 rfl rfl).symm k) = ix2 r k :=
    funext fun a => Fin.ext (by
      match a with
      | ⟨0, _⟩ => exact lhs_mm_0 _ _
      | ⟨1, _⟩ => exact (lhs_mm_1 _ _).trans hk)
  have er : dot_S5000x32_S32x128_S5000x128_1_0_0_1_n_n.rhsIdx (ix2 r j) ((contrEquiv1 dot_S5000x32_S32x128_S5000x128_1_0_0_1_n_n 32 rfl rfl).symm k) = ix2 k j :=
    funext fun a => Fin.ext (by
      match a with
      | ⟨0, _⟩ => exact (rhs_mm_0 _ _).trans hk
      | ⟨1, _⟩ => exact rhs_mm_1 _ _)
  rw [el, er]

/-- The bias row broadcast down the tile's rows. -/
theorem bias_apply (x2 : FVec Ideal S1x128 .f32) (r : Fin 5000) (j : Fin 128) :
    broadcastTo S5000x128 (shapeCast S1x128 x2 shapeCasts_S1x128_S1x128) broadcasts_S1x128_S5000x128 (ix2 r j) = x2 (ix2 0 j) := by
  rw [shapeCast_self]
  refine broadcastTo_apply x2 broadcasts_S1x128_S5000x128 (ix2 r j) (ix2 0 j) (fun a => ?_)
  match a with
  | ⟨0, _⟩ => rfl
  | ⟨1, _⟩ => rfl

/-- A tile's column sum: the sum over its 5000 rows. -/
theorem colsum_apply (src : FVec Ideal S5000x128 .f32) (hφ : FKind.Formats .f32)
    (hacc : (0x00000000#32 : BitVec 32) = FKind.add.neutral .f32 hφ) (j : Fin 128) :
    multiReduction .add [0] S128 src 0x00000000#32 reduces_S5000x128_S128 hφ hacc (ix1 j) = ∑ r : Fin 5000, src (ix2 r j) := by
  refine (Ideal.multiReduction_add_single src 0x00000000#32 reduces_S5000x128_S128 hφ hacc (ix1 j)).trans ?_
  refine Finset.sum_congr rfl fun r _ => congrArg src (funext fun a => Fin.ext ?_)
  match a with
  | ⟨0, _⟩ => rfl
  | ⟨1, _⟩ => rfl

/-- Lane j of a 128-vector and entry (0, j) of a 1×128 row sit at the same row-major position. -/
theorem rm_row (j : Fin 128) : (S128.rowMajor (ix1 j)).val = (S1x128.rowMajor (ix2 0 j)).val :=
  (Shape.rowMajor_val_one (ix1 j)).trans
    ((Shape.rowMajor_val_two (ix2 (0 : Fin 1) j)).trans (by show (0 : ℕ) * 128 + j.val = j.val; omega)).symm

/-! ## The body's payloads at an index -/

/-- The stored tile: the positive part of the tile product plus the bias row. -/
theorem pay3_apply (x0 : Vec Ideal S5000x32 .f32) (x1 : Vec Ideal S32x128 .f32) (x2 : Vec Ideal S1x128 .f32) (r : Fin 5000) (j : Fin 128) :
    k5_pay3 (F := Ideal) x0 x1 x2 (ix2 r j) = max ((∑ l : Fin 32, x0 (ix2 r l) * x1 (ix2 l j)) + x2 (ix2 0 j)) 0 := by
  unfold k5_pay3
  exact congrArg₂ max (congrArg₂ (· + ·) (mm_apply x0 x1 r j) (bias_apply x2 r j)) Ideal.ofBits_zero_f32

/-- The two reset rows are zero. -/
theorem pay1_apply (i : S1x128.Idx) : k5_pay1 (F := Ideal) i = 0 := Ideal.ofBits_zero_f32
theorem pay2_apply (i : S1x128.Idx) : k5_pay2 (F := Ideal) i = 0 := Ideal.ofBits_zero_f32

/-- The sum row's update: what it held plus the stored tile's column sums. -/
theorem pay4_apply (x0 : Vec Ideal S5000x32 .f32) (x1 : Vec Ideal S32x128 .f32) (x2 : Vec Ideal S1x128 .f32)
    (acc : Vec Ideal S1x128 .f32) (j : Fin 128) :
    k5_pay4 (F := Ideal) x0 x1 x2 acc (ix2 0 j) = acc (ix2 0 j) + ∑ r : Fin 5000, k5_pay3 (F := Ideal) x0 x1 x2 (ix2 r j) := by
  unfold k5_pay4
  refine congrArg₂ (· + ·) (congrFun (shapeCast_self acc _) (ix2 0 j)) ?_
  refine (shapeCast_apply _ shapeCasts_S128_S1x128 (ix2 0 j) (ix1 j) ?_).trans (colsum_apply _ _ _ j)
  exact rm_row j

/-- The sum-of-squares row's update: what it held plus the column sums of the stored tile's squares. -/
theorem pay5_apply (x0 : Vec Ideal S5000x32 .f32) (x1 : Vec Ideal S32x128 .f32) (x2 : Vec Ideal S1x128 .f32)
    (acc : Vec Ideal S1x128 .f32) (j : Fin 128) :
    k5_pay5 (F := Ideal) x0 x1 x2 acc (ix2 0 j)
      = acc (ix2 0 j) + ∑ r : Fin 5000, k5_pay3 (F := Ideal) x0 x1 x2 (ix2 r j) * k5_pay3 (F := Ideal) x0 x1 x2 (ix2 r j) := by
  unfold k5_pay5
  refine congrArg₂ (· + ·) (congrFun (shapeCast_self acc _) (ix2 0 j)) ?_
  refine (shapeCast_apply _ shapeCasts_S128_S1x128 (ix2 0 j) (ix1 j) ?_).trans (colsum_apply _ _ _ j)
  exact rm_row j

/-! ## What each case of the body leaves in the three output buffers -/

section Pieces
variable {F : FTy → Type} [FloatOps F]

/-- First point, the stored tile. -/
theorem outA3 (c : Dev nD) (i : grid5.Coords) (a1 : Memref sig .tc .vmem S5000x32 .f32) (h1 : a1.IsWhole) (a2 : Memref sig .tc .vmem S32x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond5_0 i) (x0 : Vec F S5000x32 .f32) (x1 : Vec F S32x128 .f32) (x2 : Vec F S1x128 .f32) :
    out5_A_3 c i a1 h1 a2 h2 a3 h3 a4 h4 a5 h5 a6 h6 hc x0 x1 x2 = k5_pay3 x0 x1 x2 := by
  unfold out5_A_3
  rw [View.read_writes_eq_canon _ _ _ (cover5_A_3 c i a1 h1 a2 h2 a3 h3 a4 h4 a5 h5 a6 h6 hc x0 x1 x2)]
  unfold kernelRun5_A
  dsimp only
  sl_unfold_words
  rw [View.canon_unit_zero hz]
  simp only [View.readAt_eq_ld, h1.read_unread, h2.read_unread, h3.read_unread, View.ld_unit_zero (S := S5000x32) hz, View.ld_unit_zero (S := S32x128) hz, View.ld_unit_zero (S := S1x128) hz]

/-- First point, the sum row: reset to zero, read back, updated. -/
theorem outA4 (c : Dev nD) (i : grid5.Coords) (a1 : Memref sig .tc .vmem S5000x32 .f32) (h1 : a1.IsWhole) (a2 : Memref sig .tc .vmem S32x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond5_0 i) (x0 : Vec F S5000x32 .f32) (x1 : Vec F S32x128 .f32) (x2 : Vec F S1x128 .f32) :
    out5_A_4 c i a1 h1 a2 h2 a3 h3 a4 h4 a5 h5 a6 h6 hc x0 x1 x2 = k5_pay4 x0 x1 x2 (k5_pay1 (F := F)) := by
  unfold out5_A_4
  rw [View.read_writes_eq_canon _ _ _ (cover5_A_4 c i a1 h1 a2 h2 a3 h3 a4 h4 a5 h5 a6 h6 hc x0 x1 x2)]
  unfold kernelRun5_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x32) hz, View.ld_unit_zero (S := S32x128) hz, View.ld_unit_zero (S := S1x128) hz]

/-- First point, the sum-of-squares row: reset to zero, read back, updated. -/
theorem outA5 (c : Dev nD) (i : grid5.Coords) (a1 : Memref sig .tc .vmem S5000x32 .f32) (h1 : a1.IsWhole) (a2 : Memref sig .tc .vmem S32x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond5_0 i) (x0 : Vec F S5000x32 .f32) (x1 : Vec F S32x128 .f32) (x2 : Vec F S1x128 .f32) :
    out5_A_5 c i a1 h1 a2 h2 a3 h3 a4 h4 a5 h5 a6 h6 hc x0 x1 x2 = k5_pay5 x0 x1 x2 (k5_pay2 (F := F)) := by
  unfold out5_A_5
  rw [View.read_writes_eq_canon _ _ _ (cover5_A_5 c i a1 h1 a2 h2 a3 h3 a4 h4 a5 h5 a6 h6 hc x0 x1 x2)]
  unfold kernelRun5_A
  dsimp only
  sl_unfold_words
  rw [View.canon_cons_unit_zero (S := S1x128) hz, View.readCov_unit_zero (S := S1x128) _ hz]
  simp only [View.readAt_eq_ld, h1.read_unread, h2.read_unread, h3.read_unread, View.ld_unit_zero (S := S5000x32) hz, View.ld_unit_zero (S := S32x128) hz, View.ld_unit_zero (S := S1x128) hz]

/-- A later point, the stored tile. -/
theorem outB3 (c : Dev nD) (i : grid5.Coords) (a1 : Memref sig .tc .vmem S5000x32 .f32) (h1 : a1.IsWhole) (a2 : Memref sig .tc .vmem S32x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond5_0 i) (x0 : Vec F S5000x32 .f32) (x1 : Vec F S32x128 .f32) (x2 : Vec F S1x128 .f32) (xo4 xo5 : Vec F S1x128 .f32) :
    out5_B_3 c i a1 h1 a2 h2 a3 h3 a4 h4 a5 h5 a6 h6 hc x0 x1 x2 xo4 xo5 = k5_pay3 x0 x1 x2 := by
  unfold out5_B_3
  rw [View.read_writes_eq_canon _ _ _ (cover5_B_3 c i a1 h1 a2 h2 a3 h3 a4 h4 a5 h5 a6 h6 hc x0 x1 x2 xo4 xo5)]
  unfold kernelRun5_B
  dsimp only
  sl_unfold_words
  rw [View.canon_unit_zero hz]
  simp only [View.readAt_eq_ld, h1.read_unread, h2.read_unread, h3.read_unread, View.ld_unit_zero (S := S5000x32) hz, View.ld_unit_zero (S := S32x128) hz, View.ld_unit_zero (S := S1x128) hz]

/-- A later point, the sum row: what the point before left, updated. -/
theorem outB4 (c : Dev nD) (i : grid5.Coords) (a1 : Memref sig .tc .vmem S5000x32 .f32) (h1 : a1.IsWhole) (a2 : Memref sig .tc .vmem S32x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond5_0 i) (x0 : Vec F S5000x32 .f32) (x1 : Vec F S32x128 .f32) (x2 : Vec F S1x128 .f32) (xo4 xo5 : Vec F S1x128 .f32) :
    out5_B_4 c i a1 h1 a2 h2 a3 h3 a4 h4 a5 h5 a6 h6 hc x0 x1 x2 xo4 xo5 = k5_pay4 x0 x1 x2 xo4 := by
  unfold out5_B_4
  rw [View.read_writes_eq_canon _ _ _ (cover5_B_4 c i a1 h1 a2 h2 a3 h3 a4 h4 a5 h5 a6 h6 hc x0 x1 x2 xo4 xo5)]
  unfold kernelRun5_B
  dsimp only
  sl_unfold_words
  rw [View.canon_unit_zero hz]
  simp only [View.readAt_eq_ld, h1.read_unread, h2.read_unread, h3.read_unread, View.ld_unit_zero (S := S5000x32) hz, View.ld_unit_zero (S := S32x128) hz, View.ld_unit_zero (S := S1x128) hz, h5.read_unread]

/-- A later point, the sum-of-squares row: what the point before left, updated. -/
theorem outB5 (c : Dev nD) (i : grid5.Coords) (a1 : Memref sig .tc .vmem S5000x32 .f32) (h1 : a1.IsWhole) (a2 : Memref sig .tc .vmem S32x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond5_0 i) (x0 : Vec F S5000x32 .f32) (x1 : Vec F S32x128 .f32) (x2 : Vec F S1x128 .f32) (xo4 xo5 : Vec F S1x128 .f32) :
    out5_B_5 c i a1 h1 a2 h2 a3 h3 a4 h4 a5 h5 a6 h6 hc x0 x1 x2 xo4 xo5 = k5_pay5 x0 x1 x2 xo5 := by
  unfold out5_B_5
  rw [View.read_writes_eq_canon _ _ _ (cover5_B_5 c i a1 h1 a2 h2 a3 h3 a4 h4 a5 h5 a6 h6 hc x0 x1 x2 xo4 xo5)]
  unfold kernelRun5_B
  dsimp only
  sl_unfold_words
  rw [View.canon_unit_zero hz]
  simp only [View.readAt_eq_ld, h1.read_unread, h2.read_unread, h3.read_unread, View.ld_unit_zero (S := S5000x32) hz, View.ld_unit_zero (S := S32x128) hz, View.ld_unit_zero (S := S1x128) hz, h6.read_unread]

end Pieces

/-! ## The running column sums of a 200000×128 array, tile by tile -/

/-- Entry (n, j) at a natural row number; zero past the last row. -/
def rowN (y : Cert.Stages.A S200000x128) (n : ℕ) (j : Fin 128) : EReal :=
  if h : n < 200000 then y (ix2 ⟨n, h⟩ j) else 0

/-- The sum of f over the first n rows, as a 1×128 row. -/
def accG (f : ℕ → Fin 128 → EReal) (n : ℕ) : Cert.Stages.A S1x128 :=
  fun j' => ∑ m ∈ Finset.range n, f m (j' 1)

/-- Every index of a 1×128 row is (0, j). -/
theorem row_idx (j' : S1x128.Idx) : j' = ix2 0 (j' 1) := by
  have h0 := idx2_lt0 j'
  funext a
  match a with
  | ⟨0, _⟩ => exact Fin.ext (by show (j' 0).val = 0; omega)
  | ⟨1, _⟩ => rfl

/-- One more tile: the sum over 5000·(t+1) rows is the sum over 5000·t rows plus the tile's 5000 rows. -/
theorem accG_tile (f : ℕ → Fin 128 → EReal) (t : ℕ) (j' : S1x128.Idx) :
    accG f (5000 * (t + 1)) j' = accG f (5000 * t) j' + ∑ r : Fin 5000, f (5000 * t + r.val) (j' 1) := by
  show ∑ m ∈ Finset.range (5000 * (t + 1)), f m (j' 1) = (∑ m ∈ Finset.range (5000 * t), f m (j' 1)) + _
  rw [Nat.mul_succ, Finset.sum_range_add, Fin.sum_univ_eq_sum_range (fun x => f (5000 * t + x) (j' 1)) 5000]

/-- The column sums are the sum over all 200000 rows. -/
theorem colSum_eq (y : Cert.Stages.A S200000x128) : Cert.Stages.colSum y = accG (rowN y) 200000 := by
  funext j'
  show ∑ r : Fin 200000, y (ix2 r (j' 1)) = ∑ m ∈ Finset.range 200000, rowN y m (j' 1)
  rw [← Fin.sum_univ_eq_sum_range (fun m => rowN y m (j' 1)) 200000]
  refine Finset.sum_congr rfl fun r _ => ?_
  unfold rowN
  rw [dif_pos r.isLt]

/-- So are the column sums of the squares. -/
theorem colSumSq_eq (y : Cert.Stages.A S200000x128) :
    Cert.Stages.colSumSq y = accG (fun m j => rowN y m j * rowN y m j) 200000 := by
  funext j'
  show ∑ r : Fin 200000, y (ix2 r (j' 1)) * y (ix2 r (j' 1)) = ∑ m ∈ Finset.range 200000, rowN y m (j' 1) * rowN y m (j' 1)
  rw [← Fin.sum_univ_eq_sum_range (fun m => rowN y m (j' 1) * rowN y m (j' 1)) 200000]
  refine Finset.sum_congr rfl fun r _ => ?_
  unfold rowN
  rw [dif_pos r.isLt]

/-- No rows: the zero row. -/
theorem accG_zero (f : ℕ → Fin 128 → EReal) (j' : S1x128.Idx) : accG f (5000 * 0) j' = 0 := by
  show ∑ m ∈ Finset.range (5000 * 0), f m (j' 1) = 0
  rw [Nat.mul_zero, Finset.range_zero, Finset.sum_empty]

/-! ## One grid point, over any loaded blocks -/

/-- The stored tile at point t is rows 5000·t … 5000·t + 4999 of the layer's output, when the loaded blocks
    are those rows of a, the whole of w and the whole of b. -/
theorem tile_apply (a : Cert.Stages.A S200000x32) (w : Cert.Stages.A S32x128) (b : Cert.Stages.A S1x128)
    (x0 : Vec Ideal S5000x32 .f32) (x1 : Vec Ideal S32x128 .f32) (x2 : Vec Ideal S1x128 .f32) (t : ℕ) (ht : t < 40)
    (h0 : ∀ (r : Fin 5000) (l : Fin 32) (h : 5000 * t + r.val < 200000), x0 (ix2 r l) = a (ix2 ⟨5000 * t + r.val, h⟩ l))
    (h1 : ∀ (l : Fin 32) (j : Fin 128), x1 (ix2 l j) = w (ix2 l j)) (h2 : ∀ j : Fin 128, x2 (ix2 0 j) = b (ix2 0 j))
    (r : Fin 5000) (j : Fin 128) :
    k5_pay3 (F := Ideal) x0 x1 x2 (ix2 r j)
      = rowN (Cert.Stages.biasRelu (Cert.Stages.mm a w) b) (5000 * t + r.val) j := by
  have h : 5000 * t + r.val < 200000 := by have := r.isLt; omega
  unfold rowN
  rw [dif_pos h, pay3_apply]
  show _ = max ((∑ l : Fin 32, a (ix2 ⟨5000 * t + r.val, h⟩ l) * w (ix2 l j)) + b (ix2 0 j)) 0
  rw [h2 j]
  exact congrArg (fun s => max (s + b (ix2 0 j)) 0) (Finset.sum_congr rfl fun l _ => by rw [h0 r l h, h1 l j])

/-- The sum row's update adds the tile's rows to the running sum. -/
theorem sum_step (f : ℕ → Fin 128 → EReal) (t : ℕ)
    (x0 : Vec Ideal S5000x32 .f32) (x1 : Vec Ideal S32x128 .f32) (x2 : Vec Ideal S1x128 .f32) (prev : Vec Ideal S1x128 .f32)
    (htile : ∀ (r : Fin 5000) (j : Fin 128), k5_pay3 (F := Ideal) x0 x1 x2 (ix2 r j) = f (5000 * t + r.val) j)
    (hprev : prev = accG f (5000 * t)) :
    k5_pay4 (F := Ideal) x0 x1 x2 prev = accG f (5000 * (t + 1)) := by
  subst hprev
  funext j'
  obtain ⟨j, rfl⟩ : ∃ j : Fin 128, j' = ix2 0 j := ⟨j' 1, row_idx j'⟩
  refine (pay4_apply x0 x1 x2 _ j).trans ?_
  rw [accG_tile f t (ix2 0 j)]
  exact congrArg (accG f (5000 * t) (ix2 0 j) + ·) (Finset.sum_congr rfl fun r _ => htile r j)

/-- The sum-of-squares row's update adds the squares of the tile's rows to the running sum. -/
theorem sq_step (f : ℕ → Fin 128 → EReal) (t : ℕ)
    (x0 : Vec Ideal S5000x32 .f32) (x1 : Vec Ideal S32x128 .f32) (x2 : Vec Ideal S1x128 .f32) (prev : Vec Ideal S1x128 .f32)
    (htile : ∀ (r : Fin 5000) (j : Fin 128), k5_pay3 (F := Ideal) x0 x1 x2 (ix2 r j) = f (5000 * t + r.val) j)
    (hprev : prev = accG (fun m j => f m j * f m j) (5000 * t)) :
    k5_pay5 (F := Ideal) x0 x1 x2 prev = accG (fun m j => f m j * f m j) (5000 * (t + 1)) := by
  subst hprev
  funext j'
  obtain ⟨j, rfl⟩ : ∃ j : Fin 128, j' = ix2 0 j := ⟨j' 1, row_idx j'⟩
  refine (pay5_apply x0 x1 x2 _ j).trans ?_
  rw [accG_tile (fun m j => f m j * f m j) t (ix2 0 j)]
  exact congrArg (accG (fun m j => f m j * f m j) (5000 * t) (ix2 0 j) + ·)
    (Finset.sum_congr rfl fun r _ => congrArg₂ (· * ·) (htile r j) (htile r j))

/-! ## The region at the buffer contents V -/

variable (V : (c : Dev nD) → (b : Ref sig .tc) → Buf (Elt Ideal) ((c : Thread nD τ).loc b))

/-- The layer's output on core c: the positive part of a·w plus the bias row. -/
abbrev Yc (c : Dev nD) : Cert.Stages.A S200000x128 :=
  Cert.Stages.biasRelu (Cert.Stages.mm (V c main_arg1) (V c main_arg10)) (V c main_v75)

/-- The grid has 40 points. -/
theorem lt40 (t : Fin cfg5.N) : t.val < 40 := lt_of_lt_of_eq t.isLt (show cfg5.N = 40 from N_5)

/-- Where each window's block sits at point t: the row windows (a and the stored tile) at row block t,
    the others at their one block. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- The block of a at point t is its rows 5000·t … 5000·t + 4999. -/
theorem blk0_apply (c : Dev nD) (t : Fin cfg5.N) (r : Fin 5000) (l : Fin 32) (h : 5000 * t.val + r.val < 200000) :
    (iblk5 V c 0 t : Vec Ideal S5000x32 .f32) (ix2 r l)
      = (V c main_arg1 : S200000x32.Idx → Ideal .f32) (ix2 ⟨5000 * t.val + r.val, h⟩ l) := by
  obtain ⟨e0, e1, -⟩ := idx_facts5 t
  unfold iblk5
  rw [View.read_apply]
  show V c main_arg1 _ = V c main_arg1 _
  refine congrArg (V c main_arg1) (funext fun a => Fin.ext ?_)
  match a with
  | ⟨0, _⟩ => show win5_0.index t (0 : Fin 2) * 5000 + 1 * r.val = 5000 * t.val + r.val; rw [e0]; omega
  | ⟨1, _⟩ => show win5_0.index t (1 : Fin 2) * 32 + 1 * l.val = l.val; rw [e1]; omega

/-- The block of w at every point is w. -/
theorem blk1_apply (c : Dev nD) (t : Fin cfg5.N) (l : Fin 32) (j : Fin 128) :
    (iblk5 V c 1 t : Vec Ideal S32x128 .f32) (ix2 l j) = (V c main_arg10 : S32x128.Idx → Ideal .f32) (ix2 l j) := by
  obtain ⟨-, -, e0, e1, -⟩ := idx_facts5 t
  unfold iblk5
  rw [View.read_apply]
  show V c main_arg10 _ = V c main_arg10 _
  refine congrArg (V c main_arg10) (funext fun a => Fin.ext ?_)
  match a with
  | ⟨0, _⟩ => show win5_1.index t (0 : Fin 2) * 32 + 1 * l.val = l.val; rw [e0]; omega
  | ⟨1, _⟩ => show win5_1.index t (1 : Fin 2) * 128 + 1 * j.val = j.val; rw [e1]; omega

/-- The block of the bias row at every point is the row. -/
theorem blk2_apply (c : Dev nD) (t : Fin cfg5.N) (j : Fin 128) :
    (iblk5 V c 2 t : Vec Ideal S1x128 .f32) (ix2 0 j) = (V c main_v75 : S1x128.Idx → Ideal .f32) (ix2 0 j) := by
  obtain ⟨-, -, -, -, e0, e1, -⟩ := idx_facts5 t
  unfold iblk5
  rw [View.read_apply]
  show V c main_v75 _ = V c main_v75 _
  refine congrArg (V c main_v75) (funext fun a => Fin.ext ?_)
  match a with
  | ⟨0, _⟩ => show win5_2.index t (0 : Fin 2) * 1 + 1 * (0 : Fin 1).val = (0 : Fin 1).val; rw [e0]; rfl
  | ⟨1, _⟩ => show win5_2.index t (1 : Fin 2) * 128 + 1 * j.val = j.val; rw [e1]; omega

/-- The tile stored at point t is rows 5000·t … of the layer's output. -/
theorem tile_at (c : Dev nD) (t : Fin cfg5.N) (r : Fin 5000) (j : Fin 128) :
    k5_pay3 (F := Ideal) (iblk5 V c 0 t) (iblk5 V c 1 t) (iblk5 V c 2 t) (ix2 r j) = rowN (Yc V c) (5000 * t.val + r.val) j :=
  tile_apply (V c main_arg1) (V c main_arg10) (V c main_v75) (iblk5 V c 0 t) (iblk5 V c 1 t) (iblk5 V c 2 t) t.val (lt40 t)
    (fun r l h => blk0_apply V c t r l h) (fun l j => blk1_apply V c t l j) (fun j => blk2_apply V c t j) r j

/-! ## What the three output buffers hold after each point -/

/-- The tile buffer after point t holds the tile stored there. -/
theorem outs_y (c : Dev nD) (t : Fin cfg5.N) :
    (outsAt5 (F := Ideal) V c t.val t.isLt).1 = k5_pay3 (F := Ideal) (iblk5 V c 0 t) (iblk5 V c 1 t) (iblk5 V c 2 t) := by
  by_cases h0 : t.val % 40 = 0
  · rw [outsAt5_A V c t h0]
    dsimp only
    exact outA3 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (iblk5 V c 0 t) (iblk5 V c 1 t) (iblk5 V c 2 t)
  · rw [outsAt5_B V c t h0]
    dsimp only
    exact outB3 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) (iblk5 V c 0 t) (iblk5 V c 1 t) (iblk5 V c 2 t) _ _

/-- After point n the sum row holds the column sums over the first 5000·(n+1) rows, and the sum-of-squares
    row those of the squares: the first point resets and adds its tile, each later point adds its tile to what
    the point before left. -/
theorem acc_inv (c : Dev nD) : ∀ (n : ℕ) (hn : n < cfg5.N),
    (outsAt5 (F := Ideal) V c n hn).2.1 = accG (rowN (Yc V c)) (5000 * (n + 1))
    ∧ (outsAt5 (F := Ideal) V c n hn).2.2 = accG (fun m j => rowN (Yc V c) m j * rowN (Yc V c) m j) (5000 * (n + 1))
  | 0, hn => by
    rw [outsAt5_A V c ⟨0, hn⟩ rfl]
    dsimp only
    refine ⟨(outA4 (F := Ideal) c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) _ (iblk5 V c 0 ⟨0, hn⟩) (iblk5 V c 1 ⟨0, hn⟩) (iblk5 V c 2 ⟨0, hn⟩)).trans ?_,
      (outA5 (F := Ideal) c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) _ (iblk5 V c 0 ⟨0, hn⟩) (iblk5 V c 1 ⟨0, hn⟩) (iblk5 V c 2 ⟨0, hn⟩)).trans ?_⟩
    · exact sum_step (rowN (Yc V c)) 0 (iblk5 V c 0 ⟨0, hn⟩) (iblk5 V c 1 ⟨0, hn⟩) (iblk5 V c 2 ⟨0, hn⟩) (k5_pay1 (F := Ideal))
        (fun r j => tile_at V c ⟨0, hn⟩ r j) (funext fun j' => (pay1_apply j').trans (accG_zero _ j').symm)
    · exact sq_step (rowN (Yc V c)) 0 (iblk5 V c 0 ⟨0, hn⟩) (iblk5 V c 1 ⟨0, hn⟩) (iblk5 V c 2 ⟨0, hn⟩) (k5_pay2 (F := Ideal))
        (fun r j => tile_at V c ⟨0, hn⟩ r j) (funext fun j' => (pay2_apply j').trans (accG_zero _ j').symm)
  | n + 1, hn => by
    have hN : cfg5.N = 40 := N_5
    have hB : ¬(⟨n + 1, hn⟩ : Fin cfg5.N).val % 40 = 0 := by dsimp only; omega
    obtain ⟨ih1, ih2⟩ := acc_inv c n (Nat.lt_of_succ_lt hn)
    rw [outsAt5_B V c ⟨n + 1, hn⟩ hB]
    dsimp only
    refine ⟨(outB4 (F := Ideal) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) _ (iblk5 V c 0 ⟨n + 1, hn⟩) (iblk5 V c 1 ⟨n + 1, hn⟩) (iblk5 V c 2 ⟨n + 1, hn⟩) _ _).trans ?_,
      (outB5 (F := Ideal) c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) _ (iblk5 V c 0 ⟨n + 1, hn⟩) (iblk5 V c 1 ⟨n + 1, hn⟩) (iblk5 V c 2 ⟨n + 1, hn⟩) _ _).trans ?_⟩
    · exact sum_step (rowN (Yc V c)) (n + 1) (iblk5 V c 0 ⟨n + 1, hn⟩) (iblk5 V c 1 ⟨n + 1, hn⟩) (iblk5 V c 2 ⟨n + 1, hn⟩) _
        (fun r j => tile_at V c ⟨n + 1, hn⟩ r j) ih1
    · exact sq_step (rowN (Yc V c)) (n + 1) (iblk5 V c 0 ⟨n + 1, hn⟩) (iblk5 V c 1 ⟨n + 1, hn⟩) (iblk5 V c 2 ⟨n + 1, hn⟩) _
        (fun r j => tile_at V c ⟨n + 1, hn⟩ r j) ih2

/-! ## From the blocks written back to the arrays -/

/-- What point t writes back to the tile array is block t of the layer's output. -/
theorem flushed_y (c : Dev nD) (t : Fin cfg5.N) :
    (dat5 (F := Ideal) V c).flushed 3 t = ((cfg5.win 3).blk t).view.read (Elt Ideal) (Yc V c) := by
  show (cfg5.win 3).cut (grid5.coords t) ((dat5 (F := Ideal) V c).after 3 t) = _
  rw [after5_3, outs_y]
  obtain ⟨-, -, -, -, -, -, e0, e1, -⟩ := idx_facts5 t
  have ht := lt40 t
  have key : ∀ y : S5000x128.Idx, k5_pay3 (F := Ideal) (iblk5 V c 0 t) (iblk5 V c 1 t) (iblk5 V c 2 t) y
      = Yc V c (((cfg5.win 3).blk t).view.emb y) := by
    intro y
    obtain ⟨r, j, rfl⟩ : ∃ (r : Fin 5000) (j : Fin 128), y = ix2 r j := ⟨y 0, y 1, eq_ix2 y⟩
    have h : 5000 * t.val + r.val < 200000 := by have := r.isLt; omega
    rw [tile_at V c t r j]
    unfold rowN
    rw [dif_pos h]
    refine congrArg (Yc V c) (funext fun a => Fin.ext ?_)
    match a with
    | ⟨0, _⟩ => show 5000 * t.val + r.val = win5_3.index t (0 : Fin 2) * 5000 + 1 * r.val; rw [e0]; omega
    | ⟨1, _⟩ => show j.val = win5_3.index t (1 : Fin 2) * 128 + 1 * j.val; rw [e1]; omega
  exact funext key

/-- A 1×128 row read through the sum row's one block is the row (the block is the whole array). -/
theorem whole_row4 (t : Fin cfg5.N) (G : Cert.Stages.A S1x128) :
    (cfg5.win 4).cut (grid5.coords t) G = ((cfg5.win 4).blk t).view.read (Elt Ideal) G := by
  obtain ⟨-, -, -, -, -, -, -, -, e0, e1, -⟩ := idx_facts5 t
  have key : ∀ y : S1x128.Idx, G y = G (((cfg5.win 4).blk t).view.emb y) := by
    intro y
    refine congrArg G (funext fun a => Fin.ext ?_)
    match a with
    | ⟨0, _⟩ => show (y 0).val = win5_4.index t (0 : Fin 2) * 1 + 1 * (y 0).val; rw [e0]; omega
    | ⟨1, _⟩ => show (y 1).val = win5_4.index t (1 : Fin 2) * 128 + 1 * (y 1).val; rw [e1]; omega
  exact funext key
/-- The same through the sum-of-squares row's one block. -/
theorem whole_row5 (t : Fin cfg5.N) (G : Cert.Stages.A S1x128) :
    (cfg5.win 5).cut (grid5.coords t) G = ((cfg5.win 5).blk t).view.read (Elt Ideal) G := by
  obtain ⟨-, -, -, -, -, -, -, -, -, -, e0, e1⟩ := idx_facts5 t
  have key : ∀ y : S1x128.Idx, G y = G (((cfg5.win 5).blk t).view.emb y) := by
    intro y
    refine congrArg G (funext fun a => Fin.ext ?_)
    match a with
    | ⟨0, _⟩ => show (y 0).val = win5_5.index t (0 : Fin 2) * 1 + 1 * (y 0).val; rw [e0]; omega
    | ⟨1, _⟩ => show (y 1).val = win5_5.index t (1 : Fin 2) * 128 + 1 * (y 1).val; rw [e1]; omega
  exact funext key

/-- The one write-back of the sum row, after the last point, writes the column sums over all rows. -/
theorem flushed_s (c : Dev nD) (t : Fin cfg5.N) (hf : (cfg5.win 4).flush t = true) :
    (dat5 (F := Ideal) V c).flushed 4 t = ((cfg5.win 4).blk t).view.read (Elt Ideal) (Cert.Stages.colSum (Yc V c)) := by
  have e : 5000 * (t.val + 1) = 200000 := by have := (flush5_4 t).mp hf; have := lt40 t; omega
  show (cfg5.win 4).cut (grid5.coords t) ((dat5 (F := Ideal) V c).after 4 t) = _
  rw [after5_4, (acc_inv V c t.val t.isLt).1, e, ← colSum_eq]
  exact whole_row4 t (Cert.Stages.colSum (Yc V c))

/-- The one write-back of the sum-of-squares row writes the column sums of the squares over all rows. -/
theorem flushed_q (c : Dev nD) (t : Fin cfg5.N) (hf : (cfg5.win 5).flush t = true) :
    (dat5 (F := Ideal) V c).flushed 5 t = ((cfg5.win 5).blk t).view.read (Elt Ideal) (Cert.Stages.colSumSq (Yc V c)) := by
  have e : 5000 * (t.val + 1) = 200000 := by have := (flush5_5 t).mp hf; have := lt40 t; omega
  show (cfg5.win 5).cut (grid5.coords t) ((dat5 (F := Ideal) V c).after 5 t) = _
  rw [after5_5, (acc_inv V c t.val t.isLt).2, e, ← colSumSq_eq]
  exact whole_row5 t (Cert.Stages.colSumSq (Yc V c))

/-- An index of the tile array is in point t's block iff its coordinates are in the block's ranges. -/
theorem mem_blk3 (t : Fin cfg5.N) (i : S200000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v76_0).slice (win5_3.rect t)).set ↔ _
  rw [View.set_slice_whole, Rect.mem_set_unit]
  exact Iff.rfl
theorem mem_blk4 (t : Fin cfg5.N) (i : S1x128.Idx) :
    i ∈ ((cfg5.win 4).blk t).view.set ↔ ∀ a : Fin 2, win5_4.index t a * S1x128.size a ≤ (i a).val
      ∧ (i a).val < win5_4.index t a * S1x128.size a + S1x128.size a := by
  show i ∈ ((View.whole main_v76_1).slice (win5_4.rect t)).set ↔ _
  rw [View.set_slice_whole, Rect.mem_set_unit]
  exact Iff.rfl
theorem mem_blk5 (t : Fin cfg5.N) (i : S1x128.Idx) :
    i ∈ ((cfg5.win 5).blk t).view.set ↔ ∀ a : Fin 2, win5_5.index t a * S1x128.size a ≤ (i a).val
      ∧ (i a).val < win5_5.index t a * S1x128.size a + S1x128.size a := by
  show i ∈ ((View.whole main_v76_2).slice (win5_5.rect t)).set ↔ _
  rw [View.set_slice_whole, Rect.mem_set_unit]
  exact Iff.rfl

/-- Row r of the tile array is written back by point r / 5000. -/
theorem cover_y (i : S200000x128.Idx) :
    ∃ t : Fin cfg5.N, (cfg5.win 3).flush t = true ∧ i ∈ ((cfg5.win 3).blk t).view.set := by
  have h0 := idx2_lt0 i
  have h1 := idx2_lt1 i
  have hN : cfg5.N = 40 := N_5
  have hq : (i 0).val / 5000 < cfg5.N := by omega
  refine ⟨⟨(i 0).val / 5000, hq⟩, flush5_3 _, ?_⟩
  rw [mem_blk3]
  obtain ⟨-, -, -, -, -, -, e0, e1, -⟩ := idx_facts5 ⟨(i 0).val / 5000, hq⟩
  intro a
  match a with
  | ⟨0, _⟩ =>
    show win5_3.index ⟨(i 0).val / 5000, hq⟩ (0 : Fin 2) * 5000 ≤ (i 0).val
      ∧ (i 0).val < win5_3.index ⟨(i 0).val / 5000, hq⟩ (0 : Fin 2) * 5000 + 5000
    rw [e0]; dsimp only; omega
  | ⟨1, _⟩ =>
    show win5_3.index ⟨(i 0).val / 5000, hq⟩ (1 : Fin 2) * 128 ≤ (i 1).val
      ∧ (i 1).val < win5_3.index ⟨(i 0).val / 5000, hq⟩ (1 : Fin 2) * 128 + 128
    rw [e1]; omega

/-- The last point is a point. -/
theorem last_lt : 39 < cfg5.N := by rw [show cfg5.N = 40 from N_5]; decide

/-- The sum row is written back whole by the last point. -/
theorem cover_s (i : S1x128.Idx) :
    ∃ t : Fin cfg5.N, (cfg5.win 4).flush t = true ∧ i ∈ ((cfg5.win 4).blk t).view.set := by
  have h0 := idx2_lt0 i
  have h1 := idx2_lt1 i
  refine ⟨⟨39, last_lt⟩, (flush5_4 _).mpr rfl, ?_⟩
  rw [mem_blk4]
  obtain ⟨-, -, -, -, -, -, -, -, e0, e1, -⟩ := idx_facts5 ⟨39, last_lt⟩
  intro a
  match a with
  | ⟨0, _⟩ =>
    show win5_4.index ⟨39, last_lt⟩ (0 : Fin 2) * 1 ≤ (i 0).val ∧ (i 0).val < win5_4.index ⟨39, last_lt⟩ (0 : Fin 2) * 1 + 1
    rw [e0]; omega
  | ⟨1, _⟩ =>
    show win5_4.index ⟨39, last_lt⟩ (1 : Fin 2) * 128 ≤ (i 1).val ∧ (i 1).val < win5_4.index ⟨39, last_lt⟩ (1 : Fin 2) * 128 + 128
    rw [e1]; omega

/-- So is the sum-of-squares row. -/
theorem cover_q (i : S1x128.Idx) :
    ∃ t : Fin cfg5.N, (cfg5.win 5).flush t = true ∧ i ∈ ((cfg5.win 5).blk t).view.set := by
  have h0 := idx2_lt0 i
  have h1 := idx2_lt1 i
  refine ⟨⟨39, last_lt⟩, (flush5_5 _).mpr rfl, ?_⟩
  rw [mem_blk5]
  obtain ⟨-, -, -, -, -, -, -, -, -, -, e0, e1⟩ := idx_facts5 ⟨39, last_lt⟩
  intro a
  match a with
  | ⟨0, _⟩ =>
    show win5_5.index ⟨39, last_lt⟩ (0 : Fin 2) * 1 ≤ (i 0).val ∧ (i 0).val < win5_5.index ⟨39, last_lt⟩ (0 : Fin 2) * 1 + 1
    rw [e0]; omega
  | ⟨1, _⟩ =>
    show win5_5.index ⟨39, last_lt⟩ (1 : Fin 2) * 128 ≤ (i 1).val ∧ (i 1).val < win5_5.index ⟨39, last_lt⟩ (1 : Fin 2) * 128 + 128
    rw [e1]; omega

/-! ## The three arrays the region leaves -/

theorem out_y (c : Dev nD) : (dat5 (F := Ideal) V c).arrAt 3 cfg5.N = Cert.Stages.biasRelu (Cert.Stages.mm (V c main_arg1) (V c main_arg10)) (V c main_v75) :=
  (dat5 (F := Ideal) V c).arrAt_eq_of_cover 3 (Yc V c) (fun t _ => flushed_y V c t) cover_y
theorem out_s (c : Dev nD) : (dat5 (F := Ideal) V c).arrAt 4 cfg5.N = Cert.Stages.colSum (Cert.Stages.biasRelu (Cert.Stages.mm (V c main_arg1) (V c main_arg10)) (V c main_v75)) :=
  (dat5 (F := Ideal) V c).arrAt_eq_of_cover 4 (Cert.Stages.colSum (Yc V c)) (flushed_s V c) cover_s
theorem out_q (c : Dev nD) : (dat5 (F := Ideal) V c).arrAt 5 cfg5.N = Cert.Stages.colSumSq (Cert.Stages.biasRelu (Cert.Stages.mm (V c main_arg1) (V c main_arg10)) (V c main_v75)) :=
  (dat5 (F := Ideal) V c).arrAt_eq_of_cover 5 (Cert.Stages.colSumSq (Yc V c)) (flushed_q V c) cover_q

end Cert.KernelIdeal.Reg5

end
-- ==== Proof.Reg7.lean ====
/-
  The per-graph pooling, read off the run as one array.

  The 200000 node rows are walked in 40 tiles of 5000.  One 1000×256 block stays in place for all 40 points: the first
  point sets it to zero, and every point adds to it the tile's one-hot product — entry (b, f) gains the sum, over the
  tile's rows k whose graph id is the word of b, of feature f of row k, the features being the first array's 128
  columns followed by the second's.  Over the extended reals the forty additions, in the order of the points, are the sum
  over all 200000 rows, whatever its grouping; the block is written back once, after the last point, and is the whole
  result array.
-/
import proofs.«426214_j50276887167257_1_alg».proof.Proof.Gen.KernelIdeal.Frame
import proofs.«426214_j50276887167257_1_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Reg7

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole block. -/
theorem hz : (![0, 0] : Fin 2 → Nat) = fun _ => 0 := funext fun a => by fin_cases a <;> rfl

/-! ## What one point leaves in the block -/

section Pieces
variable {F : FTy → Type} [FloatOps F]

/-- Any point but the first: the block it found, plus the tile's product. -/
theorem out_B (c : Dev nD) (i : grid7.Coords) (a1 : Memref sig .tc .vmem S5000x128 .f32) (h1 : a1.IsWhole)
    (a2 : Memref sig .tc .vmem S5000x128 .f32) (h2 : a2.IsWhole) (a3 : Memref sig .tc .vmem S5000x1 .i32) (h3 : a3.IsWhole)
    (a4 : Memref sig .tc .vmem S1000x256 .f32) (h4 : a4.IsWhole) (hc : ¬cond7_0 i)
    (x0 x1 : Vec F S5000x128 .f32) (x2 : Vec F S5000x1 .i32) (xo : Vec F S1000x256 .f32) :
    out7_B_3 c i a1 h1 a2 h2 a3 h3 a4 h4 hc x0 x1 x2 xo = k7_pay2 x2 x0 x1 xo := by
  unfold out7_B_3
  rw [View.read_writes_eq_canon _ _ _ (cover7_B_3 c i a1 h1 a2 h2 a3 h3 a4 h4 hc x0 x1 x2 xo)]
  unfold kernelRun7_B
  dsimp only
  try sl_unfold_words
  rw [View.canon_unit_zero hz]
  simp only [View.readAt_eq_ld, h1.read_unread, h2.read_unread, h3.read_unread, h4.read_unread,
    View.ld_unit_zero (S := S5000x128) hz, View.ld_unit_zero (S := S5000x1) hz, View.ld_unit_zero (S := S1000x256) hz]

/-- The first point: the block is set to zero, read back, and the tile's product added to that. -/
theorem out_A (c : Dev nD) (i : grid7.Coords) (a1 : Memref sig .tc .vmem S5000x128 .f32) (h1 : a1.IsWhole)
    (a2 : Memref sig .tc .vmem S5000x128 .f32) (h2 : a2.IsWhole) (a3 : Memref sig .tc .vmem S5000x1 .i32) (h3 : a3.IsWhole)
    (a4 : Memref sig .tc .vmem S1000x256 .f32) (h4 : a4.IsWhole) (hc : cond7_0 i)
    (x0 x1 : Vec F S5000x128 .f32) (x2 : Vec F S5000x1 .i32) :
    out7_A_3 c i a1 h1 a2 h2 a3 h3 a4 h4 hc x0 x1 x2 = k7_pay2 x2 x0 x1 (k7_pay1 (F := F)) := by
  unfold out7_A_3
  rw [View.read_writes_eq_canon _ _ _ (cover7_A_3 c i a1 h1 a2 h2 a3 h3 a4 h4 hc x0 x1 x2)]
  unfold kernelRun7_A
  dsimp only
  sl_unfold_words
  rw [View.canon_cons_unit_zero (S := S1000x256) hz, View.readCov_unit_zero (S := S1000x256) _ hz]
  simp only [View.readAt_eq_ld, h1.read_unread, h2.read_unread, h3.read_unread,
    View.ld_unit_zero (S := S5000x128) hz, View.ld_unit_zero (S := S5000x1) hz, View.ld_unit_zero (S := S1000x256) hz]

end Pieces

/-! ## The tile's product at an entry

  The product contracts the row axis of both operands: entry (b, f) is the sum over the rows k of left(k, b) · right(k, f).
  Its operand indices, axis by axis: the contracted axis carries the contraction index's one coordinate, the other axis
  the entry's own coordinate on that side. -/

theorem lhs_0 (i : S1000x256.Idx) (q : dot_S5000x1000_S5000x256_S1000x256_0_0_1_1_n_n.contr.Idx) :
    (dot_S5000x1000_S5000x256_S1000x256_0_0_1_1_n_n.lhsIdx i q 0).val = (q ⟨0, by decide⟩).val :=
  dot_S5000x1000_S5000x256_S1000x256_0_0_1_1_n_n.lhsIdx_val_of_single rfl i q
theorem lhs_1 (i : S1000x256.Idx) (q : dot_S5000x1000_S5000x256_S1000x256_0_0_1_1_n_n.contr.Idx) :
    (dot_S5000x1000_S5000x256_S1000x256_0_0_1_1_n_n.lhsIdx i q 1).val = (i 0).val := by
  unfold DotDims.lhsIdx
  rw [dif_neg (show ¬(1 : Fin S5000x1000.rank) ∈ dot_S5000x1000_S5000x256_S1000x256_0_0_1_1_n_n.lhsBatch by decide), dif_pos (show (1 : Fin S5000x1000.rank) ∈ dot_S5000x1000_S5000x256_S1000x256_0_0_1_1_n_n.lhsNonContracting by decide)]
  rfl
theorem rhs_0 (i : S1000x256.Idx) (q : dot_S5000x1000_S5000x256_S1000x256_0_0_1_1_n_n.contr.Idx) :
    (dot_S5000x1000_S5000x256_S1000x256_0_0_1_1_n_n.rhsIdx i q 0).val = (q ⟨0, by decide⟩).val :=
  dot_S5000x1000_S5000x256_S1000x256_0_0_1_1_n_n.rhsIdx_val_of_single rfl i q
theorem rhs_1 (i : S1000x256.Idx) (q : dot_S5000x1000_S5000x256_S1000x256_0_0_1_1_n_n.contr.Idx) :
    (dot_S5000x1000_S5000x256_S1000x256_0_0_1_1_n_n.rhsIdx i q 1).val = (i 1).val := by
  unfold DotDims.rhsIdx
  rw [dif_neg (show ¬(1 : Fin S5000x256.rank) ∈ dot_S5000x1000_S5000x256_S1000x256_0_0_1_1_n_n.rhsBatch by decide), dif_pos (show (1 : Fin S5000x256.rank) ∈ dot_S5000x1000_S5000x256_S1000x256_0_0_1_1_n_n.rhsNonContracting by decide)]
  rfl

/-- Into a zero accumulator, entry (b, f) of the product is the sum over the tile's rows k of l(k, b) · r(k, f). -/
theorem mm_apply (l : FVec Ideal S5000x1000 .bf16) (r : FVec Ideal S5000x256 .bf16) (b : Fin 1000) (f : Fin 256) :
    matmul (F := Ideal) dot_S5000x1000_S5000x256_S1000x256_0_0_1_1_n_n none l r (constant S1000x256 .f32 0x00000000#32) (ix2 b f)
      = ∑ k : Fin 5000, l (ix2 k b) * r (ix2 k f) := by
  simp only [matmul]
  rw [Ideal.matmul_constant_zero_apply, ← Equiv.sum_comp (contrEquiv1 dot_S5000x1000_S5000x256_S1000x256_0_0_1_1_n_n 5000 rfl rfl).symm]
  refine Finset.sum_congr rfl fun k _ => ?_
  have hk := contrEquiv1_symm_val dot_S5000x1000_S5000x256_S1000x256_0_0_1_1_n_n 5000 rfl rfl k
  have el : dot_S5000x1000_S5000x256_S1000x256_0_0_1_1_n_n.lhsIdx (ix2 b f) ((contrEquiv1 dot_S5000x1000_S5000x256_S1000x256_0_0_1_1_n_n 5000 rfl rfl).symm k) = ix2 k b := funext fun a => Fin.ext (by
    match a with
    | ⟨0, _⟩ => exact (lhs_0 _ _).trans hk
    | ⟨1, _⟩ => exact lhs_1 _ _)
  have er : dot_S5000x1000_S5000x256_S1000x256_0_0_1_1_n_n.rhsIdx (ix2 b f) ((contrEquiv1 dot_S5000x1000_S5000x256_S1000x256_0_0_1_1_n_n 5000 rfl rfl).symm k) = ix2 k f := funext fun a => Fin.ext (by
    match a with
    | ⟨0, _⟩ => exact (rhs_0 _ _).trans hk
    | ⟨1, _⟩ => exact rhs_1 _ _)
  rw [el, er]

/-- The one-hot factor: 1 where a row's graph id is the 32-bit word of graph number b, else 0. -/
def hot (w : BitVec 32) (b : Nat) : EReal := if w = BitVec.ofNat 32 b then 1 else 0

/-- The bit of an equality test, widened to a word and converted as a signed integer, is 1 or 0 as an extended real. -/
theorem hot_word (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · rw [if_pos h, show IntOp.cmpi .eq x y = 1#1 from by simp [IntOp.cmpi, h]]
    rw [show ((1#1 : BitVec 1).setWidth 32).toInt = 1 from by decide]
    norm_num
  · rw [if_neg h, show IntOp.cmpi .eq x y = 0#1 from by
      show BitVec.ofBool (x == y) = 0#1
      rw [show (x == y) = false from beq_eq_false_iff_ne.mpr h]; rfl]
    rw [show ((0#1 : BitVec 1).setWidth 32).toInt = 0 from by decide]
    norm_num

/-- Feature f of row r: below 128 it is column f of the first array, from 128 on column f − 128 of the second. -/
def feat {n : Nat} (h1 h2 : (⟨2, ![n, 128]⟩ : Shape).Idx → EReal) (r : Fin n) (f : Fin 256) : EReal :=
  if h : f.val < 128 then h1 (ix2 r ⟨f.val, h⟩) else h2 (ix2 r ⟨f.val - 128, by have := f.isLt; omega⟩)

/-- The product's left operand at (k, b): the ids column spread along the lanes, compared with the lane number. -/
theorem hotMat_apply (v3 : Vec Ideal S5000x1 .i32) (hc : S5000x1.ShapeCasts S5000x1) (hi : S5000x1000.Iotas .tc 32 [1])
    (hb : S5000x1.Broadcasts S5000x1000) (h32 : 1 < 32) (hbf : FTy.bits .bf16 < FTy.bits .f32) (k : Fin 5000) (b : Fin 1000) :
    (truncf .bf16 (sitofp .f32 (extui 32 (cmpi .eq (broadcastTo S5000x1000 (shapeCast S5000x1 v3 hc : IVec S5000x1 32) hb) (iota .tc S5000x1000 32 [1] hi)) h32) : FVec Ideal S5000x1000 .f32) hbf : FVec Ideal S5000x1000 .bf16) (ix2 k b)
      = hot (v3 (ix2 k 0)) b.val := by
  show FloatOps.sitofp (F := Ideal) .f32 ((IntOp.cmpi .eq (broadcastTo S5000x1000 (shapeCast S5000x1 v3 hc : IVec S5000x1 32) hb (ix2 k b)) (iota .tc S5000x1000 32 [1] hi (ix2 k b))).setWidth 32) = _
  rw [hot_word, iota_single_apply, broadcastTo_apply _ hb (ix2 k b) (ix2 k 0) (fun a => by
    match a with
    | ⟨0, _⟩ => rfl
    | ⟨1, _⟩ => rfl), shapeCast_self]
  rfl

/-- The product's right operand at (k, f): the two feature blocks side by side along the lanes. -/
theorem featMat_apply (v11 v13 : Vec Ideal S5000x128 .f32) (hc : S5000x128.ShapeCasts S5000x128)
    (hcat : Shape.Concatenates [S5000x128, S5000x128] S5000x256 1) (hbf : FTy.bits .bf16 < FTy.bits .f32) (k : Fin 5000) (f : Fin 256) :
    (truncf .bf16 (concatenate S5000x256 1 [⟨S5000x128, (shapeCast S5000x128 v11 hc : FVec Ideal S5000x128 .f32)⟩, ⟨S5000x128, (shapeCast S5000x128 v13 hc : FVec Ideal S5000x128 .f32)⟩] hcat : FVec Ideal S5000x256 .f32) hbf : FVec Ideal S5000x256 .bf16) (ix2 k f)
      = feat v11 v13 k f := by
  show concatenate S5000x256 1 [⟨S5000x128, (shapeCast S5000x128 v11 hc : FVec Ideal S5000x128 .f32)⟩, ⟨S5000x128, (shapeCast S5000x128 v13 hc : FVec Ideal S5000x128 .f32)⟩] hcat (ix2 k f) = _
  unfold feat
  rw [shapeCast_self, shapeCast_self]
  by_cases h : f.val < 128
  · rw [dif_pos h]
    exact concatenate_pair_apply_left 1 v11 v13 hcat (ix2 k f) rfl (ix2 k ⟨f.val, h⟩) (fun a => by
      match a with
      | ⟨0, _⟩ => rfl
      | ⟨1, _⟩ => rfl)
  · rw [dif_neg h]
    exact concatenate_pair_apply_right 1 v11 v13 hcat (ix2 k f) rfl rfl (ix2 k ⟨f.val - 128, by have := f.isLt; omega⟩) (fun a ha => by
      match a with
      | ⟨0, _⟩ => rfl
      | ⟨1, _⟩ => exact absurd rfl ha) (by show f.val - 128 + 128 = f.val; omega)

/-- One tile's contribution to entry (b, f): the features f of the tile's rows whose graph is b, summed. -/
def tileSum (ids : Vec Ideal S5000x1 .i32) (x1 x2 : Vec Ideal S5000x128 .f32) (b : Fin 1000) (f : Fin 256) : EReal :=
  ∑ k : Fin 5000, hot (ids (ix2 k 0)) b.val * feat x1 x2 k f

/-- What a point stores at (b, f): what the block held there plus the tile's contribution. -/
theorem pay2_apply (v3 : Vec Ideal S5000x1 .i32) (v11 v13 : Vec Ideal S5000x128 .f32) (v18 : Vec Ideal S1000x256 .f32) (b : Fin 1000) (f : Fin 256) :
    k7_pay2 (F := Ideal) v3 v11 v13 v18 (ix2 b f) = v18 (ix2 b f) + tileSum v3 v11 v13 b f := by
  unfold k7_pay2
  refine (addf_apply _ _ (ix2 b f)).trans ?_
  refine congrArg₂ (· + ·) (congrFun (shapeCast_self v18 _) (ix2 b f)) ?_
  refine (mm_apply _ _ b f).trans ?_
  exact Finset.sum_congr rfl fun k _ => congrArg₂ (· * ·) (hotMat_apply v3 _ _ _ _ _ k b) (featMat_apply v11 v13 _ _ _ k f)

/-- The reset stores the extended real 0 everywhere. -/
theorem pay1_apply (i : S1000x256.Idx) : k7_pay1 (F := Ideal) i = 0 := by
  show Ideal.ofBits .f32 0x00000000#32 = 0
  exact Ideal.ofBits_zero_f32

/-! ## The 200000 rows as 40 tiles of 5000 -/

/-- Row k of tile s, as a row of the whole array. -/
def grow (s : Fin 40) (k : Fin 5000) : Fin 200000 := ⟨5000 * s.val + k.val, by have := s.isLt; have := k.isLt; omega⟩

/-- A row of the whole array is (its tile, its place in the tile): quotient and remainder by 5000. -/
def tileEquiv : Fin 40 × Fin 5000 ≃ Fin 200000 where
  toFun p := grow p.1 p.2
  invFun x := (⟨x.val / 5000, by have := x.isLt; omega⟩, ⟨x.val % 5000, by omega⟩)
  left_inv := by
    rintro ⟨⟨a, ha⟩, ⟨b, hb⟩⟩
    refine Prod.ext (Fin.ext ?_) (Fin.ext ?_)
    · show (5000 * a + b) / 5000 = a; omega
    · show (5000 * a + b) % 5000 = b; omega
  right_inv := by
    intro x
    apply Fin.ext
    show 5000 * (x.val / 5000) + x.val % 5000 = x.val
    omega

/-- So a sum over the rows is the sum over the tiles of the sums over each tile's rows. -/
theorem sum_rows {M : Type*} [AddCommMonoid M] (g : Fin 200000 → M) :
    ∑ r : Fin 200000, g r = ∑ s : Fin 40, ∑ k : Fin 5000, g (grow s k) := by
  rw [← Equiv.sum_comp tileEquiv g, Fintype.sum_prod_type]
  rfl

/-- The same, the tiles counted by natural numbers below 40. -/
theorem sum_tiles {M : Type*} [AddCommMonoid M] (T : ℕ → M) (g : Fin 200000 → M)
    (hT : ∀ s : Fin 40, T s.val = ∑ k : Fin 5000, g (grow s k)) :
    ∑ s ∈ Finset.range 40, T s = ∑ r : Fin 200000, g r := by
  rw [sum_rows, ← Fin.sum_univ_eq_sum_range]
  exact Finset.sum_congr rfl fun s _ => hT s

/-- Tile s's contribution to entry (b, f), from the whole arrays; nothing past the last tile. -/
def tileTerm (h1 h2 : S200000x128.Idx → EReal) (ids : S200000x1.Idx → BitVec 32) (s : ℕ) (b : Fin 1000) (f : Fin 256) : EReal :=
  if hs : s < 40 then ∑ k : Fin 5000, hot (ids (ix2 (grow ⟨s, hs⟩ k) 0)) b.val * feat h1 h2 (grow ⟨s, hs⟩ k) f else 0

/-! ## The arrays and their blocks -/

/-- The two feature arrays and the ids column as the region finds them, and their blocks at a point. -/
abbrev arr1 (c : Dev nD) : S200000x128.Idx → EReal := V c main_v74
abbrev arr2 (c : Dev nD) : S200000x128.Idx → EReal := V c main_v91
abbrev arrI (c : Dev nD) : S200000x1.Idx → BitVec 32 := V c main_v92
abbrev blk1 (c : Dev nD) (t : Fin cfg7.N) : Vec Ideal S5000x128 .f32 := iblk7 V c 0 t
abbrev blk2 (c : Dev nD) (t : Fin cfg7.N) : Vec Ideal S5000x128 .f32 := iblk7 V c 1 t
abbrev blkI (c : Dev nD) (t : Fin cfg7.N) : Vec Ideal S5000x1 .i32 := iblk7 V c 2 t

/-- At point t each input's block is block (t, 0) of its array. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- Row r of the block at point t is row 5000·t + r of the array (a block's coordinate is its index times its size
    plus the coordinate inside it). -/
theorem blk1_apply (c : Dev nD) (t : Fin cfg7.N) (r : Fin 5000) (l : Fin 128) (k : S200000x128.Idx)
    (hk0 : (k 0).val = 5000 * t.val + r.val) (hk1 : (k 1).val = l.val) :
    blk1 V c t (ix2 r l) = arr1 V c k := by
  obtain ⟨e0, e1, -⟩ := idx_facts t
  show iblk7 V c 0 t (ix2 r l) = _
  unfold iblk7
  rw [View.read_apply]
  show arr1 V c _ = arr1 V c k
  refine congrArg (arr1 V c) (funext fun a => Fin.ext ?_)
  match a with
  | ⟨0, _⟩ => show win7_0.index t 0 * 5000 + 1 * r.val = (k 0).val; rw [e0, hk0]; omega
  | ⟨1, _⟩ => show win7_0.index t 1 * 128 + 1 * l.val = (k 1).val; rw [e1, hk1]; omega

theorem blk2_apply (c : Dev nD) (t : Fin cfg7.N) (r : Fin 5000) (l : Fin 128) (k : S200000x128.Idx)
    (hk0 : (k 0).val = 5000 * t.val + r.val) (hk1 : (k 1).val = l.val) :
    blk2 V c t (ix2 r l) = arr2 V c k := by
  obtain ⟨-, -, e0, e1, -⟩ := idx_facts t
  show iblk7 V c 1 t (ix2 r l) = _
  unfold iblk7
  rw [View.read_apply]
  show arr2 V c _ = arr2 V c k
  refine congrArg (arr2 V c) (funext fun a => Fin.ext ?_)
  match a with
  | ⟨0, _⟩ => show win7_1.index t 0 * 5000 + 1 * r.val = (k 0).val; rw [e0, hk0]; omega
  | ⟨1, _⟩ => show win7_1.index t 1 * 128 + 1 * l.val = (k 1).val; rw [e1, hk1]; omega

theorem blkI_apply (c : Dev nD) (t : Fin cfg7.N) (r : Fin 5000) (l : Fin 1) (k : S200000x1.Idx)
    (hk0 : (k 0).val = 5000 * t.val + r.val) (hk1 : (k 1).val = l.val) :
    blkI V c t (ix2 r l) = arrI V c k := by
  obtain ⟨-, -, -, -, e0, e1⟩ := idx_facts t
  show iblk7 V c 2 t (ix2 r l) = _
  unfold iblk7
  rw [View.read_apply]
  show arrI V c _ = arrI V c k
  refine congrArg (arrI V c) (funext fun a => Fin.ext ?_)
  match a with
  | ⟨0, _⟩ => show win7_2.index t 0 * 5000 + 1 * r.val = (k 0).val; rw [e0, hk0]; omega
  | ⟨1, _⟩ => show win7_2.index t 1 * 1 + 1 * l.val = (k 1).val; rw [e1, hk1]; omega

/-- The contribution computed from the blocks at point t is tile t's, from the arrays. -/
theorem tile_eq (c : Dev nD) (t : Fin cfg7.N) (b : Fin 1000) (f : Fin 256) :
    tileSum (blkI V c t) (blk1 V c t) (blk2 V c t) b f = tileTerm (arr1 V c) (arr2 V c) (arrI V c) t.val b f := by
  have hN : t.val < 40 := lt_of_lt_of_eq t.isLt N_7
  unfold tileSum tileTerm
  rw [dif_pos hN]
  refine Finset.sum_congr rfl fun k _ => congrArg₂ (· * ·) ?_ ?_
  · exact congrArg (fun w => hot w b.val) (blkI_apply V c t k 0 (ix2 (grow ⟨t.val, hN⟩ k) 0) rfl rfl)
  · unfold feat
    by_cases h : f.val < 128
    · rw [dif_pos h, dif_pos h]
      exact blk1_apply V c t k ⟨f.val, h⟩ (ix2 (grow ⟨t.val, hN⟩ k) ⟨f.val, h⟩) rfl rfl
    · rw [dif_neg h, dif_neg h]
      exact blk2_apply V c t k ⟨f.val - 128, by have := f.isLt; omega⟩ (ix2 (grow ⟨t.val, hN⟩ k) ⟨f.val - 128, by have := f.isLt; omega⟩) rfl rfl

/-! ## What the block holds after each point -/

/-- After the first point: 0 plus tile 0's contribution. -/
theorem step_A (c : Dev nD) (t : Fin cfg7.N) (h0 : t.val % 40 = 0) (b : Fin 1000) (f : Fin 256) :
    outsAt7 (F := Ideal) V c t.val t.isLt (ix2 b f) = tileTerm (arr1 V c) (arr2 V c) (arrI V c) t.val b f := by
  rw [outsAt7_A V c t h0]
  refine (congrFun (out_A (F := Ideal) c (grid7.coords t) (ms7_0 t) (hs7_0 t) (ms7_1 t) (hs7_1 t) (ms7_2 t) (hs7_2 t) (ms7_3 t) (hs7_3 t) ((hcond7_0 t).mpr h0) (blk1 V c t) (blk2 V c t) (blkI V c t)) (ix2 b f)).trans ?_
  rw [pay2_apply, pay1_apply, zero_add]
  exact tile_eq V c t b f

/-- After a later point: what the point before left, plus this tile's contribution. -/
theorem step_B (c : Dev nD) (t : Fin cfg7.N) (h0 : ¬t.val % 40 = 0) (b : Fin 1000) (f : Fin 256) :
    outsAt7 (F := Ideal) V c t.val t.isLt (ix2 b f)
      = outsAt7 (F := Ideal) V c (t.val - 1) (Nat.lt_of_le_of_lt (Nat.sub_le _ _) t.isLt) (ix2 b f) + tileTerm (arr1 V c) (arr2 V c) (arrI V c) t.val b f := by
  refine (congrFun (outsAt7_B V c t h0) (ix2 b f)).trans ?_
  refine (congrFun (out_B (F := Ideal) c (grid7.coords t) (ms7_0 t) (hs7_0 t) (ms7_1 t) (hs7_1 t) (ms7_2 t) (hs7_2 t) (ms7_3 t) (hs7_3 t) (fun h => h0 ((hcond7_0 t).mp h)) (blk1 V c t) (blk2 V c t) (blkI V c t) (outsAt7 (F := Ideal) V c (t.val - 1) (Nat.lt_of_le_of_lt (Nat.sub_le _ _) t.isLt))) (ix2 b f)).trans ?_
  rw [pay2_apply]
  exact congrArg _ (tile_eq V c t b f)

/-- After point n the block holds the sum of the contributions of tiles 0 … n, added in that order. -/
theorem acc_eq (c : Dev nD) : ∀ (n : ℕ) (hn : n < cfg7.N) (b : Fin 1000) (f : Fin 256),
    outsAt7 (F := Ideal) V c n hn (ix2 b f) = ∑ s ∈ Finset.range (n + 1), tileTerm (arr1 V c) (arr2 V c) (arrI V c) s b f
  | 0, hn, b, f => by
    rw [Finset.sum_range_one]
    exact step_A V c ⟨0, hn⟩ rfl b f
  | n + 1, hn, b, f => by
    have hN : n + 1 < 40 := lt_of_lt_of_eq hn N_7
    have hB : ¬(⟨n + 1, hn⟩ : Fin cfg7.N).val % 40 = 0 := by dsimp only; omega
    rw [Finset.sum_range_succ, ← acc_eq c n (Nat.lt_of_succ_lt hn) b f]
    exact step_B V c ⟨n + 1, hn⟩ hB b f

/-! ## The result array -/

/-- The last point. -/
abbrev tLast : Fin cfg7.N := ⟨39, by rw [show cfg7.N = 40 from N_7]; decide⟩

/-- After the last point the block is the per-graph sum over all 200000 rows: the forty tile sums are the whole sum. -/
theorem last_eq (c : Dev nD) :
    outsAt7 (F := Ideal) V c tLast.val tLast.isLt = Cert.Stages.pool (V c main_v74) (V c main_v91) (V c main_v92) := by
  funext i
  obtain ⟨b, f, rfl⟩ : ∃ (b : Fin 1000) (f : Fin 256), i = ix2 b f := ⟨i 0, i 1, eq_ix2 i⟩
  refine (acc_eq V c 39 tLast.isLt b f).trans ?_
  show ∑ s ∈ Finset.range 40, tileTerm (arr1 V c) (arr2 V c) (arrI V c) s b f
    = ∑ r : Fin 200000, hot (arrI V c (ix2 r 0)) b.val * feat (arr1 V c) (arr2 V c) r f
  exact sum_tiles _ _ fun s => by
    unfold tileTerm
    rw [dif_pos s.isLt]

/-- The one write-back, at the last point, writes that: the block is the whole array. -/
theorem flushed_eq (c : Dev nD) (t : Fin cfg7.N) (hf : (cfg7.win 3).flush t = true) :
    (dat7 (F := Ideal) V c).flushed 3 t
      = ((cfg7.win 3).blk t).view.read (Elt Ideal) (Cert.Stages.pool (V c main_v74) (V c main_v91) (V c main_v92)) := by
  have hN : cfg7.N = 40 := N_7
  have h39 : t.val = 39 := by have := (flush7_3 t).mp hf; have := t.isLt; omega
  obtain rfl : t = tLast := Fin.ext h39
  show (cfg7.win 3).cut (grid7.coords tLast) ((dat7 (F := Ideal) V c).after 3 tLast) = _
  rw [after7_3, last_eq]
  have hz' : (fun a => win7_3.index tLast a * main_v93.ty.shape.size a) = fun _ => 0 := funext fun a => by fin_cases a <;> decide
  exact (Memref.read_access_unit_zero (Elt Ideal) main_v93 hz' (fun a => by rw [congrFun hz' a]; simp) _).symm

/-- The result array after the region: the per-graph sums of the concatenated features. -/
theorem out (c : Dev nD) : (dat7 (F := Ideal) V c).arrAt 3 cfg7.N = Cert.Stages.pool (V c main_v74) (V c main_v91) (V c main_v92) :=
  (dat7 (F := Ideal) V c).arrAt_eq_of_cover 3 _ (flushed_eq V c) fun i =>
    ⟨tLast, (flush7_3 tLast).mpr rfl, by
      show i ∈ ((View.whole main_v93).slice (win7_3.rect tLast)).set
      rw [View.set_slice_whole, Rect.mem_set_unit]
      intro a
      have h0 : (i 0 : Nat) < 1000 := (i 0).isLt
      have h1 : (i 1 : Nat) < 256 := (i 1).isLt
      match a with
      | ⟨0, _⟩ => show win7_3.index tLast 0 * win7_3.size 0 ≤ (i 0 : Nat) ∧ (i 0 : Nat) < win7_3.index tLast 0 * win7_3.size 0 + win7_3.xsize (grid7.coords tLast) 0
                  rw [show win7_3.index tLast 0 * win7_3.size 0 = 0 from by decide +kernel, show win7_3.xsize (grid7.coords tLast) 0 = 1000 from by decide +kernel]; omega
      | ⟨1, _⟩ => show win7_3.index tLast 1 * win7_3.size 1 ≤ (i 1 : Nat) ∧ (i 1 : Nat) < win7_3.index tLast 1 * win7_3.size 1 + win7_3.xsize (grid7.coords tLast) 1
                  rw [show win7_3.index tLast 1 * win7_3.size 1 = 0 from by decide +kernel, show win7_3.xsize (grid7.coords tLast) 1 = 256 from by decide +kernel]; omega⟩

end Cert.KernelIdeal.Reg7

end
-- ==== Proof.Reg8.lean ====
/-
  The last layer, on one tile that is every array whole: for each of the 1000 graphs p,
  out(p) = Σ_l (sums(p, l) / max(count(p), 1)) · W3(l) + b3, l over the 256 pooled features.

  The body divides the sums by the clamped count broadcast along the 256 lanes, contracts the quotient with the
  256×1 weight on the matrix unit into a zero accumulator, and adds the 1×1 bias broadcast down the rows.  The grid
  has one point, every block index is zero, so the block written back is the whole result.  Nothing is rearranged:
  the only reading needed is the matrix unit's contraction as a finite sum and the two broadcasts at an entry.
-/
import proofs.«426214_j50276887167257_1_alg».proof.Proof.Gen.KernelIdeal.Frame
import proofs.«426214_j50276887167257_1_alg».proof.Proof.Stages
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Reg8

open Cert.KernelIdeal Cert.KernelIdeal.Gen Idealize.ShloMosaic Idealize.ShloMosaic.TcCoe Idealize.ShloMosaic.ValueIdx Idealize.SL.Sem
open Idealize.ShloMosaic.Pipeline (Dat Cfg Window)

/-- Both offsets of a whole-array access are zero. -/
theorem hz : (![0, 0] : Fin 2 → Nat) = fun _ => 0 := funext fun a => by fin_cases a <;> rfl

/-! ## The contraction's operand indices: (p, q) and l give (p, l) on the left and (l, q) on the right -/

theorem lhs_row (i : S1000x1.Idx) (q : dot_S1000x256_S256x1_S1000x1_1_0_0_1_n_n.contr.Idx) :
    (dot_S1000x256_S256x1_S1000x1_1_0_0_1_n_n.lhsIdx i q 0).val = (i 0).val := by
  unfold DotDims.lhsIdx
  rw [dif_neg (show ¬(0 : Fin S1000x256.rank) ∈ dot_S1000x256_S256x1_S1000x1_1_0_0_1_n_n.lhsBatch by decide), dif_pos (show (0 : Fin S1000x256.rank) ∈ dot_S1000x256_S256x1_S1000x1_1_0_0_1_n_n.lhsNonContracting by decide)]
  rfl
theorem lhs_col (i : S1000x1.Idx) (q : dot_S1000x256_S256x1_S1000x1_1_0_0_1_n_n.contr.Idx) :
    (dot_S1000x256_S256x1_S1000x1_1_0_0_1_n_n.lhsIdx i q 1).val = (q ⟨0, by decide⟩).val :=
  dot_S1000x256_S256x1_S1000x1_1_0_0_1_n_n.lhsIdx_val_of_single rfl i q
theorem rhs_row (i : S1000x1.Idx) (q : dot_S1000x256_S256x1_S1000x1_1_0_0_1_n_n.contr.Idx) :
    (dot_S1000x256_S256x1_S1000x1_1_0_0_1_n_n.rhsIdx i q 0).val = (q ⟨0, by decide⟩).val :=
  dot_S1000x256_S256x1_S1000x1_1_0_0_1_n_n.rhsIdx_val_of_single rfl i q
theorem rhs_col (i : S1000x1.Idx) (q : dot_S1000x256_S256x1_S1000x1_1_0_0_1_n_n.contr.Idx) :
    (dot_S1000x256_S256x1_S1000x1_1_0_0_1_n_n.rhsIdx i q 1).val = (i 1).val := by
  unfold DotDims.rhsIdx
  rw [dif_neg (show ¬(1 : Fin S256x1.rank) ∈ dot_S1000x256_S256x1_S1000x1_1_0_0_1_n_n.rhsBatch by decide), dif_pos (show (1 : Fin S256x1.rank) ∈ dot_S1000x256_S256x1_S1000x1_1_0_0_1_n_n.rhsNonContracting by decide)]
  rfl

/-- The matrix unit into a zero accumulator: entry (p, q) is the sum over l of lhs(p, l) · rhs(l, q). -/
theorem contract_apply (lhs : FVec Ideal S1000x256 .f32) (rhs : FVec Ideal S256x1 .f32) (p : Fin 1000) (q : Fin 1) :
    matmul dot_S1000x256_S256x1_S1000x1_1_0_0_1_n_n none lhs rhs (constant S1000x1 .f32 0x00000000#32) (ix2 p q)
      = ∑ l : Fin 256, lhs (ix2 p l) * rhs (ix2 l q) := by
  refine (Ideal.matmul_constant_zero_apply dot_S1000x256_S256x1_S1000x1_1_0_0_1_n_n none lhs rhs (ix2 p q)).trans ?_
  rw [← Equiv.sum_comp (contrEquiv1 dot_S1000x256_S256x1_S1000x1_1_0_0_1_n_n 256 rfl rfl).symm]
  refine Finset.sum_congr rfl fun k _ => ?_
  have hk := contrEquiv1_symm_val dot_S1000x256_S256x1_S1000x1_1_0_0_1_n_n 256 rfl rfl k
  have el : dot_S1000x256_S256x1_S1000x1_1_0_0_1_n_n.lhsIdx (ix2 p q) ((contrEquiv1 dot_S1000x256_S256x1_S1000x1_1_0_0_1_n_n 256 rfl rfl).symm k) = ix2 p k := funext fun a => Fin.ext (by
    match a with
    | ⟨0, _⟩ => exact lhs_row _ _
    | ⟨1, _⟩ => exact (lhs_col _ _).trans hk)
  have er : dot_S1000x256_S256x1_S1000x1_1_0_0_1_n_n.rhsIdx (ix2 p q) ((contrEquiv1 dot_S1000x256_S256x1_S1000x1_1_0_0_1_n_n 256 rfl rfl).symm k) = ix2 k q := funext fun a => Fin.ext (by
    match a with
    | ⟨0, _⟩ => exact (rhs_row _ _).trans hk
    | ⟨1, _⟩ => exact rhs_col _ _)
  rw [el, er]

/-- A column [a,1] broadcast along the lanes to [a,b] reads its row's one entry. -/
theorem lanes_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at an entry (p, q): the sum over the 256 features of (sums(p, l) / max(count(p), 1)) · w3(l),
    plus the bias. -/
theorem body_apply (x0 : Vec Ideal S1000x256 .f32) (x1 : Vec Ideal S1000x1 .f32) (x2 : Vec Ideal S256x1 .f32) (x3 : Vec Ideal S1x1 .f32)
    (p : Fin 1000) (q : Fin 1) :
    k8_pay1 (F := Ideal) x0 x1 x2 x3 (ix2 p q)
      = (∑ l : Fin 256, Ideal.div (x0 (ix2 p l)) (max (x1 (ix2 p 0)) (Ideal.ofBits .f32 0x3F800000#32)) * x2 (ix2 l 0)) + x3 (ix2 0 0) := by
  obtain rfl : q = 0 := Subsingleton.elim _ _
  unfold k8_pay1
  simp only [shapeCast_self]
  refine congrArg₂ (· + ·) ?_ ?_
  · refine (contract_apply _ _ p 0).trans ?_
    refine Finset.sum_congr rfl fun l _ => ?_
    refine congrArg (· * x2 (ix2 l 0)) ?_
    refine congrArg (Ideal.div (x0 (ix2 p l))) ?_
    exact lanes_apply _ _ p l
  · exact broadcastTo_1b_ab_apply _ _ p 0

/-! ## Where the blocks sit -/

/-- At the grid's one point every window's block index is zero on both axes. -/
theorem block_index : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

variable (V : (c : Dev nD) → (b : Ref sig .tc) → Buf (Elt Ideal) ((c : Thread nD τ).loc b))

/-- The per-graph sums, 1000×256, as the region finds them. -/
abbrev sums (c : Dev nD) : Cert.Stages.A S1000x256 := V c main_v93
/-- The graphs' node counts, a 1000×1 column. -/
abbrev cnts (c : Dev nD) : Cert.Stages.A S1000x1 := V c main_v98
/-- The last layer's weight, a 256×1 column. -/
abbrev w3 (c : Dev nD) : Cert.Stages.A S256x1 := V c main_arg14
/-- The last layer's bias, 1×1. -/
abbrev b3 (c : Dev nD) : Cert.Stages.A S1x1 := V c main_v99

/-- The block of the per-graph sums is the array. -/
theorem sums_block (c : Dev nD) (t : Fin cfg8.N) (p : Fin 1000) (l : Fin 256) :
    (iblk8 (F := Ideal) V c 0 t : Vec Ideal S1000x256 .f32) (ix2 p l) = sums V c (ix2 p l) := by
  obtain ⟨e0, e1, -, -, -, -, -, -, -, -⟩ := block_index t
  show V c main_v93 (((cfg8.win 0).blk t).view.emb (ix2 p l)) = V c main_v93 (ix2 p l)
  refine congrArg (V c main_v93) (funext fun a => Fin.ext ?_)
  match a with
  | ⟨0, _⟩ => show win8_0.index t (0 : Fin 2) * 1000 + 1 * p.val = p.val; rw [e0]; omega
  | ⟨1, _⟩ => show win8_0.index t (1 : Fin 2) * 256 + 1 * l.val = l.val; rw [e1]; omega

/-- The block of the node counts is the array. -/
theorem cnts_block (c : Dev nD) (t : Fin cfg8.N) (p : Fin 1000) (q : Fin 1) :
    (iblk8 (F := Ideal) V c 1 t : Vec Ideal S1000x1 .f32) (ix2 p q) = cnts V c (ix2 p q) := by
  obtain ⟨-, -, e2, e3, -, -, -, -, -, -⟩ := block_index t
  show V c main_v98 (((cfg8.win 1).blk t).view.emb (ix2 p q)) = V c main_v98 (ix2 p q)
  refine congrArg (V c main_v98) (funext fun a => Fin.ext ?_)
  match a with
  | ⟨0, _⟩ => show win8_1.index t (0 : Fin 2) * 1000 + 1 * p.val = p.val; rw [e2]; omega
  | ⟨1, _⟩ => show win8_1.index t (1 : Fin 2) * 1 + 1 * q.val = q.val; rw [e3]; omega

/-- The block of the weight is the array. -/
theorem w3_block (c : Dev nD) (t : Fin cfg8.N) (l : Fin 256) (q : Fin 1) :
    (iblk8 (F := Ideal) V c 2 t : Vec Ideal S256x1 .f32) (ix2 l q) = w3 V c (ix2 l q) := by
  obtain ⟨-, -, -, -, e4, e5, -, -, -, -⟩ := block_index t
  show V c main_arg14 (((cfg8.win 2).blk t).view.emb (ix2 l q)) = V c main_arg14 (ix2 l q)
  refine congrArg (V c main_arg14) (funext fun a => Fin.ext ?_)
  match a with
  | ⟨0, _⟩ => show win8_2.index t (0 : Fin 2) * 256 + 1 * l.val = l.val; rw [e4]; omega
  | ⟨1, _⟩ => show win8_2.index t (1 : Fin 2) * 1 + 1 * q.val = q.val; rw [e5]; omega

/-- The block of the bias is the array. -/
theorem b3_block (c : Dev nD) (t : Fin cfg8.N) (r q : Fin 1) :
    (iblk8 (F := Ideal) V c 3 t : Vec Ideal S1x1 .f32) (ix2 r q) = b3 V c (ix2 r q) := by
  obtain ⟨-, -, -, -, -, -, e6, e7, -, -⟩ := block_index t
  show V c main_v99 (((cfg8.win 3).blk t).view.emb (ix2 r q)) = V c main_v99 (ix2 r q)
  refine congrArg (V c main_v99) (funext fun a => Fin.ext ?_)
  match a with
  | ⟨0, _⟩ => show win8_3.index t (0 : Fin 2) * 1 + 1 * r.val = r.val; rw [e6]; omega
  | ⟨1, _⟩ => show win8_3.index t (1 : Fin 2) * 1 + 1 * q.val = q.val; rw [e7]; omega

/-- What the one grid point writes back is the (whole) block of the last layer's result. -/
theorem flushed_eq (c : Dev nD) (t : Fin cfg8.N) :
    (dat8 (F := Ideal) V c).flushed 4 t
      = ((cfg8.win 4).blk t).view.read (Elt Ideal) (Cert.Stages.final (V c main_v93) (V c main_v98) (V c main_arg14) (V c main_v99)) := by
  show (cfg8.win 4).cut (grid8.coords t) ((dat8 (F := Ideal) V c).after 4 t) = _
  rw [after8_4]
  unfold out8_4
  rw [View.canon_unit_zero hz]
  simp only [View.ld_unit_zero (S := S1000x256) hz, View.ld_unit_zero (S := S1000x1) hz, View.ld_unit_zero (S := S256x1) hz,
    View.ld_unit_zero (S := S1x1) hz]
  funext j
  obtain ⟨p, q, rfl⟩ : ∃ (p : Fin 1000) (q : Fin 1), j = ix2 p q := ⟨j 0, j 1, eq_ix2 j⟩
  obtain rfl : q = 0 := Subsingleton.elim _ _
  obtain ⟨-, -, -, -, -, -, -, -, e8, e9⟩ := block_index t
  have hemb : ((cfg8.win 4).blk t).view.emb (ix2 p (0 : Fin 1)) = (ix2 p (0 : Fin 1) : S1000x1.Idx) :=
    funext fun a => Fin.ext (by
      match a with
      | ⟨0, _⟩ => show win8_4.index t (0 : Fin 2) * 1000 + 1 * p.val = p.val; rw [e8]; omega
      | ⟨1, _⟩ => show win8_4.index t (1 : Fin 2) * 1 + 1 * 0 = 0; rw [e9])
  show k8_pay1 (F := Ideal) (iblk8 V c 0 t) (iblk8 V c 1 t) (iblk8 V c 2 t) (iblk8 V c 3 t) (ix2 p 0)
    = Cert.Stages.final (V c main_v93) (V c main_v98) (V c main_arg14) (V c main_v99) (((cfg8.win 4).blk t).view.emb (ix2 p 0))
  rw [hemb]
  refine (body_apply (iblk8 V c 0 t) (iblk8 V c 1 t) (iblk8 V c 2 t) (iblk8 V c 3 t) p 0).trans ?_
  show _ = (∑ l : Fin 256, Ideal.div (sums V c (ix2 p l)) (max (cnts V c (ix2 p 0)) (Ideal.ofBits .f32 0x3F800000#32))
      * w3 V c (ix2 l 0)) + b3 V c (ix2 0 0)
  rw [cnts_block V c t p 0, b3_block V c t 0 0]
  refine congrArg (· + b3 V c (ix2 0 0)) ?_
  refine Finset.sum_congr rfl fun l _ => ?_
  rw [sums_block V c t p l, w3_block V c t l 0]

/-- An index of the result lies in the block iff each coordinate lies in the block's range on its axis. -/
theorem mem_block (t : Fin cfg8.N) (i : S1000x1.Idx) :
    i ∈ ((cfg8.win 4).blk t).view.set ↔ ∀ a : Fin 2, win8_4.index t a * S1000x1.size a ≤ (i a).val ∧ (i a).val < win8_4.index t a * S1000x1.size a + S1000x1.size a := by
  show i ∈ ((View.whole main_v100).slice (win8_4.rect t)).set ↔ _
  rw [View.set_slice_whole, Rect.mem_set_unit]
  exact Iff.rfl

/-- The one block covers the result. -/
theorem covered (i : S1000x1.Idx) : ∃ t : Fin cfg8.N, (cfg8.win 4).flush t = true ∧ i ∈ ((cfg8.win 4).blk t).view.set := by
  have hi0 : (i 0).val < 1000 := (i 0).isLt
  have hi1 : (i 1).val < 1 := (i 1).isLt
  have hN : grid8.N = 1 := N_8
  let t : Fin cfg8.N := ⟨0, by show 0 < grid8.N; omega⟩
  obtain ⟨-, -, -, -, -, -, -, -, e8, e9⟩ := block_index t
  refine ⟨t, flush8_4 t, ?_⟩
  rw [mem_block]
  intro a
  match a with
  | ⟨0, _⟩ => show win8_4.index t (0 : Fin 2) * 1000 ≤ (i 0).val ∧ (i 0).val < win8_4.index t (0 : Fin 2) * 1000 + 1000; rw [e8]; omega
  | ⟨1, _⟩ => show win8_4.index t (1 : Fin 2) * 1 ≤ (i 1).val ∧ (i 1).val < win8_4.index t (1 : Fin 2) * 1 + 1; rw [e9]; omega

/-- After the one point the result array holds the last layer of its four inputs. -/
theorem out (c : Dev nD) : (dat8 (F := Ideal) V c).arrAt 4 cfg8.N = Cert.Stages.final (V c main_v93) (V c main_v98) (V c main_arg14) (V c main_v99) :=
  (dat8 (F := Ideal) V c).arrAt_eq_of_cover 4 (Cert.Stages.final (V c main_v93) (V c main_v98) (V c main_arg14) (V c main_v99))
    (fun t _ => flushed_eq V c t) covered

end Cert.KernelIdeal.Reg8

end
-- ==== Proof.KChain.lean ====
/-
  The kernel program's value chain.  The result buffer's contents at the last boundary are read back, boundary by
  boundary, to the launch memory: a region's output array holds the region's stage function of the arrays it read,
  a host stretch's result buffer holds its operations' composed term, and a buffer that a stretch or a region does
  not write holds what it held before.  Composed, the result is the stage composition
    x·W → edge aggregation → bias, positive part → column sums → mean, variance → normalisation → … → per-graph sums
      → last layer
  of the eighteen arguments as launched.
-/
import proofs.«426214_j50276887167257_1_alg».proof.Proof.Gen.KernelIdeal.Frame
import proofs.«426214_j50276887167257_1_alg».proof.Proof.Stages
import proofs.«426214_j50276887167257_1_alg».proof.Proof.Reg0
import proofs.«426214_j50276887167257_1_alg».proof.Proof.Reg1
import proofs.«426214_j50276887167257_1_alg».proof.Proof.Reg246
import proofs.«426214_j50276887167257_1_alg».proof.Proof.Reg3
import proofs.«426214_j50276887167257_1_alg».proof.Proof.Reg5
import proofs.«426214_j50276887167257_1_alg».proof.Proof.Reg7
import proofs.«426214_j50276887167257_1_alg».proof.Proof.Reg8
import Idealize.ShloMosaic.Lib.StableHlo.Run

set_option maxRecDepth 16384

noncomputable section

namespace Cert.KernelIdeal.KChain

open Cert.KernelIdeal Cert.KernelIdeal.Gen Idealize.ShloMosaic Idealize.ShloMosaic.TcCoe Idealize.SL.Sem

/-! ## What each host stretch writes, and that it writes nothing else -/

/-- The result buffers of the stretch before region 0 (the edge lists with self loops, the degrees, the edge weights). -/
abbrev wr0 : List (Ref sig .tc) :=
  [main_v0, main_v1, main_v2, main_v3, main_v4, main_v5, main_v6, main_cst, main_v7, main_cst_0, main_v8, main_v9,
   main_v10, main_v11, main_c, main_v12, main_v13, main_c_1, main_v14, main_v15, main_v16, main_v17, main_v18,
   main_c_2, main_v19, main_v20, main_c_3, main_v21, main_v22, main_v23, main_v24, main_v25, main_v26]
/-- Those of the stretch before region 1 (the aggregation and the first bias as a row). -/
abbrev wr1 : List (Ref sig .tc) :=
  [main_c_4, main_v28, main_v29, main_c_5, main_v30, main_v31, main_v32, main_v33, main_v34, main_v35, main_v36,
   main_v37, main_cst_6, main_v38, main_v39, main_v40, main_v41]
/-- Those of the stretch before region 2 (the first batch statistics and its scale and shift as rows). -/
abbrev wr2 : List (Ref sig .tc) :=
  [main_v43, main_cst_7, main_v44, main_v45, main_v46, main_cst_8, main_v47, main_v48, main_v49, main_v50,
   main_cst_9, main_v51, main_v52, main_v53, main_v54, main_v55, main_v56]
abbrev wr3 : List (Ref sig .tc) := [main_v58]
abbrev wr4 : List (Ref sig .tc) :=
  [main_v60, main_cst_10, main_v61, main_v62, main_v63, main_cst_11, main_v64, main_v65, main_v66, main_v67,
   main_cst_12, main_v68, main_v69, main_v70, main_v71, main_v72, main_v73]
abbrev wr5 : List (Ref sig .tc) := [main_v75]
abbrev wr6 : List (Ref sig .tc) :=
  [main_v77, main_cst_13, main_v78, main_v79, main_v80, main_cst_14, main_v81, main_v82, main_v83, main_v84,
   main_cst_15, main_v85, main_v86, main_v87, main_v88, main_v89, main_v90]
abbrev wr7 : List (Ref sig .tc) := [main_v92]
abbrev wr8 : List (Ref sig .tc) :=
  [main_cst_16, main_v94, main_cst_17, main_v95, main_v96, main_v97, main_v98, main_v99]

theorem writes0 : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem writes1 : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem writes2 : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem writes3 : (hostOps3 : List (HloOp τ sig (Elt Ideal))).Forall fun op => op.writes ⊆ (wr3.map (Proc.devRef (τ := τ) .tc)).toFinset := by
  simp only [hostOps3, List.Forall, StableHlo.reshape_writes, Finset.singleton_subset_iff, List.mem_toFinset]
  exact List.mem_map_of_mem (by decide)
theorem writes4 : (hostOps4 : List (HloOp τ sig (Elt Ideal))).Forall fun op => op.writes ⊆ (wr4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem writes5 : (hostOps5 : List (HloOp τ sig (Elt Ideal))).Forall fun op => op.writes ⊆ (wr5.map (Proc.devRef (τ := τ) .tc)).toFinset := by
  simp only [hostOps5, List.Forall, StableHlo.reshape_writes, Finset.singleton_subset_iff, List.mem_toFinset]
  exact List.mem_map_of_mem (by decide)
theorem writes6 : (hostOps6 : List (HloOp τ sig (Elt Ideal))).Forall fun op => op.writes ⊆ (wr6.map (Proc.devRef (τ := τ) .tc)).toFinset := by
  simp only [hostOps6, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem writes7 : (hostOps7 : List (HloOp τ sig (Elt Ideal))).Forall fun op => op.writes ⊆ (wr7.map (Proc.devRef (τ := τ) .tc)).toFinset := by
  simp only [hostOps7, List.Forall, StableHlo.reshape_writes, Finset.singleton_subset_iff, List.mem_toFinset]
  exact List.mem_map_of_mem (by decide)
theorem writes8 : (hostOps8 : List (HloOp τ sig (Elt Ideal))).Forall fun op => op.writes ⊆ (wr8.map (Proc.devRef (τ := τ) .tc)).toFinset := by
  simp only [hostOps8, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

variable (m : (ℓ : Loc nD τ sig) → Buf (Elt Ideal) ℓ) (ρ : Dev nD → PrngReg)

/-! ## A buffer that a stretch does not write, and is no array of a region, is carried over -/

theorem keep1 (c : Dev nD) (r : Ref sig .tc) (h : r ∉ wr0) : W1 m ρ c (Proc.devRef .tc r) = W0 m ρ c (Proc.devRef .tc r) :=
  StableHlo.after_of_writes_sub hostOps0 _ writes0 h
theorem keep3 (c : Dev nD) (r : Ref sig .tc) (h : r ∉ wr1) : W3 m ρ c (Proc.devRef .tc r) = W2 m ρ c (Proc.devRef .tc r) :=
  StableHlo.after_of_writes_sub hostOps1 _ writes1 h
theorem keep5 (c : Dev nD) (r : Ref sig .tc) (h : r ∉ wr2) : W5 m ρ c (Proc.devRef .tc r) = W4 m ρ c (Proc.devRef .tc r) :=
  StableHlo.after_of_writes_sub hostOps2 _ writes2 h
theorem keep7 (c : Dev nD) (r : Ref sig .tc) (h : r ∉ wr3) : W7 m ρ c (Proc.devRef .tc r) = W6 m ρ c (Proc.devRef .tc r) :=
  StableHlo.after_of_writes_sub hostOps3 _ writes3 h
theorem keep9 (c : Dev nD) (r : Ref sig .tc) (h : r ∉ wr4) : W9 m ρ c (Proc.devRef .tc r) = W8 m ρ c (Proc.devRef .tc r) :=
  StableHlo.after_of_writes_sub hostOps4 _ writes4 h
theorem keep11 (c : Dev nD) (r : Ref sig .tc) (h : r ∉ wr5) : W11 m ρ c (Proc.devRef .tc r) = W10 m ρ c (Proc.devRef .tc r) :=
  StableHlo.after_of_writes_sub hostOps5 _ writes5 h
theorem keep13 (c : Dev nD) (r : Ref sig .tc) (h : r ∉ wr6) : W13 m ρ c (Proc.devRef .tc r) = W12 m ρ c (Proc.devRef .tc r) :=
  StableHlo.after_of_writes_sub hostOps6 _ writes6 h
theorem keep15 (c : Dev nD) (r : Ref sig .tc) (h : r ∉ wr7) : W15 m ρ c (Proc.devRef .tc r) = W14 m ρ c (Proc.devRef .tc r) :=
  StableHlo.after_of_writes_sub hostOps7 _ writes7 h
theorem keep17 (c : Dev nD) (r : Ref sig .tc) (h : r ∉ wr8) : W17 m ρ c (Proc.devRef .tc r) = W16 m ρ c (Proc.devRef .tc r) :=
  StableHlo.after_of_writes_sub hostOps8 _ writes8 h

/-- Written by no stretch and array of no region up to boundary k: the conditions, all decidable, under which a
    buffer still holds at boundary k what the launch put there. -/
abbrev Kept1 (r : Ref sig .tc) : Prop := r ∉ wr0
abbrev Kept2 (r : Ref sig .tc) : Prop := Kept1 r ∧ ∀ w, Pipeline.arrRef spec0 w ≠ r
abbrev Kept3 (r : Ref sig .tc) : Prop := Kept2 r ∧ r ∉ wr1
abbrev Kept4 (r : Ref sig .tc) : Prop := Kept3 r ∧ ∀ w, Pipeline.arrRef spec1 w ≠ r
abbrev Kept5 (r : Ref sig .tc) : Prop := Kept4 r ∧ r ∉ wr2
abbrev Kept6 (r : Ref sig .tc) : Prop := Kept5 r ∧ ∀ w, Pipeline.arrRef spec2 w ≠ r
abbrev Kept7 (r : Ref sig .tc) : Prop := Kept6 r ∧ r ∉ wr3
abbrev Kept8 (r : Ref sig .tc) : Prop := Kept7 r ∧ ∀ w, Pipeline.arrRef spec3 w ≠ r
abbrev Kept9 (r : Ref sig .tc) : Prop := Kept8 r ∧ r ∉ wr4
abbrev Kept10 (r : Ref sig .tc) : Prop := Kept9 r ∧ ∀ w, Pipeline.arrRef spec4 w ≠ r
abbrev Kept11 (r : Ref sig .tc) : Prop := Kept10 r ∧ r ∉ wr5
abbrev Kept12 (r : Ref sig .tc) : Prop := Kept11 r ∧ ∀ w, Pipeline.arrRef spec5 w ≠ r
abbrev Kept13 (r : Ref sig .tc) : Prop := Kept12 r ∧ r ∉ wr6
abbrev Kept14 (r : Ref sig .tc) : Prop := Kept13 r ∧ ∀ w, Pipeline.arrRef spec6 w ≠ r
abbrev Kept15 (r : Ref sig .tc) : Prop := Kept14 r ∧ r ∉ wr7
abbrev Kept16 (r : Ref sig .tc) : Prop := Kept15 r ∧ ∀ w, Pipeline.arrRef spec7 w ≠ r
abbrev Kept17 (r : Ref sig .tc) : Prop := Kept16 r ∧ r ∉ wr8

theorem back1 (c : Dev nD) (r : Ref sig .tc) (h : Kept1 r) : W1 m ρ c (Proc.devRef .tc r) = m ((c : Thread nD τ).loc r) :=
  (keep1 m ρ c r h).trans rfl
theorem back2 (c : Dev nD) (r : Ref sig .tc) (h : Kept2 r) : W2 m ρ c (Proc.devRef .tc r) = m ((c : Thread nD τ).loc r) :=
  (W2_of_ne m ρ c r h.2).trans (back1 m ρ c r h.1)
theorem back3 (c : Dev nD) (r : Ref sig .tc) (h : Kept3 r) : W3 m ρ c (Proc.devRef .tc r) = m ((c : Thread nD τ).loc r) :=
  (keep3 m ρ c r h.2).trans (back2 m ρ c r h.1)
theorem back4 (c : Dev nD) (r : Ref sig .tc) (h : Kept4 r) : W4 m ρ c (Proc.devRef .tc r) = m ((c : Thread nD τ).loc r) :=
  (W4_of_ne m ρ c r h.2).trans (back3 m ρ c r h.1)
theorem back5 (c : Dev nD) (r : Ref sig .tc) (h : Kept5 r) : W5 m ρ c (Proc.devRef .tc r) = m ((c : Thread nD τ).loc r) :=
  (keep5 m ρ c r h.2).trans (back4 m ρ c r h.1)
theorem back6 (c : Dev nD) (r : Ref sig .tc) (h : Kept6 r) : W6 m ρ c (Proc.devRef .tc r) = m ((c : Thread nD τ).loc r) :=
  (W6_of_ne m ρ c r h.2).trans (back5 m ρ c r h.1)
theorem back7 (c : Dev nD) (r : Ref sig .tc) (h : Kept7 r) : W7 m ρ c (Proc.devRef .tc r) = m ((c : Thread nD τ).loc r) :=
  (keep7 m ρ c r h.2).trans (back6 m ρ c r h.1)
theorem back8 (c : Dev nD) (r : Ref sig .tc) (h : Kept8 r) : W8 m ρ c (Proc.devRef .tc r) = m ((c : Thread nD τ).loc r) :=
  (W8_of_ne m ρ c r h.2).trans (back7 m ρ c r h.1)
theorem back9 (c : Dev nD) (r : Ref sig .tc) (h : Kept9 r) : W9 m ρ c (Proc.devRef .tc r) = m ((c : Thread nD τ).loc r) :=
  (keep9 m ρ c r h.2).trans (back8 m ρ c r h.1)
theorem back10 (c : Dev nD) (r : Ref sig .tc) (h : Kept10 r) : W10 m ρ c (Proc.devRef .tc r) = m ((c : Thread nD τ).loc r) :=
  (W10_of_ne m ρ c r h.2).trans (back9 m ρ c r h.1)
theorem back11 (c : Dev nD) (r : Ref sig .tc) (h : Kept11 r) : W11 m ρ c (Proc.devRef .tc r) = m ((c : Thread nD τ).loc r) :=
  (keep11 m ρ c r h.2).trans (back10 m ρ c r h.1)
theorem back12 (c : Dev nD) (r : Ref sig .tc) (h : Kept12 r) : W12 m ρ c (Proc.devRef .tc r) = m ((c : Thread nD τ).loc r) :=
  (W12_of_ne m ρ c r h.2).trans (back11 m ρ c r h.1)
theorem back13 (c : Dev nD) (r : Ref sig .tc) (h : Kept13 r) : W13 m ρ c (Proc.devRef .tc r) = m ((c : Thread nD τ).loc r) :=
  (keep13 m ρ c r h.2).trans (back12 m ρ c r h.1)
theorem back14 (c : Dev nD) (r : Ref sig .tc) (h : Kept14 r) : W14 m ρ c (Proc.devRef .tc r) = m ((c : Thread nD τ).loc r) :=
  (W14_of_ne m ρ c r h.2).trans (back13 m ρ c r h.1)
theorem back15 (c : Dev nD) (r : Ref sig .tc) (h : Kept15 r) : W15 m ρ c (Proc.devRef .tc r) = m ((c : Thread nD τ).loc r) :=
  (keep15 m ρ c r h.2).trans (back14 m ρ c r h.1)
theorem back16 (c : Dev nD) (r : Ref sig .tc) (h : Kept16 r) : W16 m ρ c (Proc.devRef .tc r) = m ((c : Thread nD τ).loc r) :=
  (W16_of_ne m ρ c r h.2).trans (back15 m ρ c r h.1)
theorem back17 (c : Dev nD) (r : Ref sig .tc) (h : Kept17 r) : W17 m ρ c (Proc.devRef .tc r) = m ((c : Thread nD τ).loc r) :=
  (keep17 m ρ c r h.2).trans (back16 m ρ c r h.1)

/-! ## The arguments as launched, and the stage values built from them -/

section Values
variable (c : Dev nD)

/-- Node features. -/
def aX : Stages.A S200000x64 := m ((c : Thread nD τ).loc main_arg0)
/-- Actions. -/
def aAc : Stages.A S200000x32 := m ((c : Thread nD τ).loc main_arg1)
/-- The graph convolution's weight and bias, and the first normalisation's scale and shift. -/
def aWg : Stages.A S64x128 := m ((c : Thread nD τ).loc main_arg2)
def aBg : Stages.A S128 := m ((c : Thread nD τ).loc main_arg3)
def aG0 : Stages.A S128 := m ((c : Thread nD τ).loc main_arg4)
def aBe0 : Stages.A S128 := m ((c : Thread nD τ).loc main_arg5)
/-- The second stack's. -/
def aW1 : Stages.A S128x128 := m ((c : Thread nD τ).loc main_arg6)
def aB1 : Stages.A S128 := m ((c : Thread nD τ).loc main_arg7)
def aG1 : Stages.A S128 := m ((c : Thread nD τ).loc main_arg8)
def aBe1 : Stages.A S128 := m ((c : Thread nD τ).loc main_arg9)
/-- The action stack's. -/
def aW2 : Stages.A S32x128 := m ((c : Thread nD τ).loc main_arg10)
def aB2 : Stages.A S128 := m ((c : Thread nD τ).loc main_arg11)
def aG2 : Stages.A S128 := m ((c : Thread nD τ).loc main_arg12)
def aBe2 : Stages.A S128 := m ((c : Thread nD τ).loc main_arg13)
/-- The last layer's. -/
def aW3 : Stages.A S256x1 := m ((c : Thread nD τ).loc main_arg14)
def aB3 : Stages.A S1 := m ((c : Thread nD τ).loc main_arg15)
/-- The edge list and the nodes' graph ids. -/
def aEi : Stages.J S2x1600000 := m ((c : Thread nD τ).loc main_arg16)
def aBs : Stages.J S200000 := m ((c : Thread nD τ).loc main_arg17)

/-- The first stack before its normalisation, after it; the second stack before, after; the action stack before, after. -/
def h0 : Stages.A S200000x128 := Stages.K_h0 (aX m c) (aWg m c) (aBg m c) (aEi m c)
def h0n : Stages.A S200000x128 := Stages.K_h0n (aX m c) (aWg m c) (aBg m c) (aG0 m c) (aBe0 m c) (aEi m c)
def h1 : Stages.A S200000x128 := Stages.K_h1 (h0n m c) (aW1 m c) (aB1 m c)
def h1n : Stages.A S200000x128 := Stages.kbn (h1 m c) (aG1 m c) (aBe1 m c)
def h2 : Stages.A S200000x128 := Stages.K_h2 (aAc m c) (aW2 m c) (aB2 m c)
def h2n : Stages.A S200000x128 := Stages.kbn (h2 m c) (aG2 m c) (aBe2 m c)

end Values

/-! ## Boundary 1: the stretch before region 0 has built the edge lists and the edge weights from the edge argument -/

attribute [local irreducible] Host.gather Host.scatterAdd Host.rsqrt concatenate extractStridedSlice in
theorem W1_src (c : Dev nD) : W1 m ρ c (Proc.devRef .tc main_v3) = Stages.srcOf (aEi m c) := by
  dsimp only [W1, hostOps0]
  after_results_simp
  rfl
attribute [local irreducible] Host.gather Host.scatterAdd Host.rsqrt concatenate extractStridedSlice in
theorem W1_dst (c : Dev nD) : W1 m ρ c (Proc.devRef .tc main_v6) = Stages.dstOf (aEi m c) := by
  dsimp only [W1, hostOps0]
  after_results_simp
  rfl
attribute [local irreducible] Host.gather Host.scatterAdd Host.rsqrt concatenate extractStridedSlice in
theorem W1_norm (c : Dev nD) : W1 m ρ c (Proc.devRef .tc main_v26) = Stages.normOf (aEi m c) := by
  dsimp only [W1, hostOps0]
  after_results_simp
  rfl

/-! ## Boundary 2: region 0 has left x·W in its output array; the stretch's results are carried over -/

theorem W2_src (c : Dev nD) : W2 m ρ c (Proc.devRef .tc main_v3) = Stages.srcOf (aEi m c) :=
  (W2_of_ne m ρ c main_v3 (by decide)).trans (W1_src m ρ c)
theorem W2_dst (c : Dev nD) : W2 m ρ c (Proc.devRef .tc main_v6) = Stages.dstOf (aEi m c) :=
  (W2_of_ne m ρ c main_v6 (by decide)).trans (W1_dst m ρ c)
theorem W2_norm (c : Dev nD) : W2 m ρ c (Proc.devRef .tc main_v26) = Stages.normOf (aEi m c) :=
  (W2_of_ne m ρ c main_v26 (by decide)).trans (W1_norm m ρ c)
theorem W1_x (c : Dev nD) : W1 m ρ c (Proc.devRef .tc main_arg0) = aX m c := back1 m ρ c main_arg0 (by decide)
theorem W1_wg (c : Dev nD) : W1 m ρ c (Proc.devRef .tc main_arg2) = aWg m c := back1 m ρ c main_arg2 (by decide)
theorem W2_xw (c : Dev nD) : W2 m ρ c (Proc.devRef .tc main_v27) = Stages.mm (aX m c) (aWg m c) :=
  (W2_arr m ρ c 2).trans ((Reg0.out (V1 m ρ) c).trans (by dsimp only [V1]; rw [W1_x, W1_wg]))
theorem W2_bg (c : Dev nD) : W2 m ρ c (Proc.devRef .tc main_arg3) = aBg m c := back2 m ρ c main_arg3 (by decide)

/-! ## Boundary 3: the stretch before region 1 has aggregated x·W over the edges and laid the bias out as a row -/

attribute [local irreducible] Host.gather Host.scatterAdd in
theorem W3_agg (c : Dev nD) :
    W3 m ρ c (Proc.devRef .tc main_v40) = Stages.agg (Stages.mm (aX m c) (aWg m c)) (aEi m c) := by
  dsimp only [W3, hostOps1]
  after_results
  rw [W2_src, W2_dst, W2_norm, W2_xw]
  rfl
theorem W3_bg (c : Dev nD) : W3 m ρ c (Proc.devRef .tc main_v41) = Stages.row (aBg m c) := by
  dsimp only [W3, hostOps1]
  after_results
  rw [W2_bg]
  rfl

/-! ## Boundary 4: region 1 has left the first stack's activations and their column sums and sums of squares -/

theorem W4_y (c : Dev nD) : W4 m ρ c (Proc.devRef .tc main_v42_0) = h0 m c :=
  (W4_arr m ρ c 2).trans ((Reg1.out_y (V3 m ρ) c).trans (by dsimp only [V3]; rw [W3_agg, W3_bg]; rfl))
theorem W4_s (c : Dev nD) : W4 m ρ c (Proc.devRef .tc main_v42_1) = Stages.colSum (h0 m c) :=
  (W4_arr m ρ c 3).trans ((Reg1.out_s (V3 m ρ) c).trans (by dsimp only [V3]; rw [W3_agg, W3_bg]; rfl))
theorem W4_q (c : Dev nD) : W4 m ρ c (Proc.devRef .tc main_v42_2) = Stages.colSumSq (h0 m c) :=
  (W4_arr m ρ c 4).trans ((Reg1.out_q (V3 m ρ) c).trans (by dsimp only [V3]; rw [W3_agg, W3_bg]; rfl))
theorem W4_g (c : Dev nD) : W4 m ρ c (Proc.devRef .tc main_arg4) = aG0 m c := back4 m ρ c main_arg4 (by decide)
theorem W4_be (c : Dev nD) : W4 m ρ c (Proc.devRef .tc main_arg5) = aBe0 m c := back4 m ρ c main_arg5 (by decide)

/-! ## Boundary 5: the stretch before region 2 has made the batch mean and variance, and the scale and shift, rows -/

theorem W5_y (c : Dev nD) : W5 m ρ c (Proc.devRef .tc main_v42_0) = h0 m c :=
  (keep5 m ρ c main_v42_0 (by decide)).trans (W4_y m ρ c)
theorem W5_mean (c : Dev nD) :
    W5 m ρ c (Proc.devRef .tc main_v53) = Stages.row (Stages.divN (Stages.unrow (Stages.colSum (h0 m c)))) := by
  dsimp only [W5, hostOps2]
  after_results
  rw [W4_s]
  rfl
theorem W5_var (c : Dev nD) :
    W5 m ρ c (Proc.devRef .tc main_v54) = Stages.row (Stages.kvar (Stages.colSum (h0 m c)) (Stages.colSumSq (h0 m c))) := by
  dsimp only [W5, hostOps2]
  after_results
  rw [W4_s, W4_q]
  rfl
theorem W5_g (c : Dev nD) : W5 m ρ c (Proc.devRef .tc main_v55) = Stages.row (aG0 m c) := by
  dsimp only [W5, hostOps2]
  after_results
  rw [W4_g]
  rfl
theorem W5_be (c : Dev nD) : W5 m ρ c (Proc.devRef .tc main_v56) = Stages.row (aBe0 m c) := by
  dsimp only [W5, hostOps2]
  after_results
  rw [W4_be]
  rfl

/-! ## Boundaries 6 and 7: region 2 has normalised the first stack; the second stack's bias is a row -/

theorem W6_h0n (c : Dev nD) : W6 m ρ c (Proc.devRef .tc main_v57) = h0n m c :=
  (W6_arr m ρ c 5).trans ((Reg246.out2 (V5 m ρ) c).trans (by
    dsimp only [V5]; rw [W5_y, W5_mean, W5_var, W5_g, W5_be]; rfl))
theorem W6_b1 (c : Dev nD) : W6 m ρ c (Proc.devRef .tc main_arg7) = aB1 m c := back6 m ρ c main_arg7 (by decide)
theorem W7_h0n (c : Dev nD) : W7 m ρ c (Proc.devRef .tc main_v57) = h0n m c :=
  (keep7 m ρ c main_v57 (by decide)).trans (W6_h0n m ρ c)
theorem W7_w1 (c : Dev nD) : W7 m ρ c (Proc.devRef .tc main_arg6) = aW1 m c := back7 m ρ c main_arg6 (by decide)
theorem W7_b1 (c : Dev nD) : W7 m ρ c (Proc.devRef .tc main_v58) = Stages.row (aB1 m c) := by
  dsimp only [W7, hostOps3]
  after_results
  rw [W6_b1]
  rfl

/-! ## Boundaries 8 and 9: region 3 has left the second stack's activations and their sums; then the statistics -/

theorem W8_y (c : Dev nD) : W8 m ρ c (Proc.devRef .tc main_v59_0) = h1 m c :=
  (W8_arr m ρ c 3).trans ((Reg3.out_y (V7 m ρ) c).trans (by dsimp only [V7]; rw [W7_h0n, W7_w1, W7_b1]; rfl))
theorem W8_s (c : Dev nD) : W8 m ρ c (Proc.devRef .tc main_v59_1) = Stages.colSum (h1 m c) :=
  (W8_arr m ρ c 4).trans ((Reg3.out_s (V7 m ρ) c).trans (by dsimp only [V7]; rw [W7_h0n, W7_w1, W7_b1]; rfl))
theorem W8_q (c : Dev nD) : W8 m ρ c (Proc.devRef .tc main_v59_2) = Stages.colSumSq (h1 m c) :=
  (W8_arr m ρ c 5).trans ((Reg3.out_q (V7 m ρ) c).trans (by dsimp only [V7]; rw [W7_h0n, W7_w1, W7_b1]; rfl))
theorem W8_g (c : Dev nD) : W8 m ρ c (Proc.devRef .tc main_arg8) = aG1 m c := back8 m ρ c main_arg8 (by decide)
theorem W8_be (c : Dev nD) : W8 m ρ c (Proc.devRef .tc main_arg9) = aBe1 m c := back8 m ρ c main_arg9 (by decide)

theorem W9_y (c : Dev nD) : W9 m ρ c (Proc.devRef .tc main_v59_0) = h1 m c :=
  (keep9 m ρ c main_v59_0 (by decide)).trans (W8_y m ρ c)
theorem W9_mean (c : Dev nD) :
    W9 m ρ c (Proc.devRef .tc main_v70) = Stages.row (Stages.divN (Stages.unrow (Stages.colSum (h1 m c)))) := by
  dsimp only [W9, hostOps4]
  after_results
  rw [W8_s]
  rfl
theorem W9_var (c : Dev nD) :
    W9 m ρ c (Proc.devRef .tc main_v71) = Stages.row (Stages.kvar (Stages.colSum (h1 m c)) (Stages.colSumSq (h1 m c))) := by
  dsimp only [W9, hostOps4]
  after_results
  rw [W8_s, W8_q]
  rfl
theorem W9_g (c : Dev nD) : W9 m ρ c (Proc.devRef .tc main_v72) = Stages.row (aG1 m c) := by
  dsimp only [W9, hostOps4]
  after_results
  rw [W8_g]
  rfl
theorem W9_be (c : Dev nD) : W9 m ρ c (Proc.devRef .tc main_v73) = Stages.row (aBe1 m c) := by
  dsimp only [W9, hostOps4]
  after_results
  rw [W8_be]
  rfl

/-! ## Boundaries 10 and 11: region 4 has normalised the second stack; the action stack's bias is a row -/

theorem W10_h1n (c : Dev nD) : W10 m ρ c (Proc.devRef .tc main_v74) = h1n m c :=
  (W10_arr m ρ c 5).trans ((Reg246.out4 (V9 m ρ) c).trans (by
    dsimp only [V9]; rw [W9_y, W9_mean, W9_var, W9_g, W9_be]; rfl))
theorem W10_b2 (c : Dev nD) : W10 m ρ c (Proc.devRef .tc main_arg11) = aB2 m c := back10 m ρ c main_arg11 (by decide)
theorem W11_h1n (c : Dev nD) : W11 m ρ c (Proc.devRef .tc main_v74) = h1n m c :=
  (keep11 m ρ c main_v74 (by decide)).trans (W10_h1n m ρ c)
theorem W11_ac (c : Dev nD) : W11 m ρ c (Proc.devRef .tc main_arg1) = aAc m c := back11 m ρ c main_arg1 (by decide)
theorem W11_w2 (c : Dev nD) : W11 m ρ c (Proc.devRef .tc main_arg10) = aW2 m c := back11 m ρ c main_arg10 (by decide)
theorem W11_b2 (c : Dev nD) : W11 m ρ c (Proc.devRef .tc main_v75) = Stages.row (aB2 m c) := by
  dsimp only [W11, hostOps5]
  after_results
  rw [W10_b2]
  rfl

/-! ## Boundaries 12 and 13: region 5 has left the action stack's activations and their sums; then the statistics -/

theorem W12_y (c : Dev nD) : W12 m ρ c (Proc.devRef .tc main_v76_0) = h2 m c :=
  (W12_arr m ρ c 3).trans ((Reg5.out_y (V11 m ρ) c).trans (by dsimp only [V11]; rw [W11_ac, W11_w2, W11_b2]; rfl))
theorem W12_s (c : Dev nD) : W12 m ρ c (Proc.devRef .tc main_v76_1) = Stages.colSum (h2 m c) :=
  (W12_arr m ρ c 4).trans ((Reg5.out_s (V11 m ρ) c).trans (by dsimp only [V11]; rw [W11_ac, W11_w2, W11_b2]; rfl))
theorem W12_q (c : Dev nD) : W12 m ρ c (Proc.devRef .tc main_v76_2) = Stages.colSumSq (h2 m c) :=
  (W12_arr m ρ c 5).trans ((Reg5.out_q (V11 m ρ) c).trans (by dsimp only [V11]; rw [W11_ac, W11_w2, W11_b2]; rfl))
theorem W12_h1n (c : Dev nD) : W12 m ρ c (Proc.devRef .tc main_v74) = h1n m c :=
  (W12_of_ne m ρ c main_v74 (by decide)).trans (W11_h1n m ρ c)
theorem W12_g (c : Dev nD) : W12 m ρ c (Proc.devRef .tc main_arg12) = aG2 m c := back12 m ρ c main_arg12 (by decide)
theorem W12_be (c : Dev nD) : W12 m ρ c (Proc.devRef .tc main_arg13) = aBe2 m c := back12 m ρ c main_arg13 (by decide)

theorem W13_y (c : Dev nD) : W13 m ρ c (Proc.devRef .tc main_v76_0) = h2 m c :=
  (keep13 m ρ c main_v76_0 (by decide)).trans (W12_y m ρ c)
theorem W13_h1n (c : Dev nD) : W13 m ρ c (Proc.devRef .tc main_v74) = h1n m c :=
  (keep13 m ρ c main_v74 (by decide)).trans (W12_h1n m ρ c)
theorem W13_mean (c : Dev nD) :
    W13 m ρ c (Proc.devRef .tc main_v87) = Stages.row (Stages.divN (Stages.unrow (Stages.colSum (h2 m c)))) := by
  dsimp only [W13, hostOps6]
  after_results
  rw [W12_s]
  rfl
theorem W13_var (c : Dev nD) :
    W13 m ρ c (Proc.devRef .tc main_v88) = Stages.row (Stages.kvar (Stages.colSum (h2 m c)) (Stages.colSumSq (h2 m c))) := by
  dsimp only [W13, hostOps6]
  after_results
  rw [W12_s, W12_q]
  rfl
theorem W13_g (c : Dev nD) : W13 m ρ c (Proc.devRef .tc main_v89) = Stages.row (aG2 m c) := by
  dsimp only [W13, hostOps6]
  after_results
  rw [W12_g]
  rfl
theorem W13_be (c : Dev nD) : W13 m ρ c (Proc.devRef .tc main_v90) = Stages.row (aBe2 m c) := by
  dsimp only [W13, hostOps6]
  after_results
  rw [W12_be]
  rfl

/-! ## Boundaries 14 and 15: region 6 has normalised the action stack; the graph ids are a column -/

theorem W14_h2n (c : Dev nD) : W14 m ρ c (Proc.devRef .tc main_v91) = h2n m c :=
  (W14_arr m ρ c 5).trans ((Reg246.out6 (V13 m ρ) c).trans (by
    dsimp only [V13]; rw [W13_y, W13_mean, W13_var, W13_g, W13_be]; rfl))
theorem W14_h1n (c : Dev nD) : W14 m ρ c (Proc.devRef .tc main_v74) = h1n m c :=
  (W14_of_ne m ρ c main_v74 (by decide)).trans (W13_h1n m ρ c)
theorem W14_bs (c : Dev nD) : W14 m ρ c (Proc.devRef .tc main_arg17) = aBs m c := back14 m ρ c main_arg17 (by decide)
theorem W15_h1n (c : Dev nD) : W15 m ρ c (Proc.devRef .tc main_v74) = h1n m c :=
  (keep15 m ρ c main_v74 (by decide)).trans (W14_h1n m ρ c)
theorem W15_h2n (c : Dev nD) : W15 m ρ c (Proc.devRef .tc main_v91) = h2n m c :=
  (keep15 m ρ c main_v91 (by decide)).trans (W14_h2n m ρ c)
theorem W15_ids (c : Dev nD) :
    W15 m ρ c (Proc.devRef .tc main_v92) = shapeCast S200000x1 (aBs m c) (by decide) := by
  dsimp only [W15, hostOps7]
  after_results
  rw [W14_bs]
  rfl

/-! ## Boundaries 16 and 17: region 7 has summed the features per graph; then the node counts and the last bias -/

theorem W16_pool (c : Dev nD) :
    W16 m ρ c (Proc.devRef .tc main_v93) = Stages.pool (h1n m c) (h2n m c) (shapeCast S200000x1 (aBs m c) (by decide)) :=
  (W16_arr m ρ c 3).trans ((Reg7.out (V15 m ρ) c).trans (by dsimp only [V15]; rw [W15_h1n, W15_h2n, W15_ids]))
theorem W16_bs (c : Dev nD) : W16 m ρ c (Proc.devRef .tc main_arg17) = aBs m c := back16 m ρ c main_arg17 (by decide)
theorem W16_b3 (c : Dev nD) : W16 m ρ c (Proc.devRef .tc main_arg15) = aB3 m c := back16 m ρ c main_arg15 (by decide)
theorem W17_pool (c : Dev nD) :
    W17 m ρ c (Proc.devRef .tc main_v93) = Stages.pool (h1n m c) (h2n m c) (shapeCast S200000x1 (aBs m c) (by decide)) :=
  (keep17 m ρ c main_v93 (by decide)).trans (W16_pool m ρ c)
theorem W17_w3 (c : Dev nD) : W17 m ρ c (Proc.devRef .tc main_arg14) = aW3 m c := back17 m ρ c main_arg14 (by decide)
attribute [local irreducible] Host.scatterAdd in
theorem W17_cnt (c : Dev nD) :
    W17 m ρ c (Proc.devRef .tc main_v98) = shapeCast S1000x1 (Stages.cntOf (aBs m c)) (by decide) := by
  dsimp only [W17, hostOps8]
  after_results
  rw [W16_bs]
  rfl
theorem W17_b3 (c : Dev nD) : W17 m ρ c (Proc.devRef .tc main_v99) = shapeCast S1x1 (aB3 m c) (by decide) := by
  dsimp only [W17, hostOps8]
  after_results
  rw [W16_b3]
  rfl

/-! ## Boundary 18: region 8 has applied the last layer; the composition is the kernel program's result function -/

theorem W18_out (c : Dev nD) :
    W18 m ρ c (Proc.devRef .tc main_v100)
      = Stages.final (Stages.pool (h1n m c) (h2n m c) (shapeCast S200000x1 (aBs m c) (by decide)))
          (shapeCast S1000x1 (Stages.cntOf (aBs m c)) (by decide)) (aW3 m c) (shapeCast S1x1 (aB3 m c) (by decide)) :=
  (W18_arr m ρ c 4).trans ((Reg8.out (V17 m ρ) c).trans (by dsimp only [V17]; rw [W17_pool, W17_cnt, W17_w3, W17_b3]))

/-- The result buffer at the last boundary is the stage composition of the eighteen arguments as launched. -/
theorem result_eq (c : Dev nD) :
    W18 m ρ c (Proc.devRef .tc main_v100)
      = Cert.Stages.K_out (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) (m ((c : Thread nD τ).loc main_arg15)) (m ((c : Thread nD τ).loc main_arg16))
          (m ((c : Thread nD τ).loc main_arg17)) :=
  (W18_out m ρ c).trans rfl

end Cert.KernelIdeal.KChain

end
-- ==== Proof.BridgeMM.lean ====
/-
  Index algebra at the ideal instance joining the two programs' spellings of the same arithmetic.

  Three facts, none of which needs finiteness (only the order of a finite sum's terms and the equality of
  row-major positions are used):
    * a matrix product written entry by entry as a sum over the contracted coordinate is the host's
      contraction with no batch axis, columns of the left operand against rows of the right one;
    * a bias given as a 1×128 row and added to every row is the same vector broadcast down the rows, and the
      positive part is the maximum with the zero splat;
    * the last layer: a length-1000 vector read as a column, or broadcast along the features, is the same
      entry per graph; likewise the one bias entry.
-/
import proofs.«426214_j50276887167257_1_alg».proof.Proof.Stages
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.Stages

open Idealize.ShloMosaic Idealize.ShloMosaic.ValueIdx Cert.ReferenceIdeal Cert.ReferenceIdeal.Facts₀ Cert.ReferenceIdeal.Facts
open scoped BigOperators

/-! ## A matrix product against the host's contraction

With no batch axis, the left operand contracted on its columns and the right one on its rows, the host's
contraction read at (r, j) is the sum over the contracted coordinate l of a(r, l) · w(l, j): the very sum the
entrywise product is defined by.  Each of the program's four such records has exactly those axis lists. -/

/-- The entrywise product is the host contraction with the plain matrix-product axes. -/
theorem mm_eq_plain {n k h : Nat} (a : A ⟨2, ![n, k]⟩) (w : A ⟨2, ![k, h]⟩) :
    mm a w = Host.dotGeneral (DotDims.plain n k h) none a w := by
  funext i
  obtain ⟨r, j, rfl⟩ : ∃ (r : Fin n) (j : Fin h), i = ix2 r j := ⟨i 0, i 1, eq_ix2 i⟩
  exact (StackMember.dotGeneral_plain_apply none a w r j).symm

theorem dot64_plain : dot_S200000x64_S64x128_S200000x128_1_0_0_1_n_n = DotDims.plain 200000 64 128 := rfl
theorem dot128_plain : dot_S200000x128_S128x128_S200000x128_1_0_0_1_n_n = DotDims.plain 200000 128 128 := rfl
theorem dot32_plain : dot_S200000x32_S32x128_S200000x128_1_0_0_1_n_n = DotDims.plain 200000 32 128 := rfl
theorem dotLast_plain : dot_S1000x256_S256x1_S1000x1_1_0_0_1_n_n = DotDims.plain 1000 256 1 := rfl

theorem mm_eq_dot64 (x : A S200000x64) (w : A S64x128) :
    mm x w = Host.dotGeneral dot_S200000x64_S64x128_S200000x128_1_0_0_1_n_n none x w := by
  rw [dot64_plain]; exact mm_eq_plain x w

theorem mm_eq_dot128 (x : A S200000x128) (w : A S128x128) :
    mm x w = Host.dotGeneral dot_S200000x128_S128x128_S200000x128_1_0_0_1_n_n none x w := by
  rw [dot128_plain]; exact mm_eq_plain x w

theorem mm_eq_dot32 (x : A S200000x32) (w : A S32x128) :
    mm x w = Host.dotGeneral dot_S200000x32_S32x128_S200000x128_1_0_0_1_n_n none x w := by
  rw [dot32_plain]; exact mm_eq_plain x w

/-! ## The bias row against the broadcast vector

A length-128 vector read as a 1×128 row at (0, j), and the same vector broadcast down 200000 rows read at
(r, j), are both its entry j. -/

/-- The vector as a row: entry (0, j) is entry j (equal row-major positions). -/
theorem row_apply (v : A S128) (u : Fin 1) (j : Fin 128) : row v (ix2 u j) = v (ix1 j) := by
  unfold row
  refine shapeCast_apply v _ (ix2 u j) (ix1 j) ?_
  rw [Shape.rowMajor_val_two, Shape.rowMajor_val_one]
  show j.val = u.val * 128 + j.val
  have := u.isLt
  omega

/-- The vector broadcast down the rows: entry (r, j) is entry j. -/
theorem bcRows_apply (v : A S128) (r : Fin 200000) (j : Fin 128) : bcRows v (ix2 r j) = v (ix1 j) := by
  unfold bcRows
  refine (broadcastInDim_apply _ _ _ (ix2 r j) (ix2 (0 : Fin 1) j) ?_).trans ?_
  · intro a; match a with | ⟨0, _⟩ => rfl | ⟨1, _⟩ => rfl
  · refine broadcastInDim_apply _ _ _ (ix2 (0 : Fin 1) j) (ix1 j) ?_
    intro a; match a with | ⟨0, _⟩ => rfl

/-- Adding the bias row and taking the positive part is the reference's add of the broadcast bias under
    its maximum with the zero splat: the zero word is the extended real 0. -/
theorem biasRelu_row (a : A S200000x128) (b : A S128) : biasRelu a (row b) = relu (addf a (bcRows b)) := by
  funext i
  obtain ⟨r, j, rfl⟩ : ∃ (r : Fin 200000) (j : Fin 128), i = ix2 r j := ⟨i 0, i 1, eq_ix2 i⟩
  show max (a (ix2 r j) + row b (ix2 (0 : Fin 1) j)) 0
      = max (a (ix2 r j) + bcRows b (ix2 r j)) (Ideal.ofBits .f32 0x00000000#32)
  rw [row_apply, bcRows_apply, Ideal.ofBits_zero_f32]

theorem K_h0_eq (x : A S200000x64) (wg : A S64x128) (bg : A S128) (ei : J S2x1600000) :
    K_h0 x wg bg ei = R_h0 x wg bg ei := by
  unfold K_h0 R_h0
  rw [mm_eq_dot64, biasRelu_row]

theorem K_h1_eq (h0n : A S200000x128) (w1 : A S128x128) (b1 : A S128) : K_h1 h0n w1 b1 = R_h1 h0n w1 b1 := by
  unfold K_h1 R_h1
  rw [mm_eq_dot128, biasRelu_row]

theorem K_h2_eq (ac : A S200000x32) (w2 : A S32x128) (b2 : A S128) : K_h2 ac w2 b2 = R_h2 ac w2 b2 := by
  unfold K_h2 R_h2
  rw [mm_eq_dot32, biasRelu_row]

/-! ## The last layer

Entry (g, 0) of the result: the per-graph sums of graph g divided, feature by feature, by max(count of g, 1),
contracted against the 256×1 weights, plus the one bias.  The reference spells the divisor and the bias as
broadcasts of a length-1000 vector and of a length-1 vector; the kernel side reads the same vectors as a
1000×1 column and a 1×1 cell. -/

/-- A length-1000 vector read as a 1000×1 column: entry (g, 0) is entry g. -/
theorem colCast_apply (v : A S1000) (h : S1000.ShapeCasts S1000x1) (g : Fin 1000) (u : Fin 1) :
    shapeCast S1000x1 v h (ix2 g u) = v (ix1 g) := by
  refine shapeCast_apply v h (ix2 g u) (ix1 g) ?_
  rw [Shape.rowMajor_val_two, Shape.rowMajor_val_one]
  show g.val = g.val * 1 + u.val
  have := u.isLt
  omega

/-- A length-1 vector read as a 1×1 cell. -/
theorem cellCast_apply (v : A S1) (h : S1.ShapeCasts S1x1) (u u' : Fin 1) :
    shapeCast S1x1 v h (ix2 u u') = v (ix1 (0 : Fin 1)) := by
  refine shapeCast_apply v h (ix2 u u') (ix1 (0 : Fin 1)) ?_
  rw [Shape.rowMajor_val_two, Shape.rowMajor_val_one]
  show 0 = u.val * 1 + u'.val
  have := u.isLt
  have := u'.isLt
  omega

/-- The reference's divisor at (g, l): max(count of g, 1), whatever the feature l. -/
theorem divisor_apply (cnt : A S1000) (g : Fin 1000) (l : Fin 256) :
    broadcastInDim S1000x256 ![0, 1] bcast_S1000x1_S1000x256_0_1
        (broadcastInDim S1000x1 ![0] bcast_S1000_S1000x1_0
          (maximumf cnt (broadcastInDim S1000 ![] bcast_S_S1000 (constant (F := Ideal) S_ .f32 0x3F800000#32)))) (ix2 g l)
      = max (cnt (ix1 g)) (Ideal.ofBits .f32 0x3F800000#32) := by
  refine (broadcastInDim_apply _ _ _ (ix2 g l) (ix2 g (0 : Fin 1)) ?_).trans ?_
  · intro a; match a with | ⟨0, _⟩ => rfl | ⟨1, _⟩ => rfl
  refine (broadcastInDim_apply _ _ _ (ix2 g (0 : Fin 1)) (ix1 g) ?_).trans ?_
  · intro a; match a with | ⟨0, _⟩ => rfl
  rfl

/-- The reference's bias at (g, 0): the one entry of the length-1 vector. -/
theorem biasCell_apply (b3 : A S1) (g : Fin 1000) (u : Fin 1) :
    broadcastInDim S1000x1 ![0, 1] bcast_S1x1_S1000x1_0_1 (broadcastInDim S1x1 ![1] bcast_S1_S1x1_1 b3) (ix2 g u)
      = b3 (ix1 (0 : Fin 1)) := by
  refine (broadcastInDim_apply _ _ _ (ix2 g u) (ix2 (0 : Fin 1) (0 : Fin 1)) ?_).trans ?_
  · intro a; match a with | ⟨0, _⟩ => rfl | ⟨1, _⟩ => rfl
  refine broadcastInDim_apply _ _ _ (ix2 (0 : Fin 1) (0 : Fin 1)) (ix1 (0 : Fin 1)) ?_
  intro a; match a with | ⟨0, _⟩ => rfl

/-- The host's quotient at an index is the ideal division of the entries. -/
theorem hostDivf_apply {s : Shape} (x y : A s) (i : s.Idx) : Host.divf x y i = Ideal.div (x i) (y i) := rfl

theorem final_eq (sums : A S1000x256) (cnt : A S1000) (w3 : A S256x1) (b3 : A S1) :
    final sums (shapeCast S1000x1 cnt (by decide)) w3 (shapeCast S1x1 b3 (by decide))
      = addf (Host.dotGeneral dot_S1000x256_S256x1_S1000x1_1_0_0_1_n_n none
          (Host.divf sums (broadcastInDim S1000x256 ![0, 1] bcast_S1000x1_S1000x256_0_1 (broadcastInDim S1000x1 ![0] bcast_S1000_S1000x1_0 (maximumf cnt (broadcastInDim S1000 ![] bcast_S_S1000 (constant S_ .f32 0x3F800000#32)))))) w3)
        (broadcastInDim S1000x1 ![0, 1] bcast_S1x1_S1000x1_0_1 (broadcastInDim S1x1 ![1] bcast_S1_S1x1_1 b3)) := by
  funext i
  obtain ⟨g, u, rfl⟩ : ∃ (g : Fin 1000) (u : Fin 1), i = ix2 g u := ⟨i 0, i 1, eq_ix2 i⟩
  obtain rfl : u = 0 := Subsingleton.elim _ _
  rw [addf_apply, biasCell_apply, dotLast_plain, ← mm_eq_plain]
  show (∑ l : Fin 256, Ideal.div (sums (ix2 g l))
          (max (shapeCast S1000x1 cnt _ (ix2 g (0 : Fin 1))) (Ideal.ofBits .f32 0x3F800000#32)) * w3 (ix2 l (0 : Fin 1)))
        + shapeCast S1x1 b3 _ (ix2 (0 : Fin 1) (0 : Fin 1))
      = (∑ l : Fin 256, Host.divf sums _ (ix2 g l) * w3 (ix2 l (0 : Fin 1))) + b3 (ix1 (0 : Fin 1))
  rw [colCast_apply, cellCast_apply]
  refine congrArg (· + b3 (ix1 (0 : Fin 1))) (Finset.sum_congr rfl fun l _ => ?_)
  rw [hostDivf_apply, divisor_apply]

end Cert.Stages

end
-- ==== Proof.BridgeVar.lean ====
/-
  Batch normalisation: the two programs' per-column statistics agree on arrays of real numbers.

  For a 200000 × 128 array y of reals and a column c write s = ∑ y(r,c), q = ∑ y(r,c)², N = 200000 and μ = s/N.
  One side takes the variance as max(q/N − μ², 0), the other as the mean of the squared deviations,
  (∑ (y(r,c) − μ)²)/N, guarded by a test N − 0 > 0 that always holds.  Expanding the square,
  ∑ (y − μ)² = q − 2μs + Nμ² = q − Nμ², so the mean of the squared deviations is q/N − μ²; being a mean of
  squares it is not negative, so the maximum with 0 changes nothing.  The means are the same quotient s/N on
  both sides, and the normalised entry (y − μ)·(var + ε)^(−1/2)·g + be is then formed with the same association.
  Finiteness is what lets the square be expanded: the distributive law fails at the infinities.
-/
import proofs.«426214_j50276887167257_1_alg».proof.Proof.Stages
import proofs.«426214_j50276887167257_1_alg».proof.Proof.LibIdealFinite
import Idealize.ShloMosaic.Lib.ValueIdx
import Idealize.ShloMosaic.Lib.Pipeline.Value
import Idealize.ShloMosaic.Lib.ValueLayout
import Idealize.ShloMosaic.PureOps.Ideal.Laws
import Mathlib.Data.EReal.Operations
import Mathlib.Algebra.BigOperators.Ring.Finset
import Mathlib.Algebra.Order.BigOperators.Group.Finset
import Mathlib.Analysis.SpecialFunctions.Sqrt
import Mathlib.Tactic.Ring
import Mathlib.Tactic.FieldSimp
import Mathlib.Tactic.NormNum
import Mathlib.Tactic.Choose

noncomputable section

namespace Cert.Stages

open Idealize.ShloMosaic Idealize.ShloMosaic.ValueIdx Cert.ReferenceIdeal Cert.ReferenceIdeal.Facts₀ Cert.ReferenceIdeal.Facts IdealFinite
open scoped BigOperators

namespace BatchVar

/-! ## The identity over the reals, for any finite family -/

section Real
variable {ι : Type} [Fintype ι] (f : ι → ℝ) (n : ℝ)

/-- The sum of the squared deviations from s/n, expanded: q − 2(s/n)s + n(s/n)², n the number of terms. -/
theorem sum_sq_dev (hcard : (Fintype.card ι : ℝ) = n) :
    ∑ i, (f i - (∑ k, f k) / n) * (f i - (∑ k, f k) / n)
      = (∑ i, f i * f i) - 2 * ((∑ k, f k) / n) * (∑ k, f k) + n * (((∑ k, f k) / n) * ((∑ k, f k) / n)) := by
  have e : ∀ i, (f i - (∑ k, f k) / n) * (f i - (∑ k, f k) / n)
      = f i * f i - 2 * ((∑ k, f k) / n) * f i + ((∑ k, f k) / n) * ((∑ k, f k) / n) := fun i => by ring
  simp only [e]
  rw [Finset.sum_add_distrib, Finset.sum_sub_distrib, ← Finset.mul_sum, Finset.sum_const, Finset.card_univ,
    nsmul_eq_mul, hcard]

/-- The mean of the squared deviations is the mean of the squares minus the square of the mean. -/
theorem mean_sq_dev (hcard : (Fintype.card ι : ℝ) = n) (hn : 0 < n) :
    (∑ i, (f i - (∑ k, f k) / n) * (f i - (∑ k, f k) / n)) / n
      = (∑ i, f i * f i) / n - ((∑ k, f k) / n) * ((∑ k, f k) / n) := by
  rw [sum_sq_dev f n hcard]
  have hn' : n ≠ 0 := hn.ne'
  field_simp
  ring

/-- So the mean of the squares minus the square of the mean is not negative. -/
theorem mean_sq_sub_sq_mean_nonneg (hcard : (Fintype.card ι : ℝ) = n) (hn : 0 < n) :
    0 ≤ (∑ i, f i * f i) / n - ((∑ k, f k) / n) * ((∑ k, f k) / n) := by
  rw [← mean_sq_dev f n hcard hn]
  exact div_nonneg (Finset.sum_nonneg fun i _ => mul_self_nonneg _) hn.le

end Real

/-- There are 200000 rows. -/
theorem card_rows : (Fintype.card (Fin 200000) : ℝ) = 200000 := by
  rw [Fintype.card_fin]; norm_num

/-- The binary32 pattern of 200000.0 = 12800000 · 2^(−6). -/
theorem ofBits_48435000 : Ideal.ofBits .f32 0x48435000#32 = ((200000 : ℝ) : EReal) := by
  simp [Ideal.ofBits, Ideal.ieee, -EReal.coe_mul]; norm_num

/-- The reciprocal square root of a positive real is the reciprocal of its square root. -/
theorem rsqrt_coe_pos {x : ℝ} (hx : 0 < x) : Ideal.rsqrt (x : EReal) = (((Real.sqrt x)⁻¹ : ℝ) : EReal) := by
  rw [Ideal.rsqrt_coe, if_neg (not_lt.mpr hx.le), if_neg hx.ne']

/-! ## The layout operations at an index -/

/-- The host's sum down the rows, started from the zero word, at column c: the sum over the 200000 rows. -/
theorem reduceAdd_col (y : A S200000x128) (h' : S200000x128.ReducesTo [0] S128) (hu : 0 < S_.numel) (c : Fin 128) :
    Host.reduceAdd (F := Ideal) y (constant S_ .f32 0x00000000#32) h' hu (ix1 c) = ∑ r : Fin 200000, y (ix2 r c) := by
  have h : S200000x128.Reduces [0] S128 := by decide
  show Ideal.hostReduceAdd h' y (Ideal.ofBits .f32 0x00000000#32) (ix1 c) = _
  rw [Ideal.hostReduceAdd_single h' h, Ideal.ofBits_zero_f32, zero_add]
  refine Finset.sum_congr rfl fun r _ => congrArg y ?_
  funext a
  match a with
  | ⟨0, _⟩ => rfl
  | ⟨1, _⟩ => rfl

/-- A vector laid as a 1 × 128 row and repeated down the rows reads, at (r, c), the vector's entry c. -/
theorem bcRows_apply (v : A S128) (r : Fin 200000) (c : Fin 128) : bcRows v (ix2 r c) = v (ix1 c) := by
  unfold bcRows
  refine (broadcastInDim_apply _ _ _ (ix2 r c) (ix2 (0 : Fin 1) c) ?_).trans
    (broadcastInDim_apply _ _ _ (ix2 (0 : Fin 1) c) (ix1 c) ?_)
  · intro a
    match a with
    | ⟨0, _⟩ => rfl
    | ⟨1, _⟩ => rfl
  · intro a
    match a with
    | ⟨0, _⟩ => rfl

/-- A vector as a 1 × 128 row reads, at (0, c), the vector's entry c. -/
theorem row_apply (v : A S128) (c : Fin 128) : row v (ix2 (0 : Fin 1) c) = v (ix1 c) :=
  shapeCast_a_1a_apply v _ 0 c

/-- A 1 × 128 row as a vector reads, at c, the row's entry (0, c). -/
theorem unrow_apply (v : A S1x128) (c : Fin 128) : unrow v (ix1 c) = v (ix2 (0 : Fin 1) c) :=
  shapeCast_1a_a_apply v _ c

/-! ## The means: the same quotient on both sides, for any array -/

/-- One side's mean row at (0, c): the column sum divided by 200000. -/
theorem kmean_apply (y : A S200000x128) (c : Fin 128) :
    row (divN (unrow (colSum y))) (ix2 (0 : Fin 1) c)
      = Ideal.div (∑ r : Fin 200000, y (ix2 r c)) (Ideal.ofBits .f32 0x48435000#32) := by
  rw [row_apply]
  show Ideal.div (unrow (colSum y) (ix1 c)) (Ideal.ofBits .f32 0x48435000#32) = _
  rw [unrow_apply]
  rfl

/-- The other side's mean at c: the same. -/
theorem rmean_apply (y : A S200000x128) (c : Fin 128) :
    rmean y (ix1 c) = Ideal.div (∑ r : Fin 200000, y (ix2 r c)) (Ideal.ofBits .f32 0x48435000#32) := by
  show Ideal.div (Host.reduceAdd (F := Ideal) y (constant S_ .f32 0x00000000#32) reducesTo_S200000x128_S128_d0 h_S_ (ix1 c))
    (Ideal.ofBits .f32 0x48435000#32) = _
  rw [reduceAdd_col]

/-! ## The two variances at a column, before any real number is named -/

/-- One side's variance at c: max(q/N − (s/N)·(s/N), 0) of the two rows' entries (0, c). -/
theorem kvar_apply (s q : A S1x128) (c : Fin 128) :
    kvar s q (ix1 c)
      = max (Ideal.div (q (ix2 (0 : Fin 1) c)) (Ideal.ofBits .f32 0x48435000#32)
            - Ideal.div (s (ix2 (0 : Fin 1) c)) (Ideal.ofBits .f32 0x48435000#32)
              * Ideal.div (s (ix2 (0 : Fin 1) c)) (Ideal.ofBits .f32 0x48435000#32))
          (Ideal.ofBits .f32 0x00000000#32) := by
  show max (Ideal.div (unrow q (ix1 c)) (Ideal.ofBits .f32 0x48435000#32)
        - Ideal.div (unrow s (ix1 c)) (Ideal.ofBits .f32 0x48435000#32)
          * Ideal.div (unrow s (ix1 c)) (Ideal.ofBits .f32 0x48435000#32))
      (Ideal.ofBits .f32 0x00000000#32) = _
  rw [unrow_apply, unrow_apply]

/-- The deviations from the mean, as the other side forms them: the array minus its row of means repeated down the rows. -/
abbrev rdev (y : A S200000x128) : A S200000x128 :=
  subf y (broadcastInDim S200000x128 ![0, 1] bcast_S1x128_S200000x128_0_1
    (Host.divf (F := Ideal) (broadcastInDim S1x128 ![1] bcast_S128_S1x128_1
        (Host.reduceAdd (F := Ideal) y (constant S_ .f32 0x00000000#32) reducesTo_S200000x128_S128_d0 h_S_))
      (broadcastInDim S1x128 ![] bcast_S_S1x128 (constant (F := Ideal) S_ .f32 0x48435000#32))))

/-- A deviation at (r, c): the entry minus the column sum over 200000. -/
theorem rdev_apply (y : A S200000x128) (r : Fin 200000) (c : Fin 128) :
    rdev y (ix2 r c) = y (ix2 r c) - Ideal.div (∑ k : Fin 200000, y (ix2 k c)) (Ideal.ofBits .f32 0x48435000#32) := by
  show y (ix2 r c) - _ = _
  refine congrArg (fun t : EReal => y (ix2 r c) - t) ?_
  refine (broadcastInDim_apply _ _ _ (ix2 r c) (ix2 (0 : Fin 1) c) ?_).trans ?_
  · intro a
    match a with
    | ⟨0, _⟩ => rfl
    | ⟨1, _⟩ => rfl
  · show Ideal.div (broadcastInDim S1x128 ![1] bcast_S128_S1x128_1
        (Host.reduceAdd (F := Ideal) y (constant S_ .f32 0x00000000#32) reducesTo_S200000x128_S128_d0 h_S_) (ix2 (0 : Fin 1) c))
      (Ideal.ofBits .f32 0x48435000#32) = _
    rw [broadcastInDim_apply _ _ _ (ix2 (0 : Fin 1) c) (ix1 c) (by
      intro a
      match a with
      | ⟨0, _⟩ => rfl), reduceAdd_col]

/-- The divisor the other side forms: 200000.0 minus the integer 0 converted. -/
abbrev dofv : EReal := Ideal.ofBits .f32 0x48435000#32 - (((0#32 : BitVec 32).toInt : ℝ) : EReal)

/-- The other side's variance at c: the guarded mean of the squared deviations. -/
theorem rvar_apply (y : A S200000x128) (c : Fin 128) :
    rvar y (ix1 c)
      = Scalar.select (Ideal.cmp .ogt dofv (Ideal.ofBits .f32 0x00000000#32))
          (Ideal.div (∑ r : Fin 200000,
              (y (ix2 r c) - Ideal.div (∑ k : Fin 200000, y (ix2 k c)) (Ideal.ofBits .f32 0x48435000#32))
                * (y (ix2 r c) - Ideal.div (∑ k : Fin 200000, y (ix2 k c)) (Ideal.ofBits .f32 0x48435000#32))) dofv)
          (Ideal.ofBits .f32 0x7FC00000#32) := by
  show Scalar.select (Ideal.cmp .ogt dofv (Ideal.ofBits .f32 0x00000000#32))
      (Ideal.div (Host.reduceAdd (F := Ideal) (mulf (rdev y) (rdev y)) (constant S_ .f32 0x00000000#32)
        reducesTo_S200000x128_S128_d0 h_S_ (ix1 c)) dofv)
      (Ideal.ofBits .f32 0x7FC00000#32) = _
  rw [reduceAdd_col]
  have hs : ∑ r : Fin 200000, mulf (rdev y) (rdev y) (ix2 r c)
      = ∑ r : Fin 200000,
          (y (ix2 r c) - Ideal.div (∑ k : Fin 200000, y (ix2 k c)) (Ideal.ofBits .f32 0x48435000#32))
            * (y (ix2 r c) - Ideal.div (∑ k : Fin 200000, y (ix2 k c)) (Ideal.ofBits .f32 0x48435000#32)) :=
    Finset.sum_congr rfl fun r _ => by rw [mulf_apply, rdev_apply]
  rw [hs]

/-! ## On an array of real numbers -/

/-- The variance of column c of a real array: the mean of the squares minus the square of the mean. -/
def colVar (F : S200000x128.Idx → ℝ) (c : Fin 128) : ℝ :=
  (∑ r : Fin 200000, F (ix2 r c) * F (ix2 r c)) / 200000
    - ((∑ r : Fin 200000, F (ix2 r c)) / 200000) * ((∑ r : Fin 200000, F (ix2 r c)) / 200000)

/-- It is not negative: it is the mean of the squared deviations. -/
theorem colVar_nonneg (F : S200000x128.Idx → ℝ) (c : Fin 128) : 0 ≤ colVar F c :=
  mean_sq_sub_sq_mean_nonneg (fun r : Fin 200000 => F (ix2 r c)) 200000 card_rows (by norm_num)

/-- The divisor 200000.0 − 0 is 200000. -/
theorem dofv_eq : dofv = ((200000 : ℝ) : EReal) := by
  have h0 : ((0#32 : BitVec 32).toInt : ℝ) = 0 := by simp
  show Ideal.ofBits .f32 0x48435000#32 - (((0#32 : BitVec 32).toInt : ℝ) : EReal) = _
  rw [h0, ofBits_48435000, ← EReal.coe_sub, sub_zero]

/-- The guard 200000 > 0 holds. -/
theorem guard_true : Ideal.cmp .ogt ((200000 : ℝ) : EReal) 0 = 1#1 := by
  have h : (0 : EReal) < ((200000 : ℝ) : EReal) := by exact_mod_cast (by norm_num : (0 : ℝ) < 200000)
  simp [Ideal.cmp, h]

section OnReals
variable (y : A S200000x128) (F : S200000x128.Idx → ℝ) (hF : ∀ i, y i = (F i : EReal)) (c : Fin 128)
include hF

/-- A column sum of reals is the real sum. -/
theorem colsum_coe : ∑ r : Fin 200000, y (ix2 r c) = ((∑ r : Fin 200000, F (ix2 r c) : ℝ) : EReal) := by
  rw [coe_finset_sum]
  exact Finset.sum_congr rfl fun r _ => hF _

/-- A column sum of squares of reals is the real sum of squares. -/
theorem colsumsq_coe :
    ∑ r : Fin 200000, y (ix2 r c) * y (ix2 r c) = ((∑ r : Fin 200000, F (ix2 r c) * F (ix2 r c) : ℝ) : EReal) := by
  rw [coe_finset_sum]
  exact Finset.sum_congr rfl fun r _ => by rw [hF, ← EReal.coe_mul]

/-- The mean of a column of reals is the real quotient. -/
theorem mean_coe :
    Ideal.div (∑ r : Fin 200000, y (ix2 r c)) (Ideal.ofBits .f32 0x48435000#32)
      = (((∑ r : Fin 200000, F (ix2 r c)) / 200000 : ℝ) : EReal) := by
  rw [colsum_coe y F hF c, ofBits_48435000, div_coe_coe _ (by norm_num)]

/-- One side's variance of a column of reals: the clamp at 0 is idle. -/
theorem kvar_col : kvar (colSum y) (colSumSq y) (ix1 c) = ((colVar F c : ℝ) : EReal) := by
  rw [kvar_apply]
  show max (Ideal.div (∑ r : Fin 200000, y (ix2 r c) * y (ix2 r c)) (Ideal.ofBits .f32 0x48435000#32)
        - Ideal.div (∑ r : Fin 200000, y (ix2 r c)) (Ideal.ofBits .f32 0x48435000#32)
          * Ideal.div (∑ r : Fin 200000, y (ix2 r c)) (Ideal.ofBits .f32 0x48435000#32))
      (Ideal.ofBits .f32 0x00000000#32) = _
  rw [mean_coe y F hF c, colsumsq_coe y F hF c, ofBits_48435000, div_coe_coe _ (by norm_num), ← EReal.coe_mul,
    ← EReal.coe_sub, Ideal.ofBits_zero_f32]
  exact max_eq_left (EReal.coe_nonneg.mpr (colVar_nonneg F c))

/-- The other side's variance of a column of reals: the mean of the squared deviations, expanded. -/
theorem rvar_col : rvar y (ix1 c) = ((colVar F c : ℝ) : EReal) := by
  rw [rvar_apply, dofv_eq, Ideal.ofBits_zero_f32, guard_true, select_one, mean_coe y F hF c]
  have hs : ∑ r : Fin 200000, (y (ix2 r c) - (((∑ k : Fin 200000, F (ix2 k c)) / 200000 : ℝ) : EReal))
        * (y (ix2 r c) - (((∑ k : Fin 200000, F (ix2 k c)) / 200000 : ℝ) : EReal))
      = ((∑ r : Fin 200000, (F (ix2 r c) - (∑ k : Fin 200000, F (ix2 k c)) / 200000)
          * (F (ix2 r c) - (∑ k : Fin 200000, F (ix2 k c)) / 200000) : ℝ) : EReal) := by
    rw [coe_finset_sum]
    exact Finset.sum_congr rfl fun r _ => by rw [hF, ← EReal.coe_sub, ← EReal.coe_mul]
  rw [hs, div_coe_coe _ (by norm_num)]
  exact congrArg _ (mean_sq_dev (fun r : Fin 200000 => F (ix2 r c)) 200000 card_rows (by norm_num))

end OnReals

/-! ## The two normalisations at an entry -/

/-- One side's normalised entry (r, c), from its rows of statistics. -/
theorem kbn_apply (y : A S200000x128) (g be : A S128) (r : Fin 200000) (c : Fin 128) :
    kbn y g be (ix2 r c)
      = (y (ix2 r c) - row (divN (unrow (colSum y))) (ix2 (0 : Fin 1) c))
          * Ideal.rsqrt (row (kvar (colSum y) (colSumSq y)) (ix2 (0 : Fin 1) c) + Ideal.ofBits .f32 0x3727C5AC#32)
          * row g (ix2 (0 : Fin 1) c) + row be (ix2 (0 : Fin 1) c) := rfl

/-- The other side's normalised entry (r, c), from its vectors of statistics repeated down the rows. -/
theorem rbn_apply (y : A S200000x128) (g be : A S128) (r : Fin 200000) (c : Fin 128) :
    rbn y g be (ix2 r c)
      = (y (ix2 r c) - bcRows (rmean y) (ix2 r c))
          * bcRows (Host.rsqrt (F := Ideal) (addf (rvar y)
              (broadcastInDim S128 ![] bcast_S_S128 (constant (F := Ideal) S_ .f32 0x3727C5AC#32)))) (ix2 r c)
          * bcRows g (ix2 r c) + bcRows be (ix2 r c) := rfl

end BatchVar

open BatchVar

/-- On an array of reals the two batch normalisations are the same array. -/
theorem kbn_eq_rbn (y : A S200000x128) (g be : A S128) (hy : AllFin y) : kbn y g be = rbn y g be := by
  have hy' : ∀ i, ∃ t : ℝ, y i = (t : EReal) := hy
  choose F hF using hy'
  funext i
  obtain ⟨r, c, rfl⟩ : ∃ (r : Fin 200000) (c : Fin 128), i = ix2 r c := ⟨i 0, i 1, eq_ix2 i⟩
  rw [kbn_apply, rbn_apply, kmean_apply]
  simp only [row_apply, bcRows_apply]
  rw [rmean_apply, kvar_col y F hF c]
  show _ = (_ - _) * Ideal.rsqrt (rvar y (ix1 c) + Ideal.ofBits .f32 0x3727C5AC#32) * _ + _
  rw [rvar_col y F hF c]

/-- A batch normalisation of reals with real scale and shift is an array of reals: the variance is not negative, so
    the quantity under the reciprocal square root is positive. -/
theorem kbn_allFin (y : A S200000x128) (g be : A S128) (hy : AllFin y) (hg : AllFin g) (hb : AllFin be) :
    AllFin (kbn y g be) := by
  have hy' : ∀ i, ∃ t : ℝ, y i = (t : EReal) := hy
  choose F hF using hy'
  intro i
  obtain ⟨r, c, rfl⟩ : ∃ (r : Fin 200000) (c : Fin 128), i = ix2 r c := ⟨i 0, i 1, eq_ix2 i⟩
  obtain ⟨G, hG⟩ := hg (ix1 c)
  obtain ⟨B, hB⟩ := hb (ix1 c)
  have hpos : 0 < colVar F c + 10995116 / 1099511627776 :=
    add_pos_of_nonneg_of_pos (colVar_nonneg F c) (by norm_num)
  refine ⟨(F (ix2 r c) - (∑ k : Fin 200000, F (ix2 k c)) / 200000)
      * (Real.sqrt (colVar F c + 10995116 / 1099511627776))⁻¹ * G + B, ?_⟩
  rw [kbn_apply, kmean_apply, mean_coe y F hF c]
  simp only [row_apply]
  rw [kvar_col y F hF c, ofBits_3727C5AC, ← EReal.coe_add, rsqrt_coe_pos hpos, hF, hG, hB, ← EReal.coe_sub,
    ← EReal.coe_mul, ← EReal.coe_mul, ← EReal.coe_add]

end Cert.Stages

end
-- ==== Proof.BridgePool.lean ====
/-
  The per-graph sum, two ways.

  One side multiplies a one-hot matrix by the node features: entry (b, f) is the sum over ALL nodes r of
  [graph id of r is the word b] · feature f of r.  The other side starts from zeros and adds every node's feature
  row into the row its graph id names, an id outside 0 … 999 adding nothing.  Entry (b, f) of that is the sum over
  the nodes r whose id, read as a signed integer, is b.  The two agree because 0 · x = 0 and 1 · x = x for every
  extended real x, infinite ones included, and because for b < 1000 a 32-bit word equals the word of b exactly when
  its signed value is b.  No finiteness is used.
-/
import proofs.«426214_j50276887167257_1_alg».proof.Proof.Stages
import Idealize.ShloMosaic.Lib.ValueIdx
import Idealize.ShloMosaic.Lib.Pipeline.Value
import Idealize.ShloMosaic.Lib.IdealHost
import Idealize.ShloMosaic.PureOps.Ideal.Laws

noncomputable section

namespace Cert.Stages

open Idealize.ShloMosaic Idealize.ShloMosaic.ValueIdx Cert.ReferenceIdeal Cert.ReferenceIdeal.Facts₀ Cert.ReferenceIdeal.Facts
open scoped BigOperators

/-! ## Where an update element lands

The scatter's dimension numbers: the updates' axis 1 is the window axis and goes to the operand's axis 1; the
operand's axis 0 is the inserted one and is addressed by the single component of the start index, which update
element (r, f) reads at row r of the index column. -/

/-- The dimension numbers of the pooling scatter. -/
abbrev dsc : ScatterDims S1000x256 S200000x1 S200000x256 := scatter_S1000x256_S200000x1_S200000x256_1_0_0_1

/-- Update element (r, f) reads its start index at (r, 0) of the index column. -/
theorem siIdx_eq (r : Fin 200000) (f : Fin 256) (c : Fin dsc.scatterDimsToOperandDims.length) :
    dsc.siIdx (ix2 r f) c = ix2 r 0 := by
  funext b
  match b with
  | ⟨0, _⟩ => rfl
  | ⟨1, _⟩ => exact Fin.ext (by have h : c.val < 1 := c.isLt; show c.val = 0; omega)

/-- On the operand's axis 0 the window starts at the signed value of the index word of row r. -/
theorem start0 (r : Fin 200000) (f : Fin 256) (idx : IVec S200000x1 32) :
    dsc.start (ix2 r f) idx 0 = (idx (ix2 r 0)).toInt := by
  have h : (0 : Fin S1000x256.rank) ∈ dsc.scatterDimsToOperandDims := (show (0 : Fin 2) ∈ [0] by decide)
  unfold ScatterDims.start
  rw [dif_pos h, siIdx_eq]

/-- On the operand's axis 1 the window starts at 0. -/
theorem start1 (r : Fin 200000) (f : Fin 256) (idx : IVec S200000x1 32) :
    dsc.start (ix2 r f) idx 1 = 0 := by
  have h : (1 : Fin S1000x256.rank) ∉ dsc.scatterDimsToOperandDims := (show (1 : Fin 2) ∉ [0] by decide)
  unfold ScatterDims.start
  rw [dif_neg h]

/-- The inserted axis has window coordinate 0. -/
theorem window0 (r : Fin 200000) (f : Fin 256) :
    dsc.window (ix2 r f) 0 = 0 := by
  have h : (0 : Fin S1000x256.rank) ∉ dsc.sKept := (show (0 : Fin 2) ∉ [1] by decide)
  unfold ScatterDims.window
  rw [dif_neg h]

/-- On axis 1 the window coordinate is the update's column f. -/
theorem window1 (r : Fin 200000) (f : Fin 256) :
    dsc.window (ix2 r f) 1 = f.val := by
  have h : (1 : Fin S1000x256.rank) ∈ dsc.sKept := (show (1 : Fin 2) ∈ [1] by decide)
  unfold ScatterDims.window
  rw [dif_pos h]
  rfl

/-- Update element (r, f) lands at (b, g) exactly when the signed index of row r is b and f = g: the row
    coordinate is start + 0, the column coordinate is 0 + f, and both are in range precisely then. -/
theorem resultIdx_iff (r : Fin 200000) (f : Fin 256) (idx : IVec S200000x1 32) (b : Fin 1000) (g : Fin 256) :
    dsc.resultIdx? (ix2 r f) idx = some (ix2 b g) ↔ (idx (ix2 r 0)).toInt = (b.val : Int) ∧ f = g := by
  unfold ScatterDims.resultIdx?
  constructor
  · intro h
    by_cases hc : ∀ a, 0 ≤ dsc.start (ix2 r f) idx a + dsc.window (ix2 r f) a ∧
        dsc.start (ix2 r f) idx a + dsc.window (ix2 r f) a < S1000x256.size a
    · rw [dif_pos hc] at h
      have e := Option.some.inj h
      have e0 : (dsc.start (ix2 r f) idx 0 + dsc.window (ix2 r f) 0).toNat = b.val := congrArg Fin.val (congrFun e 0)
      have e1 : (dsc.start (ix2 r f) idx 1 + dsc.window (ix2 r f) 1).toNat = g.val := congrArg Fin.val (congrFun e 1)
      have c0 := (hc 0).1
      rw [start0, window0] at e0 c0
      rw [start1, window1] at e1
      exact ⟨by omega, Fin.ext (by omega)⟩
    · rw [dif_neg hc] at h
      exact absurd h (by simp)
  · rintro ⟨h0, rfl⟩
    have hb : b.val < 1000 := b.isLt
    have hf : f.val < 256 := f.isLt
    have hc : ∀ a, 0 ≤ dsc.start (ix2 r f) idx a + dsc.window (ix2 r f) a ∧
        dsc.start (ix2 r f) idx a + dsc.window (ix2 r f) a < S1000x256.size a :=
      Fin.forall_fin_two.2 ⟨by rw [start0, window0]; show _ ∧ _ < ((1000 : Nat) : Int); omega,
        by rw [start1, window1]; show _ ∧ _ < ((256 : Nat) : Int); omega⟩
    rw [dif_pos hc]
    refine congrArg some (funext fun a => ?_)
    match a with
    | ⟨0, _⟩ => exact Fin.ext (show (dsc.start (ix2 r f) idx 0 + dsc.window (ix2 r f) 0).toNat = b.val by
        rw [start0, window0]; omega)
    | ⟨1, _⟩ => exact Fin.ext (show (dsc.start (ix2 r f) idx 1 + dsc.window (ix2 r f) 1).toNat = f.val by
        rw [start1, window1]; omega)

/-! ## The scatter at an entry -/

/-- Entry (b, g) of the accumulating scatter: the operand's entry plus the sum, over the rows r whose signed index
    is b, of the update's entry (r, g).  The sum over all update elements (r, f) is split by coordinates; the
    condition "lands at (b, g)" fixes f = g, which collapses the inner sum to one term. -/
theorem scatter_rows_apply (x : A S1000x256) (idx : J S200000x1) (upd : A S200000x256) (b : Fin 1000) (g : Fin 256) :
    Host.scatterAdd scatter_S1000x256_S200000x1_S200000x256_1_0_0_1 x idx upd (ix2 b g)
      = x (ix2 b g) + ∑ r : Fin 200000, if (idx (ix2 r 0)).toInt = (b.val : Int) then upd (ix2 r g) else 0 := by
  show Ideal.hostScatterAdd dsc x idx upd (ix2 b g) = _
  unfold Ideal.hostScatterAdd
  rw [Finset.sum_filter, sum_idx2]
  refine congrArg (x (ix2 b g) + ·) (Finset.sum_congr rfl fun r _ => ?_)
  simp only [resultIdx_iff]
  by_cases hX : (idx (ix2 r 0)).toInt = (b.val : Int)
  · simp only [hX, true_and, Finset.sum_ite_eq', Finset.mem_univ, if_true]
  · simp only [hX, false_and, if_false, Finset.sum_const_zero]

/-! ## The layout operations at an index -/

/-- The id vector as a column, by reshape: entry (r, 0) is the id of node r. -/
theorem ids_apply (bs : J S200000) (h : S200000.ShapeCasts S200000x1) (r : Fin 200000) :
    shapeCast S200000x1 bs h (ix2 r 0) = bs (ix1 r) := by
  refine shapeCast_apply bs h (ix2 r 0) (ix1 r) ?_
  rw [Shape.rowMajor_val_one, Shape.rowMajor_val_two]
  show r.val = r.val * 1 + 0
  omega

/-- The id vector as a column, by broadcast along a new unit axis: entry (r, 0) is the id of node r. -/
theorem idx_apply (bs : J S200000) (r : Fin 200000) :
    broadcastInDim S200000x1 ![0] bcast_S200000_S200000x1_0 bs (ix2 r 0) = bs (ix1 r) := by
  refine broadcastInDim_apply _ _ bs (ix2 r 0) (ix1 r) ?_
  intro a
  match a with
  | ⟨0, _⟩ => rfl

/-- Feature g of node r among the 256 concatenated columns: h1's column g below 128, h2's column g − 128 from
    128 on. -/
def feat (h1 h2 : A S200000x128) (r : Fin 200000) (g : Fin 256) : EReal :=
  if h : g.val < 128 then h1 (ix2 r ⟨g.val, h⟩) else h2 (ix2 r ⟨g.val - 128, by have := g.isLt; omega⟩)

/-- The concatenation along the column axis read at (r, g). -/
theorem cat_apply (h1 h2 : A S200000x128) (r : Fin 200000) (g : Fin 256) :
    concatenate S200000x256 1 [⟨S200000x128, h1⟩, ⟨S200000x128, h2⟩] concatenates_S200000x128_S200000x128_S200000x256_d1 (ix2 r g)
      = feat h1 h2 r g := by
  unfold feat
  by_cases h : g.val < 128
  · rw [dif_pos h]
    refine concatenate_pair_apply_left 1 h1 h2 _ (ix2 r g) rfl (ix2 r ⟨g.val, h⟩) ?_
    intro b
    match b with
    | ⟨0, _⟩ => rfl
    | ⟨1, _⟩ => rfl
  · rw [dif_neg h]
    refine concatenate_pair_apply_right 1 h1 h2 _ (ix2 r g) rfl rfl (ix2 r ⟨g.val - 128, by have := g.isLt; omega⟩) ?_ ?_
    · intro b hb
      match b with
      | ⟨0, _⟩ => rfl
      | ⟨1, _⟩ => exact absurd rfl hb
    · show (g.val - 128) + 128 = g.val
      omega

/-! ## Words and their signed values -/

/-- The 32-bit word of a number below 1000 has that number as its signed value. -/
theorem toInt_word (b : Nat) (hb : b < 1000) : (BitVec.ofNat 32 b).toInt = (b : Int) := by
  have hn : (BitVec.ofNat 32 b).toNat = b := by rw [BitVec.toNat_ofNat]; omega
  rw [BitVec.toInt_eq_toNat_of_lt (by rw [hn]; omega), hn]

/-- So a word is the word of b exactly when its signed value is b (the signed value determines the word). -/
theorem word_eq_iff (w : BitVec 32) (b : Nat) (hb : b < 1000) : w = BitVec.ofNat 32 b ↔ w.toInt = (b : Int) := by
  rw [← toInt_word b hb]
  exact BitVec.toInt_inj.symm

/-! ## The two per-graph sums agree -/

/-- The one-hot product is the accumulating scatter into zeros.  At entry (b, g) both are a sum over the nodes r;
    the term of r is [id of r is b] · feat(r, g) on one side and "feat(r, g) if the id of r is b, else 0" on the
    other, equal by 1 · x = x and 0 · x = 0. -/
theorem pool_eq_scatter (h1 h2 : A S200000x128) (bs : J S200000) :
    pool h1 h2 (shapeCast S200000x1 bs (by decide))
      = Host.scatterAdd scatter_S1000x256_S200000x1_S200000x256_1_0_0_1
          (broadcastInDim S1000x256 ![] bcast_S_S1000x256 (constant S_ .f32 0x00000000#32))
          (broadcastInDim S200000x1 ![0] bcast_S200000_S200000x1_0 bs)
          (concatenate S200000x256 1 [⟨S200000x128, h1⟩, ⟨S200000x128, h2⟩] concatenates_S200000x128_S200000x128_S200000x256_d1) := by
  funext i
  obtain ⟨b, g, rfl⟩ : ∃ (b : Fin 1000) (g : Fin 256), i = ix2 b g := ⟨i 0, i 1, eq_ix2 i⟩
  rw [scatter_rows_apply, broadcastInDim_scalar_apply, constant_apply, Ideal.ofBits_zero_f32, zero_add]
  show (∑ r : Fin 200000, (if shapeCast S200000x1 bs _ (ix2 r 0) = BitVec.ofNat 32 b.val then (1 : EReal) else 0)
      * feat h1 h2 r g) = _
  refine Finset.sum_congr rfl fun r _ => ?_
  rw [idx_apply, ids_apply, cat_apply]
  simp only [word_eq_iff _ _ b.isLt]
  by_cases hX : (bs (ix1 r)).toInt = (b.val : Int)
  · rw [if_pos hX, if_pos hX, one_mul]
  · rw [if_neg hX, if_neg hX, zero_mul]

end Cert.Stages

end
-- ==== Proof.FiniteAgg.lean ====
/-
  Finiteness of the shared edge aggregation and of the kernel side's stages.

  Every array here is a function into the extended reals; "finite" means every entry is a real number.  The
  aggregation is a chain of host operations: an accumulating scatter (an entry plus a finite sum of updates), a
  reciprocal square root of the degrees, two gathers and pointwise products.  The only step that is not closed
  under "every entry is real" by itself is the reciprocal square root, which sends 0 to +∞: so the degrees are shown
  to be POSITIVE reals.  They are, because the self loop appended for node i is one update of value 1 landing on i,
  and every other update is 1 as well.

  The kernel side's stages are matrix products (finite sums of products), a bias added, and the positive part.
-/
import proofs.«426214_j50276887167257_1_alg».proof.Proof.Stages
import proofs.«426214_j50276887167257_1_alg».proof.Proof.LibIdealFinite
import Idealize.ShloMosaic.Lib.ValueIdx
import Idealize.ShloMosaic.Lib.Pipeline.Value
import Idealize.ShloMosaic.PureOps.Ideal.Laws
import Mathlib.Data.EReal.Operations
import Mathlib.Analysis.SpecialFunctions.Sqrt
import Mathlib.Algebra.BigOperators.Group.Finset.Basic

noncomputable section

namespace Cert.Stages

open Idealize.ShloMosaic Idealize.ShloMosaic.ValueIdx Cert.ReferenceIdeal Cert.ReferenceIdeal.Facts₀ Cert.ReferenceIdeal.Facts IdealFinite
open scoped BigOperators

/-! ## Real numbers among the extended reals: sums, products, positive parts -/

namespace FiniteAgg

/-- The sum of two reals is a real. -/
theorem isFin_add {x y : EReal} (hx : IsFin x) (hy : IsFin y) : IsFin (x + y) := by
  obtain ⟨a, ha⟩ := hx
  obtain ⟨b, hb⟩ := hy
  exact ⟨a + b, by rw [ha, hb, EReal.coe_add]⟩

/-- The product of two reals is a real. -/
theorem isFin_mul {x y : EReal} (hx : IsFin x) (hy : IsFin y) : IsFin (x * y) := by
  obtain ⟨a, ha⟩ := hx
  obtain ⟨b, hb⟩ := hy
  exact ⟨a * b, by rw [ha, hb, EReal.coe_mul]⟩

/-- The positive part of a real is a real: it is either the number itself or 0. -/
theorem isFin_max_zero {x : EReal} (h : IsFin x) : IsFin (max x 0) := by
  rcases le_total x 0 with h0 | h0
  · rw [max_eq_right h0]; exact ⟨0, by simp⟩
  · rw [max_eq_left h0]; exact h

/-- A real that is not negative, plus a finite sum of such reals one of whose terms is positive, is a positive
    real: take the positive term out of the sum; what is left is not negative. -/
theorem pos_add_sum {ι : Type} (s : Finset ι) (f : ι → EReal) (a : EReal) (j : ι) (hj : j ∈ s)
    (ha : ∃ r : ℝ, 0 ≤ r ∧ a = (r : EReal)) (hf : ∀ i ∈ s, ∃ r : ℝ, 0 ≤ r ∧ f i = (r : EReal))
    (hp : ∃ r : ℝ, 0 < r ∧ f j = (r : EReal)) : ∃ r : ℝ, 0 < r ∧ a + ∑ i ∈ s, f i = (r : EReal) := by
  classical
  obtain ⟨p, hp0, hpe⟩ := ha
  obtain ⟨q, hq0, hqe⟩ := hp
  obtain ⟨t, ht0, hte⟩ := nonneg_sum (s.erase j) f fun i hi => hf i (Finset.mem_of_mem_erase hi)
  refine ⟨p + (q + t), add_pos_of_nonneg_of_pos hp0 (add_pos_of_pos_of_nonneg hq0 ht0), ?_⟩
  rw [← Finset.add_sum_erase s f hj, hpe, hqe, hte, EReal.coe_add, EReal.coe_add]

end FiniteAgg

open FiniteAgg

/-! ## The accumulating scatter and the reciprocal square root -/

/-- An accumulating scatter of reals into reals: each entry is the operand's entry plus the finite sum of the
    updates that land on it. -/
theorem scatterAdd_allFin {s si u : Shape} {φ : FTy} {w : Nat} (d : ScatterDims s si u) {x : FVec Ideal s φ}
    {idx : IVec si w} {upd : FVec Ideal u φ} (hx : AllFin x) (hu : AllFin upd) :
    AllFin (Host.scatterAdd (F := Ideal) d x idx upd) := fun i => by
  show IsFin (Ideal.hostScatterAdd d x idx upd i)
  unfold Ideal.hostScatterAdd
  exact isFin_add (hx i) (isFin_sum _ _ fun j _ => hu j)

/-- The same for reals that are not negative. -/
theorem scatterAdd_allNonneg {s si u : Shape} {φ : FTy} {w : Nat} (d : ScatterDims s si u) {x : FVec Ideal s φ}
    {idx : IVec si w} {upd : FVec Ideal u φ} (hx : AllNonneg x) (hu : AllNonneg upd) :
    AllNonneg (Host.scatterAdd (F := Ideal) d x idx upd) := fun i => by
  show ∃ r : ℝ, 0 ≤ r ∧ Ideal.hostScatterAdd d x idx upd i = (r : EReal)
  unfold Ideal.hostScatterAdd
  obtain ⟨a, ha0, ha⟩ := hx i
  obtain ⟨b, hb0, hb⟩ := nonneg_sum _ upd
    fun j (_ : j ∈ Finset.univ.filter fun j => d.resultIdx? j idx = some i) => hu j
  exact ⟨a + b, add_nonneg ha0 hb0, by rw [ha, hb, EReal.coe_add]⟩

/-- An entry on which at least one update lands is positive when the operand is not negative and the updates
    are positive. -/
theorem scatterAdd_pos_at {s si u : Shape} {φ : FTy} {w : Nat} (d : ScatterDims s si u) {x : FVec Ideal s φ}
    {idx : IVec si w} {upd : FVec Ideal u φ} (hx : AllNonneg x) (hu : AllPos upd) (i : s.Idx) (j : u.Idx)
    (hj : d.resultIdx? j idx = some i) :
    ∃ r : ℝ, 0 < r ∧ Host.scatterAdd (F := Ideal) d x idx upd i = (r : EReal) := by
  show ∃ r : ℝ, 0 < r ∧ Ideal.hostScatterAdd d x idx upd i = (r : EReal)
  unfold Ideal.hostScatterAdd
  exact pos_add_sum _ upd (x i) j (Finset.mem_filter.2 ⟨Finset.mem_univ _, hj⟩) (hx i)
    (fun k _ => hu.allNonneg k) (hu j)

/-- The reciprocal square root of a positive real r is the positive real 1/√r. -/
theorem rsqrt_allPos {S : Shape} {φ : FTy} {x : FVec Ideal S φ} (hx : AllPos x) :
    AllPos (Host.rsqrt (F := Ideal) x) := fun i => by
  obtain ⟨a, ha0, ha⟩ := hx i
  refine ⟨(Real.sqrt a)⁻¹, inv_pos.mpr (Real.sqrt_pos.mpr ha0), ?_⟩
  show Ideal.rsqrt (x i) = _
  rw [ha, Ideal.rsqrt_coe, if_neg (not_lt.mpr ha0.le), if_neg ha0.ne']

/-! ## Where an update of the degree scatter lands

The degree scatter has a rank-1 operand (the nodes), one update per edge position, and reads the destination
of position j at row j of a one-column index array.  No window axes: the landing index is the destination
word itself, read signed, when it is a node number. -/

/-- The window coordinate is 0: the operand's one axis is an inserted one. -/
theorem deg_window (j : S1800000.Idx) (a : Fin S200000.rank) :
    scatter_S200000_S1800000x1_S1800000_n_0_0_1.window j a = 0 := by
  have ea : a = 0 := Subsingleton.elim _ _
  subst ea
  unfold ScatterDims.window
  exact dif_neg (by decide)

/-- The start index of update j is the word at row j of the index column, read signed. -/
theorem deg_start (idx : J S1800000x1) (j : S1800000.Idx) (a : Fin S200000.rank) :
    scatter_S200000_S1800000x1_S1800000_n_0_0_1.start j idx a = (idx (ix2 (j 0) 0)).toInt := by
  have ea : a = 0 := Subsingleton.elim _ _
  subst ea
  unfold ScatterDims.start
  rw [dif_pos (by decide)]
  refine congrArg (fun k => (idx k).toInt) (funext fun b => Fin.ext ?_)
  match b with
  | ⟨0, _⟩ => rfl
  | ⟨1, _⟩ => rfl

/-- A node number as a 32-bit word reads back, signed, as itself. -/
theorem toInt_ofNat_node (n : Nat) (h : n < 200000) : (BitVec.ofNat 32 n).toInt = (n : Int) := by
  have e : (BitVec.ofNat 32 n).toNat = n := by rw [BitVec.toNat_ofNat]; exact Nat.mod_eq_of_lt (by omega)
  rw [BitVec.toInt_eq_toNat_of_lt (by rw [e]; omega), e]

/-- An update whose destination word is node i's number lands on node i. -/
theorem deg_lands (idx : J S1800000x1) (j : S1800000.Idx) (i : S200000.Idx)
    (h : idx (ix2 (j 0) 0) = BitVec.ofNat 32 (i 0).val) :
    scatter_S200000_S1800000x1_S1800000_n_0_0_1.resultIdx? j idx = some i := by
  have hn : (i 0).val < 200000 := (i 0).isLt
  have hs : ∀ a, scatter_S200000_S1800000x1_S1800000_n_0_0_1.start j idx a
      + (scatter_S200000_S1800000x1_S1800000_n_0_0_1.window j a : Int) = ((i 0).val : Int) := fun a => by
    rw [deg_start, deg_window, h, toInt_ofNat_node _ hn]; simp
  unfold ScatterDims.resultIdx?
  have hall : ∀ a, 0 ≤ scatter_S200000_S1800000x1_S1800000_n_0_0_1.start j idx a
        + (scatter_S200000_S1800000x1_S1800000_n_0_0_1.window j a : Int)
      ∧ scatter_S200000_S1800000x1_S1800000_n_0_0_1.start j idx a
        + (scatter_S200000_S1800000x1_S1800000_n_0_0_1.window j a : Int) < S200000.size a := fun a => by
    rw [hs a]
    have ea : a = 0 := Subsingleton.elim _ _
    subst ea
    exact ⟨by omega, by show ((i 0).val : Int) < 200000; omega⟩
  rw [dif_pos hall]
  refine congrArg some (funext fun a => Fin.ext ?_)
  have ea : a = 0 := Subsingleton.elim _ _
  subst ea
  show (scatter_S200000_S1800000x1_S1800000_n_0_0_1.start j idx _
    + (scatter_S200000_S1800000x1_S1800000_n_0_0_1.window j _ : Int)).toNat = (i 0).val
  rw [hs]; simp

/-! ## The self loops -/

/-- A vector laid out as one column reads, at row j, the vector's entry j. -/
theorem column_apply {α : Type} (v : S1800000.Idx → α) (j : S1800000.Idx) :
    broadcastInDim S1800000x1 ![0] bcast_S1800000_S1800000x1_0 v (ix2 (j 0) 0) = v j :=
  broadcastInDim_apply _ _ v _ j fun a => by
    have ea : a = 0 := Subsingleton.elim _ _
    subst ea
    rw [if_neg (by decide)]
    rfl

/-- Past the 1600000 edges the destination list is the appended node numbers: position 1600000 + i holds i. -/
theorem dstOf_selfLoop (ei : J S2x1600000) (j : S1800000.Idx) (i : S200000.Idx)
    (h : (j 0).val = 1600000 + (i 0).val) : dstOf ei j = BitVec.ofNat 32 (i 0).val := by
  unfold dstOf
  exact concatenate_pair_apply_right (0 : Fin S1800000.rank) _ (iotaInDim S200000 32 0)
    concatenates_S1600000_S200000_S1800000_d0 j rfl rfl i
    (fun b hb => absurd (Subsingleton.elim _ _) hb)
    (by show (i 0).val + 1600000 = (j 0).val; omega)

/-! ## The degrees, the edge weights, the aggregation -/

/-- Every degree is a positive real: the operand is 0, every update is 1, and node i's self loop lands on i. -/
theorem degOf_allPos (ei : J S2x1600000) : AllPos (degOf ei) := fun i => by
  have hn : (i 0).val < 200000 := (i 0).isLt
  unfold degOf
  refine scatterAdd_pos_at _ (AllNonneg.broadcastInDim (AllNonneg.constant ofBits_00000000_nonneg))
    (AllPos.broadcastInDim (AllPos.constant ofBits_3F800000_pos)) i
    (ix1 (⟨1600000 + (i 0).val, by omega⟩ : Fin 1800000)) ?_
  refine deg_lands _ _ i ?_
  rw [column_apply]
  exact dstOf_selfLoop ei _ i rfl

/-- deg^(−1/2) is a positive real everywhere. -/
theorem dinvOf_allPos (ei : J S2x1600000) : AllPos (dinvOf ei) := by
  unfold dinvOf
  exact rsqrt_allPos (degOf_allPos ei)

/-- An edge weight is a product of two entries of deg^(−1/2): a positive real. -/
theorem normOf_allPos (ei : J S2x1600000) : AllPos (normOf ei) := by
  unfold normOf
  exact AllPos.mulf (AllPos.gather (dinvOf_allPos ei)) (AllPos.gather (dinvOf_allPos ei))

/-- The aggregation of a real array is real: gathered rows times real weights, summed into zeros. -/
theorem agg_allFin (xw : A S200000x128) (ei : J S2x1600000) (h : AllFin xw) : AllFin (agg xw ei) := by
  unfold agg
  exact scatterAdd_allFin _ (AllFin.broadcastInDim (AllFin.constant (isFin_of_eq ofBits_00000000)))
    (AllFin.mulf (AllFin.gather h)
      (AllFin.broadcastInDim (AllFin.broadcastInDim (normOf_allPos ei).allFin)))

/-! ## The kernel side's stages -/

/-- A matrix product of real matrices is real: each entry is a finite sum of products. -/
theorem mm_allFin {n k h : Nat} (a : A ⟨2, ![n, k]⟩) (w : A ⟨2, ![k, h]⟩) (ha : AllFin a) (hw : AllFin w) :
    AllFin (mm a w) := fun i => by
  unfold mm
  exact isFin_sum _ _ fun l _ => isFin_mul (ha _) (hw _)

/-- A bias row added, then the positive part: real when the matrix and the row are. -/
theorem biasRelu_allFin {n h : Nat} (a : A ⟨2, ![n, h]⟩) (b : A ⟨2, ![1, h]⟩) (ha : AllFin a) (hb : AllFin b) :
    AllFin (biasRelu a b) := fun i => by
  unfold biasRelu
  exact isFin_max_zero (isFin_add (ha i) (hb _))

/-- A vector relaid as a row has the vector's entries. -/
theorem row_allFin (v : A S128) (h : AllFin v) : AllFin (row v) := fun _ => h _

theorem K_h0_allFin (x : A S200000x64) (wg : A S64x128) (bg : A S128) (ei : J S2x1600000)
    (hx : AllFin x) (hw : AllFin wg) (hb : AllFin bg) : AllFin (K_h0 x wg bg ei) := by
  unfold K_h0
  exact biasRelu_allFin _ _ (agg_allFin _ ei (mm_allFin x wg hx hw)) (row_allFin bg hb)

theorem K_h1_allFin (h0n : A S200000x128) (w1 : A S128x128) (b1 : A S128)
    (h0 : AllFin h0n) (hw : AllFin w1) (hb : AllFin b1) : AllFin (K_h1 h0n w1 b1) := by
  unfold K_h1
  exact biasRelu_allFin _ _ (mm_allFin h0n w1 h0 hw) (row_allFin b1 hb)

theorem K_h2_allFin (ac : A S200000x32) (w2 : A S32x128) (b2 : A S128)
    (ha : AllFin ac) (hw : AllFin w2) (hb : AllFin b2) : AllFin (K_h2 ac w2 b2) := by
  unfold K_h2
  exact biasRelu_allFin _ _ (mm_allFin ac w2 ha hw) (row_allFin b2 hb)

end Cert.Stages

end
-- ==== Proof.PreFinite.lean ====
/-
  From the stated precondition to "every entry of every float argument is a real number".

  The precondition is one truth value: the conjunction, over the sixteen float arguments x, of
  "every entry of |x| is strictly below +∞", each of these being the "and" of a whole array of
  comparison bits started from the bit 1.  At the ideal reading a float is an extended real, |x| is
  max(x, −x), and the comparison is the order's.  So the conjunction being 1 says each "and over all
  entries" is 1, that says each comparison bit is 1, and max(x, −x) < +∞ rules out both infinities:
  x = +∞ gives max = +∞, and x = −∞ gives −x = +∞.  What is left is a real number.
-/
import proofs.«426214_j50276887167257_1_alg».proof.Defs
import proofs.«426214_j50276887167257_1_alg».proof.Proof.LibIdealFinite
import Idealize.ShloMosaic.Lib.ReduceAll
import Idealize.ShloMosaic.Lib.ValueIdx
import Idealize.ShloMosaic.Lib.StableHlo.Predicate

noncomputable section

namespace Cert.PreFinite

open Idealize.ShloMosaic Idealize.SL.Sem
open Cert.Pre_finite_inputs (S_)

/-- The shape with no axes has exactly one index. -/
instance : Subsingleton S_.Idx := ⟨fun a b => funext fun d => d.elim0⟩

/-- An extended real whose absolute value max(x, −x) compares strictly below the word of +∞ is a real number. -/
theorem isFin_of_abs_lt_top (x : EReal)
    (h : Ideal.cmp .olt (max x (-x)) (Ideal.ofBits .f32 0x7F800000#32) = 1#1) : IdealFinite.IsFin x := by
  rw [IdealFinite.ofBits_7F800000] at h
  have hlt : max x (-x) < ⊤ := by
    by_contra hn
    simp [Ideal.cmp, hn] at h
  induction x using EReal.rec with
  | bot => simp at hlt
  | coe r => exact ⟨r, rfl⟩
  | top => simp at hlt

/-- One conjunct of the precondition, over an arbitrary shape: if the "and" over all entries of the bits
    |x| < +∞, started from any bit, is 1, then every entry of x is a real number. -/
theorem allFin_of_all {S : Shape} {axes : List (Fin S.rank)} (x : FVec Ideal S .f32)
    (bc : S_.BroadcastsInDim S (![] : Fin 0 → Fin S.rank)) (red : S.ReducesTo axes S_) (hu : 0 < S_.numel)
    (init : IVec S_ 1) (j : S_.Idx)
    (e : Host.reduce IntOp.andi
          (cmpf (F := Ideal) .olt (Host.absf x) (broadcastInDim S ![] bc (constant S_ .f32 0x7F800000#32)))
          init red hu j = 1#1) : IdealFinite.AllFin x :=
  fun i => isFin_of_abs_lt_top (x i) (Host.reduce_andi_all _ init red hu j e i)

/-- Under the precondition every entry of each of the sixteen float arguments is a real number.
    The precondition's one bit is a left-nested "and" of sixteen bits; it is 1 exactly when all sixteen are,
    and each of them is the previous lemma's hypothesis for one argument. -/
theorem args_allFin [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IdealFinite.AllFin (m ((c.tc : Thread Cert.KernelIdeal.nD Cert.KernelIdeal.τ).loc Cert.KernelIdeal.main_arg0)) ∧
    IdealFinite.AllFin (m ((c.tc : Thread Cert.KernelIdeal.nD Cert.KernelIdeal.τ).loc Cert.KernelIdeal.main_arg1)) ∧
    IdealFinite.AllFin (m ((c.tc : Thread Cert.KernelIdeal.nD Cert.KernelIdeal.τ).loc Cert.KernelIdeal.main_arg2)) ∧
    IdealFinite.AllFin (m ((c.tc : Thread Cert.KernelIdeal.nD Cert.KernelIdeal.τ).loc Cert.KernelIdeal.main_arg3)) ∧
    IdealFinite.AllFin (m ((c.tc : Thread Cert.KernelIdeal.nD Cert.KernelIdeal.τ).loc Cert.KernelIdeal.main_arg4)) ∧
    IdealFinite.AllFin (m ((c.tc : Thread Cert.KernelIdeal.nD Cert.KernelIdeal.τ).loc Cert.KernelIdeal.main_arg5)) ∧
    IdealFinite.AllFin (m ((c.tc : Thread Cert.KernelIdeal.nD Cert.KernelIdeal.τ).loc Cert.KernelIdeal.main_arg6)) ∧
    IdealFinite.AllFin (m ((c.tc : Thread Cert.KernelIdeal.nD Cert.KernelIdeal.τ).loc Cert.KernelIdeal.main_arg7)) ∧
    IdealFinite.AllFin (m ((c.tc : Thread Cert.KernelIdeal.nD Cert.KernelIdeal.τ).loc Cert.KernelIdeal.main_arg8)) ∧
    IdealFinite.AllFin (m ((c.tc : Thread Cert.KernelIdeal.nD Cert.KernelIdeal.τ).loc Cert.KernelIdeal.main_arg9)) ∧
    IdealFinite.AllFin (m ((c.tc : Thread Cert.KernelIdeal.nD Cert.KernelIdeal.τ).loc Cert.KernelIdeal.main_arg10)) ∧
    IdealFinite.AllFin (m ((c.tc : Thread Cert.KernelIdeal.nD Cert.KernelIdeal.τ).loc Cert.KernelIdeal.main_arg11)) ∧
    IdealFinite.AllFin (m ((c.tc : Thread Cert.KernelIdeal.nD Cert.KernelIdeal.τ).loc Cert.KernelIdeal.main_arg12)) ∧
    IdealFinite.AllFin (m ((c.tc : Thread Cert.KernelIdeal.nD Cert.KernelIdeal.τ).loc Cert.KernelIdeal.main_arg13)) ∧
    IdealFinite.AllFin (m ((c.tc : Thread Cert.KernelIdeal.nD Cert.KernelIdeal.τ).loc Cert.KernelIdeal.main_arg14)) ∧
    IdealFinite.AllFin (m ((c.tc : Thread Cert.KernelIdeal.nD Cert.KernelIdeal.τ).loc Cert.KernelIdeal.main_arg15)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  simp only [andi, IntOp.andi_eq_one] at h0
  obtain ⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩ := h0
  exact ⟨allFin_of_all _ _ _ _ _ _ e0,
    allFin_of_all _ _ _ _ _ _ e1,
    allFin_of_all _ _ _ _ _ _ e2,
    allFin_of_all _ _ _ _ _ _ e3,
    allFin_of_all _ _ _ _ _ _ e4,
    allFin_of_all _ _ _ _ _ _ e5,
    allFin_of_all _ _ _ _ _ _ e6,
    allFin_of_all _ _ _ _ _ _ e7,
    allFin_of_all _ _ _ _ _ _ e8,
    allFin_of_all _ _ _ _ _ _ e9,
    allFin_of_all _ _ _ _ _ _ e10,
    allFin_of_all _ _ _ _ _ _ e11,
    allFin_of_all _ _ _ _ _ _ e12,
    allFin_of_all _ _ _ _ _ _ e13,
    allFin_of_all _ _ _ _ _ _ e14,
    allFin_of_all _ _ _ _ _ _ e15⟩

end Cert.PreFinite

end
-- ==== Proof.lean ====
/-
  The certificate: the graph-convolution critic written as nine tiled kernels computes, over the extended reals,
  what its plain reference computes, on every input whose float arrays hold real numbers.

  The three frames: the two kernel programs' are the generated frame certificates; the reference's is its run
  read back with the result dropped.  The ideal pass rewrote nothing, so there is nothing to preserve.
  The value claim: the kernel program's result is the composition `Stages.K_out` of its arguments (the regions'
  tiles read as whole-array functions, chained through the host stretches), the reference's is `Stages.R_out`,
  and the two agree: tiled matrix products are the host contraction, a bias row added and clamped is the
  broadcast form, the accumulated column sums are the host sums, E[y²] − E[y]² clamped at zero is the mean squared
  deviation because every entry that reaches a batch normalisation is a real number (the degree of a node is at
  least one through its self loop, so every edge weight is a positive real), the one-hot product is the
  accumulating scatter, and the last tile is the host's quotient, contraction and shift.
-/
import proofs.«426214_j50276887167257_1_alg».proof.Defs
import proofs.«426214_j50276887167257_1_alg».proof.Proof.Gen.Kernel
import proofs.«426214_j50276887167257_1_alg».proof.Proof.Gen.Kernel.Frame
import proofs.«426214_j50276887167257_1_alg».proof.Proof.Gen.KernelIdeal
import proofs.«426214_j50276887167257_1_alg».proof.Proof.Gen.KernelIdeal.Frame
import proofs.«426214_j50276887167257_1_alg».proof.Proof.Gen.ReferenceIdeal
import proofs.«426214_j50276887167257_1_alg».proof.Proof.Gen.Pre_finite_inputs
import proofs.«426214_j50276887167257_1_alg».proof.Proof.Stages
import proofs.«426214_j50276887167257_1_alg».proof.Proof.LibIdealFinite
import proofs.«426214_j50276887167257_1_alg».proof.Proof.KRun
import proofs.«426214_j50276887167257_1_alg».proof.Proof.RefRun
import proofs.«426214_j50276887167257_1_alg».proof.Proof.KChain
import proofs.«426214_j50276887167257_1_alg».proof.Proof.BridgeMM
import proofs.«426214_j50276887167257_1_alg».proof.Proof.BridgeVar
import proofs.«426214_j50276887167257_1_alg».proof.Proof.BridgePool
import proofs.«426214_j50276887167257_1_alg».proof.Proof.FiniteAgg
import proofs.«426214_j50276887167257_1_alg».proof.Proof.PreFinite
import Idealize.ShloMosaic.Adequacy
import Idealize.ShloMosaic.Init

noncomputable section

namespace Cert.Proof

open Idealize.ShloMosaic Idealize.SL.Sem IdealFinite Cert.Stages

/-- The two stage compositions agree when the float arguments hold real numbers. -/
theorem out_eq (x : A Cert.ReferenceIdeal.S200000x64) (ac : A Cert.ReferenceIdeal.S200000x32) (wg : A Cert.ReferenceIdeal.S64x128)
    (bg g0 be0 : A Cert.ReferenceIdeal.S128) (w1 : A Cert.ReferenceIdeal.S128x128) (b1 g1 be1 : A Cert.ReferenceIdeal.S128)
    (w2 : A Cert.ReferenceIdeal.S32x128) (b2 g2 be2 : A Cert.ReferenceIdeal.S128) (w3 : A Cert.ReferenceIdeal.S256x1)
    (b3 : A Cert.ReferenceIdeal.S1) (ei : J Cert.ReferenceIdeal.S2x1600000) (bs : J Cert.ReferenceIdeal.S200000)
    (hx : AllFin x) (hac : AllFin ac) (hwg : AllFin wg) (hbg : AllFin bg) (hg0 : AllFin g0) (hbe0 : AllFin be0)
    (hw1 : AllFin w1) (hb1 : AllFin b1) (hg1 : AllFin g1) (hbe1 : AllFin be1)
    (hw2 : AllFin w2) (hb2 : AllFin b2) (hg2 : AllFin g2) (hbe2 : AllFin be2) :
    K_out x ac wg bg g0 be0 w1 b1 g1 be1 w2 b2 g2 be2 w3 b3 ei bs
      = R_out x ac wg bg g0 be0 w1 b1 g1 be1 w2 b2 g2 be2 w3 b3 ei bs := by
  have f0 : AllFin (K_h0 x wg bg ei) := K_h0_allFin x wg bg ei hx hwg hbg
  have e0n : kbn (K_h0 x wg bg ei) g0 be0 = rbn (R_h0 x wg bg ei) g0 be0 := by
    rw [kbn_eq_rbn _ _ _ f0, K_h0_eq]
  have f0n : AllFin (kbn (K_h0 x wg bg ei) g0 be0) := kbn_allFin _ _ _ f0 hg0 hbe0
  have f1 : AllFin (K_h1 (kbn (K_h0 x wg bg ei) g0 be0) w1 b1) := K_h1_allFin _ _ _ f0n hw1 hb1
  have e1n : kbn (K_h1 (kbn (K_h0 x wg bg ei) g0 be0) w1 b1) g1 be1
      = rbn (R_h1 (rbn (R_h0 x wg bg ei) g0 be0) w1 b1) g1 be1 := by
    rw [kbn_eq_rbn _ _ _ f1, K_h1_eq, e0n]
  have f2 : AllFin (K_h2 ac w2 b2) := K_h2_allFin ac w2 b2 hac hw2 hb2
  have e2n : kbn (K_h2 ac w2 b2) g2 be2 = rbn (R_h2 ac w2 b2) g2 be2 := by
    rw [kbn_eq_rbn _ _ _ f2, K_h2_eq]
  unfold K_out R_out K_h0n
  rw [e1n, e2n, pool_eq_scatter, final_eq]

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.HandRun.run m ρ)

theorem preserves : Cert.preserves_Kernel_KernelIdeal := trivial

/-- Both programs run to the end from memories that agree on the arguments, and end with the same result. -/
theorem algebraic : Cert.algebraic_KernelIdeal_ReferenceIdeal := by
  intro m ρ m' ρ' hpre hagree
  refine ⟨fun c => Cert.Stages.K_out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · refine (θ_run Cert.KernelIdeal.defs _ _).mono (fun r h c => ⟨(h c).1.trans ?_, (h c).2⟩)
      (Cert.KernelIdeal.ResultRun.run (F := Ideal) m ρ)
    exact Cert.KernelIdeal.KChain.result_eq m ρ c
  · refine (θ_run Cert.ReferenceIdeal.defs _ _).mono (fun r h c => ⟨(h c).1.trans ?_, (h c).2⟩)
      (Cert.ReferenceIdeal.HandRun.run m' ρ')
    obtain ⟨a0, a1, a2, a3, a4, a5, a6, a7, a8, a9, a10, a11, a12, a13, a14, a15, a16, a17⟩ := hagree c
    obtain ⟨h0, h1, h2, h3, h4, h5, h6, h7, h8, h9, h10, h11, h12, h13, h14, h15⟩ := Cert.PreFinite.args_allFin m hpre c
    rw [a0, a1, a2, a3, a4, a5, a6, a7, a8, a9, a10, a11, a12, a13, a14, a15, a16, a17]
    exact (out_eq _ _ _ _ _ _ _ _ _ _ _ _ _ _ _ _ _ _ h0 h1 h2 h3 h4 h5 h6 h7 h8 h9 h10 h11 h12 h13).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
